-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_rows" .f32 0x382AAAAB#32 ((1 / 24576 : ℝ) : EReal)

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S24576x768 : Shape := ⟨2, ![24576, 768]⟩
abbrev S_ : Shape := ⟨0, ![]⟩

class Facts : Prop where
  bcast_S_S24576x768 : S_.BroadcastsInDim S24576x768 (![] : Fin 0 → Fin S24576x768.rank)
  reducesTo_S24576x768_S_d0_1 : S24576x768.ReducesTo [0, 1] S_
  h_S_ : 0 < S_.numel

variable [Facts]

def fn {F : FTy → Type} [FloatOps F] (main_arg0 : FVec F S24576x768 .f32) : IVec S_ 1 :=
  let main_v0 : FVec F S24576x768 .f32 := Host.absf main_arg0
  let main_cst : FVec F S_ .f32 := constant S_ .f32 0x7F800000#32
  let main_v1 : FVec F S24576x768 .f32 := broadcastInDim S24576x768 ![] bcast_S_S24576x768 main_cst
  let main_v2 : IVec S24576x768 1 := cmpf .olt main_v0 main_v1
  let main_c : IVec S_ 1 := constantI S_ 1 1#1
  let main_v3 : IVec S_ 1 := (fun x v => Host.reduce IntOp.andi x v reducesTo_S24576x768_S_d0_1 h_S_) main_v2 main_c
  main_v3
-- ==== Kernel.lean ====
abbrev S1536x768 : Shape := ⟨2, ![1536, 768]⟩
abbrev S1x768 : Shape := ⟨2, ![1, 768]⟩
abbrev S_ : Shape := ⟨0, ![]⟩
abbrev S16x1x768 : Shape := ⟨3, ![16, 1, 768]⟩
abbrev S16 : Shape := ⟨1, ![16]⟩
abbrev S768 : Shape := ⟨1, ![768]⟩
abbrev S1x1x768 : Shape := ⟨3, ![1, 1, 768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1x768, .f32⟩
  | .local _ .vmem, ⟨1, _⟩ => ⟨S1536x768, .f32⟩
  | .local _ .vmem, ⟨2, _⟩ => ⟨S16x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_sem0_0 : DmaSem sig := 0
abbrev barrier1 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v68 : Index := Scalar.indexCast v2
  let c0_61 : Index := 0#32
  let c0_62 : Index := 0#32
  ![v68.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_69 : BitVec 32 := 0#32
  let c0_i32_70 : BitVec 32 := 0#32
  ![v2.toNat, 0, 0]
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v72 : BitVec 32 := Scalar.addi v2 c1_i32_64
  let c16_i32_65 : BitVec 32 := 16#32
  let v73 : BitVec 32 := Scalar.remsi v72 c16_i32_65
  let c1_i32_67 : BitVec 32 := 1#32
  let v74 : BitVec 32 := Scalar.muli v73 c1_i32_67
  let v75 : BitVec 32 := Scalar.addi c0_i32_68 v74
  v75.toNat
def k0_dev17 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v84 : BitVec 32 := Scalar.addi v2 c2_i32_73
  let c16_i32_74 : BitVec 32 := 16#32
  let v85 : BitVec 32 := Scalar.remsi v84 c16_i32_74
  let c1_i32_76 : BitVec 32 := 1#32
  let v86 : BitVec 32 := Scalar.muli v85 c1_i32_76
  let v87 : BitVec 32 := Scalar.addi c0_i32_77 v86
  v87.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v96 : BitVec 32 := Scalar.addi v2 c3_i32_82
  let c16_i32_83 : BitVec 32 := 16#32
  let v97 : BitVec 32 := Scalar.remsi v96 c16_i32_83
  let c1_i32_85 : BitVec 32 := 1#32
  let v98 : BitVec 32 := Scalar.muli v97 c1_i32_85
  let v99 : BitVec 32 := Scalar.addi c0_i32_86 v98
  v99.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_91 : BitVec 32 := 4#32
  let v108 : BitVec 32 := Scalar.addi v2 c4_i32_91
  let c16_i32_92 : BitVec 32 := 16#32
  let v109 : BitVec 32 := Scalar.remsi v108 c16_i32_92
  let c1_i32_94 : BitVec 32 := 1#32
  let v110 : BitVec 32 := Scalar.muli v109 c1_i32_94
  let v111 : BitVec 32 := Scalar.addi c0_i32_95 v110
  v111.toNat
def k0_dev20 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_100 : BitVec 32 := 5#32
  let v120 : BitVec 32 := Scalar.addi v2 c5_i32_100
  let c16_i32_101 : BitVec 32 := 16#32
  let v121 : BitVec 32 := Scalar.remsi v120 c16_i32_101
  let c1_i32_103 : BitVec 32 := 1#32
  let v122 : BitVec 32 := Scalar.muli v121 c1_i32_103
  let v123 : BitVec 32 := Scalar.addi c0_i32_104 v122
  v123.toNat
def k0_dev21 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_109 : BitVec 32 := 6#32
  let v132 : BitVec 32 := Scalar.addi v2 c6_i32_109
  let c16_i32_110 : BitVec 32 := 16#32
  let v133 : BitVec 32 := Scalar.remsi v132 c16_i32_110
  let c1_i32_112 : BitVec 32 := 1#32
  let v134 : BitVec 32 := Scalar.muli v133 c1_i32_112
  let v135 : BitVec 32 := Scalar.addi c0_i32_113 v134
  v135.toNat
def k0_dev22 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_118 : BitVec 32 := 7#32
  let v144 : BitVec 32 := Scalar.addi v2 c7_i32_118
  let c16_i32_119 : BitVec 32 := 16#32
  let v145 : BitVec 32 := Scalar.remsi v144 c16_i32_119
  let c1_i32_121 : BitVec 32 := 1#32
  let v146 : BitVec 32 := Scalar.muli v145 c1_i32_121
  let v147 : BitVec 32 := Scalar.addi c0_i32_122 v146
  v147.toNat
def k0_dev23 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_127 : BitVec 32 := 8#32
  let v156 : BitVec 32 := Scalar.addi v2 c8_i32_127
  let c16_i32_128 : BitVec 32 := 16#32
  let v157 : BitVec 32 := Scalar.remsi v156 c16_i32_128
  let c1_i32_130 : BitVec 32 := 1#32
  let v158 : BitVec 32 := Scalar.muli v157 c1_i32_130
  let v159 : BitVec 32 := Scalar.addi c0_i32_131 v158
  v159.toNat
def k0_dev24 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v168 : BitVec 32 := Scalar.addi v2 c9_i32_136
  let c16_i32_137 : BitVec 32 := 16#32
  let v169 : BitVec 32 := Scalar.remsi v168 c16_i32_137
  let c1_i32_139 : BitVec 32 := 1#32
  let v170 : BitVec 32 := Scalar.muli v169 c1_i32_139
  let v171 : BitVec 32 := Scalar.addi c0_i32_140 v170
  v171.toNat
def k0_dev25 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_145 : BitVec 32 := 10#32
  let v180 : BitVec 32 := Scalar.addi v2 c10_i32_145
  let c16_i32_146 : BitVec 32 := 16#32
  let v181 : BitVec 32 := Scalar.remsi v180 c16_i32_146
  let c1_i32_148 : BitVec 32 := 1#32
  let v182 : BitVec 32 := Scalar.muli v181 c1_i32_148
  let v183 : BitVec 32 := Scalar.addi c0_i32_149 v182
  v183.toNat
def k0_dev26 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_154 : BitVec 32 := 11#32
  let v192 : BitVec 32 := Scalar.addi v2 c11_i32_154
  let c16_i32_155 : BitVec 32 := 16#32
  let v193 : BitVec 32 := Scalar.remsi v192 c16_i32_155
  let c1_i32_157 : BitVec 32 := 1#32
  let v194 : BitVec 32 := Scalar.muli v193 c1_i32_157
  let v195 : BitVec 32 := Scalar.addi c0_i32_158 v194
  v195.toNat
def k0_dev27 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_163 : BitVec 32 := 12#32
  let v204 : BitVec 32 := Scalar.addi v2 c12_i32_163
  let c16_i32_164 : BitVec 32 := 16#32
  let v205 : BitVec 32 := Scalar.remsi v204 c16_i32_164
  let c1_i32_166 : BitVec 32 := 1#32
  let v206 : BitVec 32 := Scalar.muli v205 c1_i32_166
  let v207 : BitVec 32 := Scalar.addi c0_i32_167 v206
  v207.toNat
def k0_dev28 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_172 : BitVec 32 := 13#32
  let v216 : BitVec 32 := Scalar.addi v2 c13_i32_172
  let c16_i32_173 : BitVec 32 := 16#32
  let v217 : BitVec 32 := Scalar.remsi v216 c16_i32_173
  let c1_i32_175 : BitVec 32 := 1#32
  let v218 : BitVec 32 := Scalar.muli v217 c1_i32_175
  let v219 : BitVec 32 := Scalar.addi c0_i32_176 v218
  v219.toNat
def k0_dev29 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_181 : BitVec 32 := 14#32
  let v228 : BitVec 32 := Scalar.addi v2 c14_i32_181
  let c16_i32_182 : BitVec 32 := 16#32
  let v229 : BitVec 32 := Scalar.remsi v228 c16_i32_182
  let c1_i32_184 : BitVec 32 := 1#32
  let v230 : BitVec 32 := Scalar.muli v229 c1_i32_184
  let v231 : BitVec 32 := Scalar.addi c0_i32_185 v230
  v231.toNat
def k0_dev30 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_190 : BitVec 32 := 15#32
  let v240 : BitVec 32 := Scalar.addi v2 c15_i32_190
  let c16_i32_191 : BitVec 32 := 16#32
  let v241 : BitVec 32 := Scalar.remsi v240 c16_i32_191
  let c1_i32_193 : BitVec 32 := 1#32
  let v242 : BitVec 32 := Scalar.muli v241 c1_i32_193
  let v243 : BitVec 32 := Scalar.addi c0_i32_194 v242
  v243.toNat
def k0_off4 (d0 : Dev nD) (c1_i32_199 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v252 : BitVec 32 := Scalar.subi v2 c1_i32_199
  let c16_i32_200 : BitVec 32 := 16#32
  let v253 : BitVec 32 := Scalar.addi v252 c16_i32_200
  let c16_i32_201 : BitVec 32 := 16#32
  let v254 : BitVec 32 := Scalar.remsi v253 c16_i32_201
  ![v254.toNat]
def k0_off5 (d0 : Dev nD) (c1_i32_199 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v252 : BitVec 32 := Scalar.subi v2 c1_i32_199
  let c16_i32_200 : BitVec 32 := 16#32
  let v253 : BitVec 32 := Scalar.addi v252 c16_i32_200
  let c16_i32_201 : BitVec 32 := 16#32
  let v254 : BitVec 32 := Scalar.remsi v253 c16_i32_201
  let c0_i32_205 : BitVec 32 := 0#32
  let c0_i32_206 : BitVec 32 := 0#32
  ![v254.toNat, 0, 0]
def k0_off6 (d0 : Dev nD) (c1_i32_199 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v252 : BitVec 32 := Scalar.subi v2 c1_i32_199
  let c16_i32_200 : BitVec 32 := 16#32
  let v253 : BitVec 32 := Scalar.addi v252 c16_i32_200
  let c16_i32_201 : BitVec 32 := 16#32
  let v254 : BitVec 32 := Scalar.remsi v253 c16_i32_201
  let v263 : Index := Scalar.indexCast v254
  let c0_209 : Index := 0#32
  let c0_210 : Index := 0#32
  ![v263.toNat, 0, 0]
abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  reduces_S1536x768_S768 : S1536x768.Reduces [0] S768
  shapeCasts_S768_S1x768 : S768.ShapeCasts S1x768
  shapeCasts_S1x768_S1x1x768 : S1x768.ShapeCasts S1x1x768
  h_S1x1x768 : 0 < S1x1x768.numel
  shapeCasts_S1x1x768_S1x1x768 : S1x1x768.ShapeCasts S1x1x768
  hamt_15 : (15#32 : BitVec 32).msb = false
  inb_S16_S1_1 : ∀ a, (![1] : Fin 1 → Nat) a + S1.size a ≤ S16.size a
  squeezes_S1_S_ : S1.Squeezes S_
  squeezes_S1x1x768_S1x768 : S1x1x768.Squeezes S1x768
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  shapeCasts_S1x1x768_S1x768 : S1x1x768.ShapeCasts S1x768
  inb_S1x768_S1x768_0_0 : ∀ a, (![0, 0] : Fin 2 → Nat) a + S1x768.size a ≤ S1x768.size a
  h_S1x768 : 0 < S1x768.numel
  hcc0_scratch1 : 1 + S_.numel ≤ 34
  hcc0_scratch3 : 2 + S16.numel ≤ 34
  hcc0_scratch4 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x1x768.size a ≤ S16x1x768.size a
  k0_off2_inb : ∀ d0 : Dev nD, ∀ a, (k0_off2 d0) a + S1.size a ≤ S16.size a
  k0_off3_inb : ∀ d0 : Dev nD, ∀ a, (k0_off3 d0) a + S1x1x768.size a ≤ S16x1x768.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off4_inb : ∀ d0 : Dev nD, ∀ (r : Fin 15), ∀ a, (k0_off4 d0 (BitVec.ofNat 32 (1 + r.val))) a + S1.size a ≤ S16.size a
  k0_off5_inb : ∀ d0 : Dev nD, ∀ (r : Fin 15), ∀ a, (k0_off5 d0 (BitVec.ofNat 32 (1 + r.val))) a + S1x1x768.size a ≤ S16x1x768.size a
  k0_off6_inb : ∀ d0 : Dev nD, ∀ (r : Fin 15), ∀ a, (k0_off6 d0 (BitVec.ofNat 32 (1 + r.val))) a + S1x1x768.size a ≤ S16x1x768.size a
  hstage0_0 : ∀ j, (stage0_0 j).IsWhole

variable [Facts₀]

abbrev cc0_scratch1 : DmaSems sig S_ := SemArray.consecutive 1 S_ hcc0_scratch1
abbrev cc0_scratch3 : DmaSems sig S16 := SemArray.consecutive 2 S16 hcc0_scratch3
abbrev cc0_scratch4 : DmaSems sig S16 := SemArray.consecutive 18 S16 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S24576x768 : Shape := ⟨2, ![24576, 768]⟩
abbrev S_ : Shape := ⟨0, ![]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S24576x768, .f32⟩
  | .hbm, ⟨1, _⟩ => ⟨S_, .f32⟩
  | .hbm, ⟨2, _⟩ => ⟨S768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | _, _ => ⟨S24576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S24576x768_S768_d0 : S24576x768.ReducesTo [0] S768
  h_S_ : 0 < S_.numel
  bcast_S768_S1x768_1 : S768.BroadcastsInDim S1x768 (![1] : Fin 1 → Fin S1x768.rank)
  bcast_S_S1x768 : S_.BroadcastsInDim S1x768 (![] : Fin 0 → Fin S1x768.rank)

variable [Facts₀]

class Facts : Prop extends Facts₀ where

variable [Facts]
-- ==== Proof.Spec.lean ====
/-
  What the kernel leaves in a device's result buffer, as one pure function of the sixteen devices' blocks.

  Device `c` sums the rows of its own block (a row vector of 768 entries), receives the fifteen other devices' row
  sums in the order `c - 1, c - 2, …, c - 15` (indices mod 16), adds them one after the other to its own, and
  scales the total by the constant named `inv_rows`.  `row X s` is the row sum of device `s` in the shape it is kept
  in the exchange buffer; `outVal X c` is the result on device `c`.
-/
import proofs.«900942_g7700000000000943_dist_mean_ax0_shard0_i_m1536_n768_v7x_i16_bf16_1_alg».proof.Proof.Gen.KernelIdeal.Skeleton

noncomputable section

namespace Cert.KernelIdeal.Spec

open Idealize.ShloMosaic Cert.KernelIdeal Cert.KernelIdeal.Gen

variable {F : FTy → Type} [FloatOps F] [Named F]

/-- The device `k` places before `c` on the ring of sixteen: `(c - k) mod 16`. -/
def src (c : Dev nD) (k : ℕ) : Dev nD := ⟨(c.val + 16 - k % 16) % 16, Nat.mod_lt _ (by decide)⟩

/-- Device `s`'s row sum, as a `1 × 1 × 768` slab: one slot of the exchange buffer. -/
def row (X : Dev nD → Vec F S1536x768 .f32) (s : Dev nD) : FVec F S1x1x768 .f32 := k0_pay2 (X s)

/-- The result on device `c`: its own row sum, plus the row sums of `c - 1, …, c - 15` in that order, times `inv_rows`. -/
def outVal (X : Dev nD → Vec F S1536x768 .f32) (c : Dev nD) : FVec F S1x768 .f32 :=
  k0_pay10
    (k0_pay9
      (k0_pay8
        (k0_pay7
          (k0_pay6
            (k0_pay5
              (k0_pay4 (k0_pay3 (k0_pay1 (X c)) (row X (src c 1))) (row X (src c 2)) (row X (src c 3)))
              (row X (src c 4)) (row X (src c 5)))
            (row X (src c 6)) (row X (src c 7)))
          (row X (src c 8)) (row X (src c 9)))
        (row X (src c 10)) (row X (src c 11)))
      (row X (src c 12)) (row X (src c 13)) (row X (src c 14)))
    (row X (src c 15))

end Cert.KernelIdeal.Spec

end
-- ==== Proof.Proto.lean ====
/-
  The exchange protocol of the sixteen devices, under the rounds discipline.

  Every device `c` first tells each of the fifteen others, on that device's barrier semaphore, that it has entered;
  with that unit it hands the other device the one row of its own exchange buffer that device will write (row `p` of
  `c`'s buffer goes to `p`).  It sums its block into its own row, waits for the fifteen units on its own barrier
  semaphore (receiving row `c` of every other device's buffer), copies its row into row `c` of every other device
  (fifteen transfers reading one source row, each holding its own share of it), waits for the fifteen rows sent to
  it, one receive semaphore per sender, adding each row as it arrives, and last waits for its fifteen departures.

  One round per cell.  A barrier cell has fifteen duties of one unit, named by the payer; a receive cell of slot
  `s ≠ c` one duty (the row's words), paid by device `s`; a departure cell `d ≠ 0` one duty, paid by the device's own
  transfer number `d`.
-/
import proofs.«900942_g7700000000000943_dist_mean_ax0_shard0_i_m1536_n768_v7x_i16_bf16_1_alg».proof.Proof.Gen.KernelIdeal
import proofs.«900942_g7700000000000943_dist_mean_ax0_shard0_i_m1536_n768_v7x_i16_bf16_1_alg».proof.Proof.Gen.KernelIdeal.Skeleton
import proofs.«900942_g7700000000000943_dist_mean_ax0_shard0_i_m1536_n768_v7x_i16_bf16_1_alg».proof.Proof.Gen.KernelIdeal.Launch
import proofs.«900942_g7700000000000943_dist_mean_ax0_shard0_i_m1536_n768_v7x_i16_bf16_1_alg».proof.Proof.Spec
import Idealize.ShloMosaic.Lib.Pipeline.Launch
import Idealize.ShloMosaic.Lib.Pipeline.Kit
import Idealize.ShloMosaic.Lib.SparseCore.Stream
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's (duties named by a device) -/

abbrev DN : Type := Fin 16
abbrev UB : Type := URounds (GSem nD τ sig) DN
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch. -/
def s₀ : MemSt nD τ sig (Elt F) := ⟨m, fun _ => 0, ρ⟩

/-! ## The ring of sixteen -/

/-- `k` places after `c`. -/
def fwd (c : Dev nD) (k : ℕ) : Dev nD := ⟨(c.val + k) % 16, Nat.mod_lt _ (by decide)⟩
/-- `k` places before `c`. -/
abbrev bwd (c : Dev nD) (k : ℕ) : Dev nD := Spec.src c k

theorem fwd_bwd (c : Dev nD) (k : Fin 16) : fwd (bwd c k.val) k.val = c := by revert c k; decide
theorem bwd_fwd (c : Dev nD) (k : Fin 16) : bwd (fwd c k.val) k.val = c := by revert c k; decide
theorem fwd_ne (c : Dev nD) (k : Fin 16) (hk : k ≠ 0) : fwd c k.val ≠ c := by revert c k; decide
theorem bwd_ne (c : Dev nD) (k : Fin 16) (hk : k ≠ 0) : bwd c k.val ≠ c := by revert c k; decide

/-! ## Semaphores and cells -/

/-- The runtime's barrier semaphore of collective id 1. -/
abbrev barS : Sem sig := (SemArray.scalar (sig.barrier 1 rfl) : Sems sig S_).sem
/-- Departure semaphore number `d` and the receive semaphore of slot `s`. -/
def sendSem (d : Fin 16) : DmaSem sig := Fin.mk (2 + d.val) (Nat.lt_of_lt_of_le (Nat.add_lt_add_left d.isLt 2) (by decide))
def recvSem (s : Fin 16) : DmaSem sig := Fin.mk (18 + s.val) (Nat.lt_of_lt_of_le (Nat.add_lt_add_left s.isLt 18) (by decide))
/-- The semaphore of the local copy of the block into vector memory. -/
abbrev copySem : DmaSem sig := (cc0_scratch1 : DmaSems sig S_).sem

abbrev barCell (c : Dev nD) : GSem nD τ sig := ((c : Thread nD τ), .reg barS)
abbrev sendCell (c : Dev nD) (d : Fin 16) : GSem nD τ sig := ((c : Thread nD τ), .dma (sendSem d))
abbrev recvCell (c : Dev nD) (s : Fin 16) : GSem nD τ sig := ((c : Thread nD τ), .dma (recvSem s))

theorem sendSem_lit (k : Fin 16) (h : ∀ a, (![k.val] : Fin 1 → Nat) a + S1.size a ≤ S16.size a) :
    (((cc0_scratch3 : DmaSems sig S16).slice (Rect.unit (s := S16) ![k.val] S1.size h)).squeeze S_ squeezes_S1_S_).sem = sendSem k := by
  revert h; revert k; decide
theorem recvSem_own (c : Dev nD) :
    (((cc0_scratch4 : DmaSems sig S16).slice (Rect.unit (s := S16) (k0_off2 c) S1.size (k0_off2_inb c))).squeeze S_ squeezes_S1_S_).sem = recvSem c := by
  revert c; decide
theorem recvSem_from (c : Dev nD) (r : Fin 15) :
    (((cc0_scratch4 : DmaSems sig S16).slice (Rect.unit (s := S16) (k0_off4 c (BitVec.ofNat 32 (1 + r.val))) S1.size (k0_off4_inb c r))).squeeze S_ squeezes_S1_S_).sem
      = recvSem (bwd c (1 + r.val)) := by
  revert c r; decide

/-! ## Memrefs, rows, contents -/

abbrev xM : Memref sig .tc .hbm S1536x768 .f32 := Memref.whole main_arg0
abbrev oM : Memref sig .tc .vmem S1x768 .f32 := Memref.whole cc0_stg0_0
abbrev bM : Memref sig .tc .vmem S1536x768 .f32 := Memref.whole cc0_scratch0
abbrev aM : Memref sig .tc .vmem S16x1x768 .f32 := Memref.whole cc0_scratch2

/-- Row `s` of the exchange buffer, as the kernel names it in a transfer: sliced at the sender's offset, squeezed. -/
abbrev rowM (s : Dev nD) : Memref sig .tc .vmem S1x768 .f32 :=
  (aM.slice (Rect.unit (s := S16x1x768) (k0_off3 s) S1x1x768.size (k0_off3_inb s)) (fun _ => rfl)).squeeze S1x768 squeezes_S1x1x768_S1x768

/-- The words a transfer of one row credits. -/
abbrev N : ℕ := (rowM (0 : Dev nD)).view.dmaCredit
theorem N_pos : 0 < N := View.dmaCredit_pos _ (by decide)
theorem N_row (s : Dev nD) (sm : DmaSem sig) : (rowM s).view.amount (.dma sm) = N := rfl

/-- Device `s`'s block, as launched. -/
def X (s : Dev nD) : Vec F S1536x768 .f32 := (s₀ m ρ).mem ((s : Thread nD τ).loc main_arg0)

/-- Row `s` of device `t`'s exchange buffer, held at share `q` with contents `f`. -/
abbrev rowPts (t s : Dev nD) (q : PosShare TreeShare) (f : Buf (Elt F) ((rowM s).view.loc (t : Thread nD τ))) : sProp 𝕄 :=
  (rowM s).view.loc (t : Thread nD τ) ↦[(rowM s).view.set]{q} f

/-- Row `s` of the exchange buffer as the kernel's loads and stores name it: a `1 × 1 × 768` box at offset `(s, 0, 0)`. -/
abbrev rowBox (s : Dev nD) : Rect S16x1x768 := Rect.unit (s := S16x1x768) (k0_off3 s) S1x1x768.size (k0_off3_inb s)

variable [∀ e, Nonempty (Elt F e)]

/-- Canonical contents of an exchange buffer whose row `s` holds device `s`'s row sum (the other rows are of no account:
    a row is only ever held through its own elements). -/
def rowBuf (s : Dev nD) : (cc0_scratch2 : Ref sig .tc).ty.Contents (Elt F) :=
  ((aM.access (rowBox s) : View sig .tc _ _ _)).write (Elt F) (View.junk aM.view) (Spec.row (X m ρ) s) Finset.univ

/-! ## The schedule -/

/-- With its barrier unit, `payer` hands `owner` row `owner` of the payer's exchange buffer. -/
def barPay (owner payer : Dev nD) : sProp 𝕄 := iprop(∃ f, rowPts payer owner fullShare f)
/-- The receive semaphore of slot `s` lands row `s`, holding device `s`'s row sum. -/
def recvPay (owner : Dev nD) (s : Fin 16) : sProp 𝕄 := rowPts owner s fullShare (rowBuf m ρ s)
/-- Departure `d` hands back the share of the device's own row that transfer read. -/
def sendPay (owner : Dev nD) (d : Fin 16) : sProp 𝕄 := rowPts owner owner (Transfers.shareTok fullShare 16 d) (rowBuf m ρ owner)

/-- The duties of round 0 of the cell `sm` of device `c`. -/
def dutiesOf (c : Dev nD) : SemLoc sig → Finset DN
  | .reg s => if s = barS then Finset.univ.erase c else ∅
  | .dma q => if 18 ≤ q.val then (if (q.val - 18) = c.val then ∅ else {⟨(q.val - 18) % 16, Nat.mod_lt _ (by decide)⟩})
      else if 3 ≤ q.val then {c} else ∅

def Rd : Rounds.Schedule (GSem nD τ sig) DN 𝕄 where
  duties g r := if r = 0 ∧ g.1.2 = .tc then dutiesOf g.1.1 g.2 else ∅
  unitless _ := False
  amount g _ _ := match g.2 with | .reg _ => 1 | .dma _ => N
  payload g _ d := match g.2 with
    | .reg _ => barPay g.1.1 d
    | .dma q => if 18 ≤ q.val then recvPay m ρ g.1.1 d else sendPay m ρ g.1.1 ⟨(q.val - 2) % 16, Nat.mod_lt _ (by decide)⟩
  amount_pos g _ _ _ := by
    cases g.2 with
    | reg _ => exact Nat.one_pos
    | dma _ => exact N_pos

/-! ## The schedule's tables -/

section Tables
variable (c : Dev nD)

theorem send_val (d : Fin 16) : (sendSem d).val = 2 + d.val := rfl
theorem recv_val (s : Fin 16) : (recvSem s).val = 18 + s.val := rfl

theorem dutiesOf_bar : dutiesOf c (.reg barS) = Finset.univ.erase c := by
  show (if barS = barS then Finset.univ.erase c else (∅ : Finset DN)) = _
  exact if_pos rfl
theorem dutiesOf_send (d : Fin 16) (hd : d ≠ 0) : dutiesOf c (.dma (sendSem d)) = {c} := by
  have h1 : ¬ 18 ≤ (sendSem d).val := by rw [send_val]; have := d.isLt; omega
  have h2 : 3 ≤ (sendSem d).val := by rw [send_val]; have : d.val ≠ 0 := fun h => hd (Fin.ext h); omega
  show (if 18 ≤ (sendSem d).val then _ else if 3 ≤ (sendSem d).val then ({c} : Finset DN) else ∅) = {c}
  rw [if_neg h1, if_pos h2]
theorem dutiesOf_recv (s : Fin 16) (hs : s ≠ c) : dutiesOf c (.dma (recvSem s)) = {s} := by
  have h1 : 18 ≤ (recvSem s).val := by rw [recv_val]; omega
  have h2 : ¬ ((recvSem s).val - 18 = c.val) := by rw [recv_val]; intro h; exact hs (Fin.ext (by omega))
  show (if 18 ≤ (recvSem s).val then (if (recvSem s).val - 18 = c.val then (∅ : Finset DN) else {⟨((recvSem s).val - 18) % 16, Nat.mod_lt _ (by decide)⟩}) else _) = {s}
  rw [if_pos h1, if_neg h2]
  congr 1
  apply Fin.ext
  show ((recvSem s).val - 18) % 16 = s.val
  rw [recv_val]; have := s.isLt; omega

theorem duties_bar : (Rd m ρ).duties (barCell c) 0 = Finset.univ.erase c := by
  show (if (0 : ℕ) = 0 ∧ (barCell c).1.2 = .tc then dutiesOf c (.reg barS) else ∅) = _
  rw [if_pos ⟨rfl, rfl⟩, dutiesOf_bar]
theorem duties_send (d : Fin 16) (hd : d ≠ 0) : (Rd m ρ).duties (sendCell c d) 0 = {c} := by
  show (if (0 : ℕ) = 0 ∧ (sendCell c d).1.2 = .tc then dutiesOf c (.dma (sendSem d)) else ∅) = _
  rw [if_pos ⟨rfl, rfl⟩, dutiesOf_send c d hd]
theorem duties_recv (s : Fin 16) (hs : s ≠ c) : (Rd m ρ).duties (recvCell c s) 0 = {s} := by
  show (if (0 : ℕ) = 0 ∧ (recvCell c s).1.2 = .tc then dutiesOf c (.dma (recvSem s)) else ∅) = _
  rw [if_pos ⟨rfl, rfl⟩, dutiesOf_recv c s hs]
theorem duties_later (g : GSem nD τ sig) : ∀ r, 1 ≤ r → (Rd m ρ).duties g r = ∅ := fun r hr => by
  show (if r = 0 ∧ g.1.2 = .tc then dutiesOf g.1.1 g.2 else ∅) = _
  rw [if_neg fun h => by omega]

theorem amount_bar (d : DN) : (Rd m ρ).amount (barCell c) 0 d = 1 := rfl
theorem amount_send (d : Fin 16) (k : DN) : (Rd m ρ).amount (sendCell c d) 0 k = N := rfl
theorem amount_recv (s : Fin 16) (k : DN) : (Rd m ρ).amount (recvCell c s) 0 k = N := rfl

theorem payload_bar (p : DN) : (Rd m ρ).payload (barCell c) 0 p = barPay c p := rfl
theorem payload_send (d : Fin 16) (k : DN) : (Rd m ρ).payload (sendCell c d) 0 k = sendPay m ρ c d := by
  have h1 : ¬ 18 ≤ (sendSem d).val := by rw [send_val]; have := d.isLt; omega
  show (if 18 ≤ (sendSem d).val then recvPay m ρ c k else sendPay m ρ c ⟨((sendSem d).val - 2) % 16, Nat.mod_lt _ (by decide)⟩) = _
  rw [if_neg h1]
  congr 1
  apply Fin.ext
  show ((sendSem d).val - 2) % 16 = d.val
  rw [send_val]; have := d.isLt; omega
theorem payload_recv (s : Fin 16) (k : DN) : (Rd m ρ).payload (recvCell c s) 0 k = recvPay m ρ c k := by
  have h1 : 18 ≤ (recvSem s).val := by rw [recv_val]; omega
  show (if 18 ≤ (recvSem s).val then recvPay m ρ c k else _) = _
  rw [if_pos h1]

theorem expect_bar : (Rd m ρ).expect (barCell c) 0 = 15 := by
  unfold Schedule.expect Schedule.amountOf
  rw [duties_bar, Finset.sum_congr rfl fun d _ => amount_bar m ρ c d, Finset.sum_const, Finset.card_erase_of_mem (Finset.mem_univ c), Finset.card_univ,
    Fintype.card_fin, smul_eq_mul]
  rfl
theorem expect_send (d : Fin 16) (hd : d ≠ 0) : (Rd m ρ).expect (sendCell c d) 0 = N := by
  unfold Schedule.expect Schedule.amountOf; rw [duties_send m ρ c d hd, Finset.sum_singleton, amount_send]
theorem expect_recv (s : Fin 16) (hs : s ≠ c) : (Rd m ρ).expect (recvCell c s) 0 = N := by
  unfold Schedule.expect Schedule.amountOf; rw [duties_recv m ρ c s hs, Finset.sum_singleton, amount_recv]

end Tables

/-! ## The cells, numbered; the kernel's own semaphores -/

/-- A device's thirty-three cells: `0` its barrier cell, `1 + d` its departure cell `d`, `17 + s` its receive cell of slot `s`. -/
def csem (j : Fin 33) : SemLoc sig :=
  if j.val = 0 then .reg barS else .dma (Fin.mk (j.val + 1) (Nat.lt_of_lt_of_le (Nat.add_lt_add_right j.isLt 1) (by decide)))
abbrev kcell (cj : Dev nD × Fin 33) : GSem nD τ sig := ((cj.1 : Thread nD τ), csem cj.2)
def jS (d : Fin 16) : Fin 33 := Fin.mk (1 + d.val) (by have := d.isLt; omega)
def jR (s : Fin 16) : Fin 33 := Fin.mk (17 + s.val) (by have := s.isLt; omega)
theorem kcell_bar (c : Dev nD) : kcell (c, 0) = barCell c := rfl
theorem kcell_send (c : Dev nD) (d : Fin 16) : kcell (c, jS d) = sendCell c d := by
  show ((c : Thread nD τ), csem (jS d)) = _
  unfold csem jS
  rw [if_neg (by show ¬ (1 + d.val = 0); omega)]
  show ((c : Thread nD τ), SemLoc.dma _) = ((c : Thread nD τ), SemLoc.dma (sendSem d))
  congr 2; apply Fin.ext; show 1 + d.val + 1 = 2 + d.val; omega
theorem kcell_recv (c : Dev nD) (s : Fin 16) : kcell (c, jR s) = recvCell c s := by
  show ((c : Thread nD τ), csem (jR s)) = _
  unfold csem jR
  rw [if_neg (by show ¬ (17 + s.val = 0); omega)]
  show ((c : Thread nD τ), SemLoc.dma _) = ((c : Thread nD τ), SemLoc.dma (recvSem s))
  congr 2; apply Fin.ext; show 17 + s.val + 1 = 18 + s.val; omega

/-- The kernel's own (scoped) semaphores: the local copy's, the sixteen departure and the sixteen receive semaphores. -/
def osem (j : Fin 33) : SemLoc sig := .dma (Fin.mk (j.val + 1) (Nat.lt_of_lt_of_le (Nat.add_lt_add_right j.isLt 1) (by decide)))
theorem osem_zero : osem 0 = .dma copySem := by unfold osem; congr 1
theorem osem_pos (j : Fin 33) (hj : j.val ≠ 0) : osem j = csem j := by unfold osem csem; rw [if_neg hj]

/-! ## What each device owes at launch; the levels -/

/-- Device `c` owes every other device one unit on its barrier cell and one row's words on its receive cell of slot `c`:
    summed so that each signal, then each transfer, in program order, peels the outermost summand. -/
def Orecv (c : Dev nD) : CellTallies nD τ sig Unit :=
  tallyAt (recvCell (fwd c 15) c) () N + tallyAt (recvCell (fwd c 14) c) () N + tallyAt (recvCell (fwd c 13) c) () N + tallyAt (recvCell (fwd c 12) c) () N + tallyAt (recvCell (fwd c 11) c) () N + tallyAt (recvCell (fwd c 10) c) () N + tallyAt (recvCell (fwd c 9) c) () N + tallyAt (recvCell (fwd c 8) c) () N + tallyAt (recvCell (fwd c 7) c) () N + tallyAt (recvCell (fwd c 6) c) () N + tallyAt (recvCell (fwd c 5) c) () N + tallyAt (recvCell (fwd c 4) c) () N + tallyAt (recvCell (fwd c 3) c) () N + tallyAt (recvCell (fwd c 2) c) () N + tallyAt (recvCell (fwd c 1) c) () N
def O₀ (c : Dev nD) : CellTallies nD τ sig Unit :=
  Orecv c + tallyAt (barCell (fwd c 15)) () 1 + tallyAt (barCell (fwd c 14)) () 1 + tallyAt (barCell (fwd c 13)) () 1 + tallyAt (barCell (fwd c 12)) () 1 + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1

def L (g : GSem nD τ sig) : Finset Unit := if g.1.2 = .tc then {()} else ∅
/-- barrier cells at 1, receive cells at 2, everything else (staging, local copy, departures) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## What a device's body starts from, and what it leaves -/

section Ghost
variable (K : Dev nD × Fin 33 → ℕ)

/-- Every cell's invariant under the names the launch allocated, and that every cell is at round 0 or later. -/
def records : sProp 𝕄 :=
  iprop((bigSep Finset.univ fun ck : Dev nD × Fin 33 => cellInv ER (Rd m ρ) (K ck) (kcell ck))
    ∗ bigSep Finset.univ fun ck : Dev nD × Fin 33 => reached ER (kcell ck) 0)

/-- The tokens of the duties device `c` pays: a unit on every other device's barrier cell, its row on every other device's
    receive cell of slot `c`, and its own fifteen departures. -/
def payToks (c : Dev nD) : sProp 𝕄 :=
  iprop((bigSep (Finset.univ.erase c) fun p : Dev nD => dutyTok ER (barCell p) 0 c)
    ∗ (bigSep (Finset.univ.erase c) fun p : Dev nD => dutyTok ER (recvCell p c) 0 c)
    ∗ (bigSep (Finset.univ.erase (0 : Fin 16)) fun d : Fin 16 => dutyTok ER (sendCell c d) 0 c))

/-- What stays with device `c`: its positions at round 0 of its thirty-three cells, the tokens it pays with, and the
    local copy's semaphore at zero. -/
def linear (c : Dev nD) : sProp 𝕄 :=
  iprop((bigSep Finset.univ fun j : Fin 33 => atPos ER (kcell (c, j)) 0 ∅ 0) ∗ payToks c ∗ semVal ((c : Thread nD τ), .dma copySem) 0)

def ghost (c : Dev nD) : sProp 𝕄 := iprop(records m ρ K ∗ linear c)

end Ghost

/-- The credit the launch deals device `c`: fifteen units on its barrier cell, a row's words on each receive cell of another slot. -/
def creds (c : Dev nD) : sProp 𝕄 :=
  iprop(cred (tallyAt (barCell c) () 15) ∗ bigSep (Finset.univ.erase c) fun s : Dev nD => cred (tallyAt (recvCell c s) () N))

/-- The device's block in HBM, as launched. -/
def xPts (c : Dev nD) : sProp 𝕄 := xM.view.loc (c : Thread nD τ) ↦[xM.view.set]{fullShare} X m ρ c

def start (c : Dev nD) : sProp 𝕄 := iprop((∃ K, ghost m ρ K c) ∗ creds c ∗ levAts L lv ∗ xPts m ρ c)

/-- The two scratch buffers, whole, at some contents. -/
def scratch (c : Dev nD) : sProp 𝕄 :=
  iprop((∃ f, bM.view.loc (c : Thread nD τ) ↦[bM.view.set]{fullShare} f) ∗ (∃ f, aM.view.loc (c : Thread nD τ) ↦[aM.view.set]{fullShare} f))

def Φ₀ (c : Dev nD) : sProp 𝕄 := iprop(start m ρ c ∗ scratch c)
/-- After the point: the block untouched, the scratch buffers whole again, the kernel's own semaphores at zero. -/
def Φ₁ (c : Dev nD) : sProp 𝕄 :=
  iprop(xPts m ρ c ∗ scratch c ∗ bigSep Finset.univ fun j : Fin 33 => semVal ((c : Thread nD τ), osem j) 0)

/-- The pipeline's proof data: one point; the result's staging buffer ends at the kernel's value. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Spec.outVal (X m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Proto

end
-- ==== Proof.Launch.lean ====
/-
  The launch of the sixteen devices' exchange: the levels at which a device may wait while it still owes, the credit
  the launch deals each device, and the launch theorem's side conditions, closed on the run of @main.
-/
import proofs.«900942_g7700000000000943_dist_mean_ax0_shard0_i_m1536_n768_v7x_i16_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

/-! ## Where a device owes, and the levels there -/

/-- One more receive summand: positive only where the earlier ones are, or at that receive cell. -/
theorem recv_step {c : Dev nD} {g : GSem nD τ sig} {u : Unit} {D : CellTallies nD τ sig Unit} (p : Dev nD)
    (hD : 0 < D g u → ∃ p : Dev nD, g = recvCell p c) (h : 0 < (D + tallyAt (recvCell p c) () N) g u) :
    ∃ p : Dev nD, g = recvCell p c := by
  rcases Pipeline.add_pos_cases h with h | h
  · exact hD h
  · exact ⟨p, (Pipeline.tallyAt_pos h).1⟩

/-- The rows a device owes sit on receive cells of slot `c`. -/
theorem Orecv_pos {c : Dev nD} {g : GSem nD τ sig} {u : Unit} (h : 0 < Orecv c g u) : ∃ p : Dev nD, g = recvCell p c := by
  unfold Orecv at h
  exact recv_step _ (recv_step _ (recv_step _ (recv_step _ (recv_step _ (recv_step _ (recv_step _ (recv_step _ (recv_step _ (recv_step _ (recv_step _ (recv_step _ (recv_step _ (recv_step _ (fun h => ⟨_, (Pipeline.tallyAt_pos h).1⟩)))))))))))))) h

/-- One more barrier summand. -/
theorem bar_step {c : Dev nD} {g : GSem nD τ sig} {u : Unit} {D : CellTallies nD τ sig Unit} (p : Dev nD)
    (hD : 0 < D g u → (∃ p : Dev nD, g = recvCell p c) ∨ ∃ p : Dev nD, g = barCell p) (h : 0 < (D + tallyAt (barCell p) () 1) g u) :
    (∃ p : Dev nD, g = recvCell p c) ∨ ∃ p : Dev nD, g = barCell p := by
  rcases Pipeline.add_pos_cases h with h | h
  · exact hD h
  · exact Or.inr ⟨p, (Pipeline.tallyAt_pos h).1⟩

/-- At launch a device owes on receive cells of slot `c` and on barrier cells only. -/
theorem O₀_pos {c : Dev nD} {g : GSem nD τ sig} {u : Unit} (h : 0 < O₀ c g u) :
    (∃ p : Dev nD, g = recvCell p c) ∨ ∃ p : Dev nD, g = barCell p := by
  unfold O₀ at h
  exact bar_step _ (bar_step _ (bar_step _ (bar_step _ (bar_step _ (bar_step _ (bar_step _ (bar_step _ (bar_step _ (bar_step _ (bar_step _ (bar_step _ (bar_step _ (bar_step _ (bar_step _ (fun h => Or.inl (Orecv_pos h)))))))))))))))) h

theorem lv_recv (p s : Dev nD) (u : Unit) : lv (recvCell p s) u = 2 := by
  show (if 18 ≤ (recvSem s).val then 2 else 0) = 2
  rw [if_pos (by rw [recv_val]; omega)]
theorem lv_bar (p : Dev nD) (u : Unit) : lv (barCell p) u = 1 := rfl
theorem lv_low (c : Dev nD) (q : DmaSem sig) (hq : q.val < 18) (u : Unit) : lv ((c : Thread nD τ), .dma q) u = 0 := by
  show (if 18 ≤ q.val then 2 else 0) = 0
  rw [if_neg (by omega)]

/-- The local copy's wait, while the device still owes its fifteen rows: receive cells sit at level 2, above 0. -/
theorem mayWait_copy (c : Dev nD) : (levAts L lv : sProp 𝕄) ⊢ MayWait (c : Thread nD τ) (.dma copySem) () (Orecv c) :=
  Pipeline.mayWait_of_levAts (by rw [L_tc]; exact Finset.mem_singleton_self _) fun g i hg => by
    obtain ⟨p, rfl⟩ := Orecv_pos hg
    refine ⟨by rw [L_tc]; exact Finset.mem_singleton_self _, ?_⟩
    rw [lv_recv, lv_low c copySem (by decide)]; decide

/-- The barrier wait, owing the same: level 1 below 2. -/
theorem mayWait_bar (c : Dev nD) : (levAts L lv : sProp 𝕄) ⊢ MayWait (c : Thread nD τ) (.reg barS) () (Orecv c) :=
  Pipeline.mayWait_of_levAts (by rw [L_tc]; exact Finset.mem_singleton_self _) fun g i hg => by
    obtain ⟨p, rfl⟩ := Orecv_pos hg
    refine ⟨by rw [L_tc]; exact Finset.mem_singleton_self _, ?_⟩
    rw [lv_recv, lv_bar]; decide

/-- A wait on a cell at level 0 of the device (the staging cell, the local copy's, a departure's) is allowed whatever of its
    launch dues the device still owes. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      rcases O₀_pos hg with ⟨p, rfl⟩ | ⟨p, rfl⟩
      · refine ⟨by rw [L_tc]; exact Finset.mem_singleton_self _, ?_⟩
        rw [lv_recv, lv_low c q hq]; decide
      · refine ⟨by rw [L_tc]; exact Finset.mem_singleton_self _, ?_⟩
        rw [lv_bar, lv_low c q hq]; decide
  · rw [MayWait_zero]; iintro -; iempintro

/-! ## The launch -/

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The launch credit -/

/-- Every device `d` owing one tally on a semaphore `smf d` of its own choosing of device `f d`, `f` a bijection of the
    devices: the launch deals device `c` the matching credit on the semaphore its payer `finv c` chose. Only the device
    component of a cell is used to discard the other devices' summands. -/
theorem launchCred_tallyAt (smf : Dev nD → SemLoc sig) (f finv : Dev nD → Dev nD) (h1 : ∀ c, f (finv c) = c) (h2 : ∀ d, finv (f d) = d)
    (ι : Unit) (n : ℕ) (c : Dev nD) :
    (Pipeline.launchCred (fun d => tallyAt (((f d : Dev nD) : Thread nD τ), smf d) ι n) c : sProp 𝕄)
      ⊢ cred (tallyAt ((c : Thread nD τ), smf (finv c)) ι n) := by
  refine (Pipeline.launchCred_elim _ c (smf (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d : Dev nD) : Thread nD τ), smf d) (Finsupp.single ι n) ((c : Thread nD τ), smf (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

/-- One more barrier summand `k` places on: one more unit of credit on the device's own barrier cell. -/
theorem cred_bar_step (c : Dev nD) (k : Fin 16) (D : Dev nD → CellTallies nD τ sig Unit) (R : sProp 𝕄) (n : ℕ)
    (h : (Pipeline.launchCred D c : sProp 𝕄) ⊢ iprop(R ∗ cred (tallyAt (barCell c) () n))) :
    (Pipeline.launchCred (fun d => D d + tallyAt (barCell (fwd d k.val)) () 1) c : sProp 𝕄) ⊢ iprop(R ∗ cred (tallyAt (barCell c) () (n + 1))) := by
  rw [Pipeline.launchCred_add, ← tallyAt_add]
  iintro ⟨HD, H1⟩
  ihave HD' := h $$ HD
  icases HD' with ⟨HR, Hn⟩
  ihave H1' := (launchCred_tallyAt (F := F) (fun _ => .reg barS) (fun d => fwd d k.val) (fun d => bwd d k.val) (fun c => fwd_bwd c k) (fun d => bwd_fwd d k) () 1 c) $$ H1
  isplitl [HR]; · iexact HR
  iapply (cred_add _ _).2
  isplitl [Hn] <;> iassumption

/-- One more receive summand `k` places on: the credit of the row the device `k` places before sends. -/
theorem cred_recv_step (c : Dev nD) (k : Fin 16) (D : Dev nD → CellTallies nD τ sig Unit) (R : sProp 𝕄)
    (h : (Pipeline.launchCred D c : sProp 𝕄) ⊢ R) :
    (Pipeline.launchCred (fun d => D d + tallyAt (recvCell (fwd d k.val) d) () N) c : sProp 𝕄)
      ⊢ iprop(cred (tallyAt (recvCell c (bwd c k.val)) () N) ∗ R) := by
  rw [Pipeline.launchCred_add]
  iintro ⟨HD, H1⟩
  ihave HD' := h $$ HD
  ihave H1' := (launchCred_tallyAt (F := F) (fun d => .dma (recvSem d)) (fun d => fwd d k.val) (fun d => bwd d k.val) (fun c => fwd_bwd c k) (fun d => bwd_fwd d k) () N c) $$ H1
  isplitl [H1'] <;> iassumption

/-- The fifteen other devices, by their distance before `c`. -/
def others (c : Dev nD) : List (Dev nD) := [bwd c 1, bwd c 2, bwd c 3, bwd c 4, bwd c 5, bwd c 6, bwd c 7, bwd c 8, bwd c 9, bwd c 10, bwd c 11, bwd c 12, bwd c 13, bwd c 14, bwd c 15]
theorem others_nodup (c : Dev nD) : (others c).Nodup := by revert c; decide
theorem others_eq (c : Dev nD) : Finset.univ.erase c = (others c).toFinset := by revert c; decide

/-- The rows owed to `c`, as the launch's credit on its receive cells, slot by slot. -/
theorem cred_recvs (c : Dev nD) :
    (Pipeline.launchCred (fun d => Orecv d) c : sProp 𝕄) ⊢ bigSepL (others c) fun s : Dev nD => cred (tallyAt (recvCell c s) () N) := by
  unfold Orecv
  exact cred_recv_step c 1 _ _ (cred_recv_step c 2 _ _ (cred_recv_step c 3 _ _ (cred_recv_step c 4 _ _ (cred_recv_step c 5 _ _ (cred_recv_step c 6 _ _ (cred_recv_step c 7 _ _ (cred_recv_step c 8 _ _ (cred_recv_step c 9 _ _ (cred_recv_step c 10 _ _ (cred_recv_step c 11 _ _ (cred_recv_step c 12 _ _ (cred_recv_step c 13 _ _ (cred_recv_step c 14 _ _ (launchCred_tallyAt (F := F) (fun d => .dma (recvSem d)) (fun d => fwd d 15) (fun d => bwd d 15) (fun c => fwd_bwd c 15) (fun d => bwd_fwd d 15) () N c))))))))))))))

theorem creds_intro (c : Dev nD) : (Pipeline.launchCred O₀ c : sProp 𝕄) ⊢ creds c := by
  have hbase : (Pipeline.launchCred (fun d => Orecv d) c : sProp 𝕄)
      ⊢ iprop((bigSep (Finset.univ.erase c) fun s : Dev nD => cred (tallyAt (recvCell c s) () N)) ∗ cred (tallyAt (barCell c) () 0)) := by
    rw [tallyAt_zero, cred_zero, bigSep_eq_bigSepL_of_eq (others c) (others_eq c) (others_nodup c)]
    iintro H
    isplitl [H]
    · iapply (cred_recvs (F := F) c); iexact H
    · iempintro
  have hall : (Pipeline.launchCred (fun d => O₀ d) c : sProp 𝕄)
      ⊢ iprop((bigSep (Finset.univ.erase c) fun s : Dev nD => cred (tallyAt (recvCell c s) () N)) ∗ cred (tallyAt (barCell c) () 15)) := by
    unfold O₀
    exact cred_bar_step c 1 _ _ _ (cred_bar_step c 2 _ _ _ (cred_bar_step c 3 _ _ _ (cred_bar_step c 4 _ _ _ (cred_bar_step c 5 _ _ _ (cred_bar_step c 6 _ _ _ (cred_bar_step c 7 _ _ _ (cred_bar_step c 8 _ _ _ (cred_bar_step c 9 _ _ _ (cred_bar_step c 10 _ _ _ (cred_bar_step c 11 _ _ _ (cred_bar_step c 12 _ _ _ (cred_bar_step c 13 _ _ _ (cred_bar_step c 14 _ _ _ (cred_bar_step c 15 _ _ _ (hbase)))))))))))))))
  unfold creds
  iintro H
  ihave H' := hall $$ H
  icases H' with ⟨HR, HB⟩
  isplitl [HB] <;> iassumption

/-! ### The theorem's side conditions -/

/-- The block in HBM, whole: the points-to of the whole buffer. -/
theorem xPts_eq (c : Dev nD) :
    xPts m ρ c = (((c : Thread nD τ).loc main_arg0) ↦{fullShare} m ((c : Thread nD τ).loc main_arg0) : sProp 𝕄) := by
  unfold xPts
  rw [show (xM : Memref sig .tc .hbm S1536x768 .f32).view.set = Finset.univ from View.set_whole _]
  rfl

/-- The two scratch buffers, whole: the points-tos of the whole buffers. -/
theorem scratch_eq (c : Dev nD) :
    (scratch c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f)) := by
  unfold scratch
  rw [show (bM : Memref sig .tc .vmem S1536x768 .f32).view.set = Finset.univ from View.set_whole _,
    show (aM : Memref sig .tc .vmem S16x1x768 .f32).view.set = Finset.univ from View.set_whole _]

theorem start_intro (c : Dev nD) (G' : Dev nD → sProp 𝕄) (hG' : ∀ c, G' c = iprop(∃ K, ghost m ρ K c)) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m ρ c ∗ emp) := by
  rw [Pipeline.unscopedRestP_none, unscopedRest0_eq, hG', ← xPts_eq]
  iintro ⟨Hx, Hlev, Hcr, -, HG⟩
  ihave Hc := (creds_intro (F := F) c) $$ Hcr
  imodintro
  unfold start
  isplitl
  · isplitl [HG]; · iexact HG
    isplitl [Hc]; · iexact Hc
    isplitl [Hlev] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq, ← scratch_eq]
  unfold Φ₀
  iintro ⟨Hs, -, Hr⟩
  isplitl [Hs] <;> iassumption

theorem phi1_exit (c : Dev nD) :
    (dats m ρ 0 c).Φ (Fin.last cfg0.N) ⊢ iprop(xPts m ρ c ∗ Pipeline.ownSems0 osem c ∗ Pipeline.scopedRest cfg0.spec c) := by
  rw [show (dats m ρ 0 c).Φ (Fin.last cfg0.N) = Φ₁ m ρ c from rfl, scopedRest0_eq, ← scratch_eq]
  unfold Φ₁ Pipeline.ownSems0
  iintro ⟨Hx, Hs, Hz⟩
  isplitl [Hx]; · iexact Hx
  isplitl [Hz] <;> iassumption

/-! ### The run -/

/-- The result array after the one write-back: the staged block, written whole, is the kernel's value. -/
theorem finalA (c : Dev nD) : (dats m ρ 0 c).arrAt (0 : Fin cfg0.W) cfg0.N = Spec.outVal (X m ρ) c := by
  show (dats m ρ 0 c).arrAt (0 : Fin cfg0.W) ((⟨0, by decide⟩ : Fin cfg0.N).val + 1) = _
  rw [Dat.arrAt_succ, if_pos (by decide)]
  exact Memref.write_access_unit_zero_univ (Elt F) main_v1 (funext fun a => Nat.zero_mul _) _ _ _

/-- Every device's result holds the mean's value on that device, and its block is as launched. -/
def QC : PUnit × MemSt nD τ sig (Elt F) → Prop := fun r =>
  ∀ c : Dev nD, r.2.mem ((c.tc : Thread nD τ).loc main_v1) = Spec.outVal (X m ρ) c
    ∧ r.2.mem ((c.tc : Thread nD τ).loc main_arg0) = m ((c.tc : Thread nD τ).loc main_arg0)

set_option maxRecDepth 8000 in
/-- At the compiled mesh of sixteen devices, for any float values, from any memory with zero counters: given the body's
    proof at a symbolic device, the launch element's split and the global allocation of the cells, every weakly fair
    execution of @main terminates, and every final state has each device's result at the computed value and its block
    unchanged. -/
theorem run_main (G G' : Dev nD → sProp 𝕄) (u₀ : UU) (hG' : ∀ c, G' c = iprop(∃ K, ghost m ρ K c))
    (ownSemFacts : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G') (u₀ := u₀) (hu₀ := hu₀) (hglob := hglob)
    (hA := fun _ _ => rfl) (hpf := fun _ k => k.elim0)
    (X := start m ρ) (Y := xPts m ρ) (Z := fun _ => iprop(emp))
    (hX := fun c => start_intro m ρ c G' hG') (hin := phi0_intro m ρ) (hout := phi1_exit m ρ)
    (QY := fun c s => s.mem ((c : Thread nD τ).loc main_arg0) = m ((c : Thread nD τ).loc main_arg0))
    (hY := fun c s' => by
      show iprop(xPts m ρ c ∗ emp ∗ SI s') ⊢ _
      rw [xPts_eq]
      iintro ⟨Hx, -, HSI⟩
      icombine HSI Hx gives %hx
      imodintro
      isplitr; · ipureintro; exact Buf.eq_of_forall_mem_univ hx
      iexact HSI)
    (hQ := fun s h c => ⟨((h c).1 0).trans (finalA m ρ c), (h c).2.2⟩)

/-- info: 'Cert.KernelIdeal.Proto.run_main' depends on axioms: [propext, Classical.choice, Quot.sound] -/
#guard_msgs in #print axioms run_main

end Cert.KernelIdeal.Proto

end
-- ==== Proof.Glob.lean ====
/-
  The launch's ghost dealing for the exchange of the sixteen devices.

  The launch element funds, for every device, the round state, the position and the reached-round fact of each of its
  thirty-three cells, and one token for every duty of round 0 of those cells.  A duty's token is minted at the device
  that OWNS the cell; the body needs it at the device that PAYS the duty.  The global step allocates every cell's
  invariant (from the semaphore at zero and the round state), chooses the names, and redistributes the tokens: a
  barrier cell's token named `d` goes from its owner to `d`, a receive cell's token of slot `s` from its owner to `s`
  (both are exchanges of a family over the pairs of distinct devices), and a departure's token stays where it is.
-/
import proofs.«900942_g7700000000000943_dist_mean_ax0_shard0_i_m1536_n768_v7x_i16_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable [∀ e, Nonempty (Elt F e)]

/-! ## The cells and the tokens of the launch element -/

theorem csem_injective : Function.Injective csem := by
  intro j j' h
  unfold csem at h
  by_cases h0 : j.val = 0 <;> by_cases h0' : j'.val = 0
  · exact Fin.ext (h0.trans h0'.symm)
  · rw [if_pos h0, if_neg h0'] at h; cases h
  · rw [if_neg h0, if_pos h0'] at h; cases h
  · rw [if_neg h0, if_neg h0'] at h
    have h1 := congrArg Fin.val (SemLoc.dma.inj h)
    apply Fin.ext
    have h2 : j.val + 1 = j'.val + 1 := h1
    omega

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

def ringCells : Finset (GSem nD τ sig) := Finset.univ.map ⟨kcell, kcell_injective⟩

/-- The semaphore of a device's cell of kind `k` (`0` barrier, `1` departure, `2` receive) and number `d`. -/
def semOf (k : Fin 3) (d : Fin 16) : SemLoc sig := match k with
  | 0 => .reg barS | 1 => .dma (sendSem d) | 2 => .dma (recvSem d)
/-- The name of the duty of that cell on device `c`: the payer `d` of a barrier unit, the device itself for a
    departure, the slot's sender for a receive cell. -/
def dutyOf (c : Dev nD) (k : Fin 3) (d : Fin 16) : DN := match k with
  | 0 => d | 1 => c | 2 => d

/-- A device's own cells' duty tokens as minted: (device, kind, number). -/
def tokOf (x : Dev nD × Fin 3 × Fin 16) : GSem nD τ sig × ℕ × DN := (((x.1 : Thread nD τ), semOf x.2.1 x.2.2), 0, dutyOf x.1 x.2.1 x.2.2)

theorem tokOf_bar (c : Dev nD) (d : Fin 16) : tokOf (c, 0, d) = (barCell c, 0, d) := rfl
theorem tokOf_send (c : Dev nD) (d : Fin 16) : tokOf (c, 1, d) = (sendCell c d, 0, c) := rfl
theorem tokOf_recv (c : Dev nD) (d : Fin 16) : tokOf (c, 2, d) = (recvCell c d, 0, d) := rfl

/-- A semaphore's number: `0` for a regular one, its index for a DMA semaphore. -/
def codeOf : SemLoc sig → ℕ
  | .reg _ => 0
  | .dma q => q.val

theorem codeOf_semOf (k : Fin 3) (d : Fin 16) : codeOf (semOf k d) = if k.val = 0 then 0 else if k.val = 1 then 2 + d.val else 18 + d.val := by
  rcases k with ⟨_ | _ | _ | n, hk⟩
  · rfl
  · rfl
  · rfl
  · omega

theorem dutyOf_eq (c : Dev nD) (k : Fin 3) (d : Fin 16) : dutyOf c k d = if k.val = 1 then c else d := by
  rcases k with ⟨_ | _ | _ | n, hk⟩
  · rfl
  · rfl
  · rfl
  · omega

theorem tokOf_injective : Function.Injective (tokOf : Dev nD × Fin 3 × Fin 16 → GSem nD τ sig × ℕ × DN) := by
  rintro ⟨c, k, d⟩ ⟨c', k', d'⟩ h
  have h1 : c = c' := by have := congrArg (fun x : GSem nD τ sig × ℕ × DN => x.1.1.1) h; exact this
  subst h1
  have hs : codeOf (semOf k d) = codeOf (semOf k' d') := congrArg (fun x : GSem nD τ sig × ℕ × DN => codeOf x.1.2) h
  have hd : dutyOf c k d = dutyOf c k' d' := congrArg (fun x : GSem nD τ sig × ℕ × DN => x.2.2) h
  rw [codeOf_semOf, codeOf_semOf] at hs
  rw [dutyOf_eq, dutyOf_eq] at hd
  have hk := k.isLt; have hk' := k'.isLt; have hdl := d.isLt; have hdl' := d'.isLt
  have hkk : k = k' := by
    apply Fin.ext
    split_ifs at hs <;> omega
  subst hkk
  have hdd : d = d' := by
    by_cases h1 : k.val = 1
    · apply Fin.ext
      rw [if_neg (by omega), if_pos h1, if_neg (by omega), if_pos h1] at hs
      omega
    · rw [if_neg h1, if_neg h1] at hd; exact hd
  subst hdd; rfl

/-- Which (device, kind, number) are duties: a barrier unit from every other device, a departure for every transfer
    number but `0`, a receive cell's row for every slot but the device's own. -/
abbrev isDuty (x : Dev nD × Fin 3 × Fin 16) : Prop := if x.2.1 = 1 then x.2.2 ≠ 0 else x.2.2 ≠ x.1

def ringToks : Finset (GSem nD τ sig × ℕ × DN) := (Finset.univ.filter isDuty).map ⟨tokOf, tokOf_injective⟩

def u₀ : UU :=
  (initOf (Pipeline.cells cfgs cellOf_inj) (Pipeline.launchToks cfgs cellOf_inj), (initOf ringCells ringToks, 1))

/-- The duty tokens of device `c`'s own cells, as minted: its barrier cell's fifteen, its receive cells', its departures'. -/
def toks (c : Dev nD) : sProp 𝕄 :=
  iprop((bigSep (Finset.univ.erase c) fun d : Dev nD => dutyTok ER (barCell c) 0 d)
    ∗ (bigSep (Finset.univ.erase c) fun s : Dev nD => dutyTok ER (recvCell c s) 0 s)
    ∗ (bigSep (Finset.univ.erase (0 : Fin 16)) fun d : Fin 16 => dutyTok ER (sendCell c d) 0 c))

/-- What the launch element deals device `c`. -/
def G (c : Dev nD) : sProp 𝕄 :=
  iprop((bigSep Finset.univ fun j : Fin 33 => roundState ER (Rd m ρ) (kcell (c, j)) 0)
    ∗ (bigSep Finset.univ fun j : Fin 33 => atPos ER (kcell (c, j)) 0 ∅ 0)
    ∗ (bigSep Finset.univ fun j : Fin 33 => reached ER (kcell (c, j)) 0)
    ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 2 ∗ Φ 1) :=
  bigSep_univ_eq_bigSepL [0, 2, 1] (by decide) (by decide) Φ

theorem duty_bar (c : Dev nD) : (Finset.univ.filter fun d : Fin 16 => isDuty (c, 0, d)) = Finset.univ.erase c := by
  ext d; simp [isDuty]
theorem duty_send (c : Dev nD) : (Finset.univ.filter fun d : Fin 16 => isDuty (c, 1, d)) = Finset.univ.erase (0 : Fin 16) := by
  ext d; simp [isDuty]
theorem duty_recv (c : Dev nD) : (Finset.univ.filter fun d : Fin 16 => isDuty (c, 2, d)) = Finset.univ.erase c := by
  ext d; simp [isDuty]

theorem ringToks_eq : bigSep ringToks (fun x => (dutyTok ER x.1 x.2.1 x.2.2 : sProp 𝕄)) = bigSep Finset.univ fun c : Dev nD => toks c := by
  unfold ringToks
  rw [bigSep_map, bigSep_filter, bigSep_univ_prod]
  refine bigSep_congr fun c _ => ?_
  rw [bigSep_univ_prod, bigSep_fin3, ← bigSep_filter, ← bigSep_filter, ← bigSep_filter, duty_bar, duty_recv, duty_send]
  unfold toks
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 33 => Φ (kcell (c, j)) := by
    unfold ringCells; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G; simp only [bigSep_sep']
  isplitl [Hst']; · iexact Hst'
  isplitl [Hat']; · iexact Hat'
  isplitl [Hr']; · iexact Hr'
  iexact Htok'

/-- The launch element: the pipeline library's part as it is, the exchange's part funded, the counters' unit let go. -/
theorem hu₀ : (ownU (u₀) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  ihave H2 := (own_pair_emb embR _ _) $$ HX
  icases H2 with ⟨HB, -⟩
  imod (fund_ring m ρ) $$ HB with HG
  imodintro
  isplitl [HP] <;> iassumption

/-! ## The global step -/

theorem ownSemFacts : Pipeline.OwnSemFacts cfg0.spec osem := by decide

/-- Every payload of the schedule is a points-to (or one at some contents): it can be stored in an invariant. -/
instance Rd_payload_storable (g : GSem nD τ sig) (r : ℕ) (d : DN) :
    BI.Storable (upEmb : UEmb _ 𝕄) ((Rd m ρ).payload g r d) := by
  show BI.Storable upEmb (match g.2 with
    | .reg _ => barPay g.1.1 d
    | .dma q => if 18 ≤ q.val then recvPay m ρ g.1.1 d else sendPay m ρ g.1.1 ⟨(q.val - 2) % 16, Nat.mod_lt _ (by decide)⟩)
  unfold barPay recvPay sendPay
  (repeat' split) <;> infer_instance

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier semaphore at zero are the thirty-three cells' semaphores at zero and
    the local copy's. -/
theorem sems0_eq (c : Dev nD) :
    iprop(Pipeline.ownSems0 (Ix := Unit) (Name := ℕ) (U := UU) (Lvl := ℕ) (Val := Elt F) (τ := τ) osem c ∗ unscopedSems0 c)
      ⊢ iprop(semVal ((c : Thread nD τ), .dma copySem) 0 ∗ (bigSep Finset.univ fun j : Fin 33 => semVal (kcell (c, j)) 0) : sProp 𝕄) := by
  rw [unscopedSems0_eq]
  unfold Pipeline.ownSems0
  rw [bigSep_univ_at (fun k : Fin 33 => (semVal ((c.tc : Thread nD τ), osem k) 0 : sProp 𝕄)) (0 : Fin 33),
    bigSep_univ_at (fun j : Fin 33 => (semVal (kcell (c, j)) 0 : sProp 𝕄)) (0 : Fin 33)]
  have e : (bigSep (Finset.univ.erase (0 : Fin 33)) fun k : Fin 33 => (semVal ((c.tc : Thread nD τ), osem k) 0 : sProp 𝕄))
      = bigSep (Finset.univ.erase (0 : Fin 33)) fun j : Fin 33 => semVal (kcell (c, j)) 0 :=
    bigSep_congr fun j hj => by
      have hj0 : j.val ≠ 0 := fun h => (Finset.ne_of_mem_erase hj) (Fin.ext h)
      rw [osem_pos j hj0]
  rw [e, osem_zero]
  iintro ⟨⟨H0, Hr⟩, HB⟩
  isplitl [H0]; · iexact H0
  isplitl [HB]; · iexact HB
  iexact Hr

/-- One device's share of the global step: its thirty-three invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 33 => iprop(∃ κ : ℕ, cellInv ER (Rd m ρ) κ (kcell (c, j))))
          ∗ (bigSep Finset.univ fun j : Fin 33 => atPos ER (kcell (c, j)) 0 ∅ 0)
          ∗ (bigSep Finset.univ fun j : Fin 33 => reached ER (kcell (c, j)) 0)
          ∗ toks c ∗ semVal ((c : Thread nD τ), .dma copySem) 0) := by
  unfold G
  iintro ⟨Hos, Hus, Hst, Hat, Hr, Htok⟩
  ihave Hv := (sems0_eq (F := F) c) $$ [Hos Hus]
  · isplitl [Hos] <;> iassumption
  icases Hv with ⟨Hcp, Hv⟩
  imod (show iprop((bigSep Finset.univ fun j : Fin 33 => semVal (kcell (c, j)) 0) ∗ bigSep Finset.univ fun j : Fin 33 => roundState ER (Rd m ρ) (kcell (c, j)) 0)
      ⊢ (|={Set.univ}=> bigSep Finset.univ fun j : Fin 33 => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hcp

instance records_persistent (K : Dev nD × Fin 33 → ℕ) : BI.Persistent (records m ρ K) := by unfold records; infer_instance

theorem ghost_intro (K : Dev nD × Fin 33 → ℕ) (c : Dev nD) : iprop(records m ρ K ∗ linear c) ⊢ G' m ρ c := by
  unfold G' ghost
  iintro H
  iexists K
  iexact H

/-- The tokens dealt from the owners to the payers: a barrier cell's token named `d` to device `d`, a receive cell's
    token of slot `s` to device `s`; the departures' stay. -/
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_erase_comm (fun a b : Dev nD => (dutyTok ER (barCell a) 0 b : sProp 𝕄)),
    bigSep_erase_comm (fun a b : Dev nD => (dutyTok ER (recvCell a b) 0 b : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Fin 33 => iprop(∃ κ : ℕ, cellInv ER (Rd m ρ) κ (kcell (c, j))))
          ∗ (bigSep Finset.univ fun j : Fin 33 => atPos ER (kcell (c, j)) 0 ∅ 0)
          ∗ (bigSep Finset.univ fun j : Fin 33 => reached ER (kcell (c, j)) 0)
          ∗ toks c ∗ semVal ((c : Thread nD τ), .dma copySem) 0) : sProp 𝕄)
      ⊢ bigSep Finset.univ (G' m ρ) := by
  rw [bigSep_sep', bigSep_sep', bigSep_sep', bigSep_sep',
    ← bigSep_univ_prod (fun ck : Dev nD × Fin 33 => iprop(∃ κ : ℕ, cellInv ER (Rd m ρ) κ (kcell ck))),
    ← bigSep_univ_prod (fun ck : Dev nD × Fin 33 => (reached ER (kcell ck) 0 : sProp 𝕄)),
    toks_around]
  iintro ⟨HI, Hat, #HR, Htok, Hcp⟩
  ihave HK := (BI.bigSep_exists_pi Finset.univ (fun (ck : Dev nD × Fin 33) (κ : ℕ) => (cellInv ER (Rd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep', bigSep_sep']
    isplitl [Hat]; · iexact Hat
    isplitl [Htok]; · iexact Htok
    iexact Hcp

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.Proto.glob' depends on axioms: [propext, Classical.choice, Quot.sound] -/
#guard_msgs in #print axioms glob

/-- info: 'Cert.KernelIdeal.Proto.hu₀' depends on axioms: [propext, Classical.choice, Quot.sound] -/
#guard_msgs in #print axioms hu₀

end Cert.KernelIdeal.Proto

end
-- ==== Proof.Value.lean ====
/-
  The value bridge on the extended reals: what each device's result buffer holds, as a function of the sixteen blocks
  of the whole array, is what the reference computes from the whole array.

  Device `c` holds rows `1536 · c, …, 1536 · c + 1535` of the whole array `A` of 24576 rows and 768 columns. At column `q`
  the kernel's result is `(Σ_{k < 16} Σ_{r < 1536} A[1536 · src c k + r, q]) · (1/24576)`, the sixteen row sums taken in the
  order `c, c - 1, …, c - 15` (mod 16) and added one after the other; the reference's is `(0 + Σ_{t < 24576} A[t, q]) / 24576`.
  Addition of extended reals is commutative and associative on all of them, so the order and the grouping do not matter:
  `k ↦ src c k` is a permutation of the sixteen devices (it is its own inverse), and the pairs (block, row in the block)
  are the rows of the whole array. The quotient by the real `24576` is the product with `1/24576` on every extended real,
  and the kernel's named constant denotes exactly that rational.
-/
import proofs.«900942_g7700000000000943_dist_mean_ax0_shard0_i_m1536_n768_v7x_i16_bf16_1_alg».proof.Proof.Spec
import proofs.«900942_g7700000000000943_dist_mean_ax0_shard0_i_m1536_n768_v7x_i16_bf16_1_alg».proof.Proof.Gen.ReferenceIdeal.Run
import proofs.«900942_g7700000000000943_dist_mean_ax0_shard0_i_m1536_n768_v7x_i16_bf16_1_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.IdealRules
import Idealize.ShloMosaic.Lib.Layout

noncomputable section

namespace Cert.KernelIdeal.RefValue

open Idealize.ShloMosaic Idealize.ShloMosaic.ValueIdx Cert.KernelIdeal Cert.KernelIdeal.Gen Cert.KernelIdeal.Spec

/-! ## One device's row sum -/

/-- A device's row sum at column `q`: the sum over its 1536 rows of the entries of that column. -/
theorem pay1_apply (x : Vec Ideal S1536x768 .f32) (p : Fin 1) (q : Fin 768) :
    k0_pay1 (F := Ideal) x (ix2 p q) = ∑ r : Fin 1536, x (ix2 r q) := by
  unfold k0_pay1
  refine (shapeCast_addUnit_apply ![768] _ shapeCasts_S768_S1x768 (ix2 p q)).trans ?_
  refine (Ideal.multiReduction_add_single x 0x00000000#32 reduces_S1536x768_S768 (.inl rfl) rfl _).trans ?_
  refine Finset.sum_congr rfl fun r _ => congrArg x ?_
  funext a
  match a with
  | ⟨0, _⟩ => rfl
  | ⟨1, _⟩ => rfl

/-- The slab kept in the exchange buffer, viewed again as a row, is the row sum it was made from. -/
theorem row_cast (x : Vec Ideal S1536x768 .f32) :
    shapeCast S1x768 (k0_pay2 (F := Ideal) x) shapeCasts_S1x1x768_S1x768 = k0_pay1 (F := Ideal) x := by
  unfold k0_pay2
  show shapeCast S1x768 (shapeCast S1x1x768 (shapeCast S1x1x768 (k0_pay1 x) shapeCasts_S1x768_S1x1x768) shapeCasts_S1x1x768_S1x1x768) shapeCasts_S1x1x768_S1x768 = _
  rw [shapeCast_self, shapeCast_shapeCast]

/-! ## The result on a device -/

/-- The named constant the kernel scales by denotes the rational `1/24576` on the extended reals, by the certificate's table. -/
theorem inv_rows : Named.named (F := Ideal) κ "inv_rows" (φ := .f32) 0x382AAAAB#32 = ((1 / 24576 : ℝ) : EReal) :=
  IdealRules.named_const.ideal_named_scalar _ _ _ _ rfl

/-- The device no place before `c` is `c`. -/
theorem src_zero (c : Dev nD) : src c 0 = c :=
  Fin.ext (by have h : c.val < 16 := c.isLt; show (c.val + 16 - 0) % 16 = c.val; omega)

/-- The result on device `c` at column `q`: the sixteen devices' row sums at `q`, taken in the order `c, c - 1, …, c - 15`
    and added one after the other, times `1/24576`. -/
theorem outVal_apply (X : Dev nD → Vec Ideal S1536x768 .f32) (c : Dev nD) (p : Fin 1) (q : Fin 768) :
    outVal (F := Ideal) X c (ix2 p q)
      = (∑ k ∈ Finset.range 16, ∑ r : Fin 1536, X (src c k) (ix2 r q)) * ((1 / 24576 : ℝ) : EReal) := by
  unfold outVal row k0_pay10 k0_pay9 k0_pay8 k0_pay7 k0_pay6 k0_pay5 k0_pay4 k0_pay3
  simp only [row_cast, mulf_apply, addf_apply, broadcast_apply, pay1_apply, inv_rows,
    Finset.sum_range_succ, Finset.sum_range_zero, zero_add, src_zero]

/-! ## The reference at an index -/

/-- The reference's divisor, the word of `24576.0`, denotes the real `24576`: sign bit clear, exponent field `141`, fraction
    field `4194304`, so `(2 ^ 23 + 4194304) · 2 ^ (141 - 127 - 23) = 12582912 / 512`. -/
theorem ofBits_rows : Ideal.ofBits .f32 0x46C00000#32 = ((24576 : ℝ) : EReal) := by
  have h1 : ((0x46C00000#32 : BitVec 32).extractLsb' (8 + 23) 1 == 1#1) = false := by decide
  have h2 : ((0x46C00000#32 : BitVec 32).extractLsb' 23 8).toNat = 141 := by decide
  have h3 : ((0x46C00000#32 : BitVec 32).extractLsb' 0 23).toNat = 4194304 := by decide
  show Ideal.ieee 8 23 (0x46C00000#32 : BitVec 32) = _
  unfold Ideal.ieee
  simp only [h1, h2, h3]
  norm_num

/-- The reference's result at column `q`: the sum over all 24576 rows of the whole array's entries of that column (from
    the initial value `0`), divided by `24576` — on every extended real the product with `1/24576`. -/
theorem ref_apply (A : (⟨Cert.ReferenceIdeal.S24576x768, .f32⟩ : BufTy).Contents (Elt Ideal)) (p : Fin 1) (q : Fin 768) :
    Cert.ReferenceIdeal.Read.val_main_v3 (F := Ideal) A (ix2 p q)
      = (∑ t : Fin 24576, A (ix2 t q)) * ((1 / 24576 : ℝ) : EReal) := by
  have hidx : ∀ t : Fin 24576,
      Cert.ReferenceIdeal.Read.idx_main_v0 (Cert.ReferenceIdeal.Read.idx_main_v1 (ix2 p q)) t = ix2 t q := fun t =>
    funext fun a => Fin.ext (by match a with | ⟨0, _⟩ => rfl | ⟨1, _⟩ => rfl)
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  simp only [hidx, Ideal.hostDivf_def, Ideal.ofBits_def, Ideal.ofBits_zero_f32, zero_add, ofBits_rows,
    Ideal.div_coe (by norm_num : (24576 : ℝ) ≠ 0)]

/-! ## Regrouping the rows -/

/-- Row `r` of block `s` is below the whole array's row count. -/
theorem blk_lt {m n N : ℕ} (h : m * n = N) (s : Fin m) (r : Fin n) : s.val * n + r.val < N := by
  subst h
  calc s.val * n + r.val < s.val * n + n := Nat.add_lt_add_left r.isLt _
    _ = (s.val + 1) * n := (Nat.succ_mul _ _).symm
    _ ≤ m * n := Nat.mul_le_mul_right _ s.isLt

/-- A sum over the rows of an array cut into `m` blocks of `n` rows is the sum over the blocks of the sums over each
    block's rows: the rows are the pairs (block, row in the block), in row-major order. -/
theorem sum_blocks {M : Type*} [AddCommMonoid M] {m n N : ℕ} (h : m * n = N) (f : Fin N → M) :
    ∑ s : Fin m, ∑ r : Fin n, f ⟨s.val * n + r.val, blk_lt h s r⟩ = ∑ t : Fin N, f t := by
  subst h
  rw [← Equiv.sum_comp finProdFinEquiv f, Fintype.sum_prod_type]
  refine Finset.sum_congr rfl fun s _ => Finset.sum_congr rfl fun r _ => congrArg f (Fin.ext ?_)
  show s.val * n + r.val = r.val + n * s.val
  rw [Nat.mul_comm, Nat.add_comm]

/-- Going `k` places back from `c` and then as many places back from `c` as that device's number returns `k`: the
    order in which a device takes the row sums is a permutation of the sixteen devices. -/
theorem src_involutive (c : Dev nD) : Function.Involutive (fun k : Fin 16 => (src c k.val : Fin 16)) := fun k =>
  Fin.ext (by
    have hc : c.val < 16 := c.isLt
    have hk : k.val < 16 := k.isLt
    show (c.val + 16 - ((c.val + 16 - k.val % 16) % 16) % 16) % 16 = k.val
    omega)

/-- So a sum taken in a device's order is the sum over the devices: addition of extended reals is commutative and
    associative on all of them, the infinities included. -/
theorem sum_src {M : Type*} [AddCommMonoid M] (c : Dev nD) (g : Fin 16 → M) :
    ∑ k ∈ Finset.range 16, g (src c k) = ∑ s : Fin 16, g s := by
  rw [Finset.sum_range]
  exact Equiv.sum_comp (src_involutive c).toPerm g

/-! ## The bridge -/

/-- What the kernel leaves on device `c`, as a function of the sixteen blocks of the whole array `A`, is the stage the
    reference's last operation writes: column by column both are the sum of all 24576 entries of the column times
    `1/24576`. -/
theorem value_eq_stage (A : (⟨Cert.ReferenceIdeal.S24576x768, .f32⟩ : BufTy).Contents (Elt Ideal)) (c : Dev nD) :
    outVal (F := Ideal) (fun s => Layout.block ⟨2, ![1536, 768]⟩ ⟨2, ![24576, 768]⟩ 0 16 s A) c
      = Cert.ReferenceIdeal.Read.val_main_v3 (F := Ideal) A := by
  funext i
  obtain ⟨p, q, rfl⟩ : ∃ (p : Fin 1) (q : Fin 768), i = ix2 p q := ⟨i 0, i 1, eq_ix2 i⟩
  rw [outVal_apply, ref_apply]
  refine congrArg (· * _) ?_
  rw [sum_src c (fun s => ∑ r : Fin 1536, (Layout.block ⟨2, ![1536, 768]⟩ ⟨2, ![24576, 768]⟩ 0 16 s A) (ix2 r q)),
    ← sum_blocks (m := 16) (n := 1536) rfl (fun t : Fin 24576 => A (ix2 t q))]
  refine Finset.sum_congr rfl fun s _ => Finset.sum_congr rfl fun r _ => congrArg A ?_
  funext a
  match a with
  | ⟨0, _⟩ => rfl
  | ⟨1, _⟩ => rfl

/-- The same against the term the reference's run states for its result buffer. -/
theorem value_eq (A : (⟨Cert.ReferenceIdeal.S24576x768, .f32⟩ : BufTy).Contents (Elt Ideal)) (c : Dev nD) :
    outVal (F := Ideal) (fun s => Layout.block ⟨2, ![1536, 768]⟩ ⟨2, ![24576, 768]⟩ 0 16 s A) c
      = Host.divf (broadcastInDim Cert.ReferenceIdeal.S1x768 ![1] Cert.ReferenceIdeal.Gen.bcast_S768_S1x768_1
          (Host.reduceAdd A (constant (F := Ideal) Cert.ReferenceIdeal.S_ .f32 0x00000000#32)
            Cert.ReferenceIdeal.Gen.reducesTo_S24576x768_S768_d0 Cert.ReferenceIdeal.Gen.h_S_))
          (broadcastInDim Cert.ReferenceIdeal.S1x768 ![] Cert.ReferenceIdeal.Gen.bcast_S_S1x768
            (constant (F := Ideal) Cert.ReferenceIdeal.S_ .f32 0x46C00000#32)) :=
  (value_eq_stage A c).trans (Cert.ReferenceIdeal.Read.val_main_v3_eq (F := Ideal) A).symm

end Cert.KernelIdeal.RefValue

end
-- ==== Proof.SpecK.lean ====
/-
  What the kernel leaves in a device's result buffer, as one pure function of the sixteen devices' blocks.

  Device `c` sums the rows of its own block (a row vector of 768 entries), receives the fifteen other devices' row
  sums in the order `c - 1, c - 2, …, c - 15` (indices mod 16), adds them one after the other to its own, and
  scales the total by the constant named `inv_rows`.  `row X s` is the row sum of device `s` in the shape it is kept
  in the exchange buffer; `outVal X c` is the result on device `c`.
-/
import proofs.«900942_g7700000000000943_dist_mean_ax0_shard0_i_m1536_n768_v7x_i16_bf16_1_alg».proof.Proof.Gen.Kernel.Skeleton

noncomputable section

namespace Cert.Kernel.Spec

open Idealize.ShloMosaic Cert.Kernel Cert.Kernel.Gen

variable {F : FTy → Type} [FloatOps F]

/-- The device `k` places before `c` on the ring of sixteen: `(c - k) mod 16`. -/
def src (c : Dev nD) (k : ℕ) : Dev nD := ⟨(c.val + 16 - k % 16) % 16, Nat.mod_lt _ (by decide)⟩

/-- Device `s`'s row sum, as a `1 × 1 × 768` slab: one slot of the exchange buffer. -/
def row (X : Dev nD → Vec F S1536x768 .f32) (s : Dev nD) : FVec F S1x1x768 .f32 := k0_pay2 (X s)

/-- The result on device `c`: its own row sum, plus the row sums of `c - 1, …, c - 15` in that order, times `inv_rows`. -/
def outVal (X : Dev nD → Vec F S1536x768 .f32) (c : Dev nD) : FVec F S1x768 .f32 :=
  k0_pay10
    (k0_pay9
      (k0_pay8
        (k0_pay7
          (k0_pay6
            (k0_pay5
              (k0_pay4 (k0_pay3 (k0_pay1 (X c)) (row X (src c 1))) (row X (src c 2)) (row X (src c 3)))
              (row X (src c 4)) (row X (src c 5)))
            (row X (src c 6)) (row X (src c 7)))
          (row X (src c 8)) (row X (src c 9)))
        (row X (src c 10)) (row X (src c 11)))
      (row X (src c 12)) (row X (src c 13)) (row X (src c 14)))
    (row X (src c 15))

end Cert.Kernel.Spec

end
-- ==== Proof.ProtoK.lean ====
/-
  The exchange protocol of the sixteen devices, under the rounds discipline.

  Every device `c` first tells each of the fifteen others, on that device's barrier semaphore, that it has entered;
  with that unit it hands the other device the one row of its own exchange buffer that device will write (row `p` of
  `c`'s buffer goes to `p`).  It sums its block into its own row, waits for the fifteen units on its own barrier
  semaphore (receiving row `c` of every other device's buffer), copies its row into row `c` of every other device
  (fifteen transfers reading one source row, each holding its own share of it), waits for the fifteen rows sent to
  it, one receive semaphore per sender, adding each row as it arrives, and last waits for its fifteen departures.

  One round per cell.  A barrier cell has fifteen duties of one unit, named by the payer; a receive cell of slot
  `s ≠ c` one duty (the row's words), paid by device `s`; a departure cell `d ≠ 0` one duty, paid by the device's own
  transfer number `d`.
-/
import proofs.«900942_g7700000000000943_dist_mean_ax0_shard0_i_m1536_n768_v7x_i16_bf16_1_alg».proof.Proof.Gen.Kernel
import proofs.«900942_g7700000000000943_dist_mean_ax0_shard0_i_m1536_n768_v7x_i16_bf16_1_alg».proof.Proof.Gen.Kernel.Skeleton
import proofs.«900942_g7700000000000943_dist_mean_ax0_shard0_i_m1536_n768_v7x_i16_bf16_1_alg».proof.Proof.Gen.Kernel.Launch
import proofs.«900942_g7700000000000943_dist_mean_ax0_shard0_i_m1536_n768_v7x_i16_bf16_1_alg».proof.Proof.SpecK
import Idealize.ShloMosaic.Lib.Pipeline.Launch
import Idealize.ShloMosaic.Lib.Pipeline.Kit
import Idealize.ShloMosaic.Lib.SparseCore.Stream
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by a device) -/

abbrev DN : Type := Fin 16
abbrev UB : Type := URounds (GSem nD τ sig) DN
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch. -/
def s₀ : MemSt nD τ sig (Elt F) := ⟨m, fun _ => 0, ρ⟩

/-! ## The ring of sixteen -/

/-- `k` places after `c`. -/
def fwd (c : Dev nD) (k : ℕ) : Dev nD := ⟨(c.val + k) % 16, Nat.mod_lt _ (by decide)⟩
/-- `k` places before `c`. -/
abbrev bwd (c : Dev nD) (k : ℕ) : Dev nD := Spec.src c k

theorem fwd_bwd (c : Dev nD) (k : Fin 16) : fwd (bwd c k.val) k.val = c := by revert c k; decide
theorem bwd_fwd (c : Dev nD) (k : Fin 16) : bwd (fwd c k.val) k.val = c := by revert c k; decide
theorem fwd_ne (c : Dev nD) (k : Fin 16) (hk : k ≠ 0) : fwd c k.val ≠ c := by revert c k; decide
theorem bwd_ne (c : Dev nD) (k : Fin 16) (hk : k ≠ 0) : bwd c k.val ≠ c := by revert c k; decide

/-! ## Semaphores and cells -/

/-- The runtime's barrier semaphore of collective id 1. -/
abbrev barS : Sem sig := (SemArray.scalar (sig.barrier 1 rfl) : Sems sig S_).sem
/-- Departure semaphore number `d` and the receive semaphore of slot `s`. -/
def sendSem (d : Fin 16) : DmaSem sig := Fin.mk (2 + d.val) (Nat.lt_of_lt_of_le (Nat.add_lt_add_left d.isLt 2) (by decide))
def recvSem (s : Fin 16) : DmaSem sig := Fin.mk (18 + s.val) (Nat.lt_of_lt_of_le (Nat.add_lt_add_left s.isLt 18) (by decide))
/-- The semaphore of the local copy of the block into vector memory. -/
abbrev copySem : DmaSem sig := (cc0_scratch1 : DmaSems sig S_).sem

abbrev barCell (c : Dev nD) : GSem nD τ sig := ((c : Thread nD τ), .reg barS)
abbrev sendCell (c : Dev nD) (d : Fin 16) : GSem nD τ sig := ((c : Thread nD τ), .dma (sendSem d))
abbrev recvCell (c : Dev nD) (s : Fin 16) : GSem nD τ sig := ((c : Thread nD τ), .dma (recvSem s))

theorem sendSem_lit (k : Fin 16) (h : ∀ a, (![k.val] : Fin 1 → Nat) a + S1.size a ≤ S16.size a) :
    (((cc0_scratch3 : DmaSems sig S16).slice (Rect.unit (s := S16) ![k.val] S1.size h)).squeeze S_ squeezes_S1_S_).sem = sendSem k := by
  revert h; revert k; decide
theorem recvSem_own (c : Dev nD) :
    (((cc0_scratch4 : DmaSems sig S16).slice (Rect.unit (s := S16) (k0_off2 c) S1.size (k0_off2_inb c))).squeeze S_ squeezes_S1_S_).sem = recvSem c := by
  revert c; decide
theorem recvSem_from (c : Dev nD) (r : Fin 15) :
    (((cc0_scratch4 : DmaSems sig S16).slice (Rect.unit (s := S16) (k0_off4 c (BitVec.ofNat 32 (1 + r.val))) S1.size (k0_off4_inb c r))).squeeze S_ squeezes_S1_S_).sem
      = recvSem (bwd c (1 + r.val)) := by
  revert c r; decide

/-! ## Memrefs, rows, contents -/

abbrev xM : Memref sig .tc .hbm S1536x768 .f32 := Memref.whole main_arg0
abbrev oM : Memref sig .tc .vmem S1x768 .f32 := Memref.whole cc0_stg0_0
abbrev bM : Memref sig .tc .vmem S1536x768 .f32 := Memref.whole cc0_scratch0
abbrev aM : Memref sig .tc .vmem S16x1x768 .f32 := Memref.whole cc0_scratch2

/-- Row `s` of the exchange buffer, as the kernel names it in a transfer: sliced at the sender's offset, squeezed. -/
abbrev rowM (s : Dev nD) : Memref sig .tc .vmem S1x768 .f32 :=
  (aM.slice (Rect.unit (s := S16x1x768) (k0_off3 s) S1x1x768.size (k0_off3_inb s)) (fun _ => rfl)).squeeze S1x768 squeezes_S1x1x768_S1x768

/-- The words a transfer of one row credits. -/
abbrev N : ℕ := (rowM (0 : Dev nD)).view.dmaCredit
theorem N_pos : 0 < N := View.dmaCredit_pos _ (by decide)
theorem N_row (s : Dev nD) (sm : DmaSem sig) : (rowM s).view.amount (.dma sm) = N := rfl

/-- Device `s`'s block, as launched. -/
def X (s : Dev nD) : Vec F S1536x768 .f32 := (s₀ m ρ).mem ((s : Thread nD τ).loc main_arg0)

/-- Row `s` of device `t`'s exchange buffer, held at share `q` with contents `f`. -/
abbrev rowPts (t s : Dev nD) (q : PosShare TreeShare) (f : Buf (Elt F) ((rowM s).view.loc (t : Thread nD τ))) : sProp 𝕄 :=
  (rowM s).view.loc (t : Thread nD τ) ↦[(rowM s).view.set]{q} f

/-- Row `s` of the exchange buffer as the kernel's loads and stores name it: a `1 × 1 × 768` box at offset `(s, 0, 0)`. -/
abbrev rowBox (s : Dev nD) : Rect S16x1x768 := Rect.unit (s := S16x1x768) (k0_off3 s) S1x1x768.size (k0_off3_inb s)

variable [∀ e, Nonempty (Elt F e)]

/-- Canonical contents of an exchange buffer whose row `s` holds device `s`'s row sum (the other rows are of no account:
    a row is only ever held through its own elements). -/
def rowBuf (s : Dev nD) : (cc0_scratch2 : Ref sig .tc).ty.Contents (Elt F) :=
  ((aM.access (rowBox s) : View sig .tc _ _ _)).write (Elt F) (View.junk aM.view) (Spec.row (X m ρ) s) Finset.univ

/-! ## The schedule -/

/-- With its barrier unit, `payer` hands `owner` row `owner` of the payer's exchange buffer. -/
def barPay (owner payer : Dev nD) : sProp 𝕄 := iprop(∃ f, rowPts payer owner fullShare f)
/-- The receive semaphore of slot `s` lands row `s`, holding device `s`'s row sum. -/
def recvPay (owner : Dev nD) (s : Fin 16) : sProp 𝕄 := rowPts owner s fullShare (rowBuf m ρ s)
/-- Departure `d` hands back the share of the device's own row that transfer read. -/
def sendPay (owner : Dev nD) (d : Fin 16) : sProp 𝕄 := rowPts owner owner (Transfers.shareTok fullShare 16 d) (rowBuf m ρ owner)

/-- The duties of round 0 of the cell `sm` of device `c`. -/
def dutiesOf (c : Dev nD) : SemLoc sig → Finset DN
  | .reg s => if s = barS then Finset.univ.erase c else ∅
  | .dma q => if 18 ≤ q.val then (if (q.val - 18) = c.val then ∅ else {⟨(q.val - 18) % 16, Nat.mod_lt _ (by decide)⟩})
      else if 3 ≤ q.val then {c} else ∅

def Rd : Rounds.Schedule (GSem nD τ sig) DN 𝕄 where
  duties g r := if r = 0 ∧ g.1.2 = .tc then dutiesOf g.1.1 g.2 else ∅
  unitless _ := False
  amount g _ _ := match g.2 with | .reg _ => 1 | .dma _ => N
  payload g _ d := match g.2 with
    | .reg _ => barPay g.1.1 d
    | .dma q => if 18 ≤ q.val then recvPay m ρ g.1.1 d else sendPay m ρ g.1.1 ⟨(q.val - 2) % 16, Nat.mod_lt _ (by decide)⟩
  amount_pos g _ _ _ := by
    cases g.2 with
    | reg _ => exact Nat.one_pos
    | dma _ => exact N_pos

/-! ## The schedule's tables -/

section Tables
variable (c : Dev nD)

theorem send_val (d : Fin 16) : (sendSem d).val = 2 + d.val := rfl
theorem recv_val (s : Fin 16) : (recvSem s).val = 18 + s.val := rfl

theorem dutiesOf_bar : dutiesOf c (.reg barS) = Finset.univ.erase c := by
  show (if barS = barS then Finset.univ.erase c else (∅ : Finset DN)) = _
  exact if_pos rfl
theorem dutiesOf_send (d : Fin 16) (hd : d ≠ 0) : dutiesOf c (.dma (sendSem d)) = {c} := by
  have h1 : ¬ 18 ≤ (sendSem d).val := by rw [send_val]; have := d.isLt; omega
  have h2 : 3 ≤ (sendSem d).val := by rw [send_val]; have : d.val ≠ 0 := fun h => hd (Fin.ext h); omega
  show (if 18 ≤ (sendSem d).val then _ else if 3 ≤ (sendSem d).val then ({c} : Finset DN) else ∅) = {c}
  rw [if_neg h1, if_pos h2]
theorem dutiesOf_recv (s : Fin 16) (hs : s ≠ c) : dutiesOf c (.dma (recvSem s)) = {s} := by
  have h1 : 18 ≤ (recvSem s).val := by rw [recv_val]; omega
  have h2 : ¬ ((recvSem s).val - 18 = c.val) := by rw [recv_val]; intro h; exact hs (Fin.ext (by omega))
  show (if 18 ≤ (recvSem s).val then (if (recvSem s).val - 18 = c.val then (∅ : Finset DN) else {⟨((recvSem s).val - 18) % 16, Nat.mod_lt _ (by decide)⟩}) else _) = {s}
  rw [if_pos h1, if_neg h2]
  congr 1
  apply Fin.ext
  show ((recvSem s).val - 18) % 16 = s.val
  rw [recv_val]; have := s.isLt; omega

theorem duties_bar : (Rd m ρ).duties (barCell c) 0 = Finset.univ.erase c := by
  show (if (0 : ℕ) = 0 ∧ (barCell c).1.2 = .tc then dutiesOf c (.reg barS) else ∅) = _
  rw [if_pos ⟨rfl, rfl⟩, dutiesOf_bar]
theorem duties_send (d : Fin 16) (hd : d ≠ 0) : (Rd m ρ).duties (sendCell c d) 0 = {c} := by
  show (if (0 : ℕ) = 0 ∧ (sendCell c d).1.2 = .tc then dutiesOf c (.dma (sendSem d)) else ∅) = _
  rw [if_pos ⟨rfl, rfl⟩, dutiesOf_send c d hd]
theorem duties_recv (s : Fin 16) (hs : s ≠ c) : (Rd m ρ).duties (recvCell c s) 0 = {s} := by
  show (if (0 : ℕ) = 0 ∧ (recvCell c s).1.2 = .tc then dutiesOf c (.dma (recvSem s)) else ∅) = _
  rw [if_pos ⟨rfl, rfl⟩, dutiesOf_recv c s hs]
theorem duties_later (g : GSem nD τ sig) : ∀ r, 1 ≤ r → (Rd m ρ).duties g r = ∅ := fun r hr => by
  show (if r = 0 ∧ g.1.2 = .tc then dutiesOf g.1.1 g.2 else ∅) = _
  rw [if_neg fun h => by omega]

theorem amount_bar (d : DN) : (Rd m ρ).amount (barCell c) 0 d = 1 := rfl
theorem amount_send (d : Fin 16) (k : DN) : (Rd m ρ).amount (sendCell c d) 0 k = N := rfl
theorem amount_recv (s : Fin 16) (k : DN) : (Rd m ρ).amount (recvCell c s) 0 k = N := rfl

theorem payload_bar (p : DN) : (Rd m ρ).payload (barCell c) 0 p = barPay c p := rfl
theorem payload_send (d : Fin 16) (k : DN) : (Rd m ρ).payload (sendCell c d) 0 k = sendPay m ρ c d := by
  have h1 : ¬ 18 ≤ (sendSem d).val := by rw [send_val]; have := d.isLt; omega
  show (if 18 ≤ (sendSem d).val then recvPay m ρ c k else sendPay m ρ c ⟨((sendSem d).val - 2) % 16, Nat.mod_lt _ (by decide)⟩) = _
  rw [if_neg h1]
  congr 1
  apply Fin.ext
  show ((sendSem d).val - 2) % 16 = d.val
  rw [send_val]; have := d.isLt; omega
theorem payload_recv (s : Fin 16) (k : DN) : (Rd m ρ).payload (recvCell c s) 0 k = recvPay m ρ c k := by
  have h1 : 18 ≤ (recvSem s).val := by rw [recv_val]; omega
  show (if 18 ≤ (recvSem s).val then recvPay m ρ c k else _) = _
  rw [if_pos h1]

theorem expect_bar : (Rd m ρ).expect (barCell c) 0 = 15 := by
  unfold Schedule.expect Schedule.amountOf
  rw [duties_bar, Finset.sum_congr rfl fun d _ => amount_bar m ρ c d, Finset.sum_const, Finset.card_erase_of_mem (Finset.mem_univ c), Finset.card_univ,
    Fintype.card_fin, smul_eq_mul]
  rfl
theorem expect_send (d : Fin 16) (hd : d ≠ 0) : (Rd m ρ).expect (sendCell c d) 0 = N := by
  unfold Schedule.expect Schedule.amountOf; rw [duties_send m ρ c d hd, Finset.sum_singleton, amount_send]
theorem expect_recv (s : Fin 16) (hs : s ≠ c) : (Rd m ρ).expect (recvCell c s) 0 = N := by
  unfold Schedule.expect Schedule.amountOf; rw [duties_recv m ρ c s hs, Finset.sum_singleton, amount_recv]

end Tables

/-! ## The cells, numbered; the kernel's own semaphores -/

/-- A device's thirty-three cells: `0` its barrier cell, `1 + d` its departure cell `d`, `17 + s` its receive cell of slot `s`. -/
def csem (j : Fin 33) : SemLoc sig :=
  if j.val = 0 then .reg barS else .dma (Fin.mk (j.val + 1) (Nat.lt_of_lt_of_le (Nat.add_lt_add_right j.isLt 1) (by decide)))
abbrev kcell (cj : Dev nD × Fin 33) : GSem nD τ sig := ((cj.1 : Thread nD τ), csem cj.2)
def jS (d : Fin 16) : Fin 33 := Fin.mk (1 + d.val) (by have := d.isLt; omega)
def jR (s : Fin 16) : Fin 33 := Fin.mk (17 + s.val) (by have := s.isLt; omega)
theorem kcell_bar (c : Dev nD) : kcell (c, 0) = barCell c := rfl
theorem kcell_send (c : Dev nD) (d : Fin 16) : kcell (c, jS d) = sendCell c d := by
  show ((c : Thread nD τ), csem (jS d)) = _
  unfold csem jS
  rw [if_neg (by show ¬ (1 + d.val = 0); omega)]
  show ((c : Thread nD τ), SemLoc.dma _) = ((c : Thread nD τ), SemLoc.dma (sendSem d))
  congr 2; apply Fin.ext; show 1 + d.val + 1 = 2 + d.val; omega
theorem kcell_recv (c : Dev nD) (s : Fin 16) : kcell (c, jR s) = recvCell c s := by
  show ((c : Thread nD τ), csem (jR s)) = _
  unfold csem jR
  rw [if_neg (by show ¬ (17 + s.val = 0); omega)]
  show ((c : Thread nD τ), SemLoc.dma _) = ((c : Thread nD τ), SemLoc.dma (recvSem s))
  congr 2; apply Fin.ext; show 17 + s.val + 1 = 18 + s.val; omega

/-- The kernel's own (scoped) semaphores: the local copy's, the sixteen departure and the sixteen receive semaphores. -/
def osem (j : Fin 33) : SemLoc sig := .dma (Fin.mk (j.val + 1) (Nat.lt_of_lt_of_le (Nat.add_lt_add_right j.isLt 1) (by decide)))
theorem osem_zero : osem 0 = .dma copySem := by unfold osem; congr 1
theorem osem_pos (j : Fin 33) (hj : j.val ≠ 0) : osem j = csem j := by unfold osem csem; rw [if_neg hj]

/-! ## What each device owes at launch; the levels -/

/-- Device `c` owes every other device one unit on its barrier cell and one row's words on its receive cell of slot `c`:
    summed so that each signal, then each transfer, in program order, peels the outermost summand. -/
def Orecv (c : Dev nD) : CellTallies nD τ sig Unit :=
  tallyAt (recvCell (fwd c 15) c) () N + tallyAt (recvCell (fwd c 14) c) () N + tallyAt (recvCell (fwd c 13) c) () N + tallyAt (recvCell (fwd c 12) c) () N + tallyAt (recvCell (fwd c 11) c) () N + tallyAt (recvCell (fwd c 10) c) () N + tallyAt (recvCell (fwd c 9) c) () N + tallyAt (recvCell (fwd c 8) c) () N + tallyAt (recvCell (fwd c 7) c) () N + tallyAt (recvCell (fwd c 6) c) () N + tallyAt (recvCell (fwd c 5) c) () N + tallyAt (recvCell (fwd c 4) c) () N + tallyAt (recvCell (fwd c 3) c) () N + tallyAt (recvCell (fwd c 2) c) () N + tallyAt (recvCell (fwd c 1) c) () N
def O₀ (c : Dev nD) : CellTallies nD τ sig Unit :=
  Orecv c + tallyAt (barCell (fwd c 15)) () 1 + tallyAt (barCell (fwd c 14)) () 1 + tallyAt (barCell (fwd c 13)) () 1 + tallyAt (barCell (fwd c 12)) () 1 + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1

def L (g : GSem nD τ sig) : Finset Unit := if g.1.2 = .tc then {()} else ∅
/-- barrier cells at 1, receive cells at 2, everything else (staging, local copy, departures) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## What a device's body starts from, and what it leaves -/

section Ghost
variable (K : Dev nD × Fin 33 → ℕ)

/-- Every cell's invariant under the names the launch allocated, and that every cell is at round 0 or later. -/
def records : sProp 𝕄 :=
  iprop((bigSep Finset.univ fun ck : Dev nD × Fin 33 => cellInv ER (Rd m ρ) (K ck) (kcell ck))
    ∗ bigSep Finset.univ fun ck : Dev nD × Fin 33 => reached ER (kcell ck) 0)

/-- The tokens of the duties device `c` pays: a unit on every other device's barrier cell, its row on every other device's
    receive cell of slot `c`, and its own fifteen departures. -/
def payToks (c : Dev nD) : sProp 𝕄 :=
  iprop((bigSep (Finset.univ.erase c) fun p : Dev nD => dutyTok ER (barCell p) 0 c)
    ∗ (bigSep (Finset.univ.erase c) fun p : Dev nD => dutyTok ER (recvCell p c) 0 c)
    ∗ (bigSep (Finset.univ.erase (0 : Fin 16)) fun d : Fin 16 => dutyTok ER (sendCell c d) 0 c))

/-- What stays with device `c`: its positions at round 0 of its thirty-three cells, the tokens it pays with, and the
    local copy's semaphore at zero. -/
def linear (c : Dev nD) : sProp 𝕄 :=
  iprop((bigSep Finset.univ fun j : Fin 33 => atPos ER (kcell (c, j)) 0 ∅ 0) ∗ payToks c ∗ semVal ((c : Thread nD τ), .dma copySem) 0)

def ghost (c : Dev nD) : sProp 𝕄 := iprop(records m ρ K ∗ linear c)

end Ghost

/-- The credit the launch deals device `c`: fifteen units on its barrier cell, a row's words on each receive cell of another slot. -/
def creds (c : Dev nD) : sProp 𝕄 :=
  iprop(cred (tallyAt (barCell c) () 15) ∗ bigSep (Finset.univ.erase c) fun s : Dev nD => cred (tallyAt (recvCell c s) () N))

/-- The device's block in HBM, as launched. -/
def xPts (c : Dev nD) : sProp 𝕄 := xM.view.loc (c : Thread nD τ) ↦[xM.view.set]{fullShare} X m ρ c

def start (c : Dev nD) : sProp 𝕄 := iprop((∃ K, ghost m ρ K c) ∗ creds c ∗ levAts L lv ∗ xPts m ρ c)

/-- The two scratch buffers, whole, at some contents. -/
def scratch (c : Dev nD) : sProp 𝕄 :=
  iprop((∃ f, bM.view.loc (c : Thread nD τ) ↦[bM.view.set]{fullShare} f) ∗ (∃ f, aM.view.loc (c : Thread nD τ) ↦[aM.view.set]{fullShare} f))

def Φ₀ (c : Dev nD) : sProp 𝕄 := iprop(start m ρ c ∗ scratch c)
/-- After the point: the block untouched, the scratch buffers whole again, the kernel's own semaphores at zero. -/
def Φ₁ (c : Dev nD) : sProp 𝕄 :=
  iprop(xPts m ρ c ∗ scratch c ∗ bigSep Finset.univ fun j : Fin 33 => semVal ((c : Thread nD τ), osem j) 0)

/-- The pipeline's proof data: one point; the result's staging buffer ends at the kernel's value. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Spec.outVal (X m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.Proto

end
-- ==== Proof.LaunchK.lean ====
/-
  The launch of the sixteen devices' exchange: the levels at which a device may wait while it still owes, the credit
  the launch deals each device, and the launch theorem's side conditions, closed on the run of @main.
-/
import proofs.«900942_g7700000000000943_dist_mean_ax0_shard0_i_m1536_n768_v7x_i16_bf16_1_alg».proof.Proof.ProtoK

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable [∀ e, Nonempty (Elt F e)]

/-! ## Where a device owes, and the levels there -/

/-- One more receive summand: positive only where the earlier ones are, or at that receive cell. -/
theorem recv_step {c : Dev nD} {g : GSem nD τ sig} {u : Unit} {D : CellTallies nD τ sig Unit} (p : Dev nD)
    (hD : 0 < D g u → ∃ p : Dev nD, g = recvCell p c) (h : 0 < (D + tallyAt (recvCell p c) () N) g u) :
    ∃ p : Dev nD, g = recvCell p c := by
  rcases Pipeline.add_pos_cases h with h | h
  · exact hD h
  · exact ⟨p, (Pipeline.tallyAt_pos h).1⟩

/-- The rows a device owes sit on receive cells of slot `c`. -/
theorem Orecv_pos {c : Dev nD} {g : GSem nD τ sig} {u : Unit} (h : 0 < Orecv c g u) : ∃ p : Dev nD, g = recvCell p c := by
  unfold Orecv at h
  exact recv_step _ (recv_step _ (recv_step _ (recv_step _ (recv_step _ (recv_step _ (recv_step _ (recv_step _ (recv_step _ (recv_step _ (recv_step _ (recv_step _ (recv_step _ (recv_step _ (fun h => ⟨_, (Pipeline.tallyAt_pos h).1⟩)))))))))))))) h

/-- One more barrier summand. -/
theorem bar_step {c : Dev nD} {g : GSem nD τ sig} {u : Unit} {D : CellTallies nD τ sig Unit} (p : Dev nD)
    (hD : 0 < D g u → (∃ p : Dev nD, g = recvCell p c) ∨ ∃ p : Dev nD, g = barCell p) (h : 0 < (D + tallyAt (barCell p) () 1) g u) :
    (∃ p : Dev nD, g = recvCell p c) ∨ ∃ p : Dev nD, g = barCell p := by
  rcases Pipeline.add_pos_cases h with h | h
  · exact hD h
  · exact Or.inr ⟨p, (Pipeline.tallyAt_pos h).1⟩

/-- At launch a device owes on receive cells of slot `c` and on barrier cells only. -/
theorem O₀_pos {c : Dev nD} {g : GSem nD τ sig} {u : Unit} (h : 0 < O₀ c g u) :
    (∃ p : Dev nD, g = recvCell p c) ∨ ∃ p : Dev nD, g = barCell p := by
  unfold O₀ at h
  exact bar_step _ (bar_step _ (bar_step _ (bar_step _ (bar_step _ (bar_step _ (bar_step _ (bar_step _ (bar_step _ (bar_step _ (bar_step _ (bar_step _ (bar_step _ (bar_step _ (bar_step _ (fun h => Or.inl (Orecv_pos h)))))))))))))))) h

theorem lv_recv (p s : Dev nD) (u : Unit) : lv (recvCell p s) u = 2 := by
  show (if 18 ≤ (recvSem s).val then 2 else 0) = 2
  rw [if_pos (by rw [recv_val]; omega)]
theorem lv_bar (p : Dev nD) (u : Unit) : lv (barCell p) u = 1 := rfl
theorem lv_low (c : Dev nD) (q : DmaSem sig) (hq : q.val < 18) (u : Unit) : lv ((c : Thread nD τ), .dma q) u = 0 := by
  show (if 18 ≤ q.val then 2 else 0) = 0
  rw [if_neg (by omega)]

/-- The local copy's wait, while the device still owes its fifteen rows: receive cells sit at level 2, above 0. -/
theorem mayWait_copy (c : Dev nD) : (levAts L lv : sProp 𝕄) ⊢ MayWait (c : Thread nD τ) (.dma copySem) () (Orecv c) :=
  Pipeline.mayWait_of_levAts (by rw [L_tc]; exact Finset.mem_singleton_self _) fun g i hg => by
    obtain ⟨p, rfl⟩ := Orecv_pos hg
    refine ⟨by rw [L_tc]; exact Finset.mem_singleton_self _, ?_⟩
    rw [lv_recv, lv_low c copySem (by decide)]; decide

/-- The barrier wait, owing the same: level 1 below 2. -/
theorem mayWait_bar (c : Dev nD) : (levAts L lv : sProp 𝕄) ⊢ MayWait (c : Thread nD τ) (.reg barS) () (Orecv c) :=
  Pipeline.mayWait_of_levAts (by rw [L_tc]; exact Finset.mem_singleton_self _) fun g i hg => by
    obtain ⟨p, rfl⟩ := Orecv_pos hg
    refine ⟨by rw [L_tc]; exact Finset.mem_singleton_self _, ?_⟩
    rw [lv_recv, lv_bar]; decide

/-- A wait on a cell at level 0 of the device (the staging cell, the local copy's, a departure's) is allowed whatever of its
    launch dues the device still owes. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      rcases O₀_pos hg with ⟨p, rfl⟩ | ⟨p, rfl⟩
      · refine ⟨by rw [L_tc]; exact Finset.mem_singleton_self _, ?_⟩
        rw [lv_recv, lv_low c q hq]; decide
      · refine ⟨by rw [L_tc]; exact Finset.mem_singleton_self _, ?_⟩
        rw [lv_bar, lv_low c q hq]; decide
  · rw [MayWait_zero]; iintro -; iempintro

/-! ## The launch -/

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The launch credit -/

/-- Every device `d` owing one tally on a semaphore `smf d` of its own choosing of device `f d`, `f` a bijection of the
    devices: the launch deals device `c` the matching credit on the semaphore its payer `finv c` chose. Only the device
    component of a cell is used to discard the other devices' summands. -/
theorem launchCred_tallyAt (smf : Dev nD → SemLoc sig) (f finv : Dev nD → Dev nD) (h1 : ∀ c, f (finv c) = c) (h2 : ∀ d, finv (f d) = d)
    (ι : Unit) (n : ℕ) (c : Dev nD) :
    (Pipeline.launchCred (fun d => tallyAt (((f d : Dev nD) : Thread nD τ), smf d) ι n) c : sProp 𝕄)
      ⊢ cred (tallyAt ((c : Thread nD τ), smf (finv c)) ι n) := by
  refine (Pipeline.launchCred_elim _ c (smf (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d : Dev nD) : Thread nD τ), smf d) (Finsupp.single ι n) ((c : Thread nD τ), smf (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

/-- One more barrier summand `k` places on: one more unit of credit on the device's own barrier cell. -/
theorem cred_bar_step (c : Dev nD) (k : Fin 16) (D : Dev nD → CellTallies nD τ sig Unit) (R : sProp 𝕄) (n : ℕ)
    (h : (Pipeline.launchCred D c : sProp 𝕄) ⊢ iprop(R ∗ cred (tallyAt (barCell c) () n))) :
    (Pipeline.launchCred (fun d => D d + tallyAt (barCell (fwd d k.val)) () 1) c : sProp 𝕄) ⊢ iprop(R ∗ cred (tallyAt (barCell c) () (n + 1))) := by
  rw [Pipeline.launchCred_add, ← tallyAt_add]
  iintro ⟨HD, H1⟩
  ihave HD' := h $$ HD
  icases HD' with ⟨HR, Hn⟩
  ihave H1' := (launchCred_tallyAt (F := F) (fun _ => .reg barS) (fun d => fwd d k.val) (fun d => bwd d k.val) (fun c => fwd_bwd c k) (fun d => bwd_fwd d k) () 1 c) $$ H1
  isplitl [HR]; · iexact HR
  iapply (cred_add _ _).2
  isplitl [Hn] <;> iassumption

/-- One more receive summand `k` places on: the credit of the row the device `k` places before sends. -/
theorem cred_recv_step (c : Dev nD) (k : Fin 16) (D : Dev nD → CellTallies nD τ sig Unit) (R : sProp 𝕄)
    (h : (Pipeline.launchCred D c : sProp 𝕄) ⊢ R) :
    (Pipeline.launchCred (fun d => D d + tallyAt (recvCell (fwd d k.val) d) () N) c : sProp 𝕄)
      ⊢ iprop(cred (tallyAt (recvCell c (bwd c k.val)) () N) ∗ R) := by
  rw [Pipeline.launchCred_add]
  iintro ⟨HD, H1⟩
  ihave HD' := h $$ HD
  ihave H1' := (launchCred_tallyAt (F := F) (fun d => .dma (recvSem d)) (fun d => fwd d k.val) (fun d => bwd d k.val) (fun c => fwd_bwd c k) (fun d => bwd_fwd d k) () N c) $$ H1
  isplitl [H1'] <;> iassumption

/-- The fifteen other devices, by their distance before `c`. -/
def others (c : Dev nD) : List (Dev nD) := [bwd c 1, bwd c 2, bwd c 3, bwd c 4, bwd c 5, bwd c 6, bwd c 7, bwd c 8, bwd c 9, bwd c 10, bwd c 11, bwd c 12, bwd c 13, bwd c 14, bwd c 15]
theorem others_nodup (c : Dev nD) : (others c).Nodup := by revert c; decide
theorem others_eq (c : Dev nD) : Finset.univ.erase c = (others c).toFinset := by revert c; decide

/-- The rows owed to `c`, as the launch's credit on its receive cells, slot by slot. -/
theorem cred_recvs (c : Dev nD) :
    (Pipeline.launchCred (fun d => Orecv d) c : sProp 𝕄) ⊢ bigSepL (others c) fun s : Dev nD => cred (tallyAt (recvCell c s) () N) := by
  unfold Orecv
  exact cred_recv_step c 1 _ _ (cred_recv_step c 2 _ _ (cred_recv_step c 3 _ _ (cred_recv_step c 4 _ _ (cred_recv_step c 5 _ _ (cred_recv_step c 6 _ _ (cred_recv_step c 7 _ _ (cred_recv_step c 8 _ _ (cred_recv_step c 9 _ _ (cred_recv_step c 10 _ _ (cred_recv_step c 11 _ _ (cred_recv_step c 12 _ _ (cred_recv_step c 13 _ _ (cred_recv_step c 14 _ _ (launchCred_tallyAt (F := F) (fun d => .dma (recvSem d)) (fun d => fwd d 15) (fun d => bwd d 15) (fun c => fwd_bwd c 15) (fun d => bwd_fwd d 15) () N c))))))))))))))

theorem creds_intro (c : Dev nD) : (Pipeline.launchCred O₀ c : sProp 𝕄) ⊢ creds c := by
  have hbase : (Pipeline.launchCred (fun d => Orecv d) c : sProp 𝕄)
      ⊢ iprop((bigSep (Finset.univ.erase c) fun s : Dev nD => cred (tallyAt (recvCell c s) () N)) ∗ cred (tallyAt (barCell c) () 0)) := by
    rw [tallyAt_zero, cred_zero, bigSep_eq_bigSepL_of_eq (others c) (others_eq c) (others_nodup c)]
    iintro H
    isplitl [H]
    · iapply (cred_recvs (F := F) c); iexact H
    · iempintro
  have hall : (Pipeline.launchCred (fun d => O₀ d) c : sProp 𝕄)
      ⊢ iprop((bigSep (Finset.univ.erase c) fun s : Dev nD => cred (tallyAt (recvCell c s) () N)) ∗ cred (tallyAt (barCell c) () 15)) := by
    unfold O₀
    exact cred_bar_step c 1 _ _ _ (cred_bar_step c 2 _ _ _ (cred_bar_step c 3 _ _ _ (cred_bar_step c 4 _ _ _ (cred_bar_step c 5 _ _ _ (cred_bar_step c 6 _ _ _ (cred_bar_step c 7 _ _ _ (cred_bar_step c 8 _ _ _ (cred_bar_step c 9 _ _ _ (cred_bar_step c 10 _ _ _ (cred_bar_step c 11 _ _ _ (cred_bar_step c 12 _ _ _ (cred_bar_step c 13 _ _ _ (cred_bar_step c 14 _ _ _ (cred_bar_step c 15 _ _ _ (hbase)))))))))))))))
  unfold creds
  iintro H
  ihave H' := hall $$ H
  icases H' with ⟨HR, HB⟩
  isplitl [HB] <;> iassumption

/-! ### The theorem's side conditions -/

/-- The block in HBM, whole: the points-to of the whole buffer. -/
theorem xPts_eq (c : Dev nD) :
    xPts m ρ c = (((c : Thread nD τ).loc main_arg0) ↦{fullShare} m ((c : Thread nD τ).loc main_arg0) : sProp 𝕄) := by
  unfold xPts
  rw [show (xM : Memref sig .tc .hbm S1536x768 .f32).view.set = Finset.univ from View.set_whole _]
  rfl

/-- The two scratch buffers, whole: the points-tos of the whole buffers. -/
theorem scratch_eq (c : Dev nD) :
    (scratch c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f)) := by
  unfold scratch
  rw [show (bM : Memref sig .tc .vmem S1536x768 .f32).view.set = Finset.univ from View.set_whole _,
    show (aM : Memref sig .tc .vmem S16x1x768 .f32).view.set = Finset.univ from View.set_whole _]

theorem start_intro (c : Dev nD) (G' : Dev nD → sProp 𝕄) (hG' : ∀ c, G' c = iprop(∃ K, ghost m ρ K c)) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m ρ c ∗ emp) := by
  rw [Pipeline.unscopedRestP_none, unscopedRest0_eq, hG', ← xPts_eq]
  iintro ⟨Hx, Hlev, Hcr, -, HG⟩
  ihave Hc := (creds_intro (F := F) c) $$ Hcr
  imodintro
  unfold start
  isplitl
  · isplitl [HG]; · iexact HG
    isplitl [Hc]; · iexact Hc
    isplitl [Hlev] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq, ← scratch_eq]
  unfold Φ₀
  iintro ⟨Hs, -, Hr⟩
  isplitl [Hs] <;> iassumption

theorem phi1_exit (c : Dev nD) :
    (dats m ρ 0 c).Φ (Fin.last cfg0.N) ⊢ iprop(xPts m ρ c ∗ Pipeline.ownSems0 osem c ∗ Pipeline.scopedRest cfg0.spec c) := by
  rw [show (dats m ρ 0 c).Φ (Fin.last cfg0.N) = Φ₁ m ρ c from rfl, scopedRest0_eq, ← scratch_eq]
  unfold Φ₁ Pipeline.ownSems0
  iintro ⟨Hx, Hs, Hz⟩
  isplitl [Hx]; · iexact Hx
  isplitl [Hz] <;> iassumption

/-! ### The run -/

/-- The result array after the one write-back: the staged block, written whole, is the kernel's value. -/
theorem finalA (c : Dev nD) : (dats m ρ 0 c).arrAt (0 : Fin cfg0.W) cfg0.N = Spec.outVal (X m ρ) c := by
  show (dats m ρ 0 c).arrAt (0 : Fin cfg0.W) ((⟨0, by decide⟩ : Fin cfg0.N).val + 1) = _
  rw [Dat.arrAt_succ, if_pos (by decide)]
  exact Memref.write_access_unit_zero_univ (Elt F) main_v1 (funext fun a => Nat.zero_mul _) _ _ _

/-- Every device's result holds the mean's value on that device, and its block is as launched. -/
def QC : PUnit × MemSt nD τ sig (Elt F) → Prop := fun r =>
  ∀ c : Dev nD, r.2.mem ((c.tc : Thread nD τ).loc main_v1) = Spec.outVal (X m ρ) c
    ∧ r.2.mem ((c.tc : Thread nD τ).loc main_arg0) = m ((c.tc : Thread nD τ).loc main_arg0)

set_option maxRecDepth 8000 in
/-- At the compiled mesh of sixteen devices, for any float values, from any memory with zero counters: given the body's
    proof at a symbolic device, the launch element's split and the global allocation of the cells, every weakly fair
    execution of @main terminates, and every final state has each device's result at the computed value and its block
    unchanged. -/
theorem run_main (G G' : Dev nD → sProp 𝕄) (u₀ : UU) (hG' : ∀ c, G' c = iprop(∃ K, ghost m ρ K c))
    (ownSemFacts : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G') (u₀ := u₀) (hu₀ := hu₀) (hglob := hglob)
    (hA := fun _ _ => rfl) (hpf := fun _ k => k.elim0)
    (X := start m ρ) (Y := xPts m ρ) (Z := fun _ => iprop(emp))
    (hX := fun c => start_intro m ρ c G' hG') (hin := phi0_intro m ρ) (hout := phi1_exit m ρ)
    (QY := fun c s => s.mem ((c : Thread nD τ).loc main_arg0) = m ((c : Thread nD τ).loc main_arg0))
    (hY := fun c s' => by
      show iprop(xPts m ρ c ∗ emp ∗ SI s') ⊢ _
      rw [xPts_eq]
      iintro ⟨Hx, -, HSI⟩
      icombine HSI Hx gives %hx
      imodintro
      isplitr; · ipureintro; exact Buf.eq_of_forall_mem_univ hx
      iexact HSI)
    (hQ := fun s h c => ⟨((h c).1 0).trans (finalA m ρ c), (h c).2.2⟩)

/-- info: 'Cert.Kernel.Proto.run_main' depends on axioms: [propext, Classical.choice, Quot.sound] -/
#guard_msgs in #print axioms run_main

end Cert.Kernel.Proto

end
-- ==== Proof.GlobK.lean ====
/-
  The launch's ghost dealing for the exchange of the sixteen devices.

  The launch element funds, for every device, the round state, the position and the reached-round fact of each of its
  thirty-three cells, and one token for every duty of round 0 of those cells.  A duty's token is minted at the device
  that OWNS the cell; the body needs it at the device that PAYS the duty.  The global step allocates every cell's
  invariant (from the semaphore at zero and the round state), chooses the names, and redistributes the tokens: a
  barrier cell's token named `d` goes from its owner to `d`, a receive cell's token of slot `s` from its owner to `s`
  (both are exchanges of a family over the pairs of distinct devices), and a departure's token stays where it is.
-/
import proofs.«900942_g7700000000000943_dist_mean_ax0_shard0_i_m1536_n768_v7x_i16_bf16_1_alg».proof.Proof.ProtoK

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable [∀ e, Nonempty (Elt F e)]

/-! ## The cells and the tokens of the launch element -/

theorem csem_injective : Function.Injective csem := by
  intro j j' h
  unfold csem at h
  by_cases h0 : j.val = 0 <;> by_cases h0' : j'.val = 0
  · exact Fin.ext (h0.trans h0'.symm)
  · rw [if_pos h0, if_neg h0'] at h; cases h
  · rw [if_neg h0, if_pos h0'] at h; cases h
  · rw [if_neg h0, if_neg h0'] at h
    have h1 := congrArg Fin.val (SemLoc.dma.inj h)
    apply Fin.ext
    have h2 : j.val + 1 = j'.val + 1 := h1
    omega

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

def ringCells : Finset (GSem nD τ sig) := Finset.univ.map ⟨kcell, kcell_injective⟩

/-- The semaphore of a device's cell of kind `k` (`0` barrier, `1` departure, `2` receive) and number `d`. -/
def semOf (k : Fin 3) (d : Fin 16) : SemLoc sig := match k with
  | 0 => .reg barS | 1 => .dma (sendSem d) | 2 => .dma (recvSem d)
/-- The name of the duty of that cell on device `c`: the payer `d` of a barrier unit, the device itself for a
    departure, the slot's sender for a receive cell. -/
def dutyOf (c : Dev nD) (k : Fin 3) (d : Fin 16) : DN := match k with
  | 0 => d | 1 => c | 2 => d

/-- A device's own cells' duty tokens as minted: (device, kind, number). -/
def tokOf (x : Dev nD × Fin 3 × Fin 16) : GSem nD τ sig × ℕ × DN := (((x.1 : Thread nD τ), semOf x.2.1 x.2.2), 0, dutyOf x.1 x.2.1 x.2.2)

theorem tokOf_bar (c : Dev nD) (d : Fin 16) : tokOf (c, 0, d) = (barCell c, 0, d) := rfl
theorem tokOf_send (c : Dev nD) (d : Fin 16) : tokOf (c, 1, d) = (sendCell c d, 0, c) := rfl
theorem tokOf_recv (c : Dev nD) (d : Fin 16) : tokOf (c, 2, d) = (recvCell c d, 0, d) := rfl

/-- A semaphore's number: `0` for a regular one, its index for a DMA semaphore. -/
def codeOf : SemLoc sig → ℕ
  | .reg _ => 0
  | .dma q => q.val

theorem codeOf_semOf (k : Fin 3) (d : Fin 16) : codeOf (semOf k d) = if k.val = 0 then 0 else if k.val = 1 then 2 + d.val else 18 + d.val := by
  rcases k with ⟨_ | _ | _ | n, hk⟩
  · rfl
  · rfl
  · rfl
  · omega

theorem dutyOf_eq (c : Dev nD) (k : Fin 3) (d : Fin 16) : dutyOf c k d = if k.val = 1 then c else d := by
  rcases k with ⟨_ | _ | _ | n, hk⟩
  · rfl
  · rfl
  · rfl
  · omega

theorem tokOf_injective : Function.Injective (tokOf : Dev nD × Fin 3 × Fin 16 → GSem nD τ sig × ℕ × DN) := by
  rintro ⟨c, k, d⟩ ⟨c', k', d'⟩ h
  have h1 : c = c' := by have := congrArg (fun x : GSem nD τ sig × ℕ × DN => x.1.1.1) h; exact this
  subst h1
  have hs : codeOf (semOf k d) = codeOf (semOf k' d') := congrArg (fun x : GSem nD τ sig × ℕ × DN => codeOf x.1.2) h
  have hd : dutyOf c k d = dutyOf c k' d' := congrArg (fun x : GSem nD τ sig × ℕ × DN => x.2.2) h
  rw [codeOf_semOf, codeOf_semOf] at hs
  rw [dutyOf_eq, dutyOf_eq] at hd
  have hk := k.isLt; have hk' := k'.isLt; have hdl := d.isLt; have hdl' := d'.isLt
  have hkk : k = k' := by
    apply Fin.ext
    split_ifs at hs <;> omega
  subst hkk
  have hdd : d = d' := by
    by_cases h1 : k.val = 1
    · apply Fin.ext
      rw [if_neg (by omega), if_pos h1, if_neg (by omega), if_pos h1] at hs
      omega
    · rw [if_neg h1, if_neg h1] at hd; exact hd
  subst hdd; rfl

/-- Which (device, kind, number) are duties: a barrier unit from every other device, a departure for every transfer
    number but `0`, a receive cell's row for every slot but the device's own. -/
abbrev isDuty (x : Dev nD × Fin 3 × Fin 16) : Prop := if x.2.1 = 1 then x.2.2 ≠ 0 else x.2.2 ≠ x.1

def ringToks : Finset (GSem nD τ sig × ℕ × DN) := (Finset.univ.filter isDuty).map ⟨tokOf, tokOf_injective⟩

def u₀ : UU :=
  (initOf (Pipeline.cells cfgs cellOf_inj) (Pipeline.launchToks cfgs cellOf_inj), (initOf ringCells ringToks, 1))

/-- The duty tokens of device `c`'s own cells, as minted: its barrier cell's fifteen, its receive cells', its departures'. -/
def toks (c : Dev nD) : sProp 𝕄 :=
  iprop((bigSep (Finset.univ.erase c) fun d : Dev nD => dutyTok ER (barCell c) 0 d)
    ∗ (bigSep (Finset.univ.erase c) fun s : Dev nD => dutyTok ER (recvCell c s) 0 s)
    ∗ (bigSep (Finset.univ.erase (0 : Fin 16)) fun d : Fin 16 => dutyTok ER (sendCell c d) 0 c))

/-- What the launch element deals device `c`. -/
def G (c : Dev nD) : sProp 𝕄 :=
  iprop((bigSep Finset.univ fun j : Fin 33 => roundState ER (Rd m ρ) (kcell (c, j)) 0)
    ∗ (bigSep Finset.univ fun j : Fin 33 => atPos ER (kcell (c, j)) 0 ∅ 0)
    ∗ (bigSep Finset.univ fun j : Fin 33 => reached ER (kcell (c, j)) 0)
    ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 2 ∗ Φ 1) :=
  bigSep_univ_eq_bigSepL [0, 2, 1] (by decide) (by decide) Φ

theorem duty_bar (c : Dev nD) : (Finset.univ.filter fun d : Fin 16 => isDuty (c, 0, d)) = Finset.univ.erase c := by
  ext d; simp [isDuty]
theorem duty_send (c : Dev nD) : (Finset.univ.filter fun d : Fin 16 => isDuty (c, 1, d)) = Finset.univ.erase (0 : Fin 16) := by
  ext d; simp [isDuty]
theorem duty_recv (c : Dev nD) : (Finset.univ.filter fun d : Fin 16 => isDuty (c, 2, d)) = Finset.univ.erase c := by
  ext d; simp [isDuty]

theorem ringToks_eq : bigSep ringToks (fun x => (dutyTok ER x.1 x.2.1 x.2.2 : sProp 𝕄)) = bigSep Finset.univ fun c : Dev nD => toks c := by
  unfold ringToks
  rw [bigSep_map, bigSep_filter, bigSep_univ_prod]
  refine bigSep_congr fun c _ => ?_
  rw [bigSep_univ_prod, bigSep_fin3, ← bigSep_filter, ← bigSep_filter, ← bigSep_filter, duty_bar, duty_recv, duty_send]
  unfold toks
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 33 => Φ (kcell (c, j)) := by
    unfold ringCells; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G; simp only [bigSep_sep']
  isplitl [Hst']; · iexact Hst'
  isplitl [Hat']; · iexact Hat'
  isplitl [Hr']; · iexact Hr'
  iexact Htok'

/-- The launch element: the pipeline library's part as it is, the exchange's part funded, the counters' unit let go. -/
theorem hu₀ : (ownU (u₀) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  ihave H2 := (own_pair_emb embR _ _) $$ HX
  icases H2 with ⟨HB, -⟩
  imod (fund_ring m ρ) $$ HB with HG
  imodintro
  isplitl [HP] <;> iassumption

/-! ## The global step -/

theorem ownSemFacts : Pipeline.OwnSemFacts cfg0.spec osem := by decide

/-- Every payload of the schedule is a points-to (or one at some contents): it can be stored in an invariant. -/
instance Rd_payload_storable (g : GSem nD τ sig) (r : ℕ) (d : DN) :
    BI.Storable (upEmb : UEmb _ 𝕄) ((Rd m ρ).payload g r d) := by
  show BI.Storable upEmb (match g.2 with
    | .reg _ => barPay g.1.1 d
    | .dma q => if 18 ≤ q.val then recvPay m ρ g.1.1 d else sendPay m ρ g.1.1 ⟨(q.val - 2) % 16, Nat.mod_lt _ (by decide)⟩)
  unfold barPay recvPay sendPay
  (repeat' split) <;> infer_instance

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier semaphore at zero are the thirty-three cells' semaphores at zero and
    the local copy's. -/
theorem sems0_eq (c : Dev nD) :
    iprop(Pipeline.ownSems0 (Ix := Unit) (Name := ℕ) (U := UU) (Lvl := ℕ) (Val := Elt F) (τ := τ) osem c ∗ unscopedSems0 c)
      ⊢ iprop(semVal ((c : Thread nD τ), .dma copySem) 0 ∗ (bigSep Finset.univ fun j : Fin 33 => semVal (kcell (c, j)) 0) : sProp 𝕄) := by
  rw [unscopedSems0_eq]
  unfold Pipeline.ownSems0
  rw [bigSep_univ_at (fun k : Fin 33 => (semVal ((c.tc : Thread nD τ), osem k) 0 : sProp 𝕄)) (0 : Fin 33),
    bigSep_univ_at (fun j : Fin 33 => (semVal (kcell (c, j)) 0 : sProp 𝕄)) (0 : Fin 33)]
  have e : (bigSep (Finset.univ.erase (0 : Fin 33)) fun k : Fin 33 => (semVal ((c.tc : Thread nD τ), osem k) 0 : sProp 𝕄))
      = bigSep (Finset.univ.erase (0 : Fin 33)) fun j : Fin 33 => semVal (kcell (c, j)) 0 :=
    bigSep_congr fun j hj => by
      have hj0 : j.val ≠ 0 := fun h => (Finset.ne_of_mem_erase hj) (Fin.ext h)
      rw [osem_pos j hj0]
  rw [e, osem_zero]
  iintro ⟨⟨H0, Hr⟩, HB⟩
  isplitl [H0]; · iexact H0
  isplitl [HB]; · iexact HB
  iexact Hr

/-- One device's share of the global step: its thirty-three invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 33 => iprop(∃ κ : ℕ, cellInv ER (Rd m ρ) κ (kcell (c, j))))
          ∗ (bigSep Finset.univ fun j : Fin 33 => atPos ER (kcell (c, j)) 0 ∅ 0)
          ∗ (bigSep Finset.univ fun j : Fin 33 => reached ER (kcell (c, j)) 0)
          ∗ toks c ∗ semVal ((c : Thread nD τ), .dma copySem) 0) := by
  unfold G
  iintro ⟨Hos, Hus, Hst, Hat, Hr, Htok⟩
  ihave Hv := (sems0_eq (F := F) c) $$ [Hos Hus]
  · isplitl [Hos] <;> iassumption
  icases Hv with ⟨Hcp, Hv⟩
  imod (show iprop((bigSep Finset.univ fun j : Fin 33 => semVal (kcell (c, j)) 0) ∗ bigSep Finset.univ fun j : Fin 33 => roundState ER (Rd m ρ) (kcell (c, j)) 0)
      ⊢ (|={Set.univ}=> bigSep Finset.univ fun j : Fin 33 => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hcp

instance records_persistent (K : Dev nD × Fin 33 → ℕ) : BI.Persistent (records m ρ K) := by unfold records; infer_instance

theorem ghost_intro (K : Dev nD × Fin 33 → ℕ) (c : Dev nD) : iprop(records m ρ K ∗ linear c) ⊢ G' m ρ c := by
  unfold G' ghost
  iintro H
  iexists K
  iexact H

/-- The tokens dealt from the owners to the payers: a barrier cell's token named `d` to device `d`, a receive cell's
    token of slot `s` to device `s`; the departures' stay. -/
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_erase_comm (fun a b : Dev nD => (dutyTok ER (barCell a) 0 b : sProp 𝕄)),
    bigSep_erase_comm (fun a b : Dev nD => (dutyTok ER (recvCell a b) 0 b : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Fin 33 => iprop(∃ κ : ℕ, cellInv ER (Rd m ρ) κ (kcell (c, j))))
          ∗ (bigSep Finset.univ fun j : Fin 33 => atPos ER (kcell (c, j)) 0 ∅ 0)
          ∗ (bigSep Finset.univ fun j : Fin 33 => reached ER (kcell (c, j)) 0)
          ∗ toks c ∗ semVal ((c : Thread nD τ), .dma copySem) 0) : sProp 𝕄)
      ⊢ bigSep Finset.univ (G' m ρ) := by
  rw [bigSep_sep', bigSep_sep', bigSep_sep', bigSep_sep',
    ← bigSep_univ_prod (fun ck : Dev nD × Fin 33 => iprop(∃ κ : ℕ, cellInv ER (Rd m ρ) κ (kcell ck))),
    ← bigSep_univ_prod (fun ck : Dev nD × Fin 33 => (reached ER (kcell ck) 0 : sProp 𝕄)),
    toks_around]
  iintro ⟨HI, Hat, #HR, Htok, Hcp⟩
  ihave HK := (BI.bigSep_exists_pi Finset.univ (fun (ck : Dev nD × Fin 33) (κ : ℕ) => (cellInv ER (Rd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep', bigSep_sep']
    isplitl [Hat]; · iexact Hat
    isplitl [Htok]; · iexact Htok
    iexact Hcp

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.Kernel.Proto.glob' depends on axioms: [propext, Classical.choice, Quot.sound] -/
#guard_msgs in #print axioms glob

/-- info: 'Cert.Kernel.Proto.hu₀' depends on axioms: [propext, Classical.choice, Quot.sound] -/
#guard_msgs in #print axioms hu₀

end Cert.Kernel.Proto

end
-- ==== Proof.Claims.lean ====
/-
  The certificate's five claims, each from what is proved.

  The two kernel programs' frames and the kernel's side of the algebraic claim come from the launch of the sixteen
  devices' exchange (the run of @main, given the body's proof at a symbolic device), at the extended reals and at the
  words; the reference's frame from its run; the sanctioned rewrite is the ledger's one named constant; and the
  algebraic claim joins the kernel's result on each device, a function of the sixteen blocks, to the reference's result
  of the whole array, the blocks being the whole array's.  The two body obligations are taken as hypotheses.
-/
import proofs.«900942_g7700000000000943_dist_mean_ax0_shard0_i_m1536_n768_v7x_i16_bf16_1_alg».proof.Defs
import proofs.«900942_g7700000000000943_dist_mean_ax0_shard0_i_m1536_n768_v7x_i16_bf16_1_alg».proof.Proof.Launch
import proofs.«900942_g7700000000000943_dist_mean_ax0_shard0_i_m1536_n768_v7x_i16_bf16_1_alg».proof.Proof.Glob
import proofs.«900942_g7700000000000943_dist_mean_ax0_shard0_i_m1536_n768_v7x_i16_bf16_1_alg».proof.Proof.Value
import proofs.«900942_g7700000000000943_dist_mean_ax0_shard0_i_m1536_n768_v7x_i16_bf16_1_alg».proof.Proof.LaunchK
import proofs.«900942_g7700000000000943_dist_mean_ax0_shard0_i_m1536_n768_v7x_i16_bf16_1_alg».proof.Proof.GlobK
import proofs.«900942_g7700000000000943_dist_mean_ax0_shard0_i_m1536_n768_v7x_i16_bf16_1_alg».proof.Proof.Gen.Kernel
import proofs.«900942_g7700000000000943_dist_mean_ax0_shard0_i_m1536_n768_v7x_i16_bf16_1_alg».proof.Proof.Gen.KernelIdeal
import proofs.«900942_g7700000000000943_dist_mean_ax0_shard0_i_m1536_n768_v7x_i16_bf16_1_alg».proof.Proof.Gen.ReferenceIdeal
import proofs.«900942_g7700000000000943_dist_mean_ax0_shard0_i_m1536_n768_v7x_i16_bf16_1_alg».proof.Proof.Gen.ReferenceIdeal.Run
import proofs.«900942_g7700000000000943_dist_mean_ax0_shard0_i_m1536_n768_v7x_i16_bf16_1_alg».proof.Proof.Gen.Pre_finite_inputs_Kernel
import proofs.«900942_g7700000000000943_dist_mean_ax0_shard0_i_m1536_n768_v7x_i16_bf16_1_alg».proof.Proof.Gen.Pre_finite_inputs_ReferenceIdeal

noncomputable section

namespace Cert.Proof.Claims

open Idealize.ShloMosaic Idealize.SL.Sem
open Idealize.ShloMosaic.Pipeline (BodyObligation)

/-- The run of the idealized kernel on the sixteen devices, given its body's proof at a symbolic device: every device's
    result at the kernel's value, its block unchanged. -/
theorem run_KI
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.Proto.dats (F := Ideal) m ρ 0 c) (Cert.KernelIdeal.defs₀ (F := Ideal)) Cert.KernelIdeal.Proto.𝒱₀ () Set.univ)
    (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) (Cert.KernelIdeal.Proto.s₀ m ρ)
      (Cert.KernelIdeal.Proto.QC m ρ) :=
  Cert.KernelIdeal.Proto.run_main m ρ (Cert.KernelIdeal.Proto.G m ρ) (Cert.KernelIdeal.Proto.G' m ρ) Cert.KernelIdeal.Proto.u₀ (fun _ => rfl)
    Cert.KernelIdeal.Proto.ownSemFacts (Cert.KernelIdeal.Proto.hu₀ m ρ) (Cert.KernelIdeal.Proto.glob m ρ) (hbody m ρ)

/-- The same run of the kernel as printed, at the words. -/
theorem run_K
    (hbodyK : ∀ (m : (ℓ : Loc Cert.Kernel.nD Cert.Kernel.τ Cert.Kernel.sig) → Buf (Elt Bits) ℓ)
      (ρ : Dev Cert.Kernel.nD → PrngReg) (c : Dev Cert.Kernel.nD),
      BodyObligation (Cert.Kernel.Proto.dats (F := Bits) m ρ 0 c) (Cert.Kernel.defs₀ (F := Bits)) Cert.Kernel.Proto.𝒱₀ () Set.univ)
    (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) (Cert.Kernel.Proto.s₀ m ρ)
      (Cert.Kernel.Proto.QC m ρ) :=
  Cert.Kernel.Proto.run_main m ρ (Cert.Kernel.Proto.G m ρ) (Cert.Kernel.Proto.G' m ρ) Cert.Kernel.Proto.u₀ (fun _ => rfl)
    Cert.Kernel.Proto.ownSemFacts (Cert.Kernel.Proto.hu₀ m ρ) (Cert.Kernel.Proto.glob m ρ) (hbodyK m ρ)

/-- The idealized kernel's frame: its run, the result dropped. -/
theorem frame_KI
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.Proto.dats (F := Ideal) m ρ 0 c) (Cert.KernelIdeal.defs₀ (F := Ideal)) Cert.KernelIdeal.Proto.𝒱₀ () Set.univ) :
    Cert.frame_KernelIdeal := fun m ρ _ =>
  (θ_run Cert.KernelIdeal.defs _ _).mono (fun _ h c => (h c).2) (run_KI hbody m ρ)

/-- The printed kernel's frame. -/
theorem frame_K
    (hbodyK : ∀ (m : (ℓ : Loc Cert.Kernel.nD Cert.Kernel.τ Cert.Kernel.sig) → Buf (Elt Bits) ℓ)
      (ρ : Dev Cert.Kernel.nD → PrngReg) (c : Dev Cert.Kernel.nD),
      BodyObligation (Cert.Kernel.Proto.dats (F := Bits) m ρ 0 c) (Cert.Kernel.defs₀ (F := Bits)) Cert.Kernel.Proto.𝒱₀ () Set.univ) :
    Cert.frame_Kernel := fun m ρ _ =>
  (θ_run Cert.Kernel.defs _ _).mono (fun _ h c => (h c).2) (run_K hbodyK m ρ)

/-- The reference's frame: its run, the result dropped. -/
theorem frame_RI : Cert.frame_ReferenceIdeal := fun m ρ _ =>
  (θ_run Cert.ReferenceIdeal.defs _ _).mono (fun _ h c => (h c).2) (Cert.ReferenceIdeal.Value.run (F := Ideal) m ρ)

/-- The ledger's one entry: the certificate's table gives `"inv_rows"` the value `1/24576`, and the printed constant is
    that value at the extended reals. -/
theorem preserves : Cert.preserves_Kernel_KernelIdeal :=
  IdealRules.named_const.statement Cert.KernelIdeal.κ "inv_rows" .f32 0x382AAAAB#32 ((1 / 24576 : ℝ) : EReal) rfl

/-- At the extended reals each device's result is the kernel's value of the sixteen blocks; the blocks are the whole
    array's, so it is the reference's result of the whole array; both leave their arguments as they were. -/
theorem algebraic
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.Proto.dats (F := Ideal) m ρ 0 c) (Cert.KernelIdeal.defs₀ (F := Ideal)) Cert.KernelIdeal.Proto.𝒱₀ () Set.univ) :
    Cert.algebraic_KernelIdeal_ReferenceIdeal := by
  intro m ρ m' ρ' _ hagree
  have hX : Cert.KernelIdeal.Proto.X m ρ
      = fun s => Layout.block ⟨2, ![1536, 768]⟩ ⟨2, ![24576, 768]⟩ 0 16 s
          (m' (((0 : Dev Cert.ReferenceIdeal.nD).tc : Thread Cert.ReferenceIdeal.nD Cert.ReferenceIdeal.τ).loc Cert.ReferenceIdeal.main_arg0)) :=
    funext hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h c).1.trans ?_, (h c).2⟩) (run_KI hbody m ρ)
  rw [hX]
  exact Cert.KernelIdeal.RefValue.value_eq _ c

/-- Everything the certificate claims, given the two body obligations. -/
theorem claim_of
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.Proto.dats (F := Ideal) m ρ 0 c) (Cert.KernelIdeal.defs₀ (F := Ideal)) Cert.KernelIdeal.Proto.𝒱₀ () Set.univ)
    (hbodyK : ∀ (m : (ℓ : Loc Cert.Kernel.nD Cert.Kernel.τ Cert.Kernel.sig) → Buf (Elt Bits) ℓ)
      (ρ : Dev Cert.Kernel.nD → PrngReg) (c : Dev Cert.Kernel.nD),
      BodyObligation (Cert.Kernel.Proto.dats (F := Bits) m ρ 0 c) (Cert.Kernel.defs₀ (F := Bits)) Cert.Kernel.Proto.𝒱₀ () Set.univ) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_K hbodyK, frame_KI hbody, frame_RI, preserves, algebraic hbody⟩

/-- info: 'Cert.Proof.Claims.claim_of' depends on axioms: [propext, Classical.choice, Quot.sound] -/
#guard_msgs in #print axioms claim_of

end Cert.Proof.Claims

end
-- ==== Proof.Rows.lean ====
/-
  The rows of the exchange buffer, as views: the row a transfer names (a slice of the buffer, squeezed) and the box a
  load or store names are the same elements; what an unmasked write leaves on them does not depend on what was there;
  a row written with a device's row sum, or copied element for element from one, holds the canonical contents; a load
  of it reads the row sum back; and the buffer is its sixteen rows.
-/
import proofs.«900942_g7700000000000943_dist_mean_ax0_shard0_i_m1536_n768_v7x_i16_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

/-! ## A row under its two names -/

/-- The squeezed slice a transfer names and the box a load or store names hold the same elements of the buffer:
    squeezing re-counts a view's elements and moves none. -/
theorem rowM_set (s : Dev nD) : (rowM s).view.set = (aM.access (rowBox s) : View sig .tc _ _ _).set :=
  View.set_reshape _ _

/-- On a view's own elements an unmasked write leaves the payload, whatever the buffer held before. -/
theorem write_agree {sp : Space} {S : Shape} {e : EltTy} (v : View sig .tc sp S e) (f g : v.ty.Contents (Elt F))
    (w : S.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

/-! ## Boxes of one row's size at equal offsets -/

/-- A write through boxes of one size at equal offsets is one write. -/
theorem write_box_congr {off off' : Fin S16x1x768.rank → Nat} (h : off = off')
    (p : ∀ a, off a + S1x1x768.size a ≤ S16x1x768.size a) (p' : ∀ a, off' a + S1x1x768.size a ≤ S16x1x768.size a)
    (f : (cc0_scratch2 : Ref sig .tc).ty.Contents (Elt F)) (w : S1x1x768.Idx → Elt F .f32) :
    View.write (Elt F) (aM.access (Rect.unit (s := S16x1x768) off S1x1x768.size p)) f w Finset.univ
      = View.write (Elt F) (aM.access (Rect.unit (s := S16x1x768) off' S1x1x768.size p')) f w Finset.univ := by
  subst h; rfl

/-- A load at boxes of one size at equal offsets is one load. -/
theorem readAt_box_congr {off off' : Fin S16x1x768.rank → Nat} (h : off = off')
    (p : ∀ a, off a + S1x1x768.size a ≤ S16x1x768.size a) (p' : ∀ a, off' a + S1x1x768.size a ≤ S16x1x768.size a)
    (f : (cc0_scratch2 : Ref sig .tc).ty.Contents (Elt F)) :
    aM.view.readAt (Elt F) (Rect.unit (s := S16x1x768) off S1x1x768.size p).toLoadRect f
      = aM.view.readAt (Elt F) (Rect.unit (s := S16x1x768) off' S1x1x768.size p').toLoadRect f := by
  subst h; rfl

/-- The offset a device's store of its own row computes is the offset its transfers name that row by. -/
theorem off1_eq_off3 (c : Dev nD) : k0_off1 c = k0_off3 c := (k0_off1_eq c).trans (k0_off3_eq c).symm

/-- The offset of the row a device reads `1 + r` rounds in is the offset of the row of the device `1 + r` places before it. -/
theorem off6_eq_off3 (c : Dev nD) (r : Fin 15) : k0_off6 c (BitVec.ofNat 32 (1 + r.val)) = k0_off3 (bwd c (1 + r.val)) := by
  rw [k0_off6_eq, k0_off3_eq]
  have hv : ((c.val + 15) - r.val) % 16 = (bwd c (1 + r.val)).val := by revert c r; decide
  rw [hv]

/-! ## What a row holds -/

/-- After a device's store of its row sum, its own row holds the canonical contents on the row's elements. -/
theorem own_row_canon (c : Dev nD) (f0 : (cc0_scratch2 : Ref sig .tc).ty.Contents (Elt F)) (w : S1x1x768.Idx → Elt F .f32)
    (h : w = Spec.row (X m ρ) c) :
    ∀ i ∈ (rowM c).view.set,
      (View.write (Elt F) ((Memref.whole cc0_scratch2).access (Rect.unit (s := S16x1x768) (k0_off1 c) S1x1x768.size (k0_off1_inb c))) f0 w Finset.univ) i
        = rowBuf m ρ c i := by
  subst h
  intro i hi
  rw [rowM_set] at hi
  rw [write_box_congr (off1_eq_off3 c) (k0_off1_inb c) (k0_off3_inb c)]
  exact write_agree (aM.access (rowBox c)) f0 (View.junk aM.view) _ i hi

/-- A row copied element for element from a buffer holding the canonical contents holds them. -/
theorem landed_canon (s : Dev nD) (fd : (cc0_scratch2 : Ref sig .tc).ty.Contents (Elt F)) :
    ∀ i ∈ (rowM s).view.set,
      ((rowM s).view.write (Elt F) fd ((rowM s).view.read (Elt F) (rowBuf m ρ s)) Finset.univ) i = rowBuf m ρ s i := by
  intro i hi
  rw [View.write_read_eq_piecewise]
  exact Finset.piecewise_eq_of_mem _ _ _ hi

/-- Loading a device's own row from the canonical contents gives its row sum. -/
theorem read_own_row (c : Dev nD) :
    aM.view.readAt (Elt F) (rowBox c).toLoadRect (rowBuf m ρ c) = Spec.row (X m ρ) c :=
  View.read_write_univ _ _

/-- Loading, `1 + r` rounds in, the row of the device `1 + r` places before `c` from the canonical contents gives that
    device's row sum. -/
theorem read_row (c : Dev nD) (r : Fin 15) :
    aM.view.readAt (Elt F) (Rect.unit (s := S16x1x768) (k0_off6 c (BitVec.ofNat 32 (1 + r.val))) S1x1x768.size (k0_off6_inb c r)).toLoadRect
        (rowBuf m ρ (bwd c (1 + r.val)))
      = Spec.row (X m ρ) (bwd c (1 + r.val)) :=
  (readAt_box_congr (off6_eq_off3 c r) (k0_off6_inb c r) (k0_off3_inb (bwd c (1 + r.val))) _).trans
    (read_own_row m ρ (bwd c (1 + r.val)))

/-! ## The buffer is its sixteen rows -/

/-- Row `k` along the first axis and the box at offset `(k, 0, 0)` hold the same elements of the buffer's index set. -/
theorem rowRect_set (k : Dev nD) : (S16x1x768.rowRect 0 k).set = (rowBox k).toLoadRect.set := by
  ext i
  have h1 : i ∈ (S16x1x768.rowRect 0 k).set ↔ ∀ a : Fin S16x1x768.rank,
      (if a = 0 then k.val else 0) ≤ (i a : ℕ) ∧ (i a : ℕ) < (if a = 0 then k.val else 0) + (S16x1x768.rowShape 0).size a :=
    Rect.mem_set_unit
  have h2 : i ∈ (rowBox k).toLoadRect.set ↔ ∀ a : Fin S16x1x768.rank,
      k0_off3 k a ≤ (i a : ℕ) ∧ (i a : ℕ) < k0_off3 k a + S1x1x768.size a :=
    Rect.mem_set_unit
  refine h1.trans (Iff.trans ?_ h2.symm)
  rw [k0_off3_eq]
  refine forall_congr' fun a => ?_
  match a with
  | ⟨0, _⟩ => exact Iff.rfl
  | ⟨1, _⟩ => exact Iff.rfl
  | ⟨2, _⟩ => exact Iff.rfl

/-- Row `k` of the buffer along its first axis is the row the transfers name. -/
theorem row_set (k : Dev nD) : (aM.view.slice (S16x1x768.rowRect 0 k)).set = (rowM k).view.set := by
  rw [rowM_set, View.set_slice, View.set_slice, rowRect_set]

/-- The exchange buffer held at a share is its sixteen rows held at that share each. -/
theorem rows_split (t : Dev nD) (q : PosShare TreeShare) (f : Buf (Elt F) (aM.view.loc (t : Thread nD τ))) :
    (aM.view.loc (t : Thread nD τ) ↦[aM.view.set]{q} f : sProp 𝕄)
      = bigSep Finset.univ fun s : Dev nD => (rowM s).view.loc (t : Thread nD τ) ↦[(rowM s).view.set]{q} f := by
  refine (pointsTo_rows (t : Thread nD τ) aM.view (0 : Fin 3) q f).trans ?_
  refine congrArg (bigSep Finset.univ) (funext fun k => ?_)
  exact congrArg (fun S => (aM.view.loc (t : Thread nD τ) ↦[S]{q} f : sProp 𝕄)) (row_set k)

/-- Sixteen rows held outright, whatever each holds, are the buffer held outright. -/
theorem rows_join (t : Dev nD) (g : Dev nD → Buf (Elt F) (aM.view.loc (t : Thread nD τ))) :
    (bigSep Finset.univ fun s : Dev nD => (rowM s).view.loc (t : Thread nD τ) ↦[(rowM s).view.set]{fullShare} g s)
      ⊢ (∃ f, aM.view.loc (t : Thread nD τ) ↦[aM.view.set]{fullShare} f : sProp 𝕄) := by
  have hd : ∀ s ∈ (Finset.univ : Finset (Dev nD)), ∀ s' ∈ (Finset.univ : Finset (Dev nD)), s ≠ s' →
      Disjoint (rowM s).view.set (rowM s').view.set := fun s _ s' _ h => by
    rw [← row_set, ← row_set]; exact View.disjoint_rows aM.view (0 : Fin 3) h
  have hu : aM.view.set = Finset.univ.biUnion fun s : Dev nD => (rowM s).view.set := by
    rw [View.set_eq_biUnion_rows aM.view (0 : Fin 3)]
    exact Finset.biUnion_congr rfl fun k _ => row_set k
  have hj := pointsTo_biUnion_join (Ix := Unit) (Name := ℕ) (U := UU) (Lvl := ℕ) (ℓ := aM.view.loc (t : Thread nD τ))
    (q := fullShare) Finset.univ (fun s : Dev nD => (rowM s).view.set) g (g 0) hd
  refine hj.trans ?_
  iintro ⟨%f, %hf, H⟩
  iexists f
  rw [hu]
  iexact H

end Cert.KernelIdeal.Proto

end
-- ==== Proof.Ctx.lean ====
import proofs.«900942_g7700000000000943_dist_mean_ax0_shard0_i_m1536_n768_v7x_i16_bf16_1_alg».proof.Proof.Proto

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

/-- Everything device `c`'s body starts from, one conjunct per thing it uses, in the order it uses them: the invariants of
    its own cells and of the cells it pays into; that those are at round 0; the level facts; the tokens of the duties it
    pays (a barrier unit and a row for each of the fifteen other devices, its fifteen departures); its positions; its
    launch credit; what it owes; the local copy's semaphore; its block, its two scratch buffers — the exchange buffer
    row by row — and the result's staging buffer; last the two cells it never uses. -/
def bodyCtx (K : Dev nD × Fin 33 → ℕ) (c : Dev nD) (W : Waits sig Unit)
    (f1 : Buf (Elt F) ((rowM (fwd c 1)).view.loc (c : Thread nD τ))) (f2 : Buf (Elt F) ((rowM (fwd c 2)).view.loc (c : Thread nD τ))) (f3 : Buf (Elt F) ((rowM (fwd c 3)).view.loc (c : Thread nD τ))) (f4 : Buf (Elt F) ((rowM (fwd c 4)).view.loc (c : Thread nD τ))) (f5 : Buf (Elt F) ((rowM (fwd c 5)).view.loc (c : Thread nD τ))) (f6 : Buf (Elt F) ((rowM (fwd c 6)).view.loc (c : Thread nD τ))) (f7 : Buf (Elt F) ((rowM (fwd c 7)).view.loc (c : Thread nD τ))) (f8 : Buf (Elt F) ((rowM (fwd c 8)).view.loc (c : Thread nD τ))) (f9 : Buf (Elt F) ((rowM (fwd c 9)).view.loc (c : Thread nD τ))) (f10 : Buf (Elt F) ((rowM (fwd c 10)).view.loc (c : Thread nD τ))) (f11 : Buf (Elt F) ((rowM (fwd c 11)).view.loc (c : Thread nD τ))) (f12 : Buf (Elt F) ((rowM (fwd c 12)).view.loc (c : Thread nD τ))) (f13 : Buf (Elt F) ((rowM (fwd c 13)).view.loc (c : Thread nD τ))) (f14 : Buf (Elt F) ((rowM (fwd c 14)).view.loc (c : Thread nD τ))) (f15 : Buf (Elt F) ((rowM (fwd c 15)).view.loc (c : Thread nD τ)))
    (f0 : Buf (Elt F) ((rowM c).view.loc (c : Thread nD τ))) (fb : Buf (Elt F) (bM.view.loc (c : Thread nD τ))) (fo : Buf (Elt F) (oM.view.loc (c : Thread nD τ))) : sProp 𝕄 :=
  iprop(cellInv ER (Rd m ρ) (K (c, 0)) (barCell c)
    ∗ cellInv ER (Rd m ρ) (K ((fwd c 1), 0)) (barCell (fwd c 1))
    ∗ cellInv ER (Rd m ρ) (K ((fwd c 2), 0)) (barCell (fwd c 2))
    ∗ cellInv ER (Rd m ρ) (K ((fwd c 3), 0)) (barCell (fwd c 3))
    ∗ cellInv ER (Rd m ρ) (K ((fwd c 4), 0)) (barCell (fwd c 4))
    ∗ cellInv ER (Rd m ρ) (K ((fwd c 5), 0)) (barCell (fwd c 5))
    ∗ cellInv ER (Rd m ρ) (K ((fwd c 6), 0)) (barCell (fwd c 6))
    ∗ cellInv ER (Rd m ρ) (K ((fwd c 7), 0)) (barCell (fwd c 7))
    ∗ cellInv ER (Rd m ρ) (K ((fwd c 8), 0)) (barCell (fwd c 8))
    ∗ cellInv ER (Rd m ρ) (K ((fwd c 9), 0)) (barCell (fwd c 9))
    ∗ cellInv ER (Rd m ρ) (K ((fwd c 10), 0)) (barCell (fwd c 10))
    ∗ cellInv ER (Rd m ρ) (K ((fwd c 11), 0)) (barCell (fwd c 11))
    ∗ cellInv ER (Rd m ρ) (K ((fwd c 12), 0)) (barCell (fwd c 12))
    ∗ cellInv ER (Rd m ρ) (K ((fwd c 13), 0)) (barCell (fwd c 13))
    ∗ cellInv ER (Rd m ρ) (K ((fwd c 14), 0)) (barCell (fwd c 14))
    ∗ cellInv ER (Rd m ρ) (K ((fwd c 15), 0)) (barCell (fwd c 15))
    ∗ cellInv ER (Rd m ρ) (K (c, jS 1)) (sendCell c 1)
    ∗ cellInv ER (Rd m ρ) (K (c, jS 2)) (sendCell c 2)
    ∗ cellInv ER (Rd m ρ) (K (c, jS 3)) (sendCell c 3)
    ∗ cellInv ER (Rd m ρ) (K (c, jS 4)) (sendCell c 4)
    ∗ cellInv ER (Rd m ρ) (K (c, jS 5)) (sendCell c 5)
    ∗ cellInv ER (Rd m ρ) (K (c, jS 6)) (sendCell c 6)
    ∗ cellInv ER (Rd m ρ) (K (c, jS 7)) (sendCell c 7)
    ∗ cellInv ER (Rd m ρ) (K (c, jS 8)) (sendCell c 8)
    ∗ cellInv ER (Rd m ρ) (K (c, jS 9)) (sendCell c 9)
    ∗ cellInv ER (Rd m ρ) (K (c, jS 10)) (sendCell c 10)
    ∗ cellInv ER (Rd m ρ) (K (c, jS 11)) (sendCell c 11)
    ∗ cellInv ER (Rd m ρ) (K (c, jS 12)) (sendCell c 12)
    ∗ cellInv ER (Rd m ρ) (K (c, jS 13)) (sendCell c 13)
    ∗ cellInv ER (Rd m ρ) (K (c, jS 14)) (sendCell c 14)
    ∗ cellInv ER (Rd m ρ) (K (c, jS 15)) (sendCell c 15)
    ∗ cellInv ER (Rd m ρ) (K ((fwd c 1), jR c)) (recvCell (fwd c 1) c)
    ∗ cellInv ER (Rd m ρ) (K ((fwd c 2), jR c)) (recvCell (fwd c 2) c)
    ∗ cellInv ER (Rd m ρ) (K ((fwd c 3), jR c)) (recvCell (fwd c 3) c)
    ∗ cellInv ER (Rd m ρ) (K ((fwd c 4), jR c)) (recvCell (fwd c 4) c)
    ∗ cellInv ER (Rd m ρ) (K ((fwd c 5), jR c)) (recvCell (fwd c 5) c)
    ∗ cellInv ER (Rd m ρ) (K ((fwd c 6), jR c)) (recvCell (fwd c 6) c)
    ∗ cellInv ER (Rd m ρ) (K ((fwd c 7), jR c)) (recvCell (fwd c 7) c)
    ∗ cellInv ER (Rd m ρ) (K ((fwd c 8), jR c)) (recvCell (fwd c 8) c)
    ∗ cellInv ER (Rd m ρ) (K ((fwd c 9), jR c)) (recvCell (fwd c 9) c)
    ∗ cellInv ER (Rd m ρ) (K ((fwd c 10), jR c)) (recvCell (fwd c 10) c)
    ∗ cellInv ER (Rd m ρ) (K ((fwd c 11), jR c)) (recvCell (fwd c 11) c)
    ∗ cellInv ER (Rd m ρ) (K ((fwd c 12), jR c)) (recvCell (fwd c 12) c)
    ∗ cellInv ER (Rd m ρ) (K ((fwd c 13), jR c)) (recvCell (fwd c 13) c)
    ∗ cellInv ER (Rd m ρ) (K ((fwd c 14), jR c)) (recvCell (fwd c 14) c)
    ∗ cellInv ER (Rd m ρ) (K ((fwd c 15), jR c)) (recvCell (fwd c 15) c)
    ∗ cellInv ER (Rd m ρ) (K (c, jR (bwd c 1))) (recvCell c (bwd c 1))
    ∗ cellInv ER (Rd m ρ) (K (c, jR (bwd c 2))) (recvCell c (bwd c 2))
    ∗ cellInv ER (Rd m ρ) (K (c, jR (bwd c 3))) (recvCell c (bwd c 3))
    ∗ cellInv ER (Rd m ρ) (K (c, jR (bwd c 4))) (recvCell c (bwd c 4))
    ∗ cellInv ER (Rd m ρ) (K (c, jR (bwd c 5))) (recvCell c (bwd c 5))
    ∗ cellInv ER (Rd m ρ) (K (c, jR (bwd c 6))) (recvCell c (bwd c 6))
    ∗ cellInv ER (Rd m ρ) (K (c, jR (bwd c 7))) (recvCell c (bwd c 7))
    ∗ cellInv ER (Rd m ρ) (K (c, jR (bwd c 8))) (recvCell c (bwd c 8))
    ∗ cellInv ER (Rd m ρ) (K (c, jR (bwd c 9))) (recvCell c (bwd c 9))
    ∗ cellInv ER (Rd m ρ) (K (c, jR (bwd c 10))) (recvCell c (bwd c 10))
    ∗ cellInv ER (Rd m ρ) (K (c, jR (bwd c 11))) (recvCell c (bwd c 11))
    ∗ cellInv ER (Rd m ρ) (K (c, jR (bwd c 12))) (recvCell c (bwd c 12))
    ∗ cellInv ER (Rd m ρ) (K (c, jR (bwd c 13))) (recvCell c (bwd c 13))
    ∗ cellInv ER (Rd m ρ) (K (c, jR (bwd c 14))) (recvCell c (bwd c 14))
    ∗ cellInv ER (Rd m ρ) (K (c, jR (bwd c 15))) (recvCell c (bwd c 15))
    ∗ reached ER (barCell (fwd c 1)) 0
    ∗ reached ER (barCell (fwd c 2)) 0
    ∗ reached ER (barCell (fwd c 3)) 0
    ∗ reached ER (barCell (fwd c 4)) 0
    ∗ reached ER (barCell (fwd c 5)) 0
    ∗ reached ER (barCell (fwd c 6)) 0
    ∗ reached ER (barCell (fwd c 7)) 0
    ∗ reached ER (barCell (fwd c 8)) 0
    ∗ reached ER (barCell (fwd c 9)) 0
    ∗ reached ER (barCell (fwd c 10)) 0
    ∗ reached ER (barCell (fwd c 11)) 0
    ∗ reached ER (barCell (fwd c 12)) 0
    ∗ reached ER (barCell (fwd c 13)) 0
    ∗ reached ER (barCell (fwd c 14)) 0
    ∗ reached ER (barCell (fwd c 15)) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (sendCell c 9) 0
    ∗ reached ER (sendCell c 10) 0
    ∗ reached ER (sendCell c 11) 0
    ∗ reached ER (sendCell c 12) 0
    ∗ reached ER (sendCell c 13) 0
    ∗ reached ER (sendCell c 14) 0
    ∗ reached ER (sendCell c 15) 0
    ∗ reached ER (recvCell (fwd c 1) c) 0
    ∗ reached ER (recvCell (fwd c 2) c) 0
    ∗ reached ER (recvCell (fwd c 3) c) 0
    ∗ reached ER (recvCell (fwd c 4) c) 0
    ∗ reached ER (recvCell (fwd c 5) c) 0
    ∗ reached ER (recvCell (fwd c 6) c) 0
    ∗ reached ER (recvCell (fwd c 7) c) 0
    ∗ reached ER (recvCell (fwd c 8) c) 0
    ∗ reached ER (recvCell (fwd c 9) c) 0
    ∗ reached ER (recvCell (fwd c 10) c) 0
    ∗ reached ER (recvCell (fwd c 11) c) 0
    ∗ reached ER (recvCell (fwd c 12) c) 0
    ∗ reached ER (recvCell (fwd c 13) c) 0
    ∗ reached ER (recvCell (fwd c 14) c) 0
    ∗ reached ER (recvCell (fwd c 15) c) 0
    ∗ levAts L lv
    ∗ dutyTok ER (barCell (fwd c 1)) 0 c
    ∗ dutyTok ER (barCell (fwd c 2)) 0 c
    ∗ dutyTok ER (barCell (fwd c 3)) 0 c
    ∗ dutyTok ER (barCell (fwd c 4)) 0 c
    ∗ dutyTok ER (barCell (fwd c 5)) 0 c
    ∗ dutyTok ER (barCell (fwd c 6)) 0 c
    ∗ dutyTok ER (barCell (fwd c 7)) 0 c
    ∗ dutyTok ER (barCell (fwd c 8)) 0 c
    ∗ dutyTok ER (barCell (fwd c 9)) 0 c
    ∗ dutyTok ER (barCell (fwd c 10)) 0 c
    ∗ dutyTok ER (barCell (fwd c 11)) 0 c
    ∗ dutyTok ER (barCell (fwd c 12)) 0 c
    ∗ dutyTok ER (barCell (fwd c 13)) 0 c
    ∗ dutyTok ER (barCell (fwd c 14)) 0 c
    ∗ dutyTok ER (barCell (fwd c 15)) 0 c
    ∗ dutyTok ER (sendCell c 1) 0 c
    ∗ dutyTok ER (sendCell c 2) 0 c
    ∗ dutyTok ER (sendCell c 3) 0 c
    ∗ dutyTok ER (sendCell c 4) 0 c
    ∗ dutyTok ER (sendCell c 5) 0 c
    ∗ dutyTok ER (sendCell c 6) 0 c
    ∗ dutyTok ER (sendCell c 7) 0 c
    ∗ dutyTok ER (sendCell c 8) 0 c
    ∗ dutyTok ER (sendCell c 9) 0 c
    ∗ dutyTok ER (sendCell c 10) 0 c
    ∗ dutyTok ER (sendCell c 11) 0 c
    ∗ dutyTok ER (sendCell c 12) 0 c
    ∗ dutyTok ER (sendCell c 13) 0 c
    ∗ dutyTok ER (sendCell c 14) 0 c
    ∗ dutyTok ER (sendCell c 15) 0 c
    ∗ dutyTok ER (recvCell (fwd c 1) c) 0 c
    ∗ dutyTok ER (recvCell (fwd c 2) c) 0 c
    ∗ dutyTok ER (recvCell (fwd c 3) c) 0 c
    ∗ dutyTok ER (recvCell (fwd c 4) c) 0 c
    ∗ dutyTok ER (recvCell (fwd c 5) c) 0 c
    ∗ dutyTok ER (recvCell (fwd c 6) c) 0 c
    ∗ dutyTok ER (recvCell (fwd c 7) c) 0 c
    ∗ dutyTok ER (recvCell (fwd c 8) c) 0 c
    ∗ dutyTok ER (recvCell (fwd c 9) c) 0 c
    ∗ dutyTok ER (recvCell (fwd c 10) c) 0 c
    ∗ dutyTok ER (recvCell (fwd c 11) c) 0 c
    ∗ dutyTok ER (recvCell (fwd c 12) c) 0 c
    ∗ dutyTok ER (recvCell (fwd c 13) c) 0 c
    ∗ dutyTok ER (recvCell (fwd c 14) c) 0 c
    ∗ dutyTok ER (recvCell (fwd c 15) c) 0 c
    ∗ atPos ER (barCell c) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ atPos ER (recvCell c (bwd c 1)) 0 ∅ 0
    ∗ atPos ER (recvCell c (bwd c 2)) 0 ∅ 0
    ∗ atPos ER (recvCell c (bwd c 3)) 0 ∅ 0
    ∗ atPos ER (recvCell c (bwd c 4)) 0 ∅ 0
    ∗ atPos ER (recvCell c (bwd c 5)) 0 ∅ 0
    ∗ atPos ER (recvCell c (bwd c 6)) 0 ∅ 0
    ∗ atPos ER (recvCell c (bwd c 7)) 0 ∅ 0
    ∗ atPos ER (recvCell c (bwd c 8)) 0 ∅ 0
    ∗ atPos ER (recvCell c (bwd c 9)) 0 ∅ 0
    ∗ atPos ER (recvCell c (bwd c 10)) 0 ∅ 0
    ∗ atPos ER (recvCell c (bwd c 11)) 0 ∅ 0
    ∗ atPos ER (recvCell c (bwd c 12)) 0 ∅ 0
    ∗ atPos ER (recvCell c (bwd c 13)) 0 ∅ 0
    ∗ atPos ER (recvCell c (bwd c 14)) 0 ∅ 0
    ∗ atPos ER (recvCell c (bwd c 15)) 0 ∅ 0
    ∗ cred (tallyAt (barCell c) () 15)
    ∗ cred (tallyAt (recvCell c (bwd c 1)) () N)
    ∗ cred (tallyAt (recvCell c (bwd c 2)) () N)
    ∗ cred (tallyAt (recvCell c (bwd c 3)) () N)
    ∗ cred (tallyAt (recvCell c (bwd c 4)) () N)
    ∗ cred (tallyAt (recvCell c (bwd c 5)) () N)
    ∗ cred (tallyAt (recvCell c (bwd c 6)) () N)
    ∗ cred (tallyAt (recvCell c (bwd c 7)) () N)
    ∗ cred (tallyAt (recvCell c (bwd c 8)) () N)
    ∗ cred (tallyAt (recvCell c (bwd c 9)) () N)
    ∗ cred (tallyAt (recvCell c (bwd c 10)) () N)
    ∗ cred (tallyAt (recvCell c (bwd c 11)) () N)
    ∗ cred (tallyAt (recvCell c (bwd c 12)) () N)
    ∗ cred (tallyAt (recvCell c (bwd c 13)) () N)
    ∗ cred (tallyAt (recvCell c (bwd c 14)) () N)
    ∗ cred (tallyAt (recvCell c (bwd c 15)) () N)
    ∗ owes (c : Thread nD τ) (O₀ c) W
    ∗ semVal ((c : Thread nD τ), .dma copySem) 0
    ∗ (xM.view.loc (c : Thread nD τ) ↦[xM.view.set]{fullShare} X m ρ c)
    ∗ (bM.view.loc (c : Thread nD τ) ↦[bM.view.set]{fullShare} fb)
    ∗ ((rowM (fwd c 1)).view.loc (c : Thread nD τ) ↦[(rowM (fwd c 1)).view.set]{fullShare} f1)
    ∗ ((rowM (fwd c 2)).view.loc (c : Thread nD τ) ↦[(rowM (fwd c 2)).view.set]{fullShare} f2)
    ∗ ((rowM (fwd c 3)).view.loc (c : Thread nD τ) ↦[(rowM (fwd c 3)).view.set]{fullShare} f3)
    ∗ ((rowM (fwd c 4)).view.loc (c : Thread nD τ) ↦[(rowM (fwd c 4)).view.set]{fullShare} f4)
    ∗ ((rowM (fwd c 5)).view.loc (c : Thread nD τ) ↦[(rowM (fwd c 5)).view.set]{fullShare} f5)
    ∗ ((rowM (fwd c 6)).view.loc (c : Thread nD τ) ↦[(rowM (fwd c 6)).view.set]{fullShare} f6)
    ∗ ((rowM (fwd c 7)).view.loc (c : Thread nD τ) ↦[(rowM (fwd c 7)).view.set]{fullShare} f7)
    ∗ ((rowM (fwd c 8)).view.loc (c : Thread nD τ) ↦[(rowM (fwd c 8)).view.set]{fullShare} f8)
    ∗ ((rowM (fwd c 9)).view.loc (c : Thread nD τ) ↦[(rowM (fwd c 9)).view.set]{fullShare} f9)
    ∗ ((rowM (fwd c 10)).view.loc (c : Thread nD τ) ↦[(rowM (fwd c 10)).view.set]{fullShare} f10)
    ∗ ((rowM (fwd c 11)).view.loc (c : Thread nD τ) ↦[(rowM (fwd c 11)).view.set]{fullShare} f11)
    ∗ ((rowM (fwd c 12)).view.loc (c : Thread nD τ) ↦[(rowM (fwd c 12)).view.set]{fullShare} f12)
    ∗ ((rowM (fwd c 13)).view.loc (c : Thread nD τ) ↦[(rowM (fwd c 13)).view.set]{fullShare} f13)
    ∗ ((rowM (fwd c 14)).view.loc (c : Thread nD τ) ↦[(rowM (fwd c 14)).view.set]{fullShare} f14)
    ∗ ((rowM (fwd c 15)).view.loc (c : Thread nD τ) ↦[(rowM (fwd c 15)).view.set]{fullShare} f15)
    ∗ ((rowM (c)).view.loc (c : Thread nD τ) ↦[(rowM (c)).view.set]{fullShare} f0)
    ∗ (oM.view.loc (c : Thread nD τ) ↦[oM.view.set]{fullShare} fo)
    ∗ cellInv ER (Rd m ρ) (K (c, jS 0)) (sendCell c 0)
    ∗ cellInv ER (Rd m ρ) (K (c, jR c)) (recvCell c c)
    ∗ atPos ER (sendCell c 0) 0 ∅ 0
    ∗ atPos ER (recvCell c c) 0 ∅ 0)

/-- What the pipeline wants back from the body at its one point: the invariant after the point, what the device still
    owes (nothing), and the result's staging buffer at the kernel's value. -/
def bodyPost (c : Dev nD) : sProp 𝕄 :=
  iprop(Φ₁ m ρ c ∗ (dats m ρ 0 c).owesAt () Gen.t0_0.succ
    ∗ (∃ f : Buf (Elt F) (((c : Dev nD) : Thread nD τ).loc cc0_stg0_0), ⌜f = Spec.outVal (X m ρ) c⌝ ∗ (((c : Thread nD τ).loc cc0_stg0_0) ↦{fullShare} f)))

/-- What the body's run leaves, one conjunct per thing: the block; the vector-memory copy of it; the device's own row in
    its remainder and sixteen read shares; the fifteen rows received; the kernel's own semaphores at zero (the local
    copy's, the sixteen departures', the sixteen receive slots'); nothing owed; the result's staging buffer at the value. -/
def bodyEnd (c : Dev nD) (W : Waits sig Unit) (fb : Buf (Elt F) (bM.view.loc (c : Thread nD τ))) : sProp 𝕄 :=
  iprop((xM.view.loc (c : Thread nD τ) ↦[xM.view.set]{fullShare} X m ρ c)
    ∗ (bM.view.loc (c : Thread nD τ) ↦[bM.view.set]{fullShare} fb)
    ∗ ((rowM c).view.loc (c : Thread nD τ) ↦[(rowM c).view.set]{Transfers.shareDrop fullShare 16} rowBuf m ρ c)
    ∗ ((rowM c).view.loc (c : Thread nD τ) ↦[(rowM c).view.set]{Transfers.shareTok fullShare 16 0} rowBuf m ρ c)
    ∗ ((rowM c).view.loc (c : Thread nD τ) ↦[(rowM c).view.set]{Transfers.shareTok fullShare 16 1} rowBuf m ρ c)
    ∗ ((rowM c).view.loc (c : Thread nD τ) ↦[(rowM c).view.set]{Transfers.shareTok fullShare 16 2} rowBuf m ρ c)
    ∗ ((rowM c).view.loc (c : Thread nD τ) ↦[(rowM c).view.set]{Transfers.shareTok fullShare 16 3} rowBuf m ρ c)
    ∗ ((rowM c).view.loc (c : Thread nD τ) ↦[(rowM c).view.set]{Transfers.shareTok fullShare 16 4} rowBuf m ρ c)
    ∗ ((rowM c).view.loc (c : Thread nD τ) ↦[(rowM c).view.set]{Transfers.shareTok fullShare 16 5} rowBuf m ρ c)
    ∗ ((rowM c).view.loc (c : Thread nD τ) ↦[(rowM c).view.set]{Transfers.shareTok fullShare 16 6} rowBuf m ρ c)
    ∗ ((rowM c).view.loc (c : Thread nD τ) ↦[(rowM c).view.set]{Transfers.shareTok fullShare 16 7} rowBuf m ρ c)
    ∗ ((rowM c).view.loc (c : Thread nD τ) ↦[(rowM c).view.set]{Transfers.shareTok fullShare 16 8} rowBuf m ρ c)
    ∗ ((rowM c).view.loc (c : Thread nD τ) ↦[(rowM c).view.set]{Transfers.shareTok fullShare 16 9} rowBuf m ρ c)
    ∗ ((rowM c).view.loc (c : Thread nD τ) ↦[(rowM c).view.set]{Transfers.shareTok fullShare 16 10} rowBuf m ρ c)
    ∗ ((rowM c).view.loc (c : Thread nD τ) ↦[(rowM c).view.set]{Transfers.shareTok fullShare 16 11} rowBuf m ρ c)
    ∗ ((rowM c).view.loc (c : Thread nD τ) ↦[(rowM c).view.set]{Transfers.shareTok fullShare 16 12} rowBuf m ρ c)
    ∗ ((rowM c).view.loc (c : Thread nD τ) ↦[(rowM c).view.set]{Transfers.shareTok fullShare 16 13} rowBuf m ρ c)
    ∗ ((rowM c).view.loc (c : Thread nD τ) ↦[(rowM c).view.set]{Transfers.shareTok fullShare 16 14} rowBuf m ρ c)
    ∗ ((rowM c).view.loc (c : Thread nD τ) ↦[(rowM c).view.set]{Transfers.shareTok fullShare 16 15} rowBuf m ρ c)
    ∗ ((rowM (bwd c 1)).view.loc (c : Thread nD τ) ↦[(rowM (bwd c 1)).view.set]{fullShare} rowBuf m ρ (bwd c 1))
    ∗ ((rowM (bwd c 2)).view.loc (c : Thread nD τ) ↦[(rowM (bwd c 2)).view.set]{fullShare} rowBuf m ρ (bwd c 2))
    ∗ ((rowM (bwd c 3)).view.loc (c : Thread nD τ) ↦[(rowM (bwd c 3)).view.set]{fullShare} rowBuf m ρ (bwd c 3))
    ∗ ((rowM (bwd c 4)).view.loc (c : Thread nD τ) ↦[(rowM (bwd c 4)).view.set]{fullShare} rowBuf m ρ (bwd c 4))
    ∗ ((rowM (bwd c 5)).view.loc (c : Thread nD τ) ↦[(rowM (bwd c 5)).view.set]{fullShare} rowBuf m ρ (bwd c 5))
    ∗ ((rowM (bwd c 6)).view.loc (c : Thread nD τ) ↦[(rowM (bwd c 6)).view.set]{fullShare} rowBuf m ρ (bwd c 6))
    ∗ ((rowM (bwd c 7)).view.loc (c : Thread nD τ) ↦[(rowM (bwd c 7)).view.set]{fullShare} rowBuf m ρ (bwd c 7))
    ∗ ((rowM (bwd c 8)).view.loc (c : Thread nD τ) ↦[(rowM (bwd c 8)).view.set]{fullShare} rowBuf m ρ (bwd c 8))
    ∗ ((rowM (bwd c 9)).view.loc (c : Thread nD τ) ↦[(rowM (bwd c 9)).view.set]{fullShare} rowBuf m ρ (bwd c 9))
    ∗ ((rowM (bwd c 10)).view.loc (c : Thread nD τ) ↦[(rowM (bwd c 10)).view.set]{fullShare} rowBuf m ρ (bwd c 10))
    ∗ ((rowM (bwd c 11)).view.loc (c : Thread nD τ) ↦[(rowM (bwd c 11)).view.set]{fullShare} rowBuf m ρ (bwd c 11))
    ∗ ((rowM (bwd c 12)).view.loc (c : Thread nD τ) ↦[(rowM (bwd c 12)).view.set]{fullShare} rowBuf m ρ (bwd c 12))
    ∗ ((rowM (bwd c 13)).view.loc (c : Thread nD τ) ↦[(rowM (bwd c 13)).view.set]{fullShare} rowBuf m ρ (bwd c 13))
    ∗ ((rowM (bwd c 14)).view.loc (c : Thread nD τ) ↦[(rowM (bwd c 14)).view.set]{fullShare} rowBuf m ρ (bwd c 14))
    ∗ ((rowM (bwd c 15)).view.loc (c : Thread nD τ) ↦[(rowM (bwd c 15)).view.set]{fullShare} rowBuf m ρ (bwd c 15))
    ∗ semVal ((c : Thread nD τ), .dma copySem) 0
    ∗ semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (sendCell c 9) 0
    ∗ semVal (sendCell c 10) 0
    ∗ semVal (sendCell c 11) 0
    ∗ semVal (sendCell c 12) 0
    ∗ semVal (sendCell c 13) 0
    ∗ semVal (sendCell c 14) 0
    ∗ semVal (sendCell c 15) 0
    ∗ semVal (recvCell c (bwd c 1)) 0
    ∗ semVal (recvCell c (bwd c 2)) 0
    ∗ semVal (recvCell c (bwd c 3)) 0
    ∗ semVal (recvCell c (bwd c 4)) 0
    ∗ semVal (recvCell c (bwd c 5)) 0
    ∗ semVal (recvCell c (bwd c 6)) 0
    ∗ semVal (recvCell c (bwd c 7)) 0
    ∗ semVal (recvCell c (bwd c 8)) 0
    ∗ semVal (recvCell c (bwd c 9)) 0
    ∗ semVal (recvCell c (bwd c 10)) 0
    ∗ semVal (recvCell c (bwd c 11)) 0
    ∗ semVal (recvCell c (bwd c 12)) 0
    ∗ semVal (recvCell c (bwd c 13)) 0
    ∗ semVal (recvCell c (bwd c 14)) 0
    ∗ semVal (recvCell c (bwd c 15)) 0
    ∗ semVal (recvCell c c) 0
    ∗ owes (c : Thread nD τ) 0 W
    ∗ (oM.view.loc (c : Thread nD τ) ↦[oM.view.set]{fullShare} (Spec.outVal (X m ρ) c : Buf (Elt F) (oM.view.loc (c : Thread nD τ)))))

end Cert.KernelIdeal.Proto

end
-- ==== Proof.CtxIntro.lean ====
/-
  From what the pipeline hands a device's body at its one point to the explicit context the body's proof runs from.

  The pipeline's invariant before the point holds the device's ghost state packed: the records of every cell of every
  device (persistent), the device's positions, the tokens of the duties it pays and its launch credit as families over the
  other devices, the exchange buffer whole.  Here each family is listed — the other devices by their distance after the
  device (for what it pays into) or before it (for what it receives), the departures by their number —, each record the
  body uses is taken out of the persistent families, the exchange buffer is cut into its sixteen rows, and the pieces
  are put in the order the body uses them.
-/
import proofs.«900942_g7700000000000943_dist_mean_ax0_shard0_i_m1536_n768_v7x_i16_bf16_1_alg».proof.Proof.Ctx
import proofs.«900942_g7700000000000943_dist_mean_ax0_shard0_i_m1536_n768_v7x_i16_bf16_1_alg».proof.Proof.Rows

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

namespace CtxIntro

/-! ## Chains -/

/-- A list's chain continued by `Q`: `Φ a₁ ∗ ⋯ ∗ Φ aₙ ∗ Q`. -/
def chainQ {I : Type} (l : List I) (Φ : I → sProp 𝕄) (Q : sProp 𝕄) : sProp 𝕄 := l.foldr (fun a acc => iprop(Φ a ∗ acc)) Q

theorem chainQ_intro {I : Type} (l : List I) (Φ : I → sProp 𝕄) {P Q : sProp 𝕄} (h : P ⊢ Q) :
    iprop(bigSepL l Φ ∗ P) ⊢ chainQ l Φ Q := by
  induction l with
  | nil => exact BI.emp_sep_elim.trans h
  | cons a l ih =>
    rw [bigSepL_cons]
    exact BI.sep_assoc.trans (BI.sep_mono_r ih)

/-- A persistent assertion that yields every member yields the list's chain. -/
theorem bigSepL_of_persistent {I : Type} {R : sProp 𝕄} [BI.Persistent R] (l : List I) (Φ : I → sProp 𝕄) (h : ∀ i, R ⊢ Φ i) :
    R ⊢ bigSepL l Φ := by
  induction l with
  | nil => show R ⊢ iprop(emp); iintro -; iempintro
  | cons a l ih =>
    rw [bigSepL_cons]
    show R ⊢ iprop(Φ a ∗ bigSepL l Φ)
    iintro #H
    isplitr
    · iapply (h a); iexact H
    · iapply ih; iexact H

/-! ## The other devices, listed -/

/-- The fifteen other devices by their distance after `c`; by their distance before it; the fifteen departures. -/
def fwds (c : Dev nD) : List (Dev nD) := [fwd c 1, fwd c 2, fwd c 3, fwd c 4, fwd c 5, fwd c 6, fwd c 7, fwd c 8, fwd c 9, fwd c 10, fwd c 11, fwd c 12, fwd c 13, fwd c 14, fwd c 15]
def bwds (c : Dev nD) : List (Dev nD) := [bwd c 1, bwd c 2, bwd c 3, bwd c 4, bwd c 5, bwd c 6, bwd c 7, bwd c 8, bwd c 9, bwd c 10, bwd c 11, bwd c 12, bwd c 13, bwd c 14, bwd c 15]
def deps : List (Fin 16) := [1, 2, 3, 4, 5, 6, 7, 8, 9, 10, 11, 12, 13, 14, 15]

theorem fwds_nodup (c : Dev nD) : (fwds c).Nodup := by revert c; decide
theorem fwds_eq (c : Dev nD) : Finset.univ.erase c = (fwds c).toFinset := by revert c; decide
theorem bwds_nodup (c : Dev nD) : (bwds c).Nodup := by revert c; decide
theorem bwds_eq (c : Dev nD) : Finset.univ.erase c = (bwds c).toFinset := by revert c; decide
theorem deps_nodup : deps.Nodup := by decide
theorem deps_eq : Finset.univ.erase (0 : Fin 16) = deps.toFinset := by decide

theorem over_fwds (c : Dev nD) (Φ : Dev nD → sProp 𝕄) : bigSep (Finset.univ.erase c) Φ = bigSepL (fwds c) Φ :=
  bigSep_eq_bigSepL_of_eq (fwds c) (fwds_eq c) (fwds_nodup c) Φ
theorem over_bwds (c : Dev nD) (Φ : Dev nD → sProp 𝕄) : bigSep (Finset.univ.erase c) Φ = bigSepL (bwds c) Φ :=
  bigSep_eq_bigSepL_of_eq (bwds c) (bwds_eq c) (bwds_nodup c) Φ
theorem over_deps (Φ : Fin 16 → sProp 𝕄) : bigSep (Finset.univ.erase (0 : Fin 16)) Φ = bigSepL deps Φ :=
  bigSep_eq_bigSepL_of_eq deps deps_eq deps_nodup Φ

/-! ## A device's thirty-three cells: the barrier cell, the sixteen departures, the sixteen receive slots -/

theorem jS_injective : Function.Injective jS := fun a b h => by
  have h1 : 1 + a.val = 1 + b.val := congrArg Fin.val h
  exact Fin.ext (by omega)
theorem jR_injective : Function.Injective jR := fun a b h => by
  have h1 : 17 + a.val = 17 + b.val := congrArg Fin.val h
  exact Fin.ext (by omega)

theorem fin33_cover : (Finset.univ : Finset (Fin 33)) = insert 0 (Finset.univ.map ⟨jS, jS_injective⟩ ∪ Finset.univ.map ⟨jR, jR_injective⟩) := by
  ext j
  refine ⟨fun _ => ?_, fun _ => Finset.mem_univ j⟩
  rw [Finset.mem_insert, Finset.mem_union, Finset.mem_map, Finset.mem_map]
  have hj := j.isLt
  by_cases h0 : j.val = 0
  · exact Or.inl (Fin.ext h0)
  · by_cases h1 : j.val ≤ 16
    · exact Or.inr (Or.inl ⟨⟨j.val - 1, by omega⟩, Finset.mem_univ _, Fin.ext (by show 1 + (j.val - 1) = j.val; omega)⟩)
    · exact Or.inr (Or.inr ⟨⟨j.val - 17, by omega⟩, Finset.mem_univ _, Fin.ext (by show 17 + (j.val - 17) = j.val; omega)⟩)

theorem fin33_zero_notMem : (0 : Fin 33) ∉ Finset.univ.map ⟨jS, jS_injective⟩ ∪ Finset.univ.map ⟨jR, jR_injective⟩ := by
  rw [Finset.mem_union, Finset.mem_map, Finset.mem_map]
  rintro (⟨d, -, h⟩ | ⟨s, -, h⟩)
  · have : 1 + d.val = 0 := congrArg Fin.val h
    omega
  · have : 17 + s.val = 0 := congrArg Fin.val h
    omega

theorem fin33_disjoint : Disjoint (Finset.univ.map ⟨jS, jS_injective⟩) (Finset.univ.map ⟨jR, jR_injective⟩) := by
  rw [Finset.disjoint_left]
  intro j h1 h2
  obtain ⟨d, -, rfl⟩ := Finset.mem_map.mp h1
  obtain ⟨s, -, h⟩ := Finset.mem_map.mp h2
  have : 17 + s.val = 1 + d.val := congrArg Fin.val h
  have := d.isLt
  omega

theorem bigSep_fin33 (Φ : Fin 33 → sProp 𝕄) :
    bigSep Finset.univ Φ = iprop(Φ 0 ∗ (bigSep Finset.univ fun d : Fin 16 => Φ (jS d)) ∗ bigSep Finset.univ fun s : Fin 16 => Φ (jR s)) := by
  rw [fin33_cover, bigSep_insert fin33_zero_notMem, bigSep_union fin33_disjoint, bigSep_map, bigSep_map]
  rfl

/-! ## The records, cell by cell -/

variable (K : Dev nD × Fin 33 → ℕ)

/-- Every cell's invariant; every cell at round 0 or later. -/
abbrev invs : sProp 𝕄 := bigSep Finset.univ fun ck : Dev nD × Fin 33 => cellInv ER (Rd m ρ) (K ck) (kcell ck)
abbrev rchs : sProp 𝕄 := bigSep Finset.univ fun ck : Dev nD × Fin 33 => (reached ER (kcell ck) 0 : sProp 𝕄)

theorem inv_bar (p : Dev nD) : invs m ρ K ⊢ cellInv ER (Rd m ρ) (K (p, 0)) (barCell p) :=
  bigSep_elim (Finset.mem_univ ((p, 0) : Dev nD × Fin 33))
theorem inv_send (p : Dev nD) (d : Fin 16) : invs m ρ K ⊢ cellInv ER (Rd m ρ) (K (p, jS d)) (sendCell p d) := by
  have h : invs m ρ K ⊢ cellInv ER (Rd m ρ) (K (p, jS d)) (kcell (p, jS d)) := bigSep_elim (Finset.mem_univ ((p, jS d) : Dev nD × Fin 33))
  rwa [kcell_send] at h
theorem inv_recv (p : Dev nD) (s : Fin 16) : invs m ρ K ⊢ cellInv ER (Rd m ρ) (K (p, jR s)) (recvCell p s) := by
  have h : invs m ρ K ⊢ cellInv ER (Rd m ρ) (K (p, jR s)) (kcell (p, jR s)) := bigSep_elim (Finset.mem_univ ((p, jR s) : Dev nD × Fin 33))
  rwa [kcell_recv] at h

theorem rch_bar (p : Dev nD) : (rchs (F := F) : sProp 𝕄) ⊢ reached ER (barCell p) 0 :=
  bigSep_elim (Finset.mem_univ ((p, 0) : Dev nD × Fin 33))
theorem rch_send (p : Dev nD) (d : Fin 16) : (rchs (F := F) : sProp 𝕄) ⊢ reached ER (sendCell p d) 0 := by
  have h : (rchs (F := F) : sProp 𝕄) ⊢ reached ER (kcell (p, jS d)) 0 := bigSep_elim (Finset.mem_univ ((p, jS d) : Dev nD × Fin 33))
  rwa [kcell_send] at h
theorem rch_recv (p : Dev nD) (s : Fin 16) : (rchs (F := F) : sProp 𝕄) ⊢ reached ER (recvCell p s) 0 := by
  have h : (rchs (F := F) : sProp 𝕄) ⊢ reached ER (kcell (p, jR s)) 0 := bigSep_elim (Finset.mem_univ ((p, jR s) : Dev nD × Fin 33))
  rwa [kcell_recv] at h

/-! ## The families, listed -/

theorem payToks_list (c : Dev nD) :
    (payToks c : sProp 𝕄) = iprop(bigSepL (fwds c) (fun p : Dev nD => dutyTok ER (barCell p) 0 c)
      ∗ bigSepL (fwds c) (fun p : Dev nD => dutyTok ER (recvCell p c) 0 c)
      ∗ bigSepL deps (fun d : Fin 16 => dutyTok ER (sendCell c d) 0 c)) := by
  unfold payToks
  rw [over_fwds c (fun p : Dev nD => (dutyTok ER (barCell p) 0 c : sProp 𝕄)), over_fwds c (fun p : Dev nD => (dutyTok ER (recvCell p c) 0 c : sProp 𝕄)),
    over_deps (fun d : Fin 16 => (dutyTok ER (sendCell c d) 0 c : sProp 𝕄))]

theorem creds_list (c : Dev nD) :
    (creds c : sProp 𝕄) = iprop(cred (tallyAt (barCell c) () 15) ∗ bigSepL (bwds c) (fun s : Dev nD => cred (tallyAt (recvCell c s) () N))) := by
  unfold creds
  rw [over_bwds c (fun s : Dev nD => (cred (tallyAt (recvCell c s) () N) : sProp 𝕄))]

theorem atPos_list (c : Dev nD) :
    (bigSep Finset.univ fun j : Fin 33 => (atPos ER (kcell (c, j)) 0 ∅ 0 : sProp 𝕄))
      = iprop(atPos ER (barCell c) 0 ∅ 0
          ∗ (atPos ER (sendCell c 0) 0 ∅ 0 ∗ bigSepL deps (fun d : Fin 16 => atPos ER (sendCell c d) 0 ∅ 0))
          ∗ (atPos ER (recvCell c c) 0 ∅ 0 ∗ bigSepL (bwds c) (fun s : Dev nD => atPos ER (recvCell c s) 0 ∅ 0))) := by
  rw [bigSep_fin33 (fun j : Fin 33 => (atPos ER (kcell (c, j)) 0 ∅ 0 : sProp 𝕄))]
  have e1 : (fun d : Fin 16 => (atPos ER (kcell (c, jS d)) 0 ∅ 0 : sProp 𝕄)) = fun d : Fin 16 => atPos ER (sendCell c d) 0 ∅ 0 :=
    funext fun d => by rw [kcell_send]
  have e2 : (fun s : Fin 16 => (atPos ER (kcell (c, jR s)) 0 ∅ 0 : sProp 𝕄)) = fun s : Fin 16 => atPos ER (recvCell c s) 0 ∅ 0 :=
    funext fun s => by rw [kcell_recv]
  rw [e1, e2, bigSep_univ_at (fun d : Fin 16 => (atPos ER (sendCell c d) 0 ∅ 0 : sProp 𝕄)) (0 : Fin 16),
    bigSep_univ_at (fun s : Fin 16 => (atPos ER (recvCell c s) 0 ∅ 0 : sProp 𝕄)) c,
    over_deps (fun d : Fin 16 => (atPos ER (sendCell c d) 0 ∅ 0 : sProp 𝕄)), over_bwds c (fun s : Dev nD => (atPos ER (recvCell c s) 0 ∅ 0 : sProp 𝕄))]
  rfl

theorem rows_list (c : Dev nD) (f : Buf (Elt F) (aM.view.loc (c : Thread nD τ))) :
    (aM.view.loc (c : Thread nD τ) ↦[aM.view.set]{fullShare} f : sProp 𝕄)
      = iprop(((rowM c).view.loc (c : Thread nD τ) ↦[(rowM c).view.set]{fullShare} f)
          ∗ bigSepL (fwds c) (fun s : Dev nD => ((rowM s).view.loc (c : Thread nD τ) ↦[(rowM s).view.set]{fullShare} f : sProp 𝕄))) := by
  rw [rows_split c fullShare f, bigSep_univ_at (fun s : Dev nD => ((rowM s).view.loc (c : Thread nD τ) ↦[(rowM s).view.set]{fullShare} f : sProp 𝕄)) c,
    over_fwds c (fun s : Dev nD => ((rowM s).view.loc (c : Thread nD τ) ↦[(rowM s).view.set]{fullShare} f : sProp 𝕄))]

/-! ## The context, by families -/

/-- The body's context with each family as a list's chain, in the context's order. -/
def groups (c : Dev nD) (W : Waits sig Unit) (f : Buf (Elt F) (aM.view.loc (c : Thread nD τ))) (fb : Buf (Elt F) (bM.view.loc (c : Thread nD τ)))
    (fo : Buf (Elt F) (oM.view.loc (c : Thread nD τ))) : sProp 𝕄 :=
  iprop(cellInv ER (Rd m ρ) (K (c, 0)) (barCell c)
    ∗ bigSepL (fwds c) (fun p : Dev nD => cellInv ER (Rd m ρ) (K (p, 0)) (barCell p))
    ∗ bigSepL deps (fun d : Fin 16 => cellInv ER (Rd m ρ) (K (c, jS d)) (sendCell c d))
    ∗ bigSepL (fwds c) (fun p : Dev nD => cellInv ER (Rd m ρ) (K (p, jR c)) (recvCell p c))
    ∗ bigSepL (bwds c) (fun s : Dev nD => cellInv ER (Rd m ρ) (K (c, jR s)) (recvCell c s))
    ∗ bigSepL (fwds c) (fun p : Dev nD => reached ER (barCell p) 0)
    ∗ bigSepL deps (fun d : Fin 16 => reached ER (sendCell c d) 0)
    ∗ bigSepL (fwds c) (fun p : Dev nD => reached ER (recvCell p c) 0)
    ∗ levAts L lv
    ∗ bigSepL (fwds c) (fun p : Dev nD => dutyTok ER (barCell p) 0 c)
    ∗ bigSepL deps (fun d : Fin 16 => dutyTok ER (sendCell c d) 0 c)
    ∗ bigSepL (fwds c) (fun p : Dev nD => dutyTok ER (recvCell p c) 0 c)
    ∗ atPos ER (barCell c) 0 ∅ 0
    ∗ bigSepL deps (fun d : Fin 16 => atPos ER (sendCell c d) 0 ∅ 0)
    ∗ bigSepL (bwds c) (fun s : Dev nD => atPos ER (recvCell c s) 0 ∅ 0)
    ∗ cred (tallyAt (barCell c) () 15)
    ∗ bigSepL (bwds c) (fun s : Dev nD => cred (tallyAt (recvCell c s) () N))
    ∗ owes (c : Thread nD τ) (O₀ c) W
    ∗ semVal ((c : Thread nD τ), .dma copySem) 0
    ∗ (xM.view.loc (c : Thread nD τ) ↦[xM.view.set]{fullShare} X m ρ c)
    ∗ (bM.view.loc (c : Thread nD τ) ↦[bM.view.set]{fullShare} fb)
    ∗ bigSepL (fwds c) (fun s : Dev nD => ((rowM s).view.loc (c : Thread nD τ) ↦[(rowM s).view.set]{fullShare} f : sProp 𝕄))
    ∗ ((rowM c).view.loc (c : Thread nD τ) ↦[(rowM c).view.set]{fullShare} f)
    ∗ (oM.view.loc (c : Thread nD τ) ↦[oM.view.set]{fullShare} fo)
    ∗ cellInv ER (Rd m ρ) (K (c, jS 0)) (sendCell c 0)
    ∗ cellInv ER (Rd m ρ) (K (c, jR c)) (recvCell c c)
    ∗ atPos ER (sendCell c 0) 0 ∅ 0
    ∗ atPos ER (recvCell c c) 0 ∅ 0)

set_option maxRecDepth 8000 in
theorem groups_ctx (c : Dev nD) (W : Waits sig Unit) (f : Buf (Elt F) (aM.view.loc (c : Thread nD τ))) (fb : Buf (Elt F) (bM.view.loc (c : Thread nD τ)))
    (fo : Buf (Elt F) (oM.view.loc (c : Thread nD τ))) :
    groups m ρ K c W f fb fo ⊢ bodyCtx m ρ K c W f f f f f f f f f f f f f f f f fb fo := by
  unfold groups bodyCtx
  refine BI.sep_mono_r (chainQ_intro _ _ (chainQ_intro _ _ (chainQ_intro _ _ (chainQ_intro _ _ (chainQ_intro _ _ (chainQ_intro _ _ (chainQ_intro _ _
    (BI.sep_mono_r (chainQ_intro _ _ (chainQ_intro _ _ (chainQ_intro _ _ (BI.sep_mono_r (chainQ_intro _ _ (chainQ_intro _ _ (BI.sep_mono_r (chainQ_intro _ _
      (BI.sep_mono_r (BI.sep_mono_r (BI.sep_mono_r (BI.sep_mono_r (chainQ_intro _ _ (BI.Entails.refl _))))))))))))))))))))))

end CtxIntro

open CtxIntro

/-- The result's staging buffer, whole: the points-to of the whole buffer. -/
theorem oPts_eq (c : Dev nD) (fo : Buf (Elt F) (oM.view.loc (c : Thread nD τ))) :
    (oM.view.loc (c : Thread nD τ) ↦[oM.view.set]{fullShare} fo : sProp 𝕄) = (((c : Thread nD τ).loc cc0_stg0_0) ↦{fullShare} fo) := by
  rw [show (oM : Memref sig .tc .vmem S1x768 .f32).view.set = Finset.univ from View.set_whole _]

/-- What the pipeline hands the body at its one point, unpacked into the body's context. -/
theorem ctx_intro (c : Dev nD) (d : (cfg0.win (0 : Fin 1)).block.Idx → Elt F (cfg0.win (0 : Fin 1)).elt) :
    iprop(Φ₀ m ρ c ∗ (dats m ρ 0 c).owesAt () Gen.t0_0.castSucc
        ∗ (∃ f : Buf (Elt F) (((c : Dev nD) : Thread nD τ).loc cc0_stg0_0), ⌜f = (dats m ρ 0 c).before (0 : Fin 1) Gen.t0_0 d⌝ ∗ (((c : Thread nD τ).loc cc0_stg0_0) ↦{fullShare} f)))
      ⊢ (iprop(∃ K W f1 f2 f3 f4 f5 f6 f7 f8 f9 f10 f11 f12 f13 f14 f15 f0 fb fo, bodyCtx m ρ K c W f1 f2 f3 f4 f5 f6 f7 f8 f9 f10 f11 f12 f13 f14 f15 f0 fb fo) : sProp 𝕄) := by
  unfold Φ₀ start scratch ghost records linear
  rw [payToks_list, creds_list, atPos_list]
  unfold xPts Dat.owesAt Pipeline.owesWithin
  rw [show (dats m ρ 0 c).owed Gen.t0_0.castSucc = O₀ c from rfl]
  iintro ⟨⟨⟨⟨%K, ⟨#HI, #HR⟩, ⟨HaB, ⟨HaS0, HaS⟩, HaR0, HaR⟩, ⟨HtB, HtR, HtS⟩, Hcp⟩, ⟨HcB, HcR⟩, #Hlev, Hx⟩, ⟨%fb, Hb⟩, ⟨%fa, Ha⟩⟩, ⟨%W, %hW, HO⟩, ⟨%fo, %hfo, Ho⟩⟩
  ihave Hrows := (Entails.of_eq (rows_list c fa)) $$ Ha
  icases Hrows with ⟨Hr0, Hrs⟩
  ihave Ho' := (Entails.of_eq (oPts_eq c fo).symm) $$ Ho
  iexists K; iexists W
  iexists fa; iexists fa; iexists fa; iexists fa; iexists fa; iexists fa; iexists fa; iexists fa; iexists fa; iexists fa; iexists fa; iexists fa; iexists fa; iexists fa; iexists fa
  iexists fa; iexists fb; iexists fo
  iapply (groups_ctx m ρ K c W fa fb fo)
  unfold groups
  isplitr; · iapply (inv_bar m ρ K c); iexact HI
  isplitr; · iapply (bigSepL_of_persistent (R := invs m ρ K) (fwds c) _ fun p => inv_bar m ρ K p); iexact HI
  isplitr; · iapply (bigSepL_of_persistent (R := invs m ρ K) deps _ fun d => inv_send m ρ K c d); iexact HI
  isplitr; · iapply (bigSepL_of_persistent (R := invs m ρ K) (fwds c) _ fun p => inv_recv m ρ K p c); iexact HI
  isplitr; · iapply (bigSepL_of_persistent (R := invs m ρ K) (bwds c) _ fun s => inv_recv m ρ K c s); iexact HI
  isplitr; · iapply (bigSepL_of_persistent (R := rchs (F := F)) (fwds c) _ fun p => rch_bar p); iexact HR
  isplitr; · iapply (bigSepL_of_persistent (R := rchs (F := F)) deps _ fun d => rch_send c d); iexact HR
  isplitr; · iapply (bigSepL_of_persistent (R := rchs (F := F)) (fwds c) _ fun p => rch_recv p c); iexact HR
  isplitr; · iexact Hlev
  isplitl [HtB]; · iexact HtB
  isplitl [HtS]; · iexact HtS
  isplitl [HtR]; · iexact HtR
  isplitl [HaB]; · iexact HaB
  isplitl [HaS]; · iexact HaS
  isplitl [HaR]; · iexact HaR
  isplitl [HcB]; · iexact HcB
  isplitl [HcR]; · iexact HcR
  isplitl [HO]; · iexact HO
  isplitl [Hcp]; · iexact Hcp
  isplitl [Hx]; · iexact Hx
  isplitl [Hb]; · iexact Hb
  isplitl [Hrs]; · iexact Hrs
  isplitl [Hr0]; · iexact Hr0
  isplitl [Ho']; · iexact Ho'
  isplitr; · iapply (inv_send m ρ K c 0); iexact HI
  isplitr; · iapply (inv_recv m ρ K c c); iexact HI
  isplitl [HaS0]; · iexact HaS0
  iexact HaR0

set_option maxRecDepth 20000 in
/-- The library's body obligation on device `c`, from the body's run out of its explicit context. -/
theorem body_obligation_of
    (hrun : ∀ (c : Dev nD) K W f1 f2 f3 f4 f5 f6 f7 f8 f9 f10 f11 f12 f13 f14 f15 f0 fb fo (Kt : PUnit → sProp 𝕄),
      iprop(bodyCtx m ρ K c W f1 f2 f3 f4 f5 f6 f7 f8 f9 f10 f11 f12 f13 f14 f15 f0 fb fo ∗ (bodyPost m ρ c -∗ Kt ⟨⟩))
        ⊢ wp frame (wpE (defs₀ (F := F)) 𝒱₀ (c : Thread nD τ) none) Set.univ
            (cc0_body (F := F) (Memref.whole main_arg0) (Memref.isWhole_whole _) (Memref.whole cc0_stg0_0) (Memref.isWhole_whole _)
              (Memref.whole cc0_scratch0) (Memref.isWhole_whole _) cc0_scratch1 (Memref.whole cc0_scratch2) (Memref.isWhole_whole _) cc0_scratch3 cc0_scratch4) Kt) :
    ∀ c, BodyObligation (dats (F := F) m ρ 0 c) (defs₀ (F := F)) 𝒱₀ () Set.univ := fun c t => by
  rw [fin_N0 t]
  rw [bigSep_W0, bigSep_W0]
  simp only [owns_whole_eq]
  show iprop(Φ₀ m ρ c ∗ (dats m ρ 0 c).owesAt () Gen.t0_0.castSucc
      ∗ (∃ d, ∃ f : Buf (Elt F) (((c : Dev nD) : Thread nD τ).loc cc0_stg0_0), ⌜f = (dats m ρ 0 c).before (0 : Fin 1) Gen.t0_0 d⌝ ∗ (((c : Thread nD τ).loc cc0_stg0_0) ↦{fullShare} f)))
    ⊢ wp frame (wpE (defs₀ (F := F)) 𝒱₀ c none) Set.univ
      (cc0_body (F := F) (Memref.whole main_arg0) (Memref.isWhole_whole _) (Memref.whole cc0_stg0_0) (Memref.isWhole_whole _)
        (Memref.whole cc0_scratch0) (Memref.isWhole_whole _) cc0_scratch1 (Memref.whole cc0_scratch2) (Memref.isWhole_whole _) cc0_scratch3 cc0_scratch4) (fun _ => bodyPost m ρ c)
  iintro ⟨HΦ, Ho, ⟨%d, Hx⟩⟩
  ihave H := (ctx_intro m ρ c d) $$ [HΦ Ho Hx]
  · isplitl [HΦ]; · iexact HΦ
    isplitl [Ho]; · iexact Ho
    iexact Hx
  icases H with ⟨%K, %W, %f1, %f2, %f3, %f4, %f5, %f6, %f7, %f8, %f9, %f10, %f11, %f12, %f13, %f14, %f15, %f0, %fb, %fo, H⟩
  iapply (hrun c K W f1 f2 f3 f4 f5 f6 f7 f8 f9 f10 f11 f12 f13 f14 f15 f0 fb fo fun _ => bodyPost m ρ c)
  isplitl [H]; · iexact H
  iintro H; iexact H

/-- info: 'Cert.KernelIdeal.Proto.ctx_intro' depends on axioms: [propext, Classical.choice, Quot.sound] -/
#guard_msgs in #print axioms ctx_intro

/-- info: 'Cert.KernelIdeal.Proto.body_obligation_of' depends on axioms: [propext, Classical.choice, Quot.sound] -/
#guard_msgs in #print axioms body_obligation_of

end Cert.KernelIdeal.Proto

end
-- ==== Proof.PostIntro.lean ====
/-
  What the body's run leaves on a device is what the pipeline wants back from it: the device's own row is joined from
  the shares its transfers read it through, the exchange buffer from that row and the fifteen rows received (going back
  from a device one place at a time meets every device once), the thirty-three own semaphores are the local copy's, the
  sixteen departures' and the sixteen receive slots', nothing is owed, and the staging buffer holds the kernel's value.
-/
import proofs.«900942_g7700000000000943_dist_mean_ax0_shard0_i_m1536_n768_v7x_i16_bf16_1_alg».proof.Proof.Ctx
import proofs.«900942_g7700000000000943_dist_mean_ax0_shard0_i_m1536_n768_v7x_i16_bf16_1_alg».proof.Proof.Rows

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

/-! ## The device's own row, from its read shares -/

/-- The remainder of the device's own row and the sixteen shares its transfers read it through, all at the canonical
    contents, are the row held outright. -/
theorem own_row_join (c : Dev nD) :
    (iprop(((rowM c).view.loc (c : Thread nD τ) ↦[(rowM c).view.set]{Transfers.shareDrop fullShare 16} rowBuf m ρ c)
      ∗ ((rowM c).view.loc (c : Thread nD τ) ↦[(rowM c).view.set]{Transfers.shareTok fullShare 16 0} rowBuf m ρ c)
      ∗ ((rowM c).view.loc (c : Thread nD τ) ↦[(rowM c).view.set]{Transfers.shareTok fullShare 16 1} rowBuf m ρ c)
      ∗ ((rowM c).view.loc (c : Thread nD τ) ↦[(rowM c).view.set]{Transfers.shareTok fullShare 16 2} rowBuf m ρ c)
      ∗ ((rowM c).view.loc (c : Thread nD τ) ↦[(rowM c).view.set]{Transfers.shareTok fullShare 16 3} rowBuf m ρ c)
      ∗ ((rowM c).view.loc (c : Thread nD τ) ↦[(rowM c).view.set]{Transfers.shareTok fullShare 16 4} rowBuf m ρ c)
      ∗ ((rowM c).view.loc (c : Thread nD τ) ↦[(rowM c).view.set]{Transfers.shareTok fullShare 16 5} rowBuf m ρ c)
      ∗ ((rowM c).view.loc (c : Thread nD τ) ↦[(rowM c).view.set]{Transfers.shareTok fullShare 16 6} rowBuf m ρ c)
      ∗ ((rowM c).view.loc (c : Thread nD τ) ↦[(rowM c).view.set]{Transfers.shareTok fullShare 16 7} rowBuf m ρ c)
      ∗ ((rowM c).view.loc (c : Thread nD τ) ↦[(rowM c).view.set]{Transfers.shareTok fullShare 16 8} rowBuf m ρ c)
      ∗ ((rowM c).view.loc (c : Thread nD τ) ↦[(rowM c).view.set]{Transfers.shareTok fullShare 16 9} rowBuf m ρ c)
      ∗ ((rowM c).view.loc (c : Thread nD τ) ↦[(rowM c).view.set]{Transfers.shareTok fullShare 16 10} rowBuf m ρ c)
      ∗ ((rowM c).view.loc (c : Thread nD τ) ↦[(rowM c).view.set]{Transfers.shareTok fullShare 16 11} rowBuf m ρ c)
      ∗ ((rowM c).view.loc (c : Thread nD τ) ↦[(rowM c).view.set]{Transfers.shareTok fullShare 16 12} rowBuf m ρ c)
      ∗ ((rowM c).view.loc (c : Thread nD τ) ↦[(rowM c).view.set]{Transfers.shareTok fullShare 16 13} rowBuf m ρ c)
      ∗ ((rowM c).view.loc (c : Thread nD τ) ↦[(rowM c).view.set]{Transfers.shareTok fullShare 16 14} rowBuf m ρ c)
      ∗ ((rowM c).view.loc (c : Thread nD τ) ↦[(rowM c).view.set]{Transfers.shareTok fullShare 16 15} rowBuf m ρ c)) : sProp 𝕄)
      ⊢ ((rowM c).view.loc (c : Thread nD τ) ↦[(rowM c).view.set]{fullShare} rowBuf m ρ c) := by
  have h := Transfers.pointsTo_toks_join (Ix := Unit) (Name := ℕ) (U := UU) (Lvl := ℕ)
    (ℓ := (rowM c).view.loc (c : Thread nD τ)) (S := (rowM c).view.set) (f := rowBuf m ρ c) fullShare 16
  rw [bigSep_univ_eq_bigSepL [(0 : Fin 16), 1, 2, 3, 4, 5, 6, 7, 8, 9, 10, 11, 12, 13, 14, 15] (by decide) (by decide)] at h
  exact h

/-! ## The exchange buffer, from its sixteen rows -/

theorem dev_list (c : Dev nD) : (Finset.univ : Finset (Dev nD)) = ([c, bwd c 1, bwd c 2, bwd c 3, bwd c 4, bwd c 5, bwd c 6, bwd c 7, bwd c 8, bwd c 9, bwd c 10, bwd c 11, bwd c 12, bwd c 13, bwd c 14, bwd c 15]).toFinset := by
  revert c; decide
theorem dev_list_nodup (c : Dev nD) : ([c, bwd c 1, bwd c 2, bwd c 3, bwd c 4, bwd c 5, bwd c 6, bwd c 7, bwd c 8, bwd c 9, bwd c 10, bwd c 11, bwd c 12, bwd c 13, bwd c 14, bwd c 15]).Nodup := by
  revert c; decide

/-- The device's own row and the rows of the fifteen devices before it, each held outright, are the exchange buffer
    held outright at some contents: going back from `c` one place at a time meets every device once. -/
theorem rows16_join (c : Dev nD) :
    (iprop(((rowM (c)).view.loc (c : Thread nD τ) ↦[(rowM (c)).view.set]{fullShare} rowBuf m ρ (c))
      ∗ ((rowM (bwd c 1)).view.loc (c : Thread nD τ) ↦[(rowM (bwd c 1)).view.set]{fullShare} rowBuf m ρ (bwd c 1))
      ∗ ((rowM (bwd c 2)).view.loc (c : Thread nD τ) ↦[(rowM (bwd c 2)).view.set]{fullShare} rowBuf m ρ (bwd c 2))
      ∗ ((rowM (bwd c 3)).view.loc (c : Thread nD τ) ↦[(rowM (bwd c 3)).view.set]{fullShare} rowBuf m ρ (bwd c 3))
      ∗ ((rowM (bwd c 4)).view.loc (c : Thread nD τ) ↦[(rowM (bwd c 4)).view.set]{fullShare} rowBuf m ρ (bwd c 4))
      ∗ ((rowM (bwd c 5)).view.loc (c : Thread nD τ) ↦[(rowM (bwd c 5)).view.set]{fullShare} rowBuf m ρ (bwd c 5))
      ∗ ((rowM (bwd c 6)).view.loc (c : Thread nD τ) ↦[(rowM (bwd c 6)).view.set]{fullShare} rowBuf m ρ (bwd c 6))
      ∗ ((rowM (bwd c 7)).view.loc (c : Thread nD τ) ↦[(rowM (bwd c 7)).view.set]{fullShare} rowBuf m ρ (bwd c 7))
      ∗ ((rowM (bwd c 8)).view.loc (c : Thread nD τ) ↦[(rowM (bwd c 8)).view.set]{fullShare} rowBuf m ρ (bwd c 8))
      ∗ ((rowM (bwd c 9)).view.loc (c : Thread nD τ) ↦[(rowM (bwd c 9)).view.set]{fullShare} rowBuf m ρ (bwd c 9))
      ∗ ((rowM (bwd c 10)).view.loc (c : Thread nD τ) ↦[(rowM (bwd c 10)).view.set]{fullShare} rowBuf m ρ (bwd c 10))
      ∗ ((rowM (bwd c 11)).view.loc (c : Thread nD τ) ↦[(rowM (bwd c 11)).view.set]{fullShare} rowBuf m ρ (bwd c 11))
      ∗ ((rowM (bwd c 12)).view.loc (c : Thread nD τ) ↦[(rowM (bwd c 12)).view.set]{fullShare} rowBuf m ρ (bwd c 12))
      ∗ ((rowM (bwd c 13)).view.loc (c : Thread nD τ) ↦[(rowM (bwd c 13)).view.set]{fullShare} rowBuf m ρ (bwd c 13))
      ∗ ((rowM (bwd c 14)).view.loc (c : Thread nD τ) ↦[(rowM (bwd c 14)).view.set]{fullShare} rowBuf m ρ (bwd c 14))
      ∗ ((rowM (bwd c 15)).view.loc (c : Thread nD τ) ↦[(rowM (bwd c 15)).view.set]{fullShare} rowBuf m ρ (bwd c 15))) : sProp 𝕄)
      ⊢ (∃ f, aM.view.loc (c : Thread nD τ) ↦[aM.view.set]{fullShare} f : sProp 𝕄) := by
  have h := rows_join (F := F) c (fun s => rowBuf m ρ s)
  rw [bigSep_univ_eq_bigSepL [c, bwd c 1, bwd c 2, bwd c 3, bwd c 4, bwd c 5, bwd c 6, bwd c 7, bwd c 8, bwd c 9, bwd c 10, bwd c 11, bwd c 12, bwd c 13, bwd c 14, bwd c 15] (dev_list c) (dev_list_nodup c)] at h
  exact h

/-! ## The kernel's own semaphores -/

/-- Own semaphore `1 + d` is the departure cell `d`'s, -/
theorem sem_send (c : Dev nD) (d : Fin 16) :
    (semVal ((c : Thread nD τ), osem (jS d)) 0 : sProp 𝕄) = semVal (sendCell c d) 0 := by
  rw [osem_pos (jS d) (by show 1 + d.val ≠ 0; omega), ← kcell_send]
/-- own semaphore `17 + s` the receive cell of slot `s`'s. -/
theorem sem_recv (c : Dev nD) (s : Fin 16) :
    (semVal ((c : Thread nD τ), osem (jR s)) 0 : sProp 𝕄) = semVal (recvCell c s) 0 := by
  rw [osem_pos (jR s) (by show 17 + s.val ≠ 0; omega), ← kcell_recv]

theorem sem_list (c : Dev nD) : (Finset.univ : Finset (Fin 33)) = ([(0 : Fin 33), jS 0, jS 1, jS 2, jS 3, jS 4, jS 5, jS 6, jS 7, jS 8, jS 9, jS 10, jS 11, jS 12, jS 13, jS 14, jS 15, jR (bwd c 1), jR (bwd c 2), jR (bwd c 3), jR (bwd c 4), jR (bwd c 5), jR (bwd c 6), jR (bwd c 7), jR (bwd c 8), jR (bwd c 9), jR (bwd c 10), jR (bwd c 11), jR (bwd c 12), jR (bwd c 13), jR (bwd c 14), jR (bwd c 15), jR c]).toFinset := by
  revert c; decide
theorem sem_list_nodup (c : Dev nD) : ([(0 : Fin 33), jS 0, jS 1, jS 2, jS 3, jS 4, jS 5, jS 6, jS 7, jS 8, jS 9, jS 10, jS 11, jS 12, jS 13, jS 14, jS 15, jR (bwd c 1), jR (bwd c 2), jR (bwd c 3), jR (bwd c 4), jR (bwd c 5), jR (bwd c 6), jR (bwd c 7), jR (bwd c 8), jR (bwd c 9), jR (bwd c 10), jR (bwd c 11), jR (bwd c 12), jR (bwd c 13), jR (bwd c 14), jR (bwd c 15), jR c]).Nodup := by
  revert c; decide

/-- The local copy's semaphore, the sixteen departure semaphores and the sixteen receive semaphores — the slots of the
    fifteen devices before `c` and `c`'s own — are the device's thirty-three own semaphores. -/
theorem sems33 (c : Dev nD) :
    (iprop(semVal ((c : Thread nD τ), .dma copySem) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (sendCell c 7) 0
      ∗ semVal (sendCell c 8) 0
      ∗ semVal (sendCell c 9) 0
      ∗ semVal (sendCell c 10) 0
      ∗ semVal (sendCell c 11) 0
      ∗ semVal (sendCell c 12) 0
      ∗ semVal (sendCell c 13) 0
      ∗ semVal (sendCell c 14) 0
      ∗ semVal (sendCell c 15) 0
      ∗ semVal (recvCell c (bwd c 1)) 0
      ∗ semVal (recvCell c (bwd c 2)) 0
      ∗ semVal (recvCell c (bwd c 3)) 0
      ∗ semVal (recvCell c (bwd c 4)) 0
      ∗ semVal (recvCell c (bwd c 5)) 0
      ∗ semVal (recvCell c (bwd c 6)) 0
      ∗ semVal (recvCell c (bwd c 7)) 0
      ∗ semVal (recvCell c (bwd c 8)) 0
      ∗ semVal (recvCell c (bwd c 9)) 0
      ∗ semVal (recvCell c (bwd c 10)) 0
      ∗ semVal (recvCell c (bwd c 11)) 0
      ∗ semVal (recvCell c (bwd c 12)) 0
      ∗ semVal (recvCell c (bwd c 13)) 0
      ∗ semVal (recvCell c (bwd c 14)) 0
      ∗ semVal (recvCell c (bwd c 15)) 0
      ∗ semVal (recvCell c c) 0) : sProp 𝕄)
      ⊢ bigSep Finset.univ fun j : Fin 33 => semVal ((c : Thread nD τ), osem j) 0 := by
  rw [bigSep_univ_eq_bigSepL [(0 : Fin 33), jS 0, jS 1, jS 2, jS 3, jS 4, jS 5, jS 6, jS 7, jS 8, jS 9, jS 10, jS 11, jS 12, jS 13, jS 14, jS 15, jR (bwd c 1), jR (bwd c 2), jR (bwd c 3), jR (bwd c 4), jR (bwd c 5), jR (bwd c 6), jR (bwd c 7), jR (bwd c 8), jR (bwd c 9), jR (bwd c 10), jR (bwd c 11), jR (bwd c 12), jR (bwd c 13), jR (bwd c 14), jR (bwd c 15), jR c] (sem_list c) (sem_list_nodup c)]
  simp only [bigSepL_cons_cons, bigSepL_singleton, sem_send, sem_recv, osem_zero]
  exact .rfl

/-! ## The result's staging buffer -/

/-- The staging buffer through its whole view is the staging buffer. -/
theorem out_eq (c : Dev nD) (v : Buf (Elt F) (oM.view.loc (c : Thread nD τ))) :
    (oM.view.loc (c : Thread nD τ) ↦[oM.view.set]{fullShare} v : sProp 𝕄)
      = (((c : Thread nD τ).loc cc0_stg0_0) ↦{fullShare} v) := by
  rw [View.set_whole]

/-! ## What the body leaves is what the pipeline wants back -/

/-- The block as it was; the two scratch buffers whole again (the exchange buffer from the device's own row, joined from
    its shares, and the fifteen rows received); the thirty-three own semaphores at zero; nothing owed; the staging buffer at
    the kernel's value. -/
theorem post_intro (c : Dev nD) (W : Waits sig Unit) (fb : Buf (Elt F) (bM.view.loc (c : Thread nD τ))) :
    bodyEnd m ρ c W fb ⊢ bodyPost m ρ c := by
  unfold bodyEnd bodyPost Φ₁ scratch xPts Dat.owesAt Pipeline.owesWithin
  rw [show (dats m ρ 0 c).owed Gen.t0_0.succ = 0 from rfl]
  iintro ⟨Hx, Hb, Hd, Ht0, Ht1, Ht2, Ht3, Ht4, Ht5, Ht6, Ht7, Ht8, Ht9, Ht10, Ht11, Ht12, Ht13, Ht14, Ht15, Hr1, Hr2, Hr3, Hr4, Hr5, Hr6, Hr7, Hr8, Hr9, Hr10, Hr11, Hr12, Hr13, Hr14, Hr15, Hcs, Hs0, Hs1, Hs2, Hs3, Hs4, Hs5, Hs6, Hs7, Hs8, Hs9, Hs10, Hs11, Hs12, Hs13, Hs14, Hs15, Hv1, Hv2, Hv3, Hv4, Hv5, Hv6, Hv7, Hv8, Hv9, Hv10, Hv11, Hv12, Hv13, Hv14, Hv15, Hvc, HO, Hout⟩
  ihave Hown := (own_row_join m ρ c) $$ [Hd Ht0 Ht1 Ht2 Ht3 Ht4 Ht5 Ht6 Ht7 Ht8 Ht9 Ht10 Ht11 Ht12 Ht13 Ht14 Ht15]
  · iframe
  ihave Ha := (rows16_join m ρ c) $$ [Hown Hr1 Hr2 Hr3 Hr4 Hr5 Hr6 Hr7 Hr8 Hr9 Hr10 Hr11 Hr12 Hr13 Hr14 Hr15]
  · iframe
  ihave Hsem := (sems33 (F := F) c) $$ [Hcs Hs0 Hs1 Hs2 Hs3 Hs4 Hs5 Hs6 Hs7 Hs8 Hs9 Hs10 Hs11 Hs12 Hs13 Hs14 Hs15 Hv1 Hv2 Hv3 Hv4 Hv5 Hv6 Hv7 Hv8 Hv9 Hv10 Hv11 Hv12 Hv13 Hv14 Hv15 Hvc]
  · iframe
  ihave Hout' := (Entails.of_eq (out_eq c _)) $$ Hout
  isplitl [Hx Hb Ha Hsem]
  · isplitl [Hx]; · iexact Hx
    isplitl [Hb Ha]
    · isplitl [Hb]; · iexists fb; iexact Hb
      iexact Ha
    iexact Hsem
  isplitl [HO]
  · iexists W
    isplitr; · ipureintro; exact fun _ _ => Or.inl trivial
    iexact HO
  iexists _
  isplitr; · ipureintro; rfl
  iexact Hout'

end Cert.KernelIdeal.Proto

end
-- ==== Proof.Body.lean ====
/-
  One device's body under the exchange protocol.

  The run, in the kernel's order: the fifteen barrier units (each hands the target device one row of this device's
  exchange buffer); the block copied to vector memory and summed over its rows into the device's own row; the wait for
  fifteen units on the device's own barrier cell, which brings row `c` of every other device's buffer; the fifteen
  addressed transfers of the own row, each lending one of sixteen read shares of it and landing the canonical contents
  in the target's row; the fifteen receive waits, each followed by the load of the row that landed and one addition;
  the product with the named constant stored into the result's staging buffer; the fifteen departure waits, which bring
  the read shares back. Afterwards the device's own cells close, and the rows and shares are put together again.
-/
import proofs.«900942_g7700000000000943_dist_mean_ax0_shard0_i_m1536_n768_v7x_i16_bf16_1_alg».proof.Proof.Proto
import proofs.«900942_g7700000000000943_dist_mean_ax0_shard0_i_m1536_n768_v7x_i16_bf16_1_alg».proof.Proof.Rows
import proofs.«900942_g7700000000000943_dist_mean_ax0_shard0_i_m1536_n768_v7x_i16_bf16_1_alg».proof.Proof.Launch
import proofs.«900942_g7700000000000943_dist_mean_ax0_shard0_i_m1536_n768_v7x_i16_bf16_1_alg».proof.Proof.Ctx
import proofs.«900942_g7700000000000943_dist_mean_ax0_shard0_i_m1536_n768_v7x_i16_bf16_1_alg».proof.Proof.CtxIntro
import proofs.«900942_g7700000000000943_dist_mean_ax0_shard0_i_m1536_n768_v7x_i16_bf16_1_alg».proof.Proof.PostIntro
import Idealize.ShloMosaic.Lib.Pipeline.Value

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

/-! ## The kernel's device and semaphore names, in the protocol's spelling -/

@[sl_canon] theorem dev1_eq (c : Dev nD) : (⟨k0_dev1 c, k0_dev1_lt c⟩ : Dev nD) = fwd c 1 := Fin.ext (k0_dev1_eq c)
@[sl_canon] theorem dev2_eq (c : Dev nD) : (⟨k0_dev2 c, k0_dev2_lt c⟩ : Dev nD) = fwd c 2 := Fin.ext (k0_dev2_eq c)
@[sl_canon] theorem dev3_eq (c : Dev nD) : (⟨k0_dev3 c, k0_dev3_lt c⟩ : Dev nD) = fwd c 3 := Fin.ext (k0_dev3_eq c)
@[sl_canon] theorem dev4_eq (c : Dev nD) : (⟨k0_dev4 c, k0_dev4_lt c⟩ : Dev nD) = fwd c 4 := Fin.ext (k0_dev4_eq c)
@[sl_canon] theorem dev5_eq (c : Dev nD) : (⟨k0_dev5 c, k0_dev5_lt c⟩ : Dev nD) = fwd c 5 := Fin.ext (k0_dev5_eq c)
@[sl_canon] theorem dev6_eq (c : Dev nD) : (⟨k0_dev6 c, k0_dev6_lt c⟩ : Dev nD) = fwd c 6 := Fin.ext (k0_dev6_eq c)
@[sl_canon] theorem dev7_eq (c : Dev nD) : (⟨k0_dev7 c, k0_dev7_lt c⟩ : Dev nD) = fwd c 7 := Fin.ext (k0_dev7_eq c)
@[sl_canon] theorem dev8_eq (c : Dev nD) : (⟨k0_dev8 c, k0_dev8_lt c⟩ : Dev nD) = fwd c 8 := Fin.ext (k0_dev8_eq c)
@[sl_canon] theorem dev9_eq (c : Dev nD) : (⟨k0_dev9 c, k0_dev9_lt c⟩ : Dev nD) = fwd c 9 := Fin.ext (k0_dev9_eq c)
@[sl_canon] theorem dev10_eq (c : Dev nD) : (⟨k0_dev10 c, k0_dev10_lt c⟩ : Dev nD) = fwd c 10 := Fin.ext (k0_dev10_eq c)
@[sl_canon] theorem dev11_eq (c : Dev nD) : (⟨k0_dev11 c, k0_dev11_lt c⟩ : Dev nD) = fwd c 11 := Fin.ext (k0_dev11_eq c)
@[sl_canon] theorem dev12_eq (c : Dev nD) : (⟨k0_dev12 c, k0_dev12_lt c⟩ : Dev nD) = fwd c 12 := Fin.ext (k0_dev12_eq c)
@[sl_canon] theorem dev13_eq (c : Dev nD) : (⟨k0_dev13 c, k0_dev13_lt c⟩ : Dev nD) = fwd c 13 := Fin.ext (k0_dev13_eq c)
@[sl_canon] theorem dev14_eq (c : Dev nD) : (⟨k0_dev14 c, k0_dev14_lt c⟩ : Dev nD) = fwd c 14 := Fin.ext (k0_dev14_eq c)
@[sl_canon] theorem dev15_eq (c : Dev nD) : (⟨k0_dev15 c, k0_dev15_lt c⟩ : Dev nD) = fwd c 15 := Fin.ext (k0_dev15_eq c)
@[sl_canon] theorem dev16_eq (c : Dev nD) : (⟨k0_dev16 c, k0_dev16_lt c⟩ : Dev nD) = fwd c 1 := Fin.ext (k0_dev16_eq c)
@[sl_canon] theorem dev17_eq (c : Dev nD) : (⟨k0_dev17 c, k0_dev17_lt c⟩ : Dev nD) = fwd c 2 := Fin.ext (k0_dev17_eq c)
@[sl_canon] theorem dev18_eq (c : Dev nD) : (⟨k0_dev18 c, k0_dev18_lt c⟩ : Dev nD) = fwd c 3 := Fin.ext (k0_dev18_eq c)
@[sl_canon] theorem dev19_eq (c : Dev nD) : (⟨k0_dev19 c, k0_dev19_lt c⟩ : Dev nD) = fwd c 4 := Fin.ext (k0_dev19_eq c)
@[sl_canon] theorem dev20_eq (c : Dev nD) : (⟨k0_dev20 c, k0_dev20_lt c⟩ : Dev nD) = fwd c 5 := Fin.ext (k0_dev20_eq c)
@[sl_canon] theorem dev21_eq (c : Dev nD) : (⟨k0_dev21 c, k0_dev21_lt c⟩ : Dev nD) = fwd c 6 := Fin.ext (k0_dev21_eq c)
@[sl_canon] theorem dev22_eq (c : Dev nD) : (⟨k0_dev22 c, k0_dev22_lt c⟩ : Dev nD) = fwd c 7 := Fin.ext (k0_dev22_eq c)
@[sl_canon] theorem dev23_eq (c : Dev nD) : (⟨k0_dev23 c, k0_dev23_lt c⟩ : Dev nD) = fwd c 8 := Fin.ext (k0_dev23_eq c)
@[sl_canon] theorem dev24_eq (c : Dev nD) : (⟨k0_dev24 c, k0_dev24_lt c⟩ : Dev nD) = fwd c 9 := Fin.ext (k0_dev24_eq c)
@[sl_canon] theorem dev25_eq (c : Dev nD) : (⟨k0_dev25 c, k0_dev25_lt c⟩ : Dev nD) = fwd c 10 := Fin.ext (k0_dev25_eq c)
@[sl_canon] theorem dev26_eq (c : Dev nD) : (⟨k0_dev26 c, k0_dev26_lt c⟩ : Dev nD) = fwd c 11 := Fin.ext (k0_dev26_eq c)
@[sl_canon] theorem dev27_eq (c : Dev nD) : (⟨k0_dev27 c, k0_dev27_lt c⟩ : Dev nD) = fwd c 12 := Fin.ext (k0_dev27_eq c)
@[sl_canon] theorem dev28_eq (c : Dev nD) : (⟨k0_dev28 c, k0_dev28_lt c⟩ : Dev nD) = fwd c 13 := Fin.ext (k0_dev28_eq c)
@[sl_canon] theorem dev29_eq (c : Dev nD) : (⟨k0_dev29 c, k0_dev29_lt c⟩ : Dev nD) = fwd c 14 := Fin.ext (k0_dev29_eq c)
@[sl_canon] theorem dev30_eq (c : Dev nD) : (⟨k0_dev30 c, k0_dev30_lt c⟩ : Dev nD) = fwd c 15 := Fin.ext (k0_dev30_eq c)

@[sl_canon] theorem sendSem1 : (((cc0_scratch3 : DmaSems sig S16).slice (Rect.unit (s := S16) ![1] S1.size inb_S16_S1_1)).squeeze S_ squeezes_S1_S_).sem = sendSem 1 := by decide
@[sl_canon] theorem sendSem2 : (((cc0_scratch3 : DmaSems sig S16).slice (Rect.unit (s := S16) ![2] S1.size inb_S16_S1_2)).squeeze S_ squeezes_S1_S_).sem = sendSem 2 := by decide
@[sl_canon] theorem sendSem3 : (((cc0_scratch3 : DmaSems sig S16).slice (Rect.unit (s := S16) ![3] S1.size inb_S16_S1_3)).squeeze S_ squeezes_S1_S_).sem = sendSem 3 := by decide
@[sl_canon] theorem sendSem4 : (((cc0_scratch3 : DmaSems sig S16).slice (Rect.unit (s := S16) ![4] S1.size inb_S16_S1_4)).squeeze S_ squeezes_S1_S_).sem = sendSem 4 := by decide
@[sl_canon] theorem sendSem5 : (((cc0_scratch3 : DmaSems sig S16).slice (Rect.unit (s := S16) ![5] S1.size inb_S16_S1_5)).squeeze S_ squeezes_S1_S_).sem = sendSem 5 := by decide
@[sl_canon] theorem sendSem6 : (((cc0_scratch3 : DmaSems sig S16).slice (Rect.unit (s := S16) ![6] S1.size inb_S16_S1_6)).squeeze S_ squeezes_S1_S_).sem = sendSem 6 := by decide
@[sl_canon] theorem sendSem7 : (((cc0_scratch3 : DmaSems sig S16).slice (Rect.unit (s := S16) ![7] S1.size inb_S16_S1_7)).squeeze S_ squeezes_S1_S_).sem = sendSem 7 := by decide
@[sl_canon] theorem sendSem8 : (((cc0_scratch3 : DmaSems sig S16).slice (Rect.unit (s := S16) ![8] S1.size inb_S16_S1_8)).squeeze S_ squeezes_S1_S_).sem = sendSem 8 := by decide
@[sl_canon] theorem sendSem9 : (((cc0_scratch3 : DmaSems sig S16).slice (Rect.unit (s := S16) ![9] S1.size inb_S16_S1_9)).squeeze S_ squeezes_S1_S_).sem = sendSem 9 := by decide
@[sl_canon] theorem sendSem10 : (((cc0_scratch3 : DmaSems sig S16).slice (Rect.unit (s := S16) ![10] S1.size inb_S16_S1_10)).squeeze S_ squeezes_S1_S_).sem = sendSem 10 := by decide
@[sl_canon] theorem sendSem11 : (((cc0_scratch3 : DmaSems sig S16).slice (Rect.unit (s := S16) ![11] S1.size inb_S16_S1_11)).squeeze S_ squeezes_S1_S_).sem = sendSem 11 := by decide
@[sl_canon] theorem sendSem12 : (((cc0_scratch3 : DmaSems sig S16).slice (Rect.unit (s := S16) ![12] S1.size inb_S16_S1_12)).squeeze S_ squeezes_S1_S_).sem = sendSem 12 := by decide
@[sl_canon] theorem sendSem13 : (((cc0_scratch3 : DmaSems sig S16).slice (Rect.unit (s := S16) ![13] S1.size inb_S16_S1_13)).squeeze S_ squeezes_S1_S_).sem = sendSem 13 := by decide
@[sl_canon] theorem sendSem14 : (((cc0_scratch3 : DmaSems sig S16).slice (Rect.unit (s := S16) ![14] S1.size inb_S16_S1_14)).squeeze S_ squeezes_S1_S_).sem = sendSem 14 := by decide
@[sl_canon] theorem sendSem15 : (((cc0_scratch3 : DmaSems sig S16).slice (Rect.unit (s := S16) ![15] S1.size inb_S16_S1_15)).squeeze S_ squeezes_S1_S_).sem = sendSem 15 := by decide
@[sl_canon] theorem recvSemOwn (c : Dev nD) :
    (((cc0_scratch4 : DmaSems sig S16).slice (Rect.unit (s := S16) (k0_off2 c) S1.size (k0_off2_inb c))).squeeze S_ squeezes_S1_S_).sem = recvSem c := recvSem_own c
@[sl_canon] theorem recvSemFrom1 (c : Dev nD) :
    (((cc0_scratch4 : DmaSems sig S16).slice (Rect.unit (s := S16) (k0_off4 c 1#32) S1.size (k0_off4_inb c 0))).squeeze S_ squeezes_S1_S_).sem = recvSem (bwd c 1) := recvSem_from c 0
@[sl_canon] theorem recvSemFrom2 (c : Dev nD) :
    (((cc0_scratch4 : DmaSems sig S16).slice (Rect.unit (s := S16) (k0_off4 c 2#32) S1.size (k0_off4_inb c 1))).squeeze S_ squeezes_S1_S_).sem = recvSem (bwd c 2) := recvSem_from c 1
@[sl_canon] theorem recvSemFrom3 (c : Dev nD) :
    (((cc0_scratch4 : DmaSems sig S16).slice (Rect.unit (s := S16) (k0_off4 c 3#32) S1.size (k0_off4_inb c 2))).squeeze S_ squeezes_S1_S_).sem = recvSem (bwd c 3) := recvSem_from c 2
@[sl_canon] theorem recvSemFrom4 (c : Dev nD) :
    (((cc0_scratch4 : DmaSems sig S16).slice (Rect.unit (s := S16) (k0_off4 c 4#32) S1.size (k0_off4_inb c 3))).squeeze S_ squeezes_S1_S_).sem = recvSem (bwd c 4) := recvSem_from c 3
@[sl_canon] theorem recvSemFrom5 (c : Dev nD) :
    (((cc0_scratch4 : DmaSems sig S16).slice (Rect.unit (s := S16) (k0_off4 c 5#32) S1.size (k0_off4_inb c 4))).squeeze S_ squeezes_S1_S_).sem = recvSem (bwd c 5) := recvSem_from c 4
@[sl_canon] theorem recvSemFrom6 (c : Dev nD) :
    (((cc0_scratch4 : DmaSems sig S16).slice (Rect.unit (s := S16) (k0_off4 c 6#32) S1.size (k0_off4_inb c 5))).squeeze S_ squeezes_S1_S_).sem = recvSem (bwd c 6) := recvSem_from c 5
@[sl_canon] theorem recvSemFrom7 (c : Dev nD) :
    (((cc0_scratch4 : DmaSems sig S16).slice (Rect.unit (s := S16) (k0_off4 c 7#32) S1.size (k0_off4_inb c 6))).squeeze S_ squeezes_S1_S_).sem = recvSem (bwd c 7) := recvSem_from c 6
@[sl_canon] theorem recvSemFrom8 (c : Dev nD) :
    (((cc0_scratch4 : DmaSems sig S16).slice (Rect.unit (s := S16) (k0_off4 c 8#32) S1.size (k0_off4_inb c 7))).squeeze S_ squeezes_S1_S_).sem = recvSem (bwd c 8) := recvSem_from c 7
@[sl_canon] theorem recvSemFrom9 (c : Dev nD) :
    (((cc0_scratch4 : DmaSems sig S16).slice (Rect.unit (s := S16) (k0_off4 c 9#32) S1.size (k0_off4_inb c 8))).squeeze S_ squeezes_S1_S_).sem = recvSem (bwd c 9) := recvSem_from c 8
@[sl_canon] theorem recvSemFrom10 (c : Dev nD) :
    (((cc0_scratch4 : DmaSems sig S16).slice (Rect.unit (s := S16) (k0_off4 c 10#32) S1.size (k0_off4_inb c 9))).squeeze S_ squeezes_S1_S_).sem = recvSem (bwd c 10) := recvSem_from c 9
@[sl_canon] theorem recvSemFrom11 (c : Dev nD) :
    (((cc0_scratch4 : DmaSems sig S16).slice (Rect.unit (s := S16) (k0_off4 c 11#32) S1.size (k0_off4_inb c 10))).squeeze S_ squeezes_S1_S_).sem = recvSem (bwd c 11) := recvSem_from c 10
@[sl_canon] theorem recvSemFrom12 (c : Dev nD) :
    (((cc0_scratch4 : DmaSems sig S16).slice (Rect.unit (s := S16) (k0_off4 c 12#32) S1.size (k0_off4_inb c 11))).squeeze S_ squeezes_S1_S_).sem = recvSem (bwd c 12) := recvSem_from c 11
@[sl_canon] theorem recvSemFrom13 (c : Dev nD) :
    (((cc0_scratch4 : DmaSems sig S16).slice (Rect.unit (s := S16) (k0_off4 c 13#32) S1.size (k0_off4_inb c 12))).squeeze S_ squeezes_S1_S_).sem = recvSem (bwd c 13) := recvSem_from c 12
@[sl_canon] theorem recvSemFrom14 (c : Dev nD) :
    (((cc0_scratch4 : DmaSems sig S16).slice (Rect.unit (s := S16) (k0_off4 c 14#32) S1.size (k0_off4_inb c 13))).squeeze S_ squeezes_S1_S_).sem = recvSem (bwd c 14) := recvSem_from c 13
@[sl_canon] theorem recvSemFrom15 (c : Dev nD) :
    (((cc0_scratch4 : DmaSems sig S16).slice (Rect.unit (s := S16) (k0_off4 c 15#32) S1.size (k0_off4_inb c 14))).squeeze S_ squeezes_S1_S_).sem = recvSem (bwd c 15) := recvSem_from c 14

/-! ## The schedule's tables at the cells a device touches -/

theorem bar_mem (c : Dev nD) (k : ℕ) (hk : k % 16 ≠ 0) : c ∈ (Rd m ρ).duties (barCell (fwd c k)) 0 := by
  rw [duties_bar]
  refine Finset.mem_erase.mpr ⟨?_, Finset.mem_univ _⟩
  intro h
  have := congrArg Fin.val h
  simp only [fwd] at this
  omega
theorem fwd_ne' (c : Dev nD) (k : ℕ) (hk : k % 16 ≠ 0) : (fwd c k : Fin 16) ≠ c := by
  intro h; have := congrArg Fin.val h; simp only [fwd] at this; omega
theorem bwd_ne' (c : Dev nD) (k : ℕ) (hk : k % 16 ≠ 0) : (bwd c k : Fin 16) ≠ c := by
  intro h; have := congrArg Fin.val h; simp only [Spec.src] at this; omega
theorem ne_fwd' (c : Dev nD) (k : ℕ) (hk : k % 16 ≠ 0) : (c : Fin 16) ≠ fwd c k := fun h => fwd_ne' c k hk h.symm

theorem bar_mem1 (c : Dev nD) : c ∈ (Rd m ρ).duties (barCell (fwd c 1)) 0 := bar_mem m ρ c 1 (by decide)
theorem bar_mem2 (c : Dev nD) : c ∈ (Rd m ρ).duties (barCell (fwd c 2)) 0 := bar_mem m ρ c 2 (by decide)
theorem bar_mem3 (c : Dev nD) : c ∈ (Rd m ρ).duties (barCell (fwd c 3)) 0 := bar_mem m ρ c 3 (by decide)
theorem bar_mem4 (c : Dev nD) : c ∈ (Rd m ρ).duties (barCell (fwd c 4)) 0 := bar_mem m ρ c 4 (by decide)
theorem bar_mem5 (c : Dev nD) : c ∈ (Rd m ρ).duties (barCell (fwd c 5)) 0 := bar_mem m ρ c 5 (by decide)
theorem bar_mem6 (c : Dev nD) : c ∈ (Rd m ρ).duties (barCell (fwd c 6)) 0 := bar_mem m ρ c 6 (by decide)
theorem bar_mem7 (c : Dev nD) : c ∈ (Rd m ρ).duties (barCell (fwd c 7)) 0 := bar_mem m ρ c 7 (by decide)
theorem bar_mem8 (c : Dev nD) : c ∈ (Rd m ρ).duties (barCell (fwd c 8)) 0 := bar_mem m ρ c 8 (by decide)
theorem bar_mem9 (c : Dev nD) : c ∈ (Rd m ρ).duties (barCell (fwd c 9)) 0 := bar_mem m ρ c 9 (by decide)
theorem bar_mem10 (c : Dev nD) : c ∈ (Rd m ρ).duties (barCell (fwd c 10)) 0 := bar_mem m ρ c 10 (by decide)
theorem bar_mem11 (c : Dev nD) : c ∈ (Rd m ρ).duties (barCell (fwd c 11)) 0 := bar_mem m ρ c 11 (by decide)
theorem bar_mem12 (c : Dev nD) : c ∈ (Rd m ρ).duties (barCell (fwd c 12)) 0 := bar_mem m ρ c 12 (by decide)
theorem bar_mem13 (c : Dev nD) : c ∈ (Rd m ρ).duties (barCell (fwd c 13)) 0 := bar_mem m ρ c 13 (by decide)
theorem bar_mem14 (c : Dev nD) : c ∈ (Rd m ρ).duties (barCell (fwd c 14)) 0 := bar_mem m ρ c 14 (by decide)
theorem bar_mem15 (c : Dev nD) : c ∈ (Rd m ρ).duties (barCell (fwd c 15)) 0 := bar_mem m ρ c 15 (by decide)
theorem recv_mem1 (c : Dev nD) : c ∈ (Rd m ρ).duties (recvCell (fwd c 1) c) 0 := by rw [duties_recv m ρ (fwd c 1) c (ne_fwd' c 1 (by decide))]; exact Finset.mem_singleton_self _
theorem recv_mem2 (c : Dev nD) : c ∈ (Rd m ρ).duties (recvCell (fwd c 2) c) 0 := by rw [duties_recv m ρ (fwd c 2) c (ne_fwd' c 2 (by decide))]; exact Finset.mem_singleton_self _
theorem recv_mem3 (c : Dev nD) : c ∈ (Rd m ρ).duties (recvCell (fwd c 3) c) 0 := by rw [duties_recv m ρ (fwd c 3) c (ne_fwd' c 3 (by decide))]; exact Finset.mem_singleton_self _
theorem recv_mem4 (c : Dev nD) : c ∈ (Rd m ρ).duties (recvCell (fwd c 4) c) 0 := by rw [duties_recv m ρ (fwd c 4) c (ne_fwd' c 4 (by decide))]; exact Finset.mem_singleton_self _
theorem recv_mem5 (c : Dev nD) : c ∈ (Rd m ρ).duties (recvCell (fwd c 5) c) 0 := by rw [duties_recv m ρ (fwd c 5) c (ne_fwd' c 5 (by decide))]; exact Finset.mem_singleton_self _
theorem recv_mem6 (c : Dev nD) : c ∈ (Rd m ρ).duties (recvCell (fwd c 6) c) 0 := by rw [duties_recv m ρ (fwd c 6) c (ne_fwd' c 6 (by decide))]; exact Finset.mem_singleton_self _
theorem recv_mem7 (c : Dev nD) : c ∈ (Rd m ρ).duties (recvCell (fwd c 7) c) 0 := by rw [duties_recv m ρ (fwd c 7) c (ne_fwd' c 7 (by decide))]; exact Finset.mem_singleton_self _
theorem recv_mem8 (c : Dev nD) : c ∈ (Rd m ρ).duties (recvCell (fwd c 8) c) 0 := by rw [duties_recv m ρ (fwd c 8) c (ne_fwd' c 8 (by decide))]; exact Finset.mem_singleton_self _
theorem recv_mem9 (c : Dev nD) : c ∈ (Rd m ρ).duties (recvCell (fwd c 9) c) 0 := by rw [duties_recv m ρ (fwd c 9) c (ne_fwd' c 9 (by decide))]; exact Finset.mem_singleton_self _
theorem recv_mem10 (c : Dev nD) : c ∈ (Rd m ρ).duties (recvCell (fwd c 10) c) 0 := by rw [duties_recv m ρ (fwd c 10) c (ne_fwd' c 10 (by decide))]; exact Finset.mem_singleton_self _
theorem recv_mem11 (c : Dev nD) : c ∈ (Rd m ρ).duties (recvCell (fwd c 11) c) 0 := by rw [duties_recv m ρ (fwd c 11) c (ne_fwd' c 11 (by decide))]; exact Finset.mem_singleton_self _
theorem recv_mem12 (c : Dev nD) : c ∈ (Rd m ρ).duties (recvCell (fwd c 12) c) 0 := by rw [duties_recv m ρ (fwd c 12) c (ne_fwd' c 12 (by decide))]; exact Finset.mem_singleton_self _
theorem recv_mem13 (c : Dev nD) : c ∈ (Rd m ρ).duties (recvCell (fwd c 13) c) 0 := by rw [duties_recv m ρ (fwd c 13) c (ne_fwd' c 13 (by decide))]; exact Finset.mem_singleton_self _
theorem recv_mem14 (c : Dev nD) : c ∈ (Rd m ρ).duties (recvCell (fwd c 14) c) 0 := by rw [duties_recv m ρ (fwd c 14) c (ne_fwd' c 14 (by decide))]; exact Finset.mem_singleton_self _
theorem recv_mem15 (c : Dev nD) : c ∈ (Rd m ρ).duties (recvCell (fwd c 15) c) 0 := by rw [duties_recv m ρ (fwd c 15) c (ne_fwd' c 15 (by decide))]; exact Finset.mem_singleton_self _
theorem send_mem1 (c : Dev nD) : c ∈ (Rd m ρ).duties (sendCell c 1) 0 := by rw [duties_send m ρ c 1 (by decide)]; exact Finset.mem_singleton_self _
theorem send_mem2 (c : Dev nD) : c ∈ (Rd m ρ).duties (sendCell c 2) 0 := by rw [duties_send m ρ c 2 (by decide)]; exact Finset.mem_singleton_self _
theorem send_mem3 (c : Dev nD) : c ∈ (Rd m ρ).duties (sendCell c 3) 0 := by rw [duties_send m ρ c 3 (by decide)]; exact Finset.mem_singleton_self _
theorem send_mem4 (c : Dev nD) : c ∈ (Rd m ρ).duties (sendCell c 4) 0 := by rw [duties_send m ρ c 4 (by decide)]; exact Finset.mem_singleton_self _
theorem send_mem5 (c : Dev nD) : c ∈ (Rd m ρ).duties (sendCell c 5) 0 := by rw [duties_send m ρ c 5 (by decide)]; exact Finset.mem_singleton_self _
theorem send_mem6 (c : Dev nD) : c ∈ (Rd m ρ).duties (sendCell c 6) 0 := by rw [duties_send m ρ c 6 (by decide)]; exact Finset.mem_singleton_self _
theorem send_mem7 (c : Dev nD) : c ∈ (Rd m ρ).duties (sendCell c 7) 0 := by rw [duties_send m ρ c 7 (by decide)]; exact Finset.mem_singleton_self _
theorem send_mem8 (c : Dev nD) : c ∈ (Rd m ρ).duties (sendCell c 8) 0 := by rw [duties_send m ρ c 8 (by decide)]; exact Finset.mem_singleton_self _
theorem send_mem9 (c : Dev nD) : c ∈ (Rd m ρ).duties (sendCell c 9) 0 := by rw [duties_send m ρ c 9 (by decide)]; exact Finset.mem_singleton_self _
theorem send_mem10 (c : Dev nD) : c ∈ (Rd m ρ).duties (sendCell c 10) 0 := by rw [duties_send m ρ c 10 (by decide)]; exact Finset.mem_singleton_self _
theorem send_mem11 (c : Dev nD) : c ∈ (Rd m ρ).duties (sendCell c 11) 0 := by rw [duties_send m ρ c 11 (by decide)]; exact Finset.mem_singleton_self _
theorem send_mem12 (c : Dev nD) : c ∈ (Rd m ρ).duties (sendCell c 12) 0 := by rw [duties_send m ρ c 12 (by decide)]; exact Finset.mem_singleton_self _
theorem send_mem13 (c : Dev nD) : c ∈ (Rd m ρ).duties (sendCell c 13) 0 := by rw [duties_send m ρ c 13 (by decide)]; exact Finset.mem_singleton_self _
theorem send_mem14 (c : Dev nD) : c ∈ (Rd m ρ).duties (sendCell c 14) 0 := by rw [duties_send m ρ c 14 (by decide)]; exact Finset.mem_singleton_self _
theorem send_mem15 (c : Dev nD) : c ∈ (Rd m ρ).duties (sendCell c 15) 0 := by rw [duties_send m ρ c 15 (by decide)]; exact Finset.mem_singleton_self _
theorem duties_send1 (c : Dev nD) : (Rd m ρ).duties (sendCell c 1) 0 = {c} := duties_send m ρ c 1 (by decide)
theorem duties_send2 (c : Dev nD) : (Rd m ρ).duties (sendCell c 2) 0 = {c} := duties_send m ρ c 2 (by decide)
theorem duties_send3 (c : Dev nD) : (Rd m ρ).duties (sendCell c 3) 0 = {c} := duties_send m ρ c 3 (by decide)
theorem duties_send4 (c : Dev nD) : (Rd m ρ).duties (sendCell c 4) 0 = {c} := duties_send m ρ c 4 (by decide)
theorem duties_send5 (c : Dev nD) : (Rd m ρ).duties (sendCell c 5) 0 = {c} := duties_send m ρ c 5 (by decide)
theorem duties_send6 (c : Dev nD) : (Rd m ρ).duties (sendCell c 6) 0 = {c} := duties_send m ρ c 6 (by decide)
theorem duties_send7 (c : Dev nD) : (Rd m ρ).duties (sendCell c 7) 0 = {c} := duties_send m ρ c 7 (by decide)
theorem duties_send8 (c : Dev nD) : (Rd m ρ).duties (sendCell c 8) 0 = {c} := duties_send m ρ c 8 (by decide)
theorem duties_send9 (c : Dev nD) : (Rd m ρ).duties (sendCell c 9) 0 = {c} := duties_send m ρ c 9 (by decide)
theorem duties_send10 (c : Dev nD) : (Rd m ρ).duties (sendCell c 10) 0 = {c} := duties_send m ρ c 10 (by decide)
theorem duties_send11 (c : Dev nD) : (Rd m ρ).duties (sendCell c 11) 0 = {c} := duties_send m ρ c 11 (by decide)
theorem duties_send12 (c : Dev nD) : (Rd m ρ).duties (sendCell c 12) 0 = {c} := duties_send m ρ c 12 (by decide)
theorem duties_send13 (c : Dev nD) : (Rd m ρ).duties (sendCell c 13) 0 = {c} := duties_send m ρ c 13 (by decide)
theorem duties_send14 (c : Dev nD) : (Rd m ρ).duties (sendCell c 14) 0 = {c} := duties_send m ρ c 14 (by decide)
theorem duties_send15 (c : Dev nD) : (Rd m ρ).duties (sendCell c 15) 0 = {c} := duties_send m ρ c 15 (by decide)
theorem expect_send1 (c : Dev nD) : (Rd m ρ).expect (sendCell c 1) 0 = N := expect_send m ρ c 1 (by decide)
theorem expect_send2 (c : Dev nD) : (Rd m ρ).expect (sendCell c 2) 0 = N := expect_send m ρ c 2 (by decide)
theorem expect_send3 (c : Dev nD) : (Rd m ρ).expect (sendCell c 3) 0 = N := expect_send m ρ c 3 (by decide)
theorem expect_send4 (c : Dev nD) : (Rd m ρ).expect (sendCell c 4) 0 = N := expect_send m ρ c 4 (by decide)
theorem expect_send5 (c : Dev nD) : (Rd m ρ).expect (sendCell c 5) 0 = N := expect_send m ρ c 5 (by decide)
theorem expect_send6 (c : Dev nD) : (Rd m ρ).expect (sendCell c 6) 0 = N := expect_send m ρ c 6 (by decide)
theorem expect_send7 (c : Dev nD) : (Rd m ρ).expect (sendCell c 7) 0 = N := expect_send m ρ c 7 (by decide)
theorem expect_send8 (c : Dev nD) : (Rd m ρ).expect (sendCell c 8) 0 = N := expect_send m ρ c 8 (by decide)
theorem expect_send9 (c : Dev nD) : (Rd m ρ).expect (sendCell c 9) 0 = N := expect_send m ρ c 9 (by decide)
theorem expect_send10 (c : Dev nD) : (Rd m ρ).expect (sendCell c 10) 0 = N := expect_send m ρ c 10 (by decide)
theorem expect_send11 (c : Dev nD) : (Rd m ρ).expect (sendCell c 11) 0 = N := expect_send m ρ c 11 (by decide)
theorem expect_send12 (c : Dev nD) : (Rd m ρ).expect (sendCell c 12) 0 = N := expect_send m ρ c 12 (by decide)
theorem expect_send13 (c : Dev nD) : (Rd m ρ).expect (sendCell c 13) 0 = N := expect_send m ρ c 13 (by decide)
theorem expect_send14 (c : Dev nD) : (Rd m ρ).expect (sendCell c 14) 0 = N := expect_send m ρ c 14 (by decide)
theorem expect_send15 (c : Dev nD) : (Rd m ρ).expect (sendCell c 15) 0 = N := expect_send m ρ c 15 (by decide)
theorem duties_recv1 (c : Dev nD) : (Rd m ρ).duties (recvCell c (bwd c 1)) 0 = {bwd c 1} := duties_recv m ρ c (bwd c 1) (bwd_ne' c 1 (by decide))
theorem duties_recv2 (c : Dev nD) : (Rd m ρ).duties (recvCell c (bwd c 2)) 0 = {bwd c 2} := duties_recv m ρ c (bwd c 2) (bwd_ne' c 2 (by decide))
theorem duties_recv3 (c : Dev nD) : (Rd m ρ).duties (recvCell c (bwd c 3)) 0 = {bwd c 3} := duties_recv m ρ c (bwd c 3) (bwd_ne' c 3 (by decide))
theorem duties_recv4 (c : Dev nD) : (Rd m ρ).duties (recvCell c (bwd c 4)) 0 = {bwd c 4} := duties_recv m ρ c (bwd c 4) (bwd_ne' c 4 (by decide))
theorem duties_recv5 (c : Dev nD) : (Rd m ρ).duties (recvCell c (bwd c 5)) 0 = {bwd c 5} := duties_recv m ρ c (bwd c 5) (bwd_ne' c 5 (by decide))
theorem duties_recv6 (c : Dev nD) : (Rd m ρ).duties (recvCell c (bwd c 6)) 0 = {bwd c 6} := duties_recv m ρ c (bwd c 6) (bwd_ne' c 6 (by decide))
theorem duties_recv7 (c : Dev nD) : (Rd m ρ).duties (recvCell c (bwd c 7)) 0 = {bwd c 7} := duties_recv m ρ c (bwd c 7) (bwd_ne' c 7 (by decide))
theorem duties_recv8 (c : Dev nD) : (Rd m ρ).duties (recvCell c (bwd c 8)) 0 = {bwd c 8} := duties_recv m ρ c (bwd c 8) (bwd_ne' c 8 (by decide))
theorem duties_recv9 (c : Dev nD) : (Rd m ρ).duties (recvCell c (bwd c 9)) 0 = {bwd c 9} := duties_recv m ρ c (bwd c 9) (bwd_ne' c 9 (by decide))
theorem duties_recv10 (c : Dev nD) : (Rd m ρ).duties (recvCell c (bwd c 10)) 0 = {bwd c 10} := duties_recv m ρ c (bwd c 10) (bwd_ne' c 10 (by decide))
theorem duties_recv11 (c : Dev nD) : (Rd m ρ).duties (recvCell c (bwd c 11)) 0 = {bwd c 11} := duties_recv m ρ c (bwd c 11) (bwd_ne' c 11 (by decide))
theorem duties_recv12 (c : Dev nD) : (Rd m ρ).duties (recvCell c (bwd c 12)) 0 = {bwd c 12} := duties_recv m ρ c (bwd c 12) (bwd_ne' c 12 (by decide))
theorem duties_recv13 (c : Dev nD) : (Rd m ρ).duties (recvCell c (bwd c 13)) 0 = {bwd c 13} := duties_recv m ρ c (bwd c 13) (bwd_ne' c 13 (by decide))
theorem duties_recv14 (c : Dev nD) : (Rd m ρ).duties (recvCell c (bwd c 14)) 0 = {bwd c 14} := duties_recv m ρ c (bwd c 14) (bwd_ne' c 14 (by decide))
theorem duties_recv15 (c : Dev nD) : (Rd m ρ).duties (recvCell c (bwd c 15)) 0 = {bwd c 15} := duties_recv m ρ c (bwd c 15) (bwd_ne' c 15 (by decide))
theorem expect_recv1 (c : Dev nD) : (Rd m ρ).expect (recvCell c (bwd c 1)) 0 = N := expect_recv m ρ c (bwd c 1) (bwd_ne' c 1 (by decide))
theorem expect_recv2 (c : Dev nD) : (Rd m ρ).expect (recvCell c (bwd c 2)) 0 = N := expect_recv m ρ c (bwd c 2) (bwd_ne' c 2 (by decide))
theorem expect_recv3 (c : Dev nD) : (Rd m ρ).expect (recvCell c (bwd c 3)) 0 = N := expect_recv m ρ c (bwd c 3) (bwd_ne' c 3 (by decide))
theorem expect_recv4 (c : Dev nD) : (Rd m ρ).expect (recvCell c (bwd c 4)) 0 = N := expect_recv m ρ c (bwd c 4) (bwd_ne' c 4 (by decide))
theorem expect_recv5 (c : Dev nD) : (Rd m ρ).expect (recvCell c (bwd c 5)) 0 = N := expect_recv m ρ c (bwd c 5) (bwd_ne' c 5 (by decide))
theorem expect_recv6 (c : Dev nD) : (Rd m ρ).expect (recvCell c (bwd c 6)) 0 = N := expect_recv m ρ c (bwd c 6) (bwd_ne' c 6 (by decide))
theorem expect_recv7 (c : Dev nD) : (Rd m ρ).expect (recvCell c (bwd c 7)) 0 = N := expect_recv m ρ c (bwd c 7) (bwd_ne' c 7 (by decide))
theorem expect_recv8 (c : Dev nD) : (Rd m ρ).expect (recvCell c (bwd c 8)) 0 = N := expect_recv m ρ c (bwd c 8) (bwd_ne' c 8 (by decide))
theorem expect_recv9 (c : Dev nD) : (Rd m ρ).expect (recvCell c (bwd c 9)) 0 = N := expect_recv m ρ c (bwd c 9) (bwd_ne' c 9 (by decide))
theorem expect_recv10 (c : Dev nD) : (Rd m ρ).expect (recvCell c (bwd c 10)) 0 = N := expect_recv m ρ c (bwd c 10) (bwd_ne' c 10 (by decide))
theorem expect_recv11 (c : Dev nD) : (Rd m ρ).expect (recvCell c (bwd c 11)) 0 = N := expect_recv m ρ c (bwd c 11) (bwd_ne' c 11 (by decide))
theorem expect_recv12 (c : Dev nD) : (Rd m ρ).expect (recvCell c (bwd c 12)) 0 = N := expect_recv m ρ c (bwd c 12) (bwd_ne' c 12 (by decide))
theorem expect_recv13 (c : Dev nD) : (Rd m ρ).expect (recvCell c (bwd c 13)) 0 = N := expect_recv m ρ c (bwd c 13) (bwd_ne' c 13 (by decide))
theorem expect_recv14 (c : Dev nD) : (Rd m ρ).expect (recvCell c (bwd c 14)) 0 = N := expect_recv m ρ c (bwd c 14) (bwd_ne' c 14 (by decide))
theorem expect_recv15 (c : Dev nD) : (Rd m ρ).expect (recvCell c (bwd c 15)) 0 = N := expect_recv m ρ c (bwd c 15) (bwd_ne' c 15 (by decide))

theorem barPay_def (o p : Dev nD) : (barPay (F := F) o p) = iprop(∃ f, (rowM o).view.loc (p : Thread nD τ) ↦[(rowM o).view.set]{fullShare} f) := rfl
theorem recvPay_def (o : Dev nD) (s : Fin 16) : recvPay m ρ o s = ((rowM s).view.loc (o : Thread nD τ) ↦[(rowM s).view.set]{fullShare} rowBuf m ρ s : sProp 𝕄) := rfl
theorem sendPay_def (o : Dev nD) (d : Fin 16) :
    sendPay m ρ o d = ((rowM o).view.loc (o : Thread nD τ) ↦[(rowM o).view.set]{Transfers.shareTok fullShare 16 d} rowBuf m ρ o : sProp 𝕄) := rfl

/-- A row landed from a buffer at its canonical contents is at its canonical contents. -/
theorem landed_pts (p s : Dev nD) (fd : Buf (Elt F) ((rowM s).view.loc (p : Thread nD τ))) :
    ((rowM s).view.loc (p : Thread nD τ) ↦[(rowM s).view.set]{fullShare}
        ((rowM s).view.write (Elt F) fd ((rowM s).view.read (Elt F) (rowBuf m ρ s)) Finset.univ) : sProp 𝕄)
      = ((rowM s).view.loc (p : Thread nD τ) ↦[(rowM s).view.set]{fullShare} rowBuf m ρ s) :=
  pointsTo_congr (landed_canon m ρ s fd)

theorem bar_list (c : Dev nD) : (Rd m ρ).duties (barCell c) 0 = [fwd c 1, fwd c 2, fwd c 3, fwd c 4, fwd c 5, fwd c 6, fwd c 7, fwd c 8, fwd c 9, fwd c 10, fwd c 11, fwd c 12, fwd c 13, fwd c 14, fwd c 15].toFinset := by
  rw [duties_bar]; revert c; decide
theorem bar_nodup (c : Dev nD) : [fwd c 1, fwd c 2, fwd c 3, fwd c 4, fwd c 5, fwd c 6, fwd c 7, fwd c 8, fwd c 9, fwd c 10, fwd c 11, fwd c 12, fwd c 13, fwd c 14, fwd c 15].Nodup := by revert c; decide

attribute [local sl_rounds] amount_bar amount_send amount_recv payload_bar payload_send payload_recv barPay_def recvPay_def sendPay_def expect_bar landed_pts
  bar_mem1 bar_mem2 bar_mem3 bar_mem4 bar_mem5 bar_mem6 bar_mem7 bar_mem8 bar_mem9 bar_mem10 bar_mem11 bar_mem12 bar_mem13 bar_mem14 bar_mem15
  recv_mem1 recv_mem2 recv_mem3 recv_mem4 recv_mem5 recv_mem6 recv_mem7 recv_mem8 recv_mem9 recv_mem10 recv_mem11 recv_mem12 recv_mem13 recv_mem14 recv_mem15
  send_mem1 send_mem2 send_mem3 send_mem4 send_mem5 send_mem6 send_mem7 send_mem8 send_mem9 send_mem10 send_mem11 send_mem12 send_mem13 send_mem14 send_mem15
  duties_send1 duties_send2 duties_send3 duties_send4 duties_send5 duties_send6 duties_send7 duties_send8 duties_send9 duties_send10 duties_send11 duties_send12 duties_send13 duties_send14 duties_send15
  expect_send1 expect_send2 expect_send3 expect_send4 expect_send5 expect_send6 expect_send7 expect_send8 expect_send9 expect_send10 expect_send11 expect_send12 expect_send13 expect_send14 expect_send15
  duties_recv1 duties_recv2 duties_recv3 duties_recv4 duties_recv5 duties_recv6 duties_recv7 duties_recv8 duties_recv9 duties_recv10 duties_recv11 duties_recv12 duties_recv13 duties_recv14 duties_recv15
  expect_recv1 expect_recv2 expect_recv3 expect_recv4 expect_recv5 expect_recv6 expect_recv7 expect_recv8 expect_recv9 expect_recv10 expect_recv11 expect_recv12 expect_recv13 expect_recv14 expect_recv15

theorem hz2 : (![0, 0] : Fin 2 → Nat) = fun _ => 0 := funext fun a => by fin_cases a <;> rfl
/-- A whole-buffer load after one whole-buffer write reads what was written. -/
theorem readCov_whole' {sp : Space} (v : View sig .tc sp S1536x768 .f32) (w : S1536x768.Idx → Elt F .f32) (inb) :
    v.readCov [(⟨Rect.whole S1536x768, w⟩ : View.Piece (Elt F) S1536x768 .f32)] (Rect.unit (s := S1536x768) ![0, 0] S1536x768.size inb).toLoadRect = w := by
  have key : ∀ (off : Fin S1536x768.rank → Nat) (h : off = fun _ => 0) (inb : ∀ a, off a + S1536x768.size a ≤ S1536x768.size a),
      v.readCov [(⟨Rect.whole S1536x768, w⟩ : View.Piece (Elt F) S1536x768 .f32)] (Rect.unit off S1536x768.size inb).toLoadRect = w := by
    intro off h inb; subst h; exact View.readCov_unit_zero v rfl inb w
  exact key _ hz2 inb

/-- The barrier round's payloads, one per other device: row `c` of each one's exchange buffer. -/
theorem bar_rows (c : Dev nD) :
    (bigSep ((Rd m ρ).duties (barCell c) 0) (fun d : DN => iprop(∃ f, (rowM c).view.loc (Dev.tc d : Thread nD τ) ↦[(rowM c).view.set]{fullShare} f)) : sProp 𝕄)
      ⊢ iprop((∃ f, (rowM c).view.loc (Dev.tc (fwd c 1) : Thread nD τ) ↦[(rowM c).view.set]{fullShare} f)
        ∗ (∃ f, (rowM c).view.loc (Dev.tc (fwd c 2) : Thread nD τ) ↦[(rowM c).view.set]{fullShare} f)
        ∗ (∃ f, (rowM c).view.loc (Dev.tc (fwd c 3) : Thread nD τ) ↦[(rowM c).view.set]{fullShare} f)
        ∗ (∃ f, (rowM c).view.loc (Dev.tc (fwd c 4) : Thread nD τ) ↦[(rowM c).view.set]{fullShare} f)
        ∗ (∃ f, (rowM c).view.loc (Dev.tc (fwd c 5) : Thread nD τ) ↦[(rowM c).view.set]{fullShare} f)
        ∗ (∃ f, (rowM c).view.loc (Dev.tc (fwd c 6) : Thread nD τ) ↦[(rowM c).view.set]{fullShare} f)
        ∗ (∃ f, (rowM c).view.loc (Dev.tc (fwd c 7) : Thread nD τ) ↦[(rowM c).view.set]{fullShare} f)
        ∗ (∃ f, (rowM c).view.loc (Dev.tc (fwd c 8) : Thread nD τ) ↦[(rowM c).view.set]{fullShare} f)
        ∗ (∃ f, (rowM c).view.loc (Dev.tc (fwd c 9) : Thread nD τ) ↦[(rowM c).view.set]{fullShare} f)
        ∗ (∃ f, (rowM c).view.loc (Dev.tc (fwd c 10) : Thread nD τ) ↦[(rowM c).view.set]{fullShare} f)
        ∗ (∃ f, (rowM c).view.loc (Dev.tc (fwd c 11) : Thread nD τ) ↦[(rowM c).view.set]{fullShare} f)
        ∗ (∃ f, (rowM c).view.loc (Dev.tc (fwd c 12) : Thread nD τ) ↦[(rowM c).view.set]{fullShare} f)
        ∗ (∃ f, (rowM c).view.loc (Dev.tc (fwd c 13) : Thread nD τ) ↦[(rowM c).view.set]{fullShare} f)
        ∗ (∃ f, (rowM c).view.loc (Dev.tc (fwd c 14) : Thread nD τ) ↦[(rowM c).view.set]{fullShare} f)
        ∗ (∃ f, (rowM c).view.loc (Dev.tc (fwd c 15) : Thread nD τ) ↦[(rowM c).view.set]{fullShare} f)) := by
  rw [bigSep_eq_bigSepL_of_eq _ (bar_list m ρ c) (bar_nodup c)]
  simp only [bigSepL_cons_cons, bigSepL_singleton]
  exact BI.Entails.refl _

/-- A row held outright is sixteen read shares of it and a remainder. -/
theorem own_toks (c : Dev nD) (f : Buf (Elt F) ((rowM c).view.loc (c : Thread nD τ))) :
    ((rowM c).view.loc (c : Thread nD τ) ↦[(rowM c).view.set]{fullShare} f : sProp 𝕄)
      ⊢ iprop(((rowM c).view.loc (c : Thread nD τ) ↦[(rowM c).view.set]{Transfers.shareDrop fullShare 16} f)
        ∗ ((rowM c).view.loc (c : Thread nD τ) ↦[(rowM c).view.set]{Transfers.shareTok fullShare 16 0} f)
        ∗ ((rowM c).view.loc (c : Thread nD τ) ↦[(rowM c).view.set]{Transfers.shareTok fullShare 16 1} f)
        ∗ ((rowM c).view.loc (c : Thread nD τ) ↦[(rowM c).view.set]{Transfers.shareTok fullShare 16 2} f)
        ∗ ((rowM c).view.loc (c : Thread nD τ) ↦[(rowM c).view.set]{Transfers.shareTok fullShare 16 3} f)
        ∗ ((rowM c).view.loc (c : Thread nD τ) ↦[(rowM c).view.set]{Transfers.shareTok fullShare 16 4} f)
        ∗ ((rowM c).view.loc (c : Thread nD τ) ↦[(rowM c).view.set]{Transfers.shareTok fullShare 16 5} f)
        ∗ ((rowM c).view.loc (c : Thread nD τ) ↦[(rowM c).view.set]{Transfers.shareTok fullShare 16 6} f)
        ∗ ((rowM c).view.loc (c : Thread nD τ) ↦[(rowM c).view.set]{Transfers.shareTok fullShare 16 7} f)
        ∗ ((rowM c).view.loc (c : Thread nD τ) ↦[(rowM c).view.set]{Transfers.shareTok fullShare 16 8} f)
        ∗ ((rowM c).view.loc (c : Thread nD τ) ↦[(rowM c).view.set]{Transfers.shareTok fullShare 16 9} f)
        ∗ ((rowM c).view.loc (c : Thread nD τ) ↦[(rowM c).view.set]{Transfers.shareTok fullShare 16 10} f)
        ∗ ((rowM c).view.loc (c : Thread nD τ) ↦[(rowM c).view.set]{Transfers.shareTok fullShare 16 11} f)
        ∗ ((rowM c).view.loc (c : Thread nD τ) ↦[(rowM c).view.set]{Transfers.shareTok fullShare 16 12} f)
        ∗ ((rowM c).view.loc (c : Thread nD τ) ↦[(rowM c).view.set]{Transfers.shareTok fullShare 16 13} f)
        ∗ ((rowM c).view.loc (c : Thread nD τ) ↦[(rowM c).view.set]{Transfers.shareTok fullShare 16 14} f)
        ∗ ((rowM c).view.loc (c : Thread nD τ) ↦[(rowM c).view.set]{Transfers.shareTok fullShare 16 15} f)) := by
  refine (Transfers.pointsTo_toks_split (Ix := Unit) (Name := ℕ) (U := UU) (Lvl := ℕ) fullShare 16).trans (Entails.of_eq ?_)
  rw [bigSep_univ_eq_bigSepL [(0 : Fin 16), 1, 2, 3, 4, 5, 6, 7, 8, 9, 10, 11, 12, 13, 14, 15] (by decide) (by decide)]
  simp only [bigSepL_cons_cons, bigSepL_singleton]
  rfl

/-- The addressed transfer of the device's own row into row `c` of device `p`, departure number `d`: it lends the read share
    numbered `d` of the source row, writes the row `p` handed over at the barrier, pays the row's words off what the
    device owes `p`'s receive cell of slot `c`, and returns the departure's credit. -/
theorem wp_send_row (K : Dev nD × Fin 33 → ℕ) (c p n : Dev nD) (hn : n = p) (d : Fin 16) (hd : d ≠ 0) (hp : c ≠ p)
    (sS sV : DmaSem sig) (hS : sS = sendSem d) (hV : sV = recvSem c)
    {hsc : ((rowM c : Memref sig (Dev.tc n : Thread nD τ).2.kind .vmem S1x768 .f32)).view.ref.isScScratch = false}
    {hsrc : (rowM c : Memref sig .tc .vmem S1x768 .f32).view.WordExact} {hdst : (rowM c : Memref sig .tc .vmem S1x768 .f32).view.WordExact}
    {hsem : DmaTarget.Typed .vmem (.dma sV) (.remote (Dev.tc n : Thread nD τ) (rowM c : Memref sig .tc .vmem S1x768 .f32) (.dma sS) hsc)}
    {α : Type} {Q : α → sProp 𝕄} {k : PUnit → Prog (TpuEff nD τ sig (Elt F) Λ₀ .tc) α}
    (fd : Buf (Elt F) ((rowM c).view.loc (p : Thread nD τ))) (O : CellTallies nD τ sig Unit) (W : Waits sig Unit) :
    iprop(cellInv ER (Rd m ρ) (K (c, jS d)) (sendCell c d) ∗ cellInv ER (Rd m ρ) (K (p, jR c)) (recvCell p c)
        ∗ ((rowM c).view.loc (c : Thread nD τ) ↦[(rowM c).view.set]{Transfers.shareTok fullShare 16 d} rowBuf m ρ c)
        ∗ ((rowM c).view.loc (p : Thread nD τ) ↦[(rowM c).view.set]{fullShare} fd)
        ∗ owes (c : Thread nD τ) (O + tallyAt (recvCell p c) () N) W
        ∗ dutyTok ER (sendCell c d) 0 c ∗ reached ER (sendCell c d) 0
        ∗ dutyTok ER (recvCell p c) 0 c ∗ reached ER (recvCell p c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma sS) hsc) (.dma sV) hsrc hdst hsem) k) Q) := by
  subst hn hS hV
  exact Rounds.wp_send_pointsTo 𝒱₀ ER (Rd m ρ) (c : Thread nD τ) none (c' := (n : Thread nD τ)) (src := rowM c) (dst := rowM c)
    (q := Transfers.shareTok fullShare 16 d) (fs := rowBuf m ρ c) (fd := fd) (κ₁ := K (c, jS d)) (κ₂ := K (n, jR c))
    (r₁ := 0) (r₂ := 0) (d₁ := c) (d₂ := c)
    (by rw [duties_send m ρ c d hd]; exact Finset.mem_singleton_self _)
    (by rw [duties_recv m ρ n c hp]; exact Finset.mem_singleton_self _)
    () () N (N_row c _) (amount_send m ρ c d c) (amount_recv m ρ n c c) O rfl (W := W)
    (by rw [payload_send]; exact BI.Entails.refl _)
    (by rw [payload_recv]; exact Entails.of_eq (landed_pts m ρ n c fd))

theorem duties_send0 (c : Dev nD) : ∀ r, 0 ≤ r → (Rd m ρ).duties (sendCell c 0) r = ∅ := fun r _ => by
  show (if r = 0 ∧ (sendCell c 0).1.2 = .tc then dutiesOf c (.dma (sendSem 0)) else ∅) = _
  have h0 : dutiesOf c (.dma (sendSem 0)) = ∅ := by
    show (if 18 ≤ (sendSem 0).val then (if (sendSem 0).val - 18 = c.val then (∅ : Finset DN) else {⟨((sendSem 0).val - 18) % 16, Nat.mod_lt _ (by decide)⟩})
      else if 3 ≤ (sendSem 0).val then ({c} : Finset DN) else ∅) = ∅
    rw [if_neg (by decide), if_neg (by decide)]
  rw [h0]; exact ite_self _
theorem duties_recvOwn (c : Dev nD) : ∀ r, 0 ≤ r → (Rd m ρ).duties (recvCell c c) r = ∅ := fun r _ => by
  show (if r = 0 ∧ (recvCell c c).1.2 = .tc then dutiesOf c (.dma (recvSem c)) else ∅) = _
  have h0 : dutiesOf c (.dma (recvSem c)) = ∅ := by
    show (if 18 ≤ (recvSem c).val then (if (recvSem c).val - 18 = c.val then (∅ : Finset DN) else {⟨((recvSem c).val - 18) % 16, Nat.mod_lt _ (by decide)⟩})
      else if 3 ≤ (recvSem c).val then ({c} : Finset DN) else ∅) = ∅
    rw [if_pos (by rw [recv_val]; omega), if_pos (by rw [recv_val]; omega)]
  rw [h0]; exact ite_self _

/-- Boxes of one row's size at equal offsets hold the same elements. -/
theorem box_set_congr {off off' : Fin S16x1x768.rank → Nat} (h : off = off') (p : ∀ a, off a + S1x1x768.size a ≤ S16x1x768.size a)
    (p' : ∀ a, off' a + S1x1x768.size a ≤ S16x1x768.size a) :
    (aM.access (Rect.unit (s := S16x1x768) off S1x1x768.size p) : View sig .tc _ _ _).set
      = (aM.access (Rect.unit (s := S16x1x768) off' S1x1x768.size p') : View sig .tc _ _ _).set := by
  subst h; rfl

/-! The box a device loads `k` rounds in lies in the row of the device `k` places before it; and what it reads there. -/
theorem load_in1 (c : Dev nD) :
    ((Memref.whole cc0_scratch2).access (Rect.unit (s := S16x1x768) (k0_off6 c 1#32) S1x1x768.size (k0_off6_inb c 0)) : View sig .tc _ _ _).set
      ⊆ (rowM (bwd c 1)).view.set := by
  rw [rowM_set]
  exact le_of_eq (box_set_congr (off6_eq_off3 c 0) _ _)
theorem read_row1 (c : Dev nD) :
    aM.view.readAt (Elt F) (Rect.unit (s := S16x1x768) (k0_off6 c 1#32) S1x1x768.size (k0_off6_inb c 0)).toLoadRect (rowBuf m ρ (bwd c 1))
      = Spec.row (X m ρ) (bwd c 1) := read_row m ρ c 0
theorem load_in2 (c : Dev nD) :
    ((Memref.whole cc0_scratch2).access (Rect.unit (s := S16x1x768) (k0_off6 c 2#32) S1x1x768.size (k0_off6_inb c 1)) : View sig .tc _ _ _).set
      ⊆ (rowM (bwd c 2)).view.set := by
  rw [rowM_set]
  exact le_of_eq (box_set_congr (off6_eq_off3 c 1) _ _)
theorem read_row2 (c : Dev nD) :
    aM.view.readAt (Elt F) (Rect.unit (s := S16x1x768) (k0_off6 c 2#32) S1x1x768.size (k0_off6_inb c 1)).toLoadRect (rowBuf m ρ (bwd c 2))
      = Spec.row (X m ρ) (bwd c 2) := read_row m ρ c 1
theorem load_in3 (c : Dev nD) :
    ((Memref.whole cc0_scratch2).access (Rect.unit (s := S16x1x768) (k0_off6 c 3#32) S1x1x768.size (k0_off6_inb c 2)) : View sig .tc _ _ _).set
      ⊆ (rowM (bwd c 3)).view.set := by
  rw [rowM_set]
  exact le_of_eq (box_set_congr (off6_eq_off3 c 2) _ _)
theorem read_row3 (c : Dev nD) :
    aM.view.readAt (Elt F) (Rect.unit (s := S16x1x768) (k0_off6 c 3#32) S1x1x768.size (k0_off6_inb c 2)).toLoadRect (rowBuf m ρ (bwd c 3))
      = Spec.row (X m ρ) (bwd c 3) := read_row m ρ c 2
theorem load_in4 (c : Dev nD) :
    ((Memref.whole cc0_scratch2).access (Rect.unit (s := S16x1x768) (k0_off6 c 4#32) S1x1x768.size (k0_off6_inb c 3)) : View sig .tc _ _ _).set
      ⊆ (rowM (bwd c 4)).view.set := by
  rw [rowM_set]
  exact le_of_eq (box_set_congr (off6_eq_off3 c 3) _ _)
theorem read_row4 (c : Dev nD) :
    aM.view.readAt (Elt F) (Rect.unit (s := S16x1x768) (k0_off6 c 4#32) S1x1x768.size (k0_off6_inb c 3)).toLoadRect (rowBuf m ρ (bwd c 4))
      = Spec.row (X m ρ) (bwd c 4) := read_row m ρ c 3
theorem load_in5 (c : Dev nD) :
    ((Memref.whole cc0_scratch2).access (Rect.unit (s := S16x1x768) (k0_off6 c 5#32) S1x1x768.size (k0_off6_inb c 4)) : View sig .tc _ _ _).set
      ⊆ (rowM (bwd c 5)).view.set := by
  rw [rowM_set]
  exact le_of_eq (box_set_congr (off6_eq_off3 c 4) _ _)
theorem read_row5 (c : Dev nD) :
    aM.view.readAt (Elt F) (Rect.unit (s := S16x1x768) (k0_off6 c 5#32) S1x1x768.size (k0_off6_inb c 4)).toLoadRect (rowBuf m ρ (bwd c 5))
      = Spec.row (X m ρ) (bwd c 5) := read_row m ρ c 4
theorem load_in6 (c : Dev nD) :
    ((Memref.whole cc0_scratch2).access (Rect.unit (s := S16x1x768) (k0_off6 c 6#32) S1x1x768.size (k0_off6_inb c 5)) : View sig .tc _ _ _).set
      ⊆ (rowM (bwd c 6)).view.set := by
  rw [rowM_set]
  exact le_of_eq (box_set_congr (off6_eq_off3 c 5) _ _)
theorem read_row6 (c : Dev nD) :
    aM.view.readAt (Elt F) (Rect.unit (s := S16x1x768) (k0_off6 c 6#32) S1x1x768.size (k0_off6_inb c 5)).toLoadRect (rowBuf m ρ (bwd c 6))
      = Spec.row (X m ρ) (bwd c 6) := read_row m ρ c 5
theorem load_in7 (c : Dev nD) :
    ((Memref.whole cc0_scratch2).access (Rect.unit (s := S16x1x768) (k0_off6 c 7#32) S1x1x768.size (k0_off6_inb c 6)) : View sig .tc _ _ _).set
      ⊆ (rowM (bwd c 7)).view.set := by
  rw [rowM_set]
  exact le_of_eq (box_set_congr (off6_eq_off3 c 6) _ _)
theorem read_row7 (c : Dev nD) :
    aM.view.readAt (Elt F) (Rect.unit (s := S16x1x768) (k0_off6 c 7#32) S1x1x768.size (k0_off6_inb c 6)).toLoadRect (rowBuf m ρ (bwd c 7))
      = Spec.row (X m ρ) (bwd c 7) := read_row m ρ c 6
theorem load_in8 (c : Dev nD) :
    ((Memref.whole cc0_scratch2).access (Rect.unit (s := S16x1x768) (k0_off6 c 8#32) S1x1x768.size (k0_off6_inb c 7)) : View sig .tc _ _ _).set
      ⊆ (rowM (bwd c 8)).view.set := by
  rw [rowM_set]
  exact le_of_eq (box_set_congr (off6_eq_off3 c 7) _ _)
theorem read_row8 (c : Dev nD) :
    aM.view.readAt (Elt F) (Rect.unit (s := S16x1x768) (k0_off6 c 8#32) S1x1x768.size (k0_off6_inb c 7)).toLoadRect (rowBuf m ρ (bwd c 8))
      = Spec.row (X m ρ) (bwd c 8) := read_row m ρ c 7
theorem load_in9 (c : Dev nD) :
    ((Memref.whole cc0_scratch2).access (Rect.unit (s := S16x1x768) (k0_off6 c 9#32) S1x1x768.size (k0_off6_inb c 8)) : View sig .tc _ _ _).set
      ⊆ (rowM (bwd c 9)).view.set := by
  rw [rowM_set]
  exact le_of_eq (box_set_congr (off6_eq_off3 c 8) _ _)
theorem read_row9 (c : Dev nD) :
    aM.view.readAt (Elt F) (Rect.unit (s := S16x1x768) (k0_off6 c 9#32) S1x1x768.size (k0_off6_inb c 8)).toLoadRect (rowBuf m ρ (bwd c 9))
      = Spec.row (X m ρ) (bwd c 9) := read_row m ρ c 8
theorem load_in10 (c : Dev nD) :
    ((Memref.whole cc0_scratch2).access (Rect.unit (s := S16x1x768) (k0_off6 c 10#32) S1x1x768.size (k0_off6_inb c 9)) : View sig .tc _ _ _).set
      ⊆ (rowM (bwd c 10)).view.set := by
  rw [rowM_set]
  exact le_of_eq (box_set_congr (off6_eq_off3 c 9) _ _)
theorem read_row10 (c : Dev nD) :
    aM.view.readAt (Elt F) (Rect.unit (s := S16x1x768) (k0_off6 c 10#32) S1x1x768.size (k0_off6_inb c 9)).toLoadRect (rowBuf m ρ (bwd c 10))
      = Spec.row (X m ρ) (bwd c 10) := read_row m ρ c 9
theorem load_in11 (c : Dev nD) :
    ((Memref.whole cc0_scratch2).access (Rect.unit (s := S16x1x768) (k0_off6 c 11#32) S1x1x768.size (k0_off6_inb c 10)) : View sig .tc _ _ _).set
      ⊆ (rowM (bwd c 11)).view.set := by
  rw [rowM_set]
  exact le_of_eq (box_set_congr (off6_eq_off3 c 10) _ _)
theorem read_row11 (c : Dev nD) :
    aM.view.readAt (Elt F) (Rect.unit (s := S16x1x768) (k0_off6 c 11#32) S1x1x768.size (k0_off6_inb c 10)).toLoadRect (rowBuf m ρ (bwd c 11))
      = Spec.row (X m ρ) (bwd c 11) := read_row m ρ c 10
theorem load_in12 (c : Dev nD) :
    ((Memref.whole cc0_scratch2).access (Rect.unit (s := S16x1x768) (k0_off6 c 12#32) S1x1x768.size (k0_off6_inb c 11)) : View sig .tc _ _ _).set
      ⊆ (rowM (bwd c 12)).view.set := by
  rw [rowM_set]
  exact le_of_eq (box_set_congr (off6_eq_off3 c 11) _ _)
theorem read_row12 (c : Dev nD) :
    aM.view.readAt (Elt F) (Rect.unit (s := S16x1x768) (k0_off6 c 12#32) S1x1x768.size (k0_off6_inb c 11)).toLoadRect (rowBuf m ρ (bwd c 12))
      = Spec.row (X m ρ) (bwd c 12) := read_row m ρ c 11
theorem load_in13 (c : Dev nD) :
    ((Memref.whole cc0_scratch2).access (Rect.unit (s := S16x1x768) (k0_off6 c 13#32) S1x1x768.size (k0_off6_inb c 12)) : View sig .tc _ _ _).set
      ⊆ (rowM (bwd c 13)).view.set := by
  rw [rowM_set]
  exact le_of_eq (box_set_congr (off6_eq_off3 c 12) _ _)
theorem read_row13 (c : Dev nD) :
    aM.view.readAt (Elt F) (Rect.unit (s := S16x1x768) (k0_off6 c 13#32) S1x1x768.size (k0_off6_inb c 12)).toLoadRect (rowBuf m ρ (bwd c 13))
      = Spec.row (X m ρ) (bwd c 13) := read_row m ρ c 12
theorem load_in14 (c : Dev nD) :
    ((Memref.whole cc0_scratch2).access (Rect.unit (s := S16x1x768) (k0_off6 c 14#32) S1x1x768.size (k0_off6_inb c 13)) : View sig .tc _ _ _).set
      ⊆ (rowM (bwd c 14)).view.set := by
  rw [rowM_set]
  exact le_of_eq (box_set_congr (off6_eq_off3 c 13) _ _)
theorem read_row14 (c : Dev nD) :
    aM.view.readAt (Elt F) (Rect.unit (s := S16x1x768) (k0_off6 c 14#32) S1x1x768.size (k0_off6_inb c 13)).toLoadRect (rowBuf m ρ (bwd c 14))
      = Spec.row (X m ρ) (bwd c 14) := read_row m ρ c 13
theorem load_in15 (c : Dev nD) :
    ((Memref.whole cc0_scratch2).access (Rect.unit (s := S16x1x768) (k0_off6 c 15#32) S1x1x768.size (k0_off6_inb c 14)) : View sig .tc _ _ _).set
      ⊆ (rowM (bwd c 15)).view.set := by
  rw [rowM_set]
  exact le_of_eq (box_set_congr (off6_eq_off3 c 14) _ _)
theorem read_row15 (c : Dev nD) :
    aM.view.readAt (Elt F) (Rect.unit (s := S16x1x768) (k0_off6 c 15#32) S1x1x768.size (k0_off6_inb c 14)).toLoadRect (rowBuf m ρ (bwd c 15))
      = Spec.row (X m ρ) (bwd c 15) := read_row m ρ c 14

/-- The local copy's semaphore under its pool index. -/
theorem semVal_copy (c : Dev nD) :
    (semVal ((c : Thread nD τ), SemLoc.dma (Fin.mk 1 (by decide) : DmaSem sig)) 0 : sProp 𝕄) = semVal ((c : Thread nD τ), .dma copySem) 0 := rfl

/-- One whole-buffer store into the result's staging buffer leaves what was stored. -/
theorem out_whole (fo : (cc0_stg0_0 : Ref sig .tc).ty.Contents (Elt F)) (w : S1x768.Idx → Elt F .f32) (inb) :
    oM.view.writes (Elt F) fo [(⟨Rect.unit (s := S1x768) ![0, 0] S1x768.size inb, w⟩ : View.Piece (Elt F) S1x768 .f32)] = w :=
  Memref.write_access_unit_zero_univ (Elt F) cc0_stg0_0 hz2 inb fo w

set_option maxHeartbeats 4000000 in
/-- One device's body, from everything it starts with to everything the pipeline wants back. -/
theorem body_run (c : Dev nD) (K : Dev nD × Fin 33 → ℕ) (W : Waits sig Unit)
    (f1 : Buf (Elt F) ((rowM (fwd c 1)).view.loc (c : Thread nD τ))) (f2 : Buf (Elt F) ((rowM (fwd c 2)).view.loc (c : Thread nD τ))) (f3 : Buf (Elt F) ((rowM (fwd c 3)).view.loc (c : Thread nD τ))) (f4 : Buf (Elt F) ((rowM (fwd c 4)).view.loc (c : Thread nD τ))) (f5 : Buf (Elt F) ((rowM (fwd c 5)).view.loc (c : Thread nD τ))) (f6 : Buf (Elt F) ((rowM (fwd c 6)).view.loc (c : Thread nD τ))) (f7 : Buf (Elt F) ((rowM (fwd c 7)).view.loc (c : Thread nD τ))) (f8 : Buf (Elt F) ((rowM (fwd c 8)).view.loc (c : Thread nD τ))) (f9 : Buf (Elt F) ((rowM (fwd c 9)).view.loc (c : Thread nD τ))) (f10 : Buf (Elt F) ((rowM (fwd c 10)).view.loc (c : Thread nD τ))) (f11 : Buf (Elt F) ((rowM (fwd c 11)).view.loc (c : Thread nD τ))) (f12 : Buf (Elt F) ((rowM (fwd c 12)).view.loc (c : Thread nD τ))) (f13 : Buf (Elt F) ((rowM (fwd c 13)).view.loc (c : Thread nD τ))) (f14 : Buf (Elt F) ((rowM (fwd c 14)).view.loc (c : Thread nD τ))) (f15 : Buf (Elt F) ((rowM (fwd c 15)).view.loc (c : Thread nD τ)))
    (f0 : Buf (Elt F) ((rowM c).view.loc (c : Thread nD τ))) (fb : Buf (Elt F) (bM.view.loc (c : Thread nD τ))) (fo : Buf (Elt F) (oM.view.loc (c : Thread nD τ)))
    (Kt : PUnit → sProp 𝕄) :
    iprop(bodyCtx m ρ K c W f1 f2 f3 f4 f5 f6 f7 f8 f9 f10 f11 f12 f13 f14 f15 f0 fb fo ∗ (bodyPost m ρ c -∗ Kt ⟨⟩))
      ⊢ wp frame (wpE (defs₀ (F := F)) 𝒱₀ (c : Thread nD τ) none) Set.univ
          (cc0_body (F := F) (Memref.whole main_arg0) (Memref.isWhole_whole _) (Memref.whole cc0_stg0_0) (Memref.isWhole_whole _)
            (Memref.whole cc0_scratch0) (Memref.isWhole_whole _) cc0_scratch1 (Memref.whole cc0_scratch2) (Memref.isWhole_whole _) cc0_scratch3 cc0_scratch4)
          Kt := by
  unfold bodyCtx
  iintro ⟨⟨#HIb, #HIB1, #HIB2, #HIB3, #HIB4, #HIB5, #HIB6, #HIB7, #HIB8, #HIB9, #HIB10, #HIB11, #HIB12, #HIB13, #HIB14, #HIB15, #HIS1, #HIS2, #HIS3, #HIS4, #HIS5, #HIS6, #HIS7, #HIS8, #HIS9, #HIS10, #HIS11, #HIS12, #HIS13, #HIS14, #HIS15, #HIV1, #HIV2, #HIV3, #HIV4, #HIV5, #HIV6, #HIV7, #HIV8, #HIV9, #HIV10, #HIV11, #HIV12, #HIV13, #HIV14, #HIV15, #HIW1, #HIW2, #HIW3, #HIW4, #HIW5, #HIW6, #HIW7, #HIW8, #HIW9, #HIW10, #HIW11, #HIW12, #HIW13, #HIW14, #HIW15, #HrB1, #HrB2, #HrB3, #HrB4, #HrB5, #HrB6, #HrB7, #HrB8, #HrB9, #HrB10, #HrB11, #HrB12, #HrB13, #HrB14, #HrB15, #HrS1, #HrS2, #HrS3, #HrS4, #HrS5, #HrS6, #HrS7, #HrS8, #HrS9, #HrS10, #HrS11, #HrS12, #HrS13, #HrS14, #HrS15, #HrV1, #HrV2, #HrV3, #HrV4, #HrV5, #HrV6, #HrV7, #HrV8, #HrV9, #HrV10, #HrV11, #HrV12, #HrV13, #HrV14, #HrV15, #Hlev, HtB1, HtB2, HtB3, HtB4, HtB5, HtB6, HtB7, HtB8, HtB9, HtB10, HtB11, HtB12, HtB13, HtB14, HtB15, HtS1, HtS2, HtS3, HtS4, HtS5, HtS6, HtS7, HtS8, HtS9, HtS10, HtS11, HtS12, HtS13, HtS14, HtS15, HtV1, HtV2, HtV3, HtV4, HtV5, HtV6, HtV7, HtV8, HtV9, HtV10, HtV11, HtV12, HtV13, HtV14, HtV15, HaB, HaS1, HaS2, HaS3, HaS4, HaS5, HaS6, HaS7, HaS8, HaS9, HaS10, HaS11, HaS12, HaS13, HaS14, HaS15, HaW1, HaW2, HaW3, HaW4, HaW5, HaW6, HaW7, HaW8, HaW9, HaW10, HaW11, HaW12, HaW13, HaW14, HaW15, HcB, HcW1, HcW2, HcW3, HcW4, HcW5, HcW6, HcW7, HcW8, HcW9, HcW10, HcW11, HcW12, HcW13, HcW14, HcW15, HO, Hcs, Hx, Hb, Hp1, Hp2, Hp3, Hp4, Hp5, Hp6, Hp7, Hp8, Hp9, Hp10, Hp11, Hp12, Hp13, Hp14, Hp15, Hp0, Hout, #HIS0, #HIWc, HaS0, HaWc⟩, Hk⟩
  have hmwC := mayWait_copy (F := F) c
  have hmwB := mayWait_bar (F := F) c
  have hin1 := load_in1 c
  have hin2 := load_in2 c
  have hin3 := load_in3 c
  have hin4 := load_in4 c
  have hin5 := load_in5 c
  have hin6 := load_in6 c
  have hin7 := load_in7 c
  have hin8 := load_in8 c
  have hin9 := load_in9 c
  have hin10 := load_in10 c
  have hin11 := load_in11 c
  have hin12 := load_in12 c
  have hin13 := load_in13 c
  have hin14 := load_in14 c
  have hin15 := load_in15 c
  unfold O₀
  sl_exec_parts
  -- the fifteen rows the other devices handed over with their barrier units
  ihave Hq := (bar_rows m ρ c) $$ HaB_pay1
  icases Hq with ⟨⟨%g1, Hq1⟩, ⟨%g2, Hq2⟩, ⟨%g3, Hq3⟩, ⟨%g4, Hq4⟩, ⟨%g5, Hq5⟩, ⟨%g6, Hq6⟩, ⟨%g7, Hq7⟩, ⟨%g8, Hq8⟩, ⟨%g9, Hq9⟩, ⟨%g10, Hq10⟩, ⟨%g11, Hq11⟩, ⟨%g12, Hq12⟩, ⟨%g13, Hq13⟩, ⟨%g14, Hq14⟩, ⟨%g15, Hq15⟩⟩
  -- the device's own row at its canonical contents, in sixteen read shares
  ihave Hp0 := (Entails.of_eq (pointsTo_congr (own_row_canon m ρ c f0 _ (by sl_unfold_words; rw [readCov_whole']; rfl)))) $$ Hp0
  ihave Hp0 := (own_toks c _) $$ Hp0
  icases Hp0 with ⟨Hsd, Hs0, Hs1, Hs2, Hs3, Hs4, Hs5, Hs6, Hs7, Hs8, Hs9, Hs10, Hs11, Hs12, Hs13, Hs14, Hs15⟩
  unfold Orecv
  -- transfer 1: the row to device c + 1
  iapply (wp_send_row m ρ K c (fwd c 1) _ (dev16_eq c) 1 (by decide) (ne_fwd' c 1 (by decide)) (sendSem 1) (recvSem c) rfl rfl g1 _ _) $$ [HO Hs1 Hq1 HtS1 HtV1]
  · isplitr; · iexact HIS1
    isplitr; · iexact HIV1
    isplitl [Hs1]; · iexact Hs1
    isplitl [Hq1]; · iexact Hq1
    isplitl [HO]; · iexact HO
    isplitl [HtS1]; · iexact HtS1
    isplitr; · iexact HrS1
    isplitl [HtV1]; · iexact HtV1
    iexact HrV1
  iintro ⟨HcS1, HO⟩
  sl_exec_parts
  -- transfer 2: the row to device c + 2
  iapply (wp_send_row m ρ K c (fwd c 2) _ (dev17_eq c) 2 (by decide) (ne_fwd' c 2 (by decide)) (sendSem 2) (recvSem c) rfl rfl g2 _ _) $$ [HO Hs2 Hq2 HtS2 HtV2]
  · isplitr; · iexact HIS2
    isplitr; · iexact HIV2
    isplitl [Hs2]; · iexact Hs2
    isplitl [Hq2]; · iexact Hq2
    isplitl [HO]; · iexact HO
    isplitl [HtS2]; · iexact HtS2
    isplitr; · iexact HrS2
    isplitl [HtV2]; · iexact HtV2
    iexact HrV2
  iintro ⟨HcS2, HO⟩
  sl_exec_parts
  -- transfer 3: the row to device c + 3
  iapply (wp_send_row m ρ K c (fwd c 3) _ (dev18_eq c) 3 (by decide) (ne_fwd' c 3 (by decide)) (sendSem 3) (recvSem c) rfl rfl g3 _ _) $$ [HO Hs3 Hq3 HtS3 HtV3]
  · isplitr; · iexact HIS3
    isplitr; · iexact HIV3
    isplitl [Hs3]; · iexact Hs3
    isplitl [Hq3]; · iexact Hq3
    isplitl [HO]; · iexact HO
    isplitl [HtS3]; · iexact HtS3
    isplitr; · iexact HrS3
    isplitl [HtV3]; · iexact HtV3
    iexact HrV3
  iintro ⟨HcS3, HO⟩
  sl_exec_parts
  -- transfer 4: the row to device c + 4
  iapply (wp_send_row m ρ K c (fwd c 4) _ (dev19_eq c) 4 (by decide) (ne_fwd' c 4 (by decide)) (sendSem 4) (recvSem c) rfl rfl g4 _ _) $$ [HO Hs4 Hq4 HtS4 HtV4]
  · isplitr; · iexact HIS4
    isplitr; · iexact HIV4
    isplitl [Hs4]; · iexact Hs4
    isplitl [Hq4]; · iexact Hq4
    isplitl [HO]; · iexact HO
    isplitl [HtS4]; · iexact HtS4
    isplitr; · iexact HrS4
    isplitl [HtV4]; · iexact HtV4
    iexact HrV4
  iintro ⟨HcS4, HO⟩
  sl_exec_parts
  -- transfer 5: the row to device c + 5
  iapply (wp_send_row m ρ K c (fwd c 5) _ (dev20_eq c) 5 (by decide) (ne_fwd' c 5 (by decide)) (sendSem 5) (recvSem c) rfl rfl g5 _ _) $$ [HO Hs5 Hq5 HtS5 HtV5]
  · isplitr; · iexact HIS5
    isplitr; · iexact HIV5
    isplitl [Hs5]; · iexact Hs5
    isplitl [Hq5]; · iexact Hq5
    isplitl [HO]; · iexact HO
    isplitl [HtS5]; · iexact HtS5
    isplitr; · iexact HrS5
    isplitl [HtV5]; · iexact HtV5
    iexact HrV5
  iintro ⟨HcS5, HO⟩
  sl_exec_parts
  -- transfer 6: the row to device c + 6
  iapply (wp_send_row m ρ K c (fwd c 6) _ (dev21_eq c) 6 (by decide) (ne_fwd' c 6 (by decide)) (sendSem 6) (recvSem c) rfl rfl g6 _ _) $$ [HO Hs6 Hq6 HtS6 HtV6]
  · isplitr; · iexact HIS6
    isplitr; · iexact HIV6
    isplitl [Hs6]; · iexact Hs6
    isplitl [Hq6]; · iexact Hq6
    isplitl [HO]; · iexact HO
    isplitl [HtS6]; · iexact HtS6
    isplitr; · iexact HrS6
    isplitl [HtV6]; · iexact HtV6
    iexact HrV6
  iintro ⟨HcS6, HO⟩
  sl_exec_parts
  -- transfer 7: the row to device c + 7
  iapply (wp_send_row m ρ K c (fwd c 7) _ (dev22_eq c) 7 (by decide) (ne_fwd' c 7 (by decide)) (sendSem 7) (recvSem c) rfl rfl g7 _ _) $$ [HO Hs7 Hq7 HtS7 HtV7]
  · isplitr; · iexact HIS7
    isplitr; · iexact HIV7
    isplitl [Hs7]; · iexact Hs7
    isplitl [Hq7]; · iexact Hq7
    isplitl [HO]; · iexact HO
    isplitl [HtS7]; · iexact HtS7
    isplitr; · iexact HrS7
    isplitl [HtV7]; · iexact HtV7
    iexact HrV7
  iintro ⟨HcS7, HO⟩
  sl_exec_parts
  -- transfer 8: the row to device c + 8
  iapply (wp_send_row m ρ K c (fwd c 8) _ (dev23_eq c) 8 (by decide) (ne_fwd' c 8 (by decide)) (sendSem 8) (recvSem c) rfl rfl g8 _ _) $$ [HO Hs8 Hq8 HtS8 HtV8]
  · isplitr; · iexact HIS8
    isplitr; · iexact HIV8
    isplitl [Hs8]; · iexact Hs8
    isplitl [Hq8]; · iexact Hq8
    isplitl [HO]; · iexact HO
    isplitl [HtS8]; · iexact HtS8
    isplitr; · iexact HrS8
    isplitl [HtV8]; · iexact HtV8
    iexact HrV8
  iintro ⟨HcS8, HO⟩
  sl_exec_parts
  -- transfer 9: the row to device c + 9
  iapply (wp_send_row m ρ K c (fwd c 9) _ (dev24_eq c) 9 (by decide) (ne_fwd' c 9 (by decide)) (sendSem 9) (recvSem c) rfl rfl g9 _ _) $$ [HO Hs9 Hq9 HtS9 HtV9]
  · isplitr; · iexact HIS9
    isplitr; · iexact HIV9
    isplitl [Hs9]; · iexact Hs9
    isplitl [Hq9]; · iexact Hq9
    isplitl [HO]; · iexact HO
    isplitl [HtS9]; · iexact HtS9
    isplitr; · iexact HrS9
    isplitl [HtV9]; · iexact HtV9
    iexact HrV9
  iintro ⟨HcS9, HO⟩
  sl_exec_parts
  -- transfer 10: the row to device c + 10
  iapply (wp_send_row m ρ K c (fwd c 10) _ (dev25_eq c) 10 (by decide) (ne_fwd' c 10 (by decide)) (sendSem 10) (recvSem c) rfl rfl g10 _ _) $$ [HO Hs10 Hq10 HtS10 HtV10]
  · isplitr; · iexact HIS10
    isplitr; · iexact HIV10
    isplitl [Hs10]; · iexact Hs10
    isplitl [Hq10]; · iexact Hq10
    isplitl [HO]; · iexact HO
    isplitl [HtS10]; · iexact HtS10
    isplitr; · iexact HrS10
    isplitl [HtV10]; · iexact HtV10
    iexact HrV10
  iintro ⟨HcS10, HO⟩
  sl_exec_parts
  -- transfer 11: the row to device c + 11
  iapply (wp_send_row m ρ K c (fwd c 11) _ (dev26_eq c) 11 (by decide) (ne_fwd' c 11 (by decide)) (sendSem 11) (recvSem c) rfl rfl g11 _ _) $$ [HO Hs11 Hq11 HtS11 HtV11]
  · isplitr; · iexact HIS11
    isplitr; · iexact HIV11
    isplitl [Hs11]; · iexact Hs11
    isplitl [Hq11]; · iexact Hq11
    isplitl [HO]; · iexact HO
    isplitl [HtS11]; · iexact HtS11
    isplitr; · iexact HrS11
    isplitl [HtV11]; · iexact HtV11
    iexact HrV11
  iintro ⟨HcS11, HO⟩
  sl_exec_parts
  -- transfer 12: the row to device c + 12
  iapply (wp_send_row m ρ K c (fwd c 12) _ (dev27_eq c) 12 (by decide) (ne_fwd' c 12 (by decide)) (sendSem 12) (recvSem c) rfl rfl g12 _ _) $$ [HO Hs12 Hq12 HtS12 HtV12]
  · isplitr; · iexact HIS12
    isplitr; · iexact HIV12
    isplitl [Hs12]; · iexact Hs12
    isplitl [Hq12]; · iexact Hq12
    isplitl [HO]; · iexact HO
    isplitl [HtS12]; · iexact HtS12
    isplitr; · iexact HrS12
    isplitl [HtV12]; · iexact HtV12
    iexact HrV12
  iintro ⟨HcS12, HO⟩
  sl_exec_parts
  -- transfer 13: the row to device c + 13
  iapply (wp_send_row m ρ K c (fwd c 13) _ (dev28_eq c) 13 (by decide) (ne_fwd' c 13 (by decide)) (sendSem 13) (recvSem c) rfl rfl g13 _ _) $$ [HO Hs13 Hq13 HtS13 HtV13]
  · isplitr; · iexact HIS13
    isplitr; · iexact HIV13
    isplitl [Hs13]; · iexact Hs13
    isplitl [Hq13]; · iexact Hq13
    isplitl [HO]; · iexact HO
    isplitl [HtS13]; · iexact HtS13
    isplitr; · iexact HrS13
    isplitl [HtV13]; · iexact HtV13
    iexact HrV13
  iintro ⟨HcS13, HO⟩
  sl_exec_parts
  -- transfer 14: the row to device c + 14
  iapply (wp_send_row m ρ K c (fwd c 14) _ (dev29_eq c) 14 (by decide) (ne_fwd' c 14 (by decide)) (sendSem 14) (recvSem c) rfl rfl g14 _ _) $$ [HO Hs14 Hq14 HtS14 HtV14]
  · isplitr; · iexact HIS14
    isplitr; · iexact HIV14
    isplitl [Hs14]; · iexact Hs14
    isplitl [Hq14]; · iexact Hq14
    isplitl [HO]; · iexact HO
    isplitl [HtS14]; · iexact HtS14
    isplitr; · iexact HrS14
    isplitl [HtV14]; · iexact HtV14
    iexact HrV14
  iintro ⟨HcS14, HO⟩
  sl_exec_parts
  ihave HO := (Entails.of_eq (congrArg (fun o => (owes (c : Thread nD τ) o _ : sProp 𝕄)) (zero_add _).symm)) $$ HO
  -- transfer 15: the row to device c + 15
  iapply (wp_send_row m ρ K c (fwd c 15) _ (dev30_eq c) 15 (by decide) (ne_fwd' c 15 (by decide)) (sendSem 15) (recvSem c) rfl rfl g15 _ _) $$ [HO Hs15 Hq15 HtS15 HtV15]
  · isplitr; · iexact HIS15
    isplitr; · iexact HIV15
    isplitl [Hs15]; · iexact Hs15
    isplitl [Hq15]; · iexact Hq15
    isplitl [HO]; · iexact HO
    isplitl [HtS15]; · iexact HtS15
    isplitr; · iexact HrS15
    isplitl [HtV15]; · iexact HtV15
    iexact HrV15
  iintro ⟨HcS15, HO⟩
  sl_exec_parts
  -- the device's thirty-two own cells close: their counters at zero are the device's again
  imod (Rounds.cell_close ER (Rd m ρ) (Set.mem_univ (K (c, jS 0))) (fun h => h) (R := 0) (duties_send0 m ρ c)) $$ [HaS0] with HzS0
  · isplitr; · iexact HIS0
    iexact HaS0
  imod (Rounds.cell_close ER (Rd m ρ) (Set.mem_univ (K (c, jS 1))) (fun h => h) (R := 1) (duties_later m ρ (sendCell c 1))) $$ [HaS1] with HzS1
  · isplitr; · iexact HIS1
    iexact HaS1
  imod (Rounds.cell_close ER (Rd m ρ) (Set.mem_univ (K (c, jS 2))) (fun h => h) (R := 1) (duties_later m ρ (sendCell c 2))) $$ [HaS2] with HzS2
  · isplitr; · iexact HIS2
    iexact HaS2
  imod (Rounds.cell_close ER (Rd m ρ) (Set.mem_univ (K (c, jS 3))) (fun h => h) (R := 1) (duties_later m ρ (sendCell c 3))) $$ [HaS3] with HzS3
  · isplitr; · iexact HIS3
    iexact HaS3
  imod (Rounds.cell_close ER (Rd m ρ) (Set.mem_univ (K (c, jS 4))) (fun h => h) (R := 1) (duties_later m ρ (sendCell c 4))) $$ [HaS4] with HzS4
  · isplitr; · iexact HIS4
    iexact HaS4
  imod (Rounds.cell_close ER (Rd m ρ) (Set.mem_univ (K (c, jS 5))) (fun h => h) (R := 1) (duties_later m ρ (sendCell c 5))) $$ [HaS5] with HzS5
  · isplitr; · iexact HIS5
    iexact HaS5
  imod (Rounds.cell_close ER (Rd m ρ) (Set.mem_univ (K (c, jS 6))) (fun h => h) (R := 1) (duties_later m ρ (sendCell c 6))) $$ [HaS6] with HzS6
  · isplitr; · iexact HIS6
    iexact HaS6
  imod (Rounds.cell_close ER (Rd m ρ) (Set.mem_univ (K (c, jS 7))) (fun h => h) (R := 1) (duties_later m ρ (sendCell c 7))) $$ [HaS7] with HzS7
  · isplitr; · iexact HIS7
    iexact HaS7
  imod (Rounds.cell_close ER (Rd m ρ) (Set.mem_univ (K (c, jS 8))) (fun h => h) (R := 1) (duties_later m ρ (sendCell c 8))) $$ [HaS8] with HzS8
  · isplitr; · iexact HIS8
    iexact HaS8
  imod (Rounds.cell_close ER (Rd m ρ) (Set.mem_univ (K (c, jS 9))) (fun h => h) (R := 1) (duties_later m ρ (sendCell c 9))) $$ [HaS9] with HzS9
  · isplitr; · iexact HIS9
    iexact HaS9
  imod (Rounds.cell_close ER (Rd m ρ) (Set.mem_univ (K (c, jS 10))) (fun h => h) (R := 1) (duties_later m ρ (sendCell c 10))) $$ [HaS10] with HzS10
  · isplitr; · iexact HIS10
    iexact HaS10
  imod (Rounds.cell_close ER (Rd m ρ) (Set.mem_univ (K (c, jS 11))) (fun h => h) (R := 1) (duties_later m ρ (sendCell c 11))) $$ [HaS11] with HzS11
  · isplitr; · iexact HIS11
    iexact HaS11
  imod (Rounds.cell_close ER (Rd m ρ) (Set.mem_univ (K (c, jS 12))) (fun h => h) (R := 1) (duties_later m ρ (sendCell c 12))) $$ [HaS12] with HzS12
  · isplitr; · iexact HIS12
    iexact HaS12
  imod (Rounds.cell_close ER (Rd m ρ) (Set.mem_univ (K (c, jS 13))) (fun h => h) (R := 1) (duties_later m ρ (sendCell c 13))) $$ [HaS13] with HzS13
  · isplitr; · iexact HIS13
    iexact HaS13
  imod (Rounds.cell_close ER (Rd m ρ) (Set.mem_univ (K (c, jS 14))) (fun h => h) (R := 1) (duties_later m ρ (sendCell c 14))) $$ [HaS14] with HzS14
  · isplitr; · iexact HIS14
    iexact HaS14
  imod (Rounds.cell_close ER (Rd m ρ) (Set.mem_univ (K (c, jS 15))) (fun h => h) (R := 1) (duties_later m ρ (sendCell c 15))) $$ [HaS15] with HzS15
  · isplitr; · iexact HIS15
    iexact HaS15
  imod (Rounds.cell_close ER (Rd m ρ) (Set.mem_univ (K (c, jR (bwd c 1)))) (fun h => h) (R := 1) (duties_later m ρ (recvCell c (bwd c 1)))) $$ [HaW1] with HzW1
  · isplitr; · iexact HIW1
    iexact HaW1
  imod (Rounds.cell_close ER (Rd m ρ) (Set.mem_univ (K (c, jR (bwd c 2)))) (fun h => h) (R := 1) (duties_later m ρ (recvCell c (bwd c 2)))) $$ [HaW2] with HzW2
  · isplitr; · iexact HIW2
    iexact HaW2
  imod (Rounds.cell_close ER (Rd m ρ) (Set.mem_univ (K (c, jR (bwd c 3)))) (fun h => h) (R := 1) (duties_later m ρ (recvCell c (bwd c 3)))) $$ [HaW3] with HzW3
  · isplitr; · iexact HIW3
    iexact HaW3
  imod (Rounds.cell_close ER (Rd m ρ) (Set.mem_univ (K (c, jR (bwd c 4)))) (fun h => h) (R := 1) (duties_later m ρ (recvCell c (bwd c 4)))) $$ [HaW4] with HzW4
  · isplitr; · iexact HIW4
    iexact HaW4
  imod (Rounds.cell_close ER (Rd m ρ) (Set.mem_univ (K (c, jR (bwd c 5)))) (fun h => h) (R := 1) (duties_later m ρ (recvCell c (bwd c 5)))) $$ [HaW5] with HzW5
  · isplitr; · iexact HIW5
    iexact HaW5
  imod (Rounds.cell_close ER (Rd m ρ) (Set.mem_univ (K (c, jR (bwd c 6)))) (fun h => h) (R := 1) (duties_later m ρ (recvCell c (bwd c 6)))) $$ [HaW6] with HzW6
  · isplitr; · iexact HIW6
    iexact HaW6
  imod (Rounds.cell_close ER (Rd m ρ) (Set.mem_univ (K (c, jR (bwd c 7)))) (fun h => h) (R := 1) (duties_later m ρ (recvCell c (bwd c 7)))) $$ [HaW7] with HzW7
  · isplitr; · iexact HIW7
    iexact HaW7
  imod (Rounds.cell_close ER (Rd m ρ) (Set.mem_univ (K (c, jR (bwd c 8)))) (fun h => h) (R := 1) (duties_later m ρ (recvCell c (bwd c 8)))) $$ [HaW8] with HzW8
  · isplitr; · iexact HIW8
    iexact HaW8
  imod (Rounds.cell_close ER (Rd m ρ) (Set.mem_univ (K (c, jR (bwd c 9)))) (fun h => h) (R := 1) (duties_later m ρ (recvCell c (bwd c 9)))) $$ [HaW9] with HzW9
  · isplitr; · iexact HIW9
    iexact HaW9
  imod (Rounds.cell_close ER (Rd m ρ) (Set.mem_univ (K (c, jR (bwd c 10)))) (fun h => h) (R := 1) (duties_later m ρ (recvCell c (bwd c 10)))) $$ [HaW10] with HzW10
  · isplitr; · iexact HIW10
    iexact HaW10
  imod (Rounds.cell_close ER (Rd m ρ) (Set.mem_univ (K (c, jR (bwd c 11)))) (fun h => h) (R := 1) (duties_later m ρ (recvCell c (bwd c 11)))) $$ [HaW11] with HzW11
  · isplitr; · iexact HIW11
    iexact HaW11
  imod (Rounds.cell_close ER (Rd m ρ) (Set.mem_univ (K (c, jR (bwd c 12)))) (fun h => h) (R := 1) (duties_later m ρ (recvCell c (bwd c 12)))) $$ [HaW12] with HzW12
  · isplitr; · iexact HIW12
    iexact HaW12
  imod (Rounds.cell_close ER (Rd m ρ) (Set.mem_univ (K (c, jR (bwd c 13)))) (fun h => h) (R := 1) (duties_later m ρ (recvCell c (bwd c 13)))) $$ [HaW13] with HzW13
  · isplitr; · iexact HIW13
    iexact HaW13
  imod (Rounds.cell_close ER (Rd m ρ) (Set.mem_univ (K (c, jR (bwd c 14)))) (fun h => h) (R := 1) (duties_later m ρ (recvCell c (bwd c 14)))) $$ [HaW14] with HzW14
  · isplitr; · iexact HIW14
    iexact HaW14
  imod (Rounds.cell_close ER (Rd m ρ) (Set.mem_univ (K (c, jR (bwd c 15)))) (fun h => h) (R := 1) (duties_later m ρ (recvCell c (bwd c 15)))) $$ [HaW15] with HzW15
  · isplitr; · iexact HIW15
    iexact HaW15
  imod (Rounds.cell_close ER (Rd m ρ) (Set.mem_univ (K (c, jR c))) (fun h => h) (R := 0) (duties_recvOwn m ρ c)) $$ [HaWc] with HzWc
  · isplitr; · iexact HIWc
    iexact HaWc
  -- the result's staging buffer holds the kernel's value: the fifteen rows read are the other devices' row sums
  ihave Hout := (Entails.of_eq (congrArg (fun v => (oM.view.loc (c : Thread nD τ) ↦[oM.view.set]{fullShare} v : sProp 𝕄))
    (show oM.view.writes (Elt F) fo (body_run.sl.Hout_1 m ρ c) = Spec.outVal (X m ρ) c from by
      sl_unfold_run_names
      rw [out_whole, readCov_whole', read_row1 m ρ c, read_row2 m ρ c, read_row3 m ρ c, read_row4 m ρ c, read_row5 m ρ c, read_row6 m ρ c, read_row7 m ρ c, read_row8 m ρ c, read_row9 m ρ c, read_row10 m ρ c, read_row11 m ρ c, read_row12 m ρ c, read_row13 m ρ c, read_row14 m ρ c, read_row15 m ρ c]
      rfl))) $$ Hout
  ihave Hcs := (Entails.of_eq (semVal_copy (F := F) c)) $$ Hcs
  sl_step
  iapply Hk
  iapply (post_intro m ρ c _ _)
  unfold bodyEnd
  iframe

/-- The library's body obligation on every device. -/
theorem body_obligation : ∀ c, BodyObligation (dats (F := F) m ρ 0 c) (defs₀ (F := F)) 𝒱₀ () Set.univ :=
  body_obligation_of m ρ fun c K W f1 f2 f3 f4 f5 f6 f7 f8 f9 f10 f11 f12 f13 f14 f15 f0 fb fo Kt => body_run m ρ c K W f1 f2 f3 f4 f5 f6 f7 f8 f9 f10 f11 f12 f13 f14 f15 f0 fb fo Kt

/-- info: 'Cert.KernelIdeal.Proto.body_obligation' depends on axioms: [propext, Classical.choice, Quot.sound] -/
#guard_msgs in #print axioms body_obligation

end Cert.KernelIdeal.Proto

end
-- ==== Proof.RowsK.lean ====
/-
  The rows of the exchange buffer, as views: the row a transfer names (a slice of the buffer, squeezed) and the box a
  load or store names are the same elements; what an unmasked write leaves on them does not depend on what was there;
  a row written with a device's row sum, or copied element for element from one, holds the canonical contents; a load
  of it reads the row sum back; and the buffer is its sixteen rows.
-/
import proofs.«900942_g7700000000000943_dist_mean_ax0_shard0_i_m1536_n768_v7x_i16_bf16_1_alg».proof.Proof.ProtoK

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable [∀ e, Nonempty (Elt F e)]

/-! ## A row under its two names -/

/-- The squeezed slice a transfer names and the box a load or store names hold the same elements of the buffer:
    squeezing re-counts a view's elements and moves none. -/
theorem rowM_set (s : Dev nD) : (rowM s).view.set = (aM.access (rowBox s) : View sig .tc _ _ _).set :=
  View.set_reshape _ _

/-- On a view's own elements an unmasked write leaves the payload, whatever the buffer held before. -/
theorem write_agree {sp : Space} {S : Shape} {e : EltTy} (v : View sig .tc sp S e) (f g : v.ty.Contents (Elt F))
    (w : S.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

/-! ## Boxes of one row's size at equal offsets -/

/-- A write through boxes of one size at equal offsets is one write. -/
theorem write_box_congr {off off' : Fin S16x1x768.rank → Nat} (h : off = off')
    (p : ∀ a, off a + S1x1x768.size a ≤ S16x1x768.size a) (p' : ∀ a, off' a + S1x1x768.size a ≤ S16x1x768.size a)
    (f : (cc0_scratch2 : Ref sig .tc).ty.Contents (Elt F)) (w : S1x1x768.Idx → Elt F .f32) :
    View.write (Elt F) (aM.access (Rect.unit (s := S16x1x768) off S1x1x768.size p)) f w Finset.univ
      = View.write (Elt F) (aM.access (Rect.unit (s := S16x1x768) off' S1x1x768.size p')) f w Finset.univ := by
  subst h; rfl

/-- A load at boxes of one size at equal offsets is one load. -/
theorem readAt_box_congr {off off' : Fin S16x1x768.rank → Nat} (h : off = off')
    (p : ∀ a, off a + S1x1x768.size a ≤ S16x1x768.size a) (p' : ∀ a, off' a + S1x1x768.size a ≤ S16x1x768.size a)
    (f : (cc0_scratch2 : Ref sig .tc).ty.Contents (Elt F)) :
    aM.view.readAt (Elt F) (Rect.unit (s := S16x1x768) off S1x1x768.size p).toLoadRect f
      = aM.view.readAt (Elt F) (Rect.unit (s := S16x1x768) off' S1x1x768.size p').toLoadRect f := by
  subst h; rfl

/-- The offset a device's store of its own row computes is the offset its transfers name that row by. -/
theorem off1_eq_off3 (c : Dev nD) : k0_off1 c = k0_off3 c := (k0_off1_eq c).trans (k0_off3_eq c).symm

/-- The offset of the row a device reads `1 + r` rounds in is the offset of the row of the device `1 + r` places before it. -/
theorem off6_eq_off3 (c : Dev nD) (r : Fin 15) : k0_off6 c (BitVec.ofNat 32 (1 + r.val)) = k0_off3 (bwd c (1 + r.val)) := by
  rw [k0_off6_eq, k0_off3_eq]
  have hv : ((c.val + 15) - r.val) % 16 = (bwd c (1 + r.val)).val := by revert c r; decide
  rw [hv]

/-! ## What a row holds -/

/-- After a device's store of its row sum, its own row holds the canonical contents on the row's elements. -/
theorem own_row_canon (c : Dev nD) (f0 : (cc0_scratch2 : Ref sig .tc).ty.Contents (Elt F)) (w : S1x1x768.Idx → Elt F .f32)
    (h : w = Spec.row (X m ρ) c) :
    ∀ i ∈ (rowM c).view.set,
      (View.write (Elt F) ((Memref.whole cc0_scratch2).access (Rect.unit (s := S16x1x768) (k0_off1 c) S1x1x768.size (k0_off1_inb c))) f0 w Finset.univ) i
        = rowBuf m ρ c i := by
  subst h
  intro i hi
  rw [rowM_set] at hi
  rw [write_box_congr (off1_eq_off3 c) (k0_off1_inb c) (k0_off3_inb c)]
  exact write_agree (aM.access (rowBox c)) f0 (View.junk aM.view) _ i hi

/-- A row copied element for element from a buffer holding the canonical contents holds them. -/
theorem landed_canon (s : Dev nD) (fd : (cc0_scratch2 : Ref sig .tc).ty.Contents (Elt F)) :
    ∀ i ∈ (rowM s).view.set,
      ((rowM s).view.write (Elt F) fd ((rowM s).view.read (Elt F) (rowBuf m ρ s)) Finset.univ) i = rowBuf m ρ s i := by
  intro i hi
  rw [View.write_read_eq_piecewise]
  exact Finset.piecewise_eq_of_mem _ _ _ hi

/-- Loading a device's own row from the canonical contents gives its row sum. -/
theorem read_own_row (c : Dev nD) :
    aM.view.readAt (Elt F) (rowBox c).toLoadRect (rowBuf m ρ c) = Spec.row (X m ρ) c :=
  View.read_write_univ _ _

/-- Loading, `1 + r` rounds in, the row of the device `1 + r` places before `c` from the canonical contents gives that
    device's row sum. -/
theorem read_row (c : Dev nD) (r : Fin 15) :
    aM.view.readAt (Elt F) (Rect.unit (s := S16x1x768) (k0_off6 c (BitVec.ofNat 32 (1 + r.val))) S1x1x768.size (k0_off6_inb c r)).toLoadRect
        (rowBuf m ρ (bwd c (1 + r.val)))
      = Spec.row (X m ρ) (bwd c (1 + r.val)) :=
  (readAt_box_congr (off6_eq_off3 c r) (k0_off6_inb c r) (k0_off3_inb (bwd c (1 + r.val))) _).trans
    (read_own_row m ρ (bwd c (1 + r.val)))

/-! ## The buffer is its sixteen rows -/

/-- Row `k` along the first axis and the box at offset `(k, 0, 0)` hold the same elements of the buffer's index set. -/
theorem rowRect_set (k : Dev nD) : (S16x1x768.rowRect 0 k).set = (rowBox k).toLoadRect.set := by
  ext i
  have h1 : i ∈ (S16x1x768.rowRect 0 k).set ↔ ∀ a : Fin S16x1x768.rank,
      (if a = 0 then k.val else 0) ≤ (i a : ℕ) ∧ (i a : ℕ) < (if a = 0 then k.val else 0) + (S16x1x768.rowShape 0).size a :=
    Rect.mem_set_unit
  have h2 : i ∈ (rowBox k).toLoadRect.set ↔ ∀ a : Fin S16x1x768.rank,
      k0_off3 k a ≤ (i a : ℕ) ∧ (i a : ℕ) < k0_off3 k a + S1x1x768.size a :=
    Rect.mem_set_unit
  refine h1.trans (Iff.trans ?_ h2.symm)
  rw [k0_off3_eq]
  refine forall_congr' fun a => ?_
  match a with
  | ⟨0, _⟩ => exact Iff.rfl
  | ⟨1, _⟩ => exact Iff.rfl
  | ⟨2, _⟩ => exact Iff.rfl

/-- Row `k` of the buffer along its first axis is the row the transfers name. -/
theorem row_set (k : Dev nD) : (aM.view.slice (S16x1x768.rowRect 0 k)).set = (rowM k).view.set := by
  rw [rowM_set, View.set_slice, View.set_slice, rowRect_set]

/-- The exchange buffer held at a share is its sixteen rows held at that share each. -/
theorem rows_split (t : Dev nD) (q : PosShare TreeShare) (f : Buf (Elt F) (aM.view.loc (t : Thread nD τ))) :
    (aM.view.loc (t : Thread nD τ) ↦[aM.view.set]{q} f : sProp 𝕄)
      = bigSep Finset.univ fun s : Dev nD => (rowM s).view.loc (t : Thread nD τ) ↦[(rowM s).view.set]{q} f := by
  refine (pointsTo_rows (t : Thread nD τ) aM.view (0 : Fin 3) q f).trans ?_
  refine congrArg (bigSep Finset.univ) (funext fun k => ?_)
  exact congrArg (fun S => (aM.view.loc (t : Thread nD τ) ↦[S]{q} f : sProp 𝕄)) (row_set k)

/-- Sixteen rows held outright, whatever each holds, are the buffer held outright. -/
theorem rows_join (t : Dev nD) (g : Dev nD → Buf (Elt F) (aM.view.loc (t : Thread nD τ))) :
    (bigSep Finset.univ fun s : Dev nD => (rowM s).view.loc (t : Thread nD τ) ↦[(rowM s).view.set]{fullShare} g s)
      ⊢ (∃ f, aM.view.loc (t : Thread nD τ) ↦[aM.view.set]{fullShare} f : sProp 𝕄) := by
  have hd : ∀ s ∈ (Finset.univ : Finset (Dev nD)), ∀ s' ∈ (Finset.univ : Finset (Dev nD)), s ≠ s' →
      Disjoint (rowM s).view.set (rowM s').view.set := fun s _ s' _ h => by
    rw [← row_set, ← row_set]; exact View.disjoint_rows aM.view (0 : Fin 3) h
  have hu : aM.view.set = Finset.univ.biUnion fun s : Dev nD => (rowM s).view.set := by
    rw [View.set_eq_biUnion_rows aM.view (0 : Fin 3)]
    exact Finset.biUnion_congr rfl fun k _ => row_set k
  have hj := pointsTo_biUnion_join (Ix := Unit) (Name := ℕ) (U := UU) (Lvl := ℕ) (ℓ := aM.view.loc (t : Thread nD τ))
    (q := fullShare) Finset.univ (fun s : Dev nD => (rowM s).view.set) g (g 0) hd
  refine hj.trans ?_
  iintro ⟨%f, %hf, H⟩
  iexists f
  rw [hu]
  iexact H

end Cert.Kernel.Proto

end
-- ==== Proof.CtxK.lean ====
import proofs.«900942_g7700000000000943_dist_mean_ax0_shard0_i_m1536_n768_v7x_i16_bf16_1_alg».proof.Proof.ProtoK

noncomputable section

namespace Cert.Kernel.Proto

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable [∀ e, Nonempty (Elt F e)]

/-- Everything device `c`'s body starts from, one conjunct per thing it uses, in the order it uses them: the invariants of
    its own cells and of the cells it pays into; that those are at round 0; the level facts; the tokens of the duties it
    pays (a barrier unit and a row for each of the fifteen other devices, its fifteen departures); its positions; its
    launch credit; what it owes; the local copy's semaphore; its block, its two scratch buffers — the exchange buffer
    row by row — and the result's staging buffer; last the two cells it never uses. -/
def bodyCtx (K : Dev nD × Fin 33 → ℕ) (c : Dev nD) (W : Waits sig Unit)
    (f1 : Buf (Elt F) ((rowM (fwd c 1)).view.loc (c : Thread nD τ))) (f2 : Buf (Elt F) ((rowM (fwd c 2)).view.loc (c : Thread nD τ))) (f3 : Buf (Elt F) ((rowM (fwd c 3)).view.loc (c : Thread nD τ))) (f4 : Buf (Elt F) ((rowM (fwd c 4)).view.loc (c : Thread nD τ))) (f5 : Buf (Elt F) ((rowM (fwd c 5)).view.loc (c : Thread nD τ))) (f6 : Buf (Elt F) ((rowM (fwd c 6)).view.loc (c : Thread nD τ))) (f7 : Buf (Elt F) ((rowM (fwd c 7)).view.loc (c : Thread nD τ))) (f8 : Buf (Elt F) ((rowM (fwd c 8)).view.loc (c : Thread nD τ))) (f9 : Buf (Elt F) ((rowM (fwd c 9)).view.loc (c : Thread nD τ))) (f10 : Buf (Elt F) ((rowM (fwd c 10)).view.loc (c : Thread nD τ))) (f11 : Buf (Elt F) ((rowM (fwd c 11)).view.loc (c : Thread nD τ))) (f12 : Buf (Elt F) ((rowM (fwd c 12)).view.loc (c : Thread nD τ))) (f13 : Buf (Elt F) ((rowM (fwd c 13)).view.loc (c : Thread nD τ))) (f14 : Buf (Elt F) ((rowM (fwd c 14)).view.loc (c : Thread nD τ))) (f15 : Buf (Elt F) ((rowM (fwd c 15)).view.loc (c : Thread nD τ)))
    (f0 : Buf (Elt F) ((rowM c).view.loc (c : Thread nD τ))) (fb : Buf (Elt F) (bM.view.loc (c : Thread nD τ))) (fo : Buf (Elt F) (oM.view.loc (c : Thread nD τ))) : sProp 𝕄 :=
  iprop(cellInv ER (Rd m ρ) (K (c, 0)) (barCell c)
    ∗ cellInv ER (Rd m ρ) (K ((fwd c 1), 0)) (barCell (fwd c 1))
    ∗ cellInv ER (Rd m ρ) (K ((fwd c 2), 0)) (barCell (fwd c 2))
    ∗ cellInv ER (Rd m ρ) (K ((fwd c 3), 0)) (barCell (fwd c 3))
    ∗ cellInv ER (Rd m ρ) (K ((fwd c 4), 0)) (barCell (fwd c 4))
    ∗ cellInv ER (Rd m ρ) (K ((fwd c 5), 0)) (barCell (fwd c 5))
    ∗ cellInv ER (Rd m ρ) (K ((fwd c 6), 0)) (barCell (fwd c 6))
    ∗ cellInv ER (Rd m ρ) (K ((fwd c 7), 0)) (barCell (fwd c 7))
    ∗ cellInv ER (Rd m ρ) (K ((fwd c 8), 0)) (barCell (fwd c 8))
    ∗ cellInv ER (Rd m ρ) (K ((fwd c 9), 0)) (barCell (fwd c 9))
    ∗ cellInv ER (Rd m ρ) (K ((fwd c 10), 0)) (barCell (fwd c 10))
    ∗ cellInv ER (Rd m ρ) (K ((fwd c 11), 0)) (barCell (fwd c 11))
    ∗ cellInv ER (Rd m ρ) (K ((fwd c 12), 0)) (barCell (fwd c 12))
    ∗ cellInv ER (Rd m ρ) (K ((fwd c 13), 0)) (barCell (fwd c 13))
    ∗ cellInv ER (Rd m ρ) (K ((fwd c 14), 0)) (barCell (fwd c 14))
    ∗ cellInv ER (Rd m ρ) (K ((fwd c 15), 0)) (barCell (fwd c 15))
    ∗ cellInv ER (Rd m ρ) (K (c, jS 1)) (sendCell c 1)
    ∗ cellInv ER (Rd m ρ) (K (c, jS 2)) (sendCell c 2)
    ∗ cellInv ER (Rd m ρ) (K (c, jS 3)) (sendCell c 3)
    ∗ cellInv ER (Rd m ρ) (K (c, jS 4)) (sendCell c 4)
    ∗ cellInv ER (Rd m ρ) (K (c, jS 5)) (sendCell c 5)
    ∗ cellInv ER (Rd m ρ) (K (c, jS 6)) (sendCell c 6)
    ∗ cellInv ER (Rd m ρ) (K (c, jS 7)) (sendCell c 7)
    ∗ cellInv ER (Rd m ρ) (K (c, jS 8)) (sendCell c 8)
    ∗ cellInv ER (Rd m ρ) (K (c, jS 9)) (sendCell c 9)
    ∗ cellInv ER (Rd m ρ) (K (c, jS 10)) (sendCell c 10)
    ∗ cellInv ER (Rd m ρ) (K (c, jS 11)) (sendCell c 11)
    ∗ cellInv ER (Rd m ρ) (K (c, jS 12)) (sendCell c 12)
    ∗ cellInv ER (Rd m ρ) (K (c, jS 13)) (sendCell c 13)
    ∗ cellInv ER (Rd m ρ) (K (c, jS 14)) (sendCell c 14)
    ∗ cellInv ER (Rd m ρ) (K (c, jS 15)) (sendCell c 15)
    ∗ cellInv ER (Rd m ρ) (K ((fwd c 1), jR c)) (recvCell (fwd c 1) c)
    ∗ cellInv ER (Rd m ρ) (K ((fwd c 2), jR c)) (recvCell (fwd c 2) c)
    ∗ cellInv ER (Rd m ρ) (K ((fwd c 3), jR c)) (recvCell (fwd c 3) c)
    ∗ cellInv ER (Rd m ρ) (K ((fwd c 4), jR c)) (recvCell (fwd c 4) c)
    ∗ cellInv ER (Rd m ρ) (K ((fwd c 5), jR c)) (recvCell (fwd c 5) c)
    ∗ cellInv ER (Rd m ρ) (K ((fwd c 6), jR c)) (recvCell (fwd c 6) c)
    ∗ cellInv ER (Rd m ρ) (K ((fwd c 7), jR c)) (recvCell (fwd c 7) c)
    ∗ cellInv ER (Rd m ρ) (K ((fwd c 8), jR c)) (recvCell (fwd c 8) c)
    ∗ cellInv ER (Rd m ρ) (K ((fwd c 9), jR c)) (recvCell (fwd c 9) c)
    ∗ cellInv ER (Rd m ρ) (K ((fwd c 10), jR c)) (recvCell (fwd c 10) c)
    ∗ cellInv ER (Rd m ρ) (K ((fwd c 11), jR c)) (recvCell (fwd c 11) c)
    ∗ cellInv ER (Rd m ρ) (K ((fwd c 12), jR c)) (recvCell (fwd c 12) c)
    ∗ cellInv ER (Rd m ρ) (K ((fwd c 13), jR c)) (recvCell (fwd c 13) c)
    ∗ cellInv ER (Rd m ρ) (K ((fwd c 14), jR c)) (recvCell (fwd c 14) c)
    ∗ cellInv ER (Rd m ρ) (K ((fwd c 15), jR c)) (recvCell (fwd c 15) c)
    ∗ cellInv ER (Rd m ρ) (K (c, jR (bwd c 1))) (recvCell c (bwd c 1))
    ∗ cellInv ER (Rd m ρ) (K (c, jR (bwd c 2))) (recvCell c (bwd c 2))
    ∗ cellInv ER (Rd m ρ) (K (c, jR (bwd c 3))) (recvCell c (bwd c 3))
    ∗ cellInv ER (Rd m ρ) (K (c, jR (bwd c 4))) (recvCell c (bwd c 4))
    ∗ cellInv ER (Rd m ρ) (K (c, jR (bwd c 5))) (recvCell c (bwd c 5))
    ∗ cellInv ER (Rd m ρ) (K (c, jR (bwd c 6))) (recvCell c (bwd c 6))
    ∗ cellInv ER (Rd m ρ) (K (c, jR (bwd c 7))) (recvCell c (bwd c 7))
    ∗ cellInv ER (Rd m ρ) (K (c, jR (bwd c 8))) (recvCell c (bwd c 8))
    ∗ cellInv ER (Rd m ρ) (K (c, jR (bwd c 9))) (recvCell c (bwd c 9))
    ∗ cellInv ER (Rd m ρ) (K (c, jR (bwd c 10))) (recvCell c (bwd c 10))
    ∗ cellInv ER (Rd m ρ) (K (c, jR (bwd c 11))) (recvCell c (bwd c 11))
    ∗ cellInv ER (Rd m ρ) (K (c, jR (bwd c 12))) (recvCell c (bwd c 12))
    ∗ cellInv ER (Rd m ρ) (K (c, jR (bwd c 13))) (recvCell c (bwd c 13))
    ∗ cellInv ER (Rd m ρ) (K (c, jR (bwd c 14))) (recvCell c (bwd c 14))
    ∗ cellInv ER (Rd m ρ) (K (c, jR (bwd c 15))) (recvCell c (bwd c 15))
    ∗ reached ER (barCell (fwd c 1)) 0
    ∗ reached ER (barCell (fwd c 2)) 0
    ∗ reached ER (barCell (fwd c 3)) 0
    ∗ reached ER (barCell (fwd c 4)) 0
    ∗ reached ER (barCell (fwd c 5)) 0
    ∗ reached ER (barCell (fwd c 6)) 0
    ∗ reached ER (barCell (fwd c 7)) 0
    ∗ reached ER (barCell (fwd c 8)) 0
    ∗ reached ER (barCell (fwd c 9)) 0
    ∗ reached ER (barCell (fwd c 10)) 0
    ∗ reached ER (barCell (fwd c 11)) 0
    ∗ reached ER (barCell (fwd c 12)) 0
    ∗ reached ER (barCell (fwd c 13)) 0
    ∗ reached ER (barCell (fwd c 14)) 0
    ∗ reached ER (barCell (fwd c 15)) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (sendCell c 9) 0
    ∗ reached ER (sendCell c 10) 0
    ∗ reached ER (sendCell c 11) 0
    ∗ reached ER (sendCell c 12) 0
    ∗ reached ER (sendCell c 13) 0
    ∗ reached ER (sendCell c 14) 0
    ∗ reached ER (sendCell c 15) 0
    ∗ reached ER (recvCell (fwd c 1) c) 0
    ∗ reached ER (recvCell (fwd c 2) c) 0
    ∗ reached ER (recvCell (fwd c 3) c) 0
    ∗ reached ER (recvCell (fwd c 4) c) 0
    ∗ reached ER (recvCell (fwd c 5) c) 0
    ∗ reached ER (recvCell (fwd c 6) c) 0
    ∗ reached ER (recvCell (fwd c 7) c) 0
    ∗ reached ER (recvCell (fwd c 8) c) 0
    ∗ reached ER (recvCell (fwd c 9) c) 0
    ∗ reached ER (recvCell (fwd c 10) c) 0
    ∗ reached ER (recvCell (fwd c 11) c) 0
    ∗ reached ER (recvCell (fwd c 12) c) 0
    ∗ reached ER (recvCell (fwd c 13) c) 0
    ∗ reached ER (recvCell (fwd c 14) c) 0
    ∗ reached ER (recvCell (fwd c 15) c) 0
    ∗ levAts L lv
    ∗ dutyTok ER (barCell (fwd c 1)) 0 c
    ∗ dutyTok ER (barCell (fwd c 2)) 0 c
    ∗ dutyTok ER (barCell (fwd c 3)) 0 c
    ∗ dutyTok ER (barCell (fwd c 4)) 0 c
    ∗ dutyTok ER (barCell (fwd c 5)) 0 c
    ∗ dutyTok ER (barCell (fwd c 6)) 0 c
    ∗ dutyTok ER (barCell (fwd c 7)) 0 c
    ∗ dutyTok ER (barCell (fwd c 8)) 0 c
    ∗ dutyTok ER (barCell (fwd c 9)) 0 c
    ∗ dutyTok ER (barCell (fwd c 10)) 0 c
    ∗ dutyTok ER (barCell (fwd c 11)) 0 c
    ∗ dutyTok ER (barCell (fwd c 12)) 0 c
    ∗ dutyTok ER (barCell (fwd c 13)) 0 c
    ∗ dutyTok ER (barCell (fwd c 14)) 0 c
    ∗ dutyTok ER (barCell (fwd c 15)) 0 c
    ∗ dutyTok ER (sendCell c 1) 0 c
    ∗ dutyTok ER (sendCell c 2) 0 c
    ∗ dutyTok ER (sendCell c 3) 0 c
    ∗ dutyTok ER (sendCell c 4) 0 c
    ∗ dutyTok ER (sendCell c 5) 0 c
    ∗ dutyTok ER (sendCell c 6) 0 c
    ∗ dutyTok ER (sendCell c 7) 0 c
    ∗ dutyTok ER (sendCell c 8) 0 c
    ∗ dutyTok ER (sendCell c 9) 0 c
    ∗ dutyTok ER (sendCell c 10) 0 c
    ∗ dutyTok ER (sendCell c 11) 0 c
    ∗ dutyTok ER (sendCell c 12) 0 c
    ∗ dutyTok ER (sendCell c 13) 0 c
    ∗ dutyTok ER (sendCell c 14) 0 c
    ∗ dutyTok ER (sendCell c 15) 0 c
    ∗ dutyTok ER (recvCell (fwd c 1) c) 0 c
    ∗ dutyTok ER (recvCell (fwd c 2) c) 0 c
    ∗ dutyTok ER (recvCell (fwd c 3) c) 0 c
    ∗ dutyTok ER (recvCell (fwd c 4) c) 0 c
    ∗ dutyTok ER (recvCell (fwd c 5) c) 0 c
    ∗ dutyTok ER (recvCell (fwd c 6) c) 0 c
    ∗ dutyTok ER (recvCell (fwd c 7) c) 0 c
    ∗ dutyTok ER (recvCell (fwd c 8) c) 0 c
    ∗ dutyTok ER (recvCell (fwd c 9) c) 0 c
    ∗ dutyTok ER (recvCell (fwd c 10) c) 0 c
    ∗ dutyTok ER (recvCell (fwd c 11) c) 0 c
    ∗ dutyTok ER (recvCell (fwd c 12) c) 0 c
    ∗ dutyTok ER (recvCell (fwd c 13) c) 0 c
    ∗ dutyTok ER (recvCell (fwd c 14) c) 0 c
    ∗ dutyTok ER (recvCell (fwd c 15) c) 0 c
    ∗ atPos ER (barCell c) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ atPos ER (recvCell c (bwd c 1)) 0 ∅ 0
    ∗ atPos ER (recvCell c (bwd c 2)) 0 ∅ 0
    ∗ atPos ER (recvCell c (bwd c 3)) 0 ∅ 0
    ∗ atPos ER (recvCell c (bwd c 4)) 0 ∅ 0
    ∗ atPos ER (recvCell c (bwd c 5)) 0 ∅ 0
    ∗ atPos ER (recvCell c (bwd c 6)) 0 ∅ 0
    ∗ atPos ER (recvCell c (bwd c 7)) 0 ∅ 0
    ∗ atPos ER (recvCell c (bwd c 8)) 0 ∅ 0
    ∗ atPos ER (recvCell c (bwd c 9)) 0 ∅ 0
    ∗ atPos ER (recvCell c (bwd c 10)) 0 ∅ 0
    ∗ atPos ER (recvCell c (bwd c 11)) 0 ∅ 0
    ∗ atPos ER (recvCell c (bwd c 12)) 0 ∅ 0
    ∗ atPos ER (recvCell c (bwd c 13)) 0 ∅ 0
    ∗ atPos ER (recvCell c (bwd c 14)) 0 ∅ 0
    ∗ atPos ER (recvCell c (bwd c 15)) 0 ∅ 0
    ∗ cred (tallyAt (barCell c) () 15)
    ∗ cred (tallyAt (recvCell c (bwd c 1)) () N)
    ∗ cred (tallyAt (recvCell c (bwd c 2)) () N)
    ∗ cred (tallyAt (recvCell c (bwd c 3)) () N)
    ∗ cred (tallyAt (recvCell c (bwd c 4)) () N)
    ∗ cred (tallyAt (recvCell c (bwd c 5)) () N)
    ∗ cred (tallyAt (recvCell c (bwd c 6)) () N)
    ∗ cred (tallyAt (recvCell c (bwd c 7)) () N)
    ∗ cred (tallyAt (recvCell c (bwd c 8)) () N)
    ∗ cred (tallyAt (recvCell c (bwd c 9)) () N)
    ∗ cred (tallyAt (recvCell c (bwd c 10)) () N)
    ∗ cred (tallyAt (recvCell c (bwd c 11)) () N)
    ∗ cred (tallyAt (recvCell c (bwd c 12)) () N)
    ∗ cred (tallyAt (recvCell c (bwd c 13)) () N)
    ∗ cred (tallyAt (recvCell c (bwd c 14)) () N)
    ∗ cred (tallyAt (recvCell c (bwd c 15)) () N)
    ∗ owes (c : Thread nD τ) (O₀ c) W
    ∗ semVal ((c : Thread nD τ), .dma copySem) 0
    ∗ (xM.view.loc (c : Thread nD τ) ↦[xM.view.set]{fullShare} X m ρ c)
    ∗ (bM.view.loc (c : Thread nD τ) ↦[bM.view.set]{fullShare} fb)
    ∗ ((rowM (fwd c 1)).view.loc (c : Thread nD τ) ↦[(rowM (fwd c 1)).view.set]{fullShare} f1)
    ∗ ((rowM (fwd c 2)).view.loc (c : Thread nD τ) ↦[(rowM (fwd c 2)).view.set]{fullShare} f2)
    ∗ ((rowM (fwd c 3)).view.loc (c : Thread nD τ) ↦[(rowM (fwd c 3)).view.set]{fullShare} f3)
    ∗ ((rowM (fwd c 4)).view.loc (c : Thread nD τ) ↦[(rowM (fwd c 4)).view.set]{fullShare} f4)
    ∗ ((rowM (fwd c 5)).view.loc (c : Thread nD τ) ↦[(rowM (fwd c 5)).view.set]{fullShare} f5)
    ∗ ((rowM (fwd c 6)).view.loc (c : Thread nD τ) ↦[(rowM (fwd c 6)).view.set]{fullShare} f6)
    ∗ ((rowM (fwd c 7)).view.loc (c : Thread nD τ) ↦[(rowM (fwd c 7)).view.set]{fullShare} f7)
    ∗ ((rowM (fwd c 8)).view.loc (c : Thread nD τ) ↦[(rowM (fwd c 8)).view.set]{fullShare} f8)
    ∗ ((rowM (fwd c 9)).view.loc (c : Thread nD τ) ↦[(rowM (fwd c 9)).view.set]{fullShare} f9)
    ∗ ((rowM (fwd c 10)).view.loc (c : Thread nD τ) ↦[(rowM (fwd c 10)).view.set]{fullShare} f10)
    ∗ ((rowM (fwd c 11)).view.loc (c : Thread nD τ) ↦[(rowM (fwd c 11)).view.set]{fullShare} f11)
    ∗ ((rowM (fwd c 12)).view.loc (c : Thread nD τ) ↦[(rowM (fwd c 12)).view.set]{fullShare} f12)
    ∗ ((rowM (fwd c 13)).view.loc (c : Thread nD τ) ↦[(rowM (fwd c 13)).view.set]{fullShare} f13)
    ∗ ((rowM (fwd c 14)).view.loc (c : Thread nD τ) ↦[(rowM (fwd c 14)).view.set]{fullShare} f14)
    ∗ ((rowM (fwd c 15)).view.loc (c : Thread nD τ) ↦[(rowM (fwd c 15)).view.set]{fullShare} f15)
    ∗ ((rowM (c)).view.loc (c : Thread nD τ) ↦[(rowM (c)).view.set]{fullShare} f0)
    ∗ (oM.view.loc (c : Thread nD τ) ↦[oM.view.set]{fullShare} fo)
    ∗ cellInv ER (Rd m ρ) (K (c, jS 0)) (sendCell c 0)
    ∗ cellInv ER (Rd m ρ) (K (c, jR c)) (recvCell c c)
    ∗ atPos ER (sendCell c 0) 0 ∅ 0
    ∗ atPos ER (recvCell c c) 0 ∅ 0)

/-- What the pipeline wants back from the body at its one point: the invariant after the point, what the device still
    owes (nothing), and the result's staging buffer at the kernel's value. -/
def bodyPost (c : Dev nD) : sProp 𝕄 :=
  iprop(Φ₁ m ρ c ∗ (dats m ρ 0 c).owesAt () Gen.t0_0.succ
    ∗ (∃ f : Buf (Elt F) (((c : Dev nD) : Thread nD τ).loc cc0_stg0_0), ⌜f = Spec.outVal (X m ρ) c⌝ ∗ (((c : Thread nD τ).loc cc0_stg0_0) ↦{fullShare} f)))

/-- What the body's run leaves, one conjunct per thing: the block; the vector-memory copy of it; the device's own row in
    its remainder and sixteen read shares; the fifteen rows received; the kernel's own semaphores at zero (the local
    copy's, the sixteen departures', the sixteen receive slots'); nothing owed; the result's staging buffer at the value. -/
def bodyEnd (c : Dev nD) (W : Waits sig Unit) (fb : Buf (Elt F) (bM.view.loc (c : Thread nD τ))) : sProp 𝕄 :=
  iprop((xM.view.loc (c : Thread nD τ) ↦[xM.view.set]{fullShare} X m ρ c)
    ∗ (bM.view.loc (c : Thread nD τ) ↦[bM.view.set]{fullShare} fb)
    ∗ ((rowM c).view.loc (c : Thread nD τ) ↦[(rowM c).view.set]{Transfers.shareDrop fullShare 16} rowBuf m ρ c)
    ∗ ((rowM c).view.loc (c : Thread nD τ) ↦[(rowM c).view.set]{Transfers.shareTok fullShare 16 0} rowBuf m ρ c)
    ∗ ((rowM c).view.loc (c : Thread nD τ) ↦[(rowM c).view.set]{Transfers.shareTok fullShare 16 1} rowBuf m ρ c)
    ∗ ((rowM c).view.loc (c : Thread nD τ) ↦[(rowM c).view.set]{Transfers.shareTok fullShare 16 2} rowBuf m ρ c)
    ∗ ((rowM c).view.loc (c : Thread nD τ) ↦[(rowM c).view.set]{Transfers.shareTok fullShare 16 3} rowBuf m ρ c)
    ∗ ((rowM c).view.loc (c : Thread nD τ) ↦[(rowM c).view.set]{Transfers.shareTok fullShare 16 4} rowBuf m ρ c)
    ∗ ((rowM c).view.loc (c : Thread nD τ) ↦[(rowM c).view.set]{Transfers.shareTok fullShare 16 5} rowBuf m ρ c)
    ∗ ((rowM c).view.loc (c : Thread nD τ) ↦[(rowM c).view.set]{Transfers.shareTok fullShare 16 6} rowBuf m ρ c)
    ∗ ((rowM c).view.loc (c : Thread nD τ) ↦[(rowM c).view.set]{Transfers.shareTok fullShare 16 7} rowBuf m ρ c)
    ∗ ((rowM c).view.loc (c : Thread nD τ) ↦[(rowM c).view.set]{Transfers.shareTok fullShare 16 8} rowBuf m ρ c)
    ∗ ((rowM c).view.loc (c : Thread nD τ) ↦[(rowM c).view.set]{Transfers.shareTok fullShare 16 9} rowBuf m ρ c)
    ∗ ((rowM c).view.loc (c : Thread nD τ) ↦[(rowM c).view.set]{Transfers.shareTok fullShare 16 10} rowBuf m ρ c)
    ∗ ((rowM c).view.loc (c : Thread nD τ) ↦[(rowM c).view.set]{Transfers.shareTok fullShare 16 11} rowBuf m ρ c)
    ∗ ((rowM c).view.loc (c : Thread nD τ) ↦[(rowM c).view.set]{Transfers.shareTok fullShare 16 12} rowBuf m ρ c)
    ∗ ((rowM c).view.loc (c : Thread nD τ) ↦[(rowM c).view.set]{Transfers.shareTok fullShare 16 13} rowBuf m ρ c)
    ∗ ((rowM c).view.loc (c : Thread nD τ) ↦[(rowM c).view.set]{Transfers.shareTok fullShare 16 14} rowBuf m ρ c)
    ∗ ((rowM c).view.loc (c : Thread nD τ) ↦[(rowM c).view.set]{Transfers.shareTok fullShare 16 15} rowBuf m ρ c)
    ∗ ((rowM (bwd c 1)).view.loc (c : Thread nD τ) ↦[(rowM (bwd c 1)).view.set]{fullShare} rowBuf m ρ (bwd c 1))
    ∗ ((rowM (bwd c 2)).view.loc (c : Thread nD τ) ↦[(rowM (bwd c 2)).view.set]{fullShare} rowBuf m ρ (bwd c 2))
    ∗ ((rowM (bwd c 3)).view.loc (c : Thread nD τ) ↦[(rowM (bwd c 3)).view.set]{fullShare} rowBuf m ρ (bwd c 3))
    ∗ ((rowM (bwd c 4)).view.loc (c : Thread nD τ) ↦[(rowM (bwd c 4)).view.set]{fullShare} rowBuf m ρ (bwd c 4))
    ∗ ((rowM (bwd c 5)).view.loc (c : Thread nD τ) ↦[(rowM (bwd c 5)).view.set]{fullShare} rowBuf m ρ (bwd c 5))
    ∗ ((rowM (bwd c 6)).view.loc (c : Thread nD τ) ↦[(rowM (bwd c 6)).view.set]{fullShare} rowBuf m ρ (bwd c 6))
    ∗ ((rowM (bwd c 7)).view.loc (c : Thread nD τ) ↦[(rowM (bwd c 7)).view.set]{fullShare} rowBuf m ρ (bwd c 7))
    ∗ ((rowM (bwd c 8)).view.loc (c : Thread nD τ) ↦[(rowM (bwd c 8)).view.set]{fullShare} rowBuf m ρ (bwd c 8))
    ∗ ((rowM (bwd c 9)).view.loc (c : Thread nD τ) ↦[(rowM (bwd c 9)).view.set]{fullShare} rowBuf m ρ (bwd c 9))
    ∗ ((rowM (bwd c 10)).view.loc (c : Thread nD τ) ↦[(rowM (bwd c 10)).view.set]{fullShare} rowBuf m ρ (bwd c 10))
    ∗ ((rowM (bwd c 11)).view.loc (c : Thread nD τ) ↦[(rowM (bwd c 11)).view.set]{fullShare} rowBuf m ρ (bwd c 11))
    ∗ ((rowM (bwd c 12)).view.loc (c : Thread nD τ) ↦[(rowM (bwd c 12)).view.set]{fullShare} rowBuf m ρ (bwd c 12))
    ∗ ((rowM (bwd c 13)).view.loc (c : Thread nD τ) ↦[(rowM (bwd c 13)).view.set]{fullShare} rowBuf m ρ (bwd c 13))
    ∗ ((rowM (bwd c 14)).view.loc (c : Thread nD τ) ↦[(rowM (bwd c 14)).view.set]{fullShare} rowBuf m ρ (bwd c 14))
    ∗ ((rowM (bwd c 15)).view.loc (c : Thread nD τ) ↦[(rowM (bwd c 15)).view.set]{fullShare} rowBuf m ρ (bwd c 15))
    ∗ semVal ((c : Thread nD τ), .dma copySem) 0
    ∗ semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (sendCell c 9) 0
    ∗ semVal (sendCell c 10) 0
    ∗ semVal (sendCell c 11) 0
    ∗ semVal (sendCell c 12) 0
    ∗ semVal (sendCell c 13) 0
    ∗ semVal (sendCell c 14) 0
    ∗ semVal (sendCell c 15) 0
    ∗ semVal (recvCell c (bwd c 1)) 0
    ∗ semVal (recvCell c (bwd c 2)) 0
    ∗ semVal (recvCell c (bwd c 3)) 0
    ∗ semVal (recvCell c (bwd c 4)) 0
    ∗ semVal (recvCell c (bwd c 5)) 0
    ∗ semVal (recvCell c (bwd c 6)) 0
    ∗ semVal (recvCell c (bwd c 7)) 0
    ∗ semVal (recvCell c (bwd c 8)) 0
    ∗ semVal (recvCell c (bwd c 9)) 0
    ∗ semVal (recvCell c (bwd c 10)) 0
    ∗ semVal (recvCell c (bwd c 11)) 0
    ∗ semVal (recvCell c (bwd c 12)) 0
    ∗ semVal (recvCell c (bwd c 13)) 0
    ∗ semVal (recvCell c (bwd c 14)) 0
    ∗ semVal (recvCell c (bwd c 15)) 0
    ∗ semVal (recvCell c c) 0
    ∗ owes (c : Thread nD τ) 0 W
    ∗ (oM.view.loc (c : Thread nD τ) ↦[oM.view.set]{fullShare} (Spec.outVal (X m ρ) c : Buf (Elt F) (oM.view.loc (c : Thread nD τ)))))

end Cert.Kernel.Proto

end
-- ==== Proof.CtxIntroK.lean ====
/-
  From what the pipeline hands a device's body at its one point to the explicit context the body's proof runs from.

  The pipeline's invariant before the point holds the device's ghost state packed: the records of every cell of every
  device (persistent), the device's positions, the tokens of the duties it pays and its launch credit as families over the
  other devices, the exchange buffer whole.  Here each family is listed — the other devices by their distance after the
  device (for what it pays into) or before it (for what it receives), the departures by their number —, each record the
  body uses is taken out of the persistent families, the exchange buffer is cut into its sixteen rows, and the pieces
  are put in the order the body uses them.
-/
import proofs.«900942_g7700000000000943_dist_mean_ax0_shard0_i_m1536_n768_v7x_i16_bf16_1_alg».proof.Proof.CtxK
import proofs.«900942_g7700000000000943_dist_mean_ax0_shard0_i_m1536_n768_v7x_i16_bf16_1_alg».proof.Proof.RowsK

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable [∀ e, Nonempty (Elt F e)]

namespace CtxIntro

/-! ## Chains -/

/-- A list's chain continued by `Q`: `Φ a₁ ∗ ⋯ ∗ Φ aₙ ∗ Q`. -/
def chainQ {I : Type} (l : List I) (Φ : I → sProp 𝕄) (Q : sProp 𝕄) : sProp 𝕄 := l.foldr (fun a acc => iprop(Φ a ∗ acc)) Q

theorem chainQ_intro {I : Type} (l : List I) (Φ : I → sProp 𝕄) {P Q : sProp 𝕄} (h : P ⊢ Q) :
    iprop(bigSepL l Φ ∗ P) ⊢ chainQ l Φ Q := by
  induction l with
  | nil => exact BI.emp_sep_elim.trans h
  | cons a l ih =>
    rw [bigSepL_cons]
    exact BI.sep_assoc.trans (BI.sep_mono_r ih)

/-- A persistent assertion that yields every member yields the list's chain. -/
theorem bigSepL_of_persistent {I : Type} {R : sProp 𝕄} [BI.Persistent R] (l : List I) (Φ : I → sProp 𝕄) (h : ∀ i, R ⊢ Φ i) :
    R ⊢ bigSepL l Φ := by
  induction l with
  | nil => show R ⊢ iprop(emp); iintro -; iempintro
  | cons a l ih =>
    rw [bigSepL_cons]
    show R ⊢ iprop(Φ a ∗ bigSepL l Φ)
    iintro #H
    isplitr
    · iapply (h a); iexact H
    · iapply ih; iexact H

/-! ## The other devices, listed -/

/-- The fifteen other devices by their distance after `c`; by their distance before it; the fifteen departures. -/
def fwds (c : Dev nD) : List (Dev nD) := [fwd c 1, fwd c 2, fwd c 3, fwd c 4, fwd c 5, fwd c 6, fwd c 7, fwd c 8, fwd c 9, fwd c 10, fwd c 11, fwd c 12, fwd c 13, fwd c 14, fwd c 15]
def bwds (c : Dev nD) : List (Dev nD) := [bwd c 1, bwd c 2, bwd c 3, bwd c 4, bwd c 5, bwd c 6, bwd c 7, bwd c 8, bwd c 9, bwd c 10, bwd c 11, bwd c 12, bwd c 13, bwd c 14, bwd c 15]
def deps : List (Fin 16) := [1, 2, 3, 4, 5, 6, 7, 8, 9, 10, 11, 12, 13, 14, 15]

theorem fwds_nodup (c : Dev nD) : (fwds c).Nodup := by revert c; decide
theorem fwds_eq (c : Dev nD) : Finset.univ.erase c = (fwds c).toFinset := by revert c; decide
theorem bwds_nodup (c : Dev nD) : (bwds c).Nodup := by revert c; decide
theorem bwds_eq (c : Dev nD) : Finset.univ.erase c = (bwds c).toFinset := by revert c; decide
theorem deps_nodup : deps.Nodup := by decide
theorem deps_eq : Finset.univ.erase (0 : Fin 16) = deps.toFinset := by decide

theorem over_fwds (c : Dev nD) (Φ : Dev nD → sProp 𝕄) : bigSep (Finset.univ.erase c) Φ = bigSepL (fwds c) Φ :=
  bigSep_eq_bigSepL_of_eq (fwds c) (fwds_eq c) (fwds_nodup c) Φ
theorem over_bwds (c : Dev nD) (Φ : Dev nD → sProp 𝕄) : bigSep (Finset.univ.erase c) Φ = bigSepL (bwds c) Φ :=
  bigSep_eq_bigSepL_of_eq (bwds c) (bwds_eq c) (bwds_nodup c) Φ
theorem over_deps (Φ : Fin 16 → sProp 𝕄) : bigSep (Finset.univ.erase (0 : Fin 16)) Φ = bigSepL deps Φ :=
  bigSep_eq_bigSepL_of_eq deps deps_eq deps_nodup Φ

/-! ## A device's thirty-three cells: the barrier cell, the sixteen departures, the sixteen receive slots -/

theorem jS_injective : Function.Injective jS := fun a b h => by
  have h1 : 1 + a.val = 1 + b.val := congrArg Fin.val h
  exact Fin.ext (by omega)
theorem jR_injective : Function.Injective jR := fun a b h => by
  have h1 : 17 + a.val = 17 + b.val := congrArg Fin.val h
  exact Fin.ext (by omega)

theorem fin33_cover : (Finset.univ : Finset (Fin 33)) = insert 0 (Finset.univ.map ⟨jS, jS_injective⟩ ∪ Finset.univ.map ⟨jR, jR_injective⟩) := by
  ext j
  refine ⟨fun _ => ?_, fun _ => Finset.mem_univ j⟩
  rw [Finset.mem_insert, Finset.mem_union, Finset.mem_map, Finset.mem_map]
  have hj := j.isLt
  by_cases h0 : j.val = 0
  · exact Or.inl (Fin.ext h0)
  · by_cases h1 : j.val ≤ 16
    · exact Or.inr (Or.inl ⟨⟨j.val - 1, by omega⟩, Finset.mem_univ _, Fin.ext (by show 1 + (j.val - 1) = j.val; omega)⟩)
    · exact Or.inr (Or.inr ⟨⟨j.val - 17, by omega⟩, Finset.mem_univ _, Fin.ext (by show 17 + (j.val - 17) = j.val; omega)⟩)

theorem fin33_zero_notMem : (0 : Fin 33) ∉ Finset.univ.map ⟨jS, jS_injective⟩ ∪ Finset.univ.map ⟨jR, jR_injective⟩ := by
  rw [Finset.mem_union, Finset.mem_map, Finset.mem_map]
  rintro (⟨d, -, h⟩ | ⟨s, -, h⟩)
  · have : 1 + d.val = 0 := congrArg Fin.val h
    omega
  · have : 17 + s.val = 0 := congrArg Fin.val h
    omega

theorem fin33_disjoint : Disjoint (Finset.univ.map ⟨jS, jS_injective⟩) (Finset.univ.map ⟨jR, jR_injective⟩) := by
  rw [Finset.disjoint_left]
  intro j h1 h2
  obtain ⟨d, -, rfl⟩ := Finset.mem_map.mp h1
  obtain ⟨s, -, h⟩ := Finset.mem_map.mp h2
  have : 17 + s.val = 1 + d.val := congrArg Fin.val h
  have := d.isLt
  omega

theorem bigSep_fin33 (Φ : Fin 33 → sProp 𝕄) :
    bigSep Finset.univ Φ = iprop(Φ 0 ∗ (bigSep Finset.univ fun d : Fin 16 => Φ (jS d)) ∗ bigSep Finset.univ fun s : Fin 16 => Φ (jR s)) := by
  rw [fin33_cover, bigSep_insert fin33_zero_notMem, bigSep_union fin33_disjoint, bigSep_map, bigSep_map]
  rfl

/-! ## The records, cell by cell -/

variable (K : Dev nD × Fin 33 → ℕ)

/-- Every cell's invariant; every cell at round 0 or later. -/
abbrev invs : sProp 𝕄 := bigSep Finset.univ fun ck : Dev nD × Fin 33 => cellInv ER (Rd m ρ) (K ck) (kcell ck)
abbrev rchs : sProp 𝕄 := bigSep Finset.univ fun ck : Dev nD × Fin 33 => (reached ER (kcell ck) 0 : sProp 𝕄)

theorem inv_bar (p : Dev nD) : invs m ρ K ⊢ cellInv ER (Rd m ρ) (K (p, 0)) (barCell p) :=
  bigSep_elim (Finset.mem_univ ((p, 0) : Dev nD × Fin 33))
theorem inv_send (p : Dev nD) (d : Fin 16) : invs m ρ K ⊢ cellInv ER (Rd m ρ) (K (p, jS d)) (sendCell p d) := by
  have h : invs m ρ K ⊢ cellInv ER (Rd m ρ) (K (p, jS d)) (kcell (p, jS d)) := bigSep_elim (Finset.mem_univ ((p, jS d) : Dev nD × Fin 33))
  rwa [kcell_send] at h
theorem inv_recv (p : Dev nD) (s : Fin 16) : invs m ρ K ⊢ cellInv ER (Rd m ρ) (K (p, jR s)) (recvCell p s) := by
  have h : invs m ρ K ⊢ cellInv ER (Rd m ρ) (K (p, jR s)) (kcell (p, jR s)) := bigSep_elim (Finset.mem_univ ((p, jR s) : Dev nD × Fin 33))
  rwa [kcell_recv] at h

theorem rch_bar (p : Dev nD) : (rchs (F := F) : sProp 𝕄) ⊢ reached ER (barCell p) 0 :=
  bigSep_elim (Finset.mem_univ ((p, 0) : Dev nD × Fin 33))
theorem rch_send (p : Dev nD) (d : Fin 16) : (rchs (F := F) : sProp 𝕄) ⊢ reached ER (sendCell p d) 0 := by
  have h : (rchs (F := F) : sProp 𝕄) ⊢ reached ER (kcell (p, jS d)) 0 := bigSep_elim (Finset.mem_univ ((p, jS d) : Dev nD × Fin 33))
  rwa [kcell_send] at h
theorem rch_recv (p : Dev nD) (s : Fin 16) : (rchs (F := F) : sProp 𝕄) ⊢ reached ER (recvCell p s) 0 := by
  have h : (rchs (F := F) : sProp 𝕄) ⊢ reached ER (kcell (p, jR s)) 0 := bigSep_elim (Finset.mem_univ ((p, jR s) : Dev nD × Fin 33))
  rwa [kcell_recv] at h

/-! ## The families, listed -/

theorem payToks_list (c : Dev nD) :
    (payToks c : sProp 𝕄) = iprop(bigSepL (fwds c) (fun p : Dev nD => dutyTok ER (barCell p) 0 c)
      ∗ bigSepL (fwds c) (fun p : Dev nD => dutyTok ER (recvCell p c) 0 c)
      ∗ bigSepL deps (fun d : Fin 16 => dutyTok ER (sendCell c d) 0 c)) := by
  unfold payToks
  rw [over_fwds c (fun p : Dev nD => (dutyTok ER (barCell p) 0 c : sProp 𝕄)), over_fwds c (fun p : Dev nD => (dutyTok ER (recvCell p c) 0 c : sProp 𝕄)),
    over_deps (fun d : Fin 16 => (dutyTok ER (sendCell c d) 0 c : sProp 𝕄))]

theorem creds_list (c : Dev nD) :
    (creds c : sProp 𝕄) = iprop(cred (tallyAt (barCell c) () 15) ∗ bigSepL (bwds c) (fun s : Dev nD => cred (tallyAt (recvCell c s) () N))) := by
  unfold creds
  rw [over_bwds c (fun s : Dev nD => (cred (tallyAt (recvCell c s) () N) : sProp 𝕄))]

theorem atPos_list (c : Dev nD) :
    (bigSep Finset.univ fun j : Fin 33 => (atPos ER (kcell (c, j)) 0 ∅ 0 : sProp 𝕄))
      = iprop(atPos ER (barCell c) 0 ∅ 0
          ∗ (atPos ER (sendCell c 0) 0 ∅ 0 ∗ bigSepL deps (fun d : Fin 16 => atPos ER (sendCell c d) 0 ∅ 0))
          ∗ (atPos ER (recvCell c c) 0 ∅ 0 ∗ bigSepL (bwds c) (fun s : Dev nD => atPos ER (recvCell c s) 0 ∅ 0))) := by
  rw [bigSep_fin33 (fun j : Fin 33 => (atPos ER (kcell (c, j)) 0 ∅ 0 : sProp 𝕄))]
  have e1 : (fun d : Fin 16 => (atPos ER (kcell (c, jS d)) 0 ∅ 0 : sProp 𝕄)) = fun d : Fin 16 => atPos ER (sendCell c d) 0 ∅ 0 :=
    funext fun d => by rw [kcell_send]
  have e2 : (fun s : Fin 16 => (atPos ER (kcell (c, jR s)) 0 ∅ 0 : sProp 𝕄)) = fun s : Fin 16 => atPos ER (recvCell c s) 0 ∅ 0 :=
    funext fun s => by rw [kcell_recv]
  rw [e1, e2, bigSep_univ_at (fun d : Fin 16 => (atPos ER (sendCell c d) 0 ∅ 0 : sProp 𝕄)) (0 : Fin 16),
    bigSep_univ_at (fun s : Fin 16 => (atPos ER (recvCell c s) 0 ∅ 0 : sProp 𝕄)) c,
    over_deps (fun d : Fin 16 => (atPos ER (sendCell c d) 0 ∅ 0 : sProp 𝕄)), over_bwds c (fun s : Dev nD => (atPos ER (recvCell c s) 0 ∅ 0 : sProp 𝕄))]
  rfl

theorem rows_list (c : Dev nD) (f : Buf (Elt F) (aM.view.loc (c : Thread nD τ))) :
    (aM.view.loc (c : Thread nD τ) ↦[aM.view.set]{fullShare} f : sProp 𝕄)
      = iprop(((rowM c).view.loc (c : Thread nD τ) ↦[(rowM c).view.set]{fullShare} f)
          ∗ bigSepL (fwds c) (fun s : Dev nD => ((rowM s).view.loc (c : Thread nD τ) ↦[(rowM s).view.set]{fullShare} f : sProp 𝕄))) := by
  rw [rows_split c fullShare f, bigSep_univ_at (fun s : Dev nD => ((rowM s).view.loc (c : Thread nD τ) ↦[(rowM s).view.set]{fullShare} f : sProp 𝕄)) c,
    over_fwds c (fun s : Dev nD => ((rowM s).view.loc (c : Thread nD τ) ↦[(rowM s).view.set]{fullShare} f : sProp 𝕄))]

/-! ## The context, by families -/

/-- The body's context with each family as a list's chain, in the context's order. -/
def groups (c : Dev nD) (W : Waits sig Unit) (f : Buf (Elt F) (aM.view.loc (c : Thread nD τ))) (fb : Buf (Elt F) (bM.view.loc (c : Thread nD τ)))
    (fo : Buf (Elt F) (oM.view.loc (c : Thread nD τ))) : sProp 𝕄 :=
  iprop(cellInv ER (Rd m ρ) (K (c, 0)) (barCell c)
    ∗ bigSepL (fwds c) (fun p : Dev nD => cellInv ER (Rd m ρ) (K (p, 0)) (barCell p))
    ∗ bigSepL deps (fun d : Fin 16 => cellInv ER (Rd m ρ) (K (c, jS d)) (sendCell c d))
    ∗ bigSepL (fwds c) (fun p : Dev nD => cellInv ER (Rd m ρ) (K (p, jR c)) (recvCell p c))
    ∗ bigSepL (bwds c) (fun s : Dev nD => cellInv ER (Rd m ρ) (K (c, jR s)) (recvCell c s))
    ∗ bigSepL (fwds c) (fun p : Dev nD => reached ER (barCell p) 0)
    ∗ bigSepL deps (fun d : Fin 16 => reached ER (sendCell c d) 0)
    ∗ bigSepL (fwds c) (fun p : Dev nD => reached ER (recvCell p c) 0)
    ∗ levAts L lv
    ∗ bigSepL (fwds c) (fun p : Dev nD => dutyTok ER (barCell p) 0 c)
    ∗ bigSepL deps (fun d : Fin 16 => dutyTok ER (sendCell c d) 0 c)
    ∗ bigSepL (fwds c) (fun p : Dev nD => dutyTok ER (recvCell p c) 0 c)
    ∗ atPos ER (barCell c) 0 ∅ 0
    ∗ bigSepL deps (fun d : Fin 16 => atPos ER (sendCell c d) 0 ∅ 0)
    ∗ bigSepL (bwds c) (fun s : Dev nD => atPos ER (recvCell c s) 0 ∅ 0)
    ∗ cred (tallyAt (barCell c) () 15)
    ∗ bigSepL (bwds c) (fun s : Dev nD => cred (tallyAt (recvCell c s) () N))
    ∗ owes (c : Thread nD τ) (O₀ c) W
    ∗ semVal ((c : Thread nD τ), .dma copySem) 0
    ∗ (xM.view.loc (c : Thread nD τ) ↦[xM.view.set]{fullShare} X m ρ c)
    ∗ (bM.view.loc (c : Thread nD τ) ↦[bM.view.set]{fullShare} fb)
    ∗ bigSepL (fwds c) (fun s : Dev nD => ((rowM s).view.loc (c : Thread nD τ) ↦[(rowM s).view.set]{fullShare} f : sProp 𝕄))
    ∗ ((rowM c).view.loc (c : Thread nD τ) ↦[(rowM c).view.set]{fullShare} f)
    ∗ (oM.view.loc (c : Thread nD τ) ↦[oM.view.set]{fullShare} fo)
    ∗ cellInv ER (Rd m ρ) (K (c, jS 0)) (sendCell c 0)
    ∗ cellInv ER (Rd m ρ) (K (c, jR c)) (recvCell c c)
    ∗ atPos ER (sendCell c 0) 0 ∅ 0
    ∗ atPos ER (recvCell c c) 0 ∅ 0)

set_option maxRecDepth 8000 in
theorem groups_ctx (c : Dev nD) (W : Waits sig Unit) (f : Buf (Elt F) (aM.view.loc (c : Thread nD τ))) (fb : Buf (Elt F) (bM.view.loc (c : Thread nD τ)))
    (fo : Buf (Elt F) (oM.view.loc (c : Thread nD τ))) :
    groups m ρ K c W f fb fo ⊢ bodyCtx m ρ K c W f f f f f f f f f f f f f f f f fb fo := by
  unfold groups bodyCtx
  refine BI.sep_mono_r (chainQ_intro _ _ (chainQ_intro _ _ (chainQ_intro _ _ (chainQ_intro _ _ (chainQ_intro _ _ (chainQ_intro _ _ (chainQ_intro _ _
    (BI.sep_mono_r (chainQ_intro _ _ (chainQ_intro _ _ (chainQ_intro _ _ (BI.sep_mono_r (chainQ_intro _ _ (chainQ_intro _ _ (BI.sep_mono_r (chainQ_intro _ _
      (BI.sep_mono_r (BI.sep_mono_r (BI.sep_mono_r (BI.sep_mono_r (chainQ_intro _ _ (BI.Entails.refl _))))))))))))))))))))))

end CtxIntro

open CtxIntro

/-- The result's staging buffer, whole: the points-to of the whole buffer. -/
theorem oPts_eq (c : Dev nD) (fo : Buf (Elt F) (oM.view.loc (c : Thread nD τ))) :
    (oM.view.loc (c : Thread nD τ) ↦[oM.view.set]{fullShare} fo : sProp 𝕄) = (((c : Thread nD τ).loc cc0_stg0_0) ↦{fullShare} fo) := by
  rw [show (oM : Memref sig .tc .vmem S1x768 .f32).view.set = Finset.univ from View.set_whole _]

/-- What the pipeline hands the body at its one point, unpacked into the body's context. -/
theorem ctx_intro (c : Dev nD) (d : (cfg0.win (0 : Fin 1)).block.Idx → Elt F (cfg0.win (0 : Fin 1)).elt) :
    iprop(Φ₀ m ρ c ∗ (dats m ρ 0 c).owesAt () Gen.t0_0.castSucc
        ∗ (∃ f : Buf (Elt F) (((c : Dev nD) : Thread nD τ).loc cc0_stg0_0), ⌜f = (dats m ρ 0 c).before (0 : Fin 1) Gen.t0_0 d⌝ ∗ (((c : Thread nD τ).loc cc0_stg0_0) ↦{fullShare} f)))
      ⊢ (iprop(∃ K W f1 f2 f3 f4 f5 f6 f7 f8 f9 f10 f11 f12 f13 f14 f15 f0 fb fo, bodyCtx m ρ K c W f1 f2 f3 f4 f5 f6 f7 f8 f9 f10 f11 f12 f13 f14 f15 f0 fb fo) : sProp 𝕄) := by
  unfold Φ₀ start scratch ghost records linear
  rw [payToks_list, creds_list, atPos_list]
  unfold xPts Dat.owesAt Pipeline.owesWithin
  rw [show (dats m ρ 0 c).owed Gen.t0_0.castSucc = O₀ c from rfl]
  iintro ⟨⟨⟨⟨%K, ⟨#HI, #HR⟩, ⟨HaB, ⟨HaS0, HaS⟩, HaR0, HaR⟩, ⟨HtB, HtR, HtS⟩, Hcp⟩, ⟨HcB, HcR⟩, #Hlev, Hx⟩, ⟨%fb, Hb⟩, ⟨%fa, Ha⟩⟩, ⟨%W, %hW, HO⟩, ⟨%fo, %hfo, Ho⟩⟩
  ihave Hrows := (Entails.of_eq (rows_list c fa)) $$ Ha
  icases Hrows with ⟨Hr0, Hrs⟩
  ihave Ho' := (Entails.of_eq (oPts_eq c fo).symm) $$ Ho
  iexists K; iexists W
  iexists fa; iexists fa; iexists fa; iexists fa; iexists fa; iexists fa; iexists fa; iexists fa; iexists fa; iexists fa; iexists fa; iexists fa; iexists fa; iexists fa; iexists fa
  iexists fa; iexists fb; iexists fo
  iapply (groups_ctx m ρ K c W fa fb fo)
  unfold groups
  isplitr; · iapply (inv_bar m ρ K c); iexact HI
  isplitr; · iapply (bigSepL_of_persistent (R := invs m ρ K) (fwds c) _ fun p => inv_bar m ρ K p); iexact HI
  isplitr; · iapply (bigSepL_of_persistent (R := invs m ρ K) deps _ fun d => inv_send m ρ K c d); iexact HI
  isplitr; · iapply (bigSepL_of_persistent (R := invs m ρ K) (fwds c) _ fun p => inv_recv m ρ K p c); iexact HI
  isplitr; · iapply (bigSepL_of_persistent (R := invs m ρ K) (bwds c) _ fun s => inv_recv m ρ K c s); iexact HI
  isplitr; · iapply (bigSepL_of_persistent (R := rchs (F := F)) (fwds c) _ fun p => rch_bar p); iexact HR
  isplitr; · iapply (bigSepL_of_persistent (R := rchs (F := F)) deps _ fun d => rch_send c d); iexact HR
  isplitr; · iapply (bigSepL_of_persistent (R := rchs (F := F)) (fwds c) _ fun p => rch_recv p c); iexact HR
  isplitr; · iexact Hlev
  isplitl [HtB]; · iexact HtB
  isplitl [HtS]; · iexact HtS
  isplitl [HtR]; · iexact HtR
  isplitl [HaB]; · iexact HaB
  isplitl [HaS]; · iexact HaS
  isplitl [HaR]; · iexact HaR
  isplitl [HcB]; · iexact HcB
  isplitl [HcR]; · iexact HcR
  isplitl [HO]; · iexact HO
  isplitl [Hcp]; · iexact Hcp
  isplitl [Hx]; · iexact Hx
  isplitl [Hb]; · iexact Hb
  isplitl [Hrs]; · iexact Hrs
  isplitl [Hr0]; · iexact Hr0
  isplitl [Ho']; · iexact Ho'
  isplitr; · iapply (inv_send m ρ K c 0); iexact HI
  isplitr; · iapply (inv_recv m ρ K c c); iexact HI
  isplitl [HaS0]; · iexact HaS0
  iexact HaR0

set_option maxRecDepth 20000 in
/-- The library's body obligation on device `c`, from the body's run out of its explicit context. -/
theorem body_obligation_of
    (hrun : ∀ (c : Dev nD) K W f1 f2 f3 f4 f5 f6 f7 f8 f9 f10 f11 f12 f13 f14 f15 f0 fb fo (Kt : PUnit → sProp 𝕄),
      iprop(bodyCtx m ρ K c W f1 f2 f3 f4 f5 f6 f7 f8 f9 f10 f11 f12 f13 f14 f15 f0 fb fo ∗ (bodyPost m ρ c -∗ Kt ⟨⟩))
        ⊢ wp frame (wpE (defs₀ (F := F)) 𝒱₀ (c : Thread nD τ) none) Set.univ
            (cc0_body (F := F) (Memref.whole main_arg0) (Memref.isWhole_whole _) (Memref.whole cc0_stg0_0) (Memref.isWhole_whole _)
              (Memref.whole cc0_scratch0) (Memref.isWhole_whole _) cc0_scratch1 (Memref.whole cc0_scratch2) (Memref.isWhole_whole _) cc0_scratch3 cc0_scratch4) Kt) :
    ∀ c, BodyObligation (dats (F := F) m ρ 0 c) (defs₀ (F := F)) 𝒱₀ () Set.univ := fun c t => by
  rw [fin_N0 t]
  rw [bigSep_W0, bigSep_W0]
  simp only [owns_whole_eq]
  show iprop(Φ₀ m ρ c ∗ (dats m ρ 0 c).owesAt () Gen.t0_0.castSucc
      ∗ (∃ d, ∃ f : Buf (Elt F) (((c : Dev nD) : Thread nD τ).loc cc0_stg0_0), ⌜f = (dats m ρ 0 c).before (0 : Fin 1) Gen.t0_0 d⌝ ∗ (((c : Thread nD τ).loc cc0_stg0_0) ↦{fullShare} f)))
    ⊢ wp frame (wpE (defs₀ (F := F)) 𝒱₀ c none) Set.univ
      (cc0_body (F := F) (Memref.whole main_arg0) (Memref.isWhole_whole _) (Memref.whole cc0_stg0_0) (Memref.isWhole_whole _)
        (Memref.whole cc0_scratch0) (Memref.isWhole_whole _) cc0_scratch1 (Memref.whole cc0_scratch2) (Memref.isWhole_whole _) cc0_scratch3 cc0_scratch4) (fun _ => bodyPost m ρ c)
  iintro ⟨HΦ, Ho, ⟨%d, Hx⟩⟩
  ihave H := (ctx_intro m ρ c d) $$ [HΦ Ho Hx]
  · isplitl [HΦ]; · iexact HΦ
    isplitl [Ho]; · iexact Ho
    iexact Hx
  icases H with ⟨%K, %W, %f1, %f2, %f3, %f4, %f5, %f6, %f7, %f8, %f9, %f10, %f11, %f12, %f13, %f14, %f15, %f0, %fb, %fo, H⟩
  iapply (hrun c K W f1 f2 f3 f4 f5 f6 f7 f8 f9 f10 f11 f12 f13 f14 f15 f0 fb fo fun _ => bodyPost m ρ c)
  isplitl [H]; · iexact H
  iintro H; iexact H

/-- info: 'Cert.Kernel.Proto.ctx_intro' depends on axioms: [propext, Classical.choice, Quot.sound] -/
#guard_msgs in #print axioms ctx_intro

/-- info: 'Cert.Kernel.Proto.body_obligation_of' depends on axioms: [propext, Classical.choice, Quot.sound] -/
#guard_msgs in #print axioms body_obligation_of

end Cert.Kernel.Proto

end
-- ==== Proof.PostIntroK.lean ====
/-
  What the body's run leaves on a device is what the pipeline wants back from it: the device's own row is joined from
  the shares its transfers read it through, the exchange buffer from that row and the fifteen rows received (going back
  from a device one place at a time meets every device once), the thirty-three own semaphores are the local copy's, the
  sixteen departures' and the sixteen receive slots', nothing is owed, and the staging buffer holds the kernel's value.
-/
import proofs.«900942_g7700000000000943_dist_mean_ax0_shard0_i_m1536_n768_v7x_i16_bf16_1_alg».proof.Proof.CtxK
import proofs.«900942_g7700000000000943_dist_mean_ax0_shard0_i_m1536_n768_v7x_i16_bf16_1_alg».proof.Proof.RowsK

noncomputable section

namespace Cert.Kernel.Proto

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable [∀ e, Nonempty (Elt F e)]

/-! ## The device's own row, from its read shares -/

/-- The remainder of the device's own row and the sixteen shares its transfers read it through, all at the canonical
    contents, are the row held outright. -/
theorem own_row_join (c : Dev nD) :
    (iprop(((rowM c).view.loc (c : Thread nD τ) ↦[(rowM c).view.set]{Transfers.shareDrop fullShare 16} rowBuf m ρ c)
      ∗ ((rowM c).view.loc (c : Thread nD τ) ↦[(rowM c).view.set]{Transfers.shareTok fullShare 16 0} rowBuf m ρ c)
      ∗ ((rowM c).view.loc (c : Thread nD τ) ↦[(rowM c).view.set]{Transfers.shareTok fullShare 16 1} rowBuf m ρ c)
      ∗ ((rowM c).view.loc (c : Thread nD τ) ↦[(rowM c).view.set]{Transfers.shareTok fullShare 16 2} rowBuf m ρ c)
      ∗ ((rowM c).view.loc (c : Thread nD τ) ↦[(rowM c).view.set]{Transfers.shareTok fullShare 16 3} rowBuf m ρ c)
      ∗ ((rowM c).view.loc (c : Thread nD τ) ↦[(rowM c).view.set]{Transfers.shareTok fullShare 16 4} rowBuf m ρ c)
      ∗ ((rowM c).view.loc (c : Thread nD τ) ↦[(rowM c).view.set]{Transfers.shareTok fullShare 16 5} rowBuf m ρ c)
      ∗ ((rowM c).view.loc (c : Thread nD τ) ↦[(rowM c).view.set]{Transfers.shareTok fullShare 16 6} rowBuf m ρ c)
      ∗ ((rowM c).view.loc (c : Thread nD τ) ↦[(rowM c).view.set]{Transfers.shareTok fullShare 16 7} rowBuf m ρ c)
      ∗ ((rowM c).view.loc (c : Thread nD τ) ↦[(rowM c).view.set]{Transfers.shareTok fullShare 16 8} rowBuf m ρ c)
      ∗ ((rowM c).view.loc (c : Thread nD τ) ↦[(rowM c).view.set]{Transfers.shareTok fullShare 16 9} rowBuf m ρ c)
      ∗ ((rowM c).view.loc (c : Thread nD τ) ↦[(rowM c).view.set]{Transfers.shareTok fullShare 16 10} rowBuf m ρ c)
      ∗ ((rowM c).view.loc (c : Thread nD τ) ↦[(rowM c).view.set]{Transfers.shareTok fullShare 16 11} rowBuf m ρ c)
      ∗ ((rowM c).view.loc (c : Thread nD τ) ↦[(rowM c).view.set]{Transfers.shareTok fullShare 16 12} rowBuf m ρ c)
      ∗ ((rowM c).view.loc (c : Thread nD τ) ↦[(rowM c).view.set]{Transfers.shareTok fullShare 16 13} rowBuf m ρ c)
      ∗ ((rowM c).view.loc (c : Thread nD τ) ↦[(rowM c).view.set]{Transfers.shareTok fullShare 16 14} rowBuf m ρ c)
      ∗ ((rowM c).view.loc (c : Thread nD τ) ↦[(rowM c).view.set]{Transfers.shareTok fullShare 16 15} rowBuf m ρ c)) : sProp 𝕄)
      ⊢ ((rowM c).view.loc (c : Thread nD τ) ↦[(rowM c).view.set]{fullShare} rowBuf m ρ c) := by
  have h := Transfers.pointsTo_toks_join (Ix := Unit) (Name := ℕ) (U := UU) (Lvl := ℕ)
    (ℓ := (rowM c).view.loc (c : Thread nD τ)) (S := (rowM c).view.set) (f := rowBuf m ρ c) fullShare 16
  rw [bigSep_univ_eq_bigSepL [(0 : Fin 16), 1, 2, 3, 4, 5, 6, 7, 8, 9, 10, 11, 12, 13, 14, 15] (by decide) (by decide)] at h
  exact h

/-! ## The exchange buffer, from its sixteen rows -/

theorem dev_list (c : Dev nD) : (Finset.univ : Finset (Dev nD)) = ([c, bwd c 1, bwd c 2, bwd c 3, bwd c 4, bwd c 5, bwd c 6, bwd c 7, bwd c 8, bwd c 9, bwd c 10, bwd c 11, bwd c 12, bwd c 13, bwd c 14, bwd c 15]).toFinset := by
  revert c; decide
theorem dev_list_nodup (c : Dev nD) : ([c, bwd c 1, bwd c 2, bwd c 3, bwd c 4, bwd c 5, bwd c 6, bwd c 7, bwd c 8, bwd c 9, bwd c 10, bwd c 11, bwd c 12, bwd c 13, bwd c 14, bwd c 15]).Nodup := by
  revert c; decide

/-- The device's own row and the rows of the fifteen devices before it, each held outright, are the exchange buffer
    held outright at some contents: going back from `c` one place at a time meets every device once. -/
theorem rows16_join (c : Dev nD) :
    (iprop(((rowM (c)).view.loc (c : Thread nD τ) ↦[(rowM (c)).view.set]{fullShare} rowBuf m ρ (c))
      ∗ ((rowM (bwd c 1)).view.loc (c : Thread nD τ) ↦[(rowM (bwd c 1)).view.set]{fullShare} rowBuf m ρ (bwd c 1))
      ∗ ((rowM (bwd c 2)).view.loc (c : Thread nD τ) ↦[(rowM (bwd c 2)).view.set]{fullShare} rowBuf m ρ (bwd c 2))
      ∗ ((rowM (bwd c 3)).view.loc (c : Thread nD τ) ↦[(rowM (bwd c 3)).view.set]{fullShare} rowBuf m ρ (bwd c 3))
      ∗ ((rowM (bwd c 4)).view.loc (c : Thread nD τ) ↦[(rowM (bwd c 4)).view.set]{fullShare} rowBuf m ρ (bwd c 4))
      ∗ ((rowM (bwd c 5)).view.loc (c : Thread nD τ) ↦[(rowM (bwd c 5)).view.set]{fullShare} rowBuf m ρ (bwd c 5))
      ∗ ((rowM (bwd c 6)).view.loc (c : Thread nD τ) ↦[(rowM (bwd c 6)).view.set]{fullShare} rowBuf m ρ (bwd c 6))
      ∗ ((rowM (bwd c 7)).view.loc (c : Thread nD τ) ↦[(rowM (bwd c 7)).view.set]{fullShare} rowBuf m ρ (bwd c 7))
      ∗ ((rowM (bwd c 8)).view.loc (c : Thread nD τ) ↦[(rowM (bwd c 8)).view.set]{fullShare} rowBuf m ρ (bwd c 8))
      ∗ ((rowM (bwd c 9)).view.loc (c : Thread nD τ) ↦[(rowM (bwd c 9)).view.set]{fullShare} rowBuf m ρ (bwd c 9))
      ∗ ((rowM (bwd c 10)).view.loc (c : Thread nD τ) ↦[(rowM (bwd c 10)).view.set]{fullShare} rowBuf m ρ (bwd c 10))
      ∗ ((rowM (bwd c 11)).view.loc (c : Thread nD τ) ↦[(rowM (bwd c 11)).view.set]{fullShare} rowBuf m ρ (bwd c 11))
      ∗ ((rowM (bwd c 12)).view.loc (c : Thread nD τ) ↦[(rowM (bwd c 12)).view.set]{fullShare} rowBuf m ρ (bwd c 12))
      ∗ ((rowM (bwd c 13)).view.loc (c : Thread nD τ) ↦[(rowM (bwd c 13)).view.set]{fullShare} rowBuf m ρ (bwd c 13))
      ∗ ((rowM (bwd c 14)).view.loc (c : Thread nD τ) ↦[(rowM (bwd c 14)).view.set]{fullShare} rowBuf m ρ (bwd c 14))
      ∗ ((rowM (bwd c 15)).view.loc (c : Thread nD τ) ↦[(rowM (bwd c 15)).view.set]{fullShare} rowBuf m ρ (bwd c 15))) : sProp 𝕄)
      ⊢ (∃ f, aM.view.loc (c : Thread nD τ) ↦[aM.view.set]{fullShare} f : sProp 𝕄) := by
  have h := rows_join (F := F) c (fun s => rowBuf m ρ s)
  rw [bigSep_univ_eq_bigSepL [c, bwd c 1, bwd c 2, bwd c 3, bwd c 4, bwd c 5, bwd c 6, bwd c 7, bwd c 8, bwd c 9, bwd c 10, bwd c 11, bwd c 12, bwd c 13, bwd c 14, bwd c 15] (dev_list c) (dev_list_nodup c)] at h
  exact h

/-! ## The kernel's own semaphores -/

/-- Own semaphore `1 + d` is the departure cell `d`'s, -/
theorem sem_send (c : Dev nD) (d : Fin 16) :
    (semVal ((c : Thread nD τ), osem (jS d)) 0 : sProp 𝕄) = semVal (sendCell c d) 0 := by
  rw [osem_pos (jS d) (by show 1 + d.val ≠ 0; omega), ← kcell_send]
/-- own semaphore `17 + s` the receive cell of slot `s`'s. -/
theorem sem_recv (c : Dev nD) (s : Fin 16) :
    (semVal ((c : Thread nD τ), osem (jR s)) 0 : sProp 𝕄) = semVal (recvCell c s) 0 := by
  rw [osem_pos (jR s) (by show 17 + s.val ≠ 0; omega), ← kcell_recv]

theorem sem_list (c : Dev nD) : (Finset.univ : Finset (Fin 33)) = ([(0 : Fin 33), jS 0, jS 1, jS 2, jS 3, jS 4, jS 5, jS 6, jS 7, jS 8, jS 9, jS 10, jS 11, jS 12, jS 13, jS 14, jS 15, jR (bwd c 1), jR (bwd c 2), jR (bwd c 3), jR (bwd c 4), jR (bwd c 5), jR (bwd c 6), jR (bwd c 7), jR (bwd c 8), jR (bwd c 9), jR (bwd c 10), jR (bwd c 11), jR (bwd c 12), jR (bwd c 13), jR (bwd c 14), jR (bwd c 15), jR c]).toFinset := by
  revert c; decide
theorem sem_list_nodup (c : Dev nD) : ([(0 : Fin 33), jS 0, jS 1, jS 2, jS 3, jS 4, jS 5, jS 6, jS 7, jS 8, jS 9, jS 10, jS 11, jS 12, jS 13, jS 14, jS 15, jR (bwd c 1), jR (bwd c 2), jR (bwd c 3), jR (bwd c 4), jR (bwd c 5), jR (bwd c 6), jR (bwd c 7), jR (bwd c 8), jR (bwd c 9), jR (bwd c 10), jR (bwd c 11), jR (bwd c 12), jR (bwd c 13), jR (bwd c 14), jR (bwd c 15), jR c]).Nodup := by
  revert c; decide

/-- The local copy's semaphore, the sixteen departure semaphores and the sixteen receive semaphores — the slots of the
    fifteen devices before `c` and `c`'s own — are the device's thirty-three own semaphores. -/
theorem sems33 (c : Dev nD) :
    (iprop(semVal ((c : Thread nD τ), .dma copySem) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (sendCell c 7) 0
      ∗ semVal (sendCell c 8) 0
      ∗ semVal (sendCell c 9) 0
      ∗ semVal (sendCell c 10) 0
      ∗ semVal (sendCell c 11) 0
      ∗ semVal (sendCell c 12) 0
      ∗ semVal (sendCell c 13) 0
      ∗ semVal (sendCell c 14) 0
      ∗ semVal (sendCell c 15) 0
      ∗ semVal (recvCell c (bwd c 1)) 0
      ∗ semVal (recvCell c (bwd c 2)) 0
      ∗ semVal (recvCell c (bwd c 3)) 0
      ∗ semVal (recvCell c (bwd c 4)) 0
      ∗ semVal (recvCell c (bwd c 5)) 0
      ∗ semVal (recvCell c (bwd c 6)) 0
      ∗ semVal (recvCell c (bwd c 7)) 0
      ∗ semVal (recvCell c (bwd c 8)) 0
      ∗ semVal (recvCell c (bwd c 9)) 0
      ∗ semVal (recvCell c (bwd c 10)) 0
      ∗ semVal (recvCell c (bwd c 11)) 0
      ∗ semVal (recvCell c (bwd c 12)) 0
      ∗ semVal (recvCell c (bwd c 13)) 0
      ∗ semVal (recvCell c (bwd c 14)) 0
      ∗ semVal (recvCell c (bwd c 15)) 0
      ∗ semVal (recvCell c c) 0) : sProp 𝕄)
      ⊢ bigSep Finset.univ fun j : Fin 33 => semVal ((c : Thread nD τ), osem j) 0 := by
  rw [bigSep_univ_eq_bigSepL [(0 : Fin 33), jS 0, jS 1, jS 2, jS 3, jS 4, jS 5, jS 6, jS 7, jS 8, jS 9, jS 10, jS 11, jS 12, jS 13, jS 14, jS 15, jR (bwd c 1), jR (bwd c 2), jR (bwd c 3), jR (bwd c 4), jR (bwd c 5), jR (bwd c 6), jR (bwd c 7), jR (bwd c 8), jR (bwd c 9), jR (bwd c 10), jR (bwd c 11), jR (bwd c 12), jR (bwd c 13), jR (bwd c 14), jR (bwd c 15), jR c] (sem_list c) (sem_list_nodup c)]
  simp only [bigSepL_cons_cons, bigSepL_singleton, sem_send, sem_recv, osem_zero]
  exact .rfl

/-! ## The result's staging buffer -/

/-- The staging buffer through its whole view is the staging buffer. -/
theorem out_eq (c : Dev nD) (v : Buf (Elt F) (oM.view.loc (c : Thread nD τ))) :
    (oM.view.loc (c : Thread nD τ) ↦[oM.view.set]{fullShare} v : sProp 𝕄)
      = (((c : Thread nD τ).loc cc0_stg0_0) ↦{fullShare} v) := by
  rw [View.set_whole]

/-! ## What the body leaves is what the pipeline wants back -/

/-- The block as it was; the two scratch buffers whole again (the exchange buffer from the device's own row, joined from
    its shares, and the fifteen rows received); the thirty-three own semaphores at zero; nothing owed; the staging buffer at
    the kernel's value. -/
theorem post_intro (c : Dev nD) (W : Waits sig Unit) (fb : Buf (Elt F) (bM.view.loc (c : Thread nD τ))) :
    bodyEnd m ρ c W fb ⊢ bodyPost m ρ c := by
  unfold bodyEnd bodyPost Φ₁ scratch xPts Dat.owesAt Pipeline.owesWithin
  rw [show (dats m ρ 0 c).owed Gen.t0_0.succ = 0 from rfl]
  iintro ⟨Hx, Hb, Hd, Ht0, Ht1, Ht2, Ht3, Ht4, Ht5, Ht6, Ht7, Ht8, Ht9, Ht10, Ht11, Ht12, Ht13, Ht14, Ht15, Hr1, Hr2, Hr3, Hr4, Hr5, Hr6, Hr7, Hr8, Hr9, Hr10, Hr11, Hr12, Hr13, Hr14, Hr15, Hcs, Hs0, Hs1, Hs2, Hs3, Hs4, Hs5, Hs6, Hs7, Hs8, Hs9, Hs10, Hs11, Hs12, Hs13, Hs14, Hs15, Hv1, Hv2, Hv3, Hv4, Hv5, Hv6, Hv7, Hv8, Hv9, Hv10, Hv11, Hv12, Hv13, Hv14, Hv15, Hvc, HO, Hout⟩
  ihave Hown := (own_row_join m ρ c) $$ [Hd Ht0 Ht1 Ht2 Ht3 Ht4 Ht5 Ht6 Ht7 Ht8 Ht9 Ht10 Ht11 Ht12 Ht13 Ht14 Ht15]
  · iframe
  ihave Ha := (rows16_join m ρ c) $$ [Hown Hr1 Hr2 Hr3 Hr4 Hr5 Hr6 Hr7 Hr8 Hr9 Hr10 Hr11 Hr12 Hr13 Hr14 Hr15]
  · iframe
  ihave Hsem := (sems33 (F := F) c) $$ [Hcs Hs0 Hs1 Hs2 Hs3 Hs4 Hs5 Hs6 Hs7 Hs8 Hs9 Hs10 Hs11 Hs12 Hs13 Hs14 Hs15 Hv1 Hv2 Hv3 Hv4 Hv5 Hv6 Hv7 Hv8 Hv9 Hv10 Hv11 Hv12 Hv13 Hv14 Hv15 Hvc]
  · iframe
  ihave Hout' := (Entails.of_eq (out_eq c _)) $$ Hout
  isplitl [Hx Hb Ha Hsem]
  · isplitl [Hx]; · iexact Hx
    isplitl [Hb Ha]
    · isplitl [Hb]; · iexists fb; iexact Hb
      iexact Ha
    iexact Hsem
  isplitl [HO]
  · iexists W
    isplitr; · ipureintro; exact fun _ _ => Or.inl trivial
    iexact HO
  iexists _
  isplitr; · ipureintro; rfl
  iexact Hout'

end Cert.Kernel.Proto

end
-- ==== Proof.BodyK.lean ====
/-
  One device's body under the exchange protocol.

  The run, in the kernel's order: the fifteen barrier units (each hands the target device one row of this device's
  exchange buffer); the block copied to vector memory and summed over its rows into the device's own row; the wait for
  fifteen units on the device's own barrier cell, which brings row `c` of every other device's buffer; the fifteen
  addressed transfers of the own row, each lending one of sixteen read shares of it and landing the canonical contents
  in the target's row; the fifteen receive waits, each followed by the load of the row that landed and one addition;
  the product with the named constant stored into the result's staging buffer; the fifteen departure waits, which bring
  the read shares back. Afterwards the device's own cells close, and the rows and shares are put together again.
-/
import proofs.«900942_g7700000000000943_dist_mean_ax0_shard0_i_m1536_n768_v7x_i16_bf16_1_alg».proof.Proof.ProtoK
import proofs.«900942_g7700000000000943_dist_mean_ax0_shard0_i_m1536_n768_v7x_i16_bf16_1_alg».proof.Proof.RowsK
import proofs.«900942_g7700000000000943_dist_mean_ax0_shard0_i_m1536_n768_v7x_i16_bf16_1_alg».proof.Proof.LaunchK
import proofs.«900942_g7700000000000943_dist_mean_ax0_shard0_i_m1536_n768_v7x_i16_bf16_1_alg».proof.Proof.CtxK
import proofs.«900942_g7700000000000943_dist_mean_ax0_shard0_i_m1536_n768_v7x_i16_bf16_1_alg».proof.Proof.CtxIntroK
import proofs.«900942_g7700000000000943_dist_mean_ax0_shard0_i_m1536_n768_v7x_i16_bf16_1_alg».proof.Proof.PostIntroK
import Idealize.ShloMosaic.Lib.Pipeline.Value

noncomputable section

namespace Cert.Kernel.Proto

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable [∀ e, Nonempty (Elt F e)]

/-! ## The kernel's device and semaphore names, in the protocol's spelling -/

@[sl_canon] theorem dev1_eq (c : Dev nD) : (⟨k0_dev1 c, k0_dev1_lt c⟩ : Dev nD) = fwd c 1 := Fin.ext (k0_dev1_eq c)
@[sl_canon] theorem dev2_eq (c : Dev nD) : (⟨k0_dev2 c, k0_dev2_lt c⟩ : Dev nD) = fwd c 2 := Fin.ext (k0_dev2_eq c)
@[sl_canon] theorem dev3_eq (c : Dev nD) : (⟨k0_dev3 c, k0_dev3_lt c⟩ : Dev nD) = fwd c 3 := Fin.ext (k0_dev3_eq c)
@[sl_canon] theorem dev4_eq (c : Dev nD) : (⟨k0_dev4 c, k0_dev4_lt c⟩ : Dev nD) = fwd c 4 := Fin.ext (k0_dev4_eq c)
@[sl_canon] theorem dev5_eq (c : Dev nD) : (⟨k0_dev5 c, k0_dev5_lt c⟩ : Dev nD) = fwd c 5 := Fin.ext (k0_dev5_eq c)
@[sl_canon] theorem dev6_eq (c : Dev nD) : (⟨k0_dev6 c, k0_dev6_lt c⟩ : Dev nD) = fwd c 6 := Fin.ext (k0_dev6_eq c)
@[sl_canon] theorem dev7_eq (c : Dev nD) : (⟨k0_dev7 c, k0_dev7_lt c⟩ : Dev nD) = fwd c 7 := Fin.ext (k0_dev7_eq c)
@[sl_canon] theorem dev8_eq (c : Dev nD) : (⟨k0_dev8 c, k0_dev8_lt c⟩ : Dev nD) = fwd c 8 := Fin.ext (k0_dev8_eq c)
@[sl_canon] theorem dev9_eq (c : Dev nD) : (⟨k0_dev9 c, k0_dev9_lt c⟩ : Dev nD) = fwd c 9 := Fin.ext (k0_dev9_eq c)
@[sl_canon] theorem dev10_eq (c : Dev nD) : (⟨k0_dev10 c, k0_dev10_lt c⟩ : Dev nD) = fwd c 10 := Fin.ext (k0_dev10_eq c)
@[sl_canon] theorem dev11_eq (c : Dev nD) : (⟨k0_dev11 c, k0_dev11_lt c⟩ : Dev nD) = fwd c 11 := Fin.ext (k0_dev11_eq c)
@[sl_canon] theorem dev12_eq (c : Dev nD) : (⟨k0_dev12 c, k0_dev12_lt c⟩ : Dev nD) = fwd c 12 := Fin.ext (k0_dev12_eq c)
@[sl_canon] theorem dev13_eq (c : Dev nD) : (⟨k0_dev13 c, k0_dev13_lt c⟩ : Dev nD) = fwd c 13 := Fin.ext (k0_dev13_eq c)
@[sl_canon] theorem dev14_eq (c : Dev nD) : (⟨k0_dev14 c, k0_dev14_lt c⟩ : Dev nD) = fwd c 14 := Fin.ext (k0_dev14_eq c)
@[sl_canon] theorem dev15_eq (c : Dev nD) : (⟨k0_dev15 c, k0_dev15_lt c⟩ : Dev nD) = fwd c 15 := Fin.ext (k0_dev15_eq c)
@[sl_canon] theorem dev16_eq (c : Dev nD) : (⟨k0_dev16 c, k0_dev16_lt c⟩ : Dev nD) = fwd c 1 := Fin.ext (k0_dev16_eq c)
@[sl_canon] theorem dev17_eq (c : Dev nD) : (⟨k0_dev17 c, k0_dev17_lt c⟩ : Dev nD) = fwd c 2 := Fin.ext (k0_dev17_eq c)
@[sl_canon] theorem dev18_eq (c : Dev nD) : (⟨k0_dev18 c, k0_dev18_lt c⟩ : Dev nD) = fwd c 3 := Fin.ext (k0_dev18_eq c)
@[sl_canon] theorem dev19_eq (c : Dev nD) : (⟨k0_dev19 c, k0_dev19_lt c⟩ : Dev nD) = fwd c 4 := Fin.ext (k0_dev19_eq c)
@[sl_canon] theorem dev20_eq (c : Dev nD) : (⟨k0_dev20 c, k0_dev20_lt c⟩ : Dev nD) = fwd c 5 := Fin.ext (k0_dev20_eq c)
@[sl_canon] theorem dev21_eq (c : Dev nD) : (⟨k0_dev21 c, k0_dev21_lt c⟩ : Dev nD) = fwd c 6 := Fin.ext (k0_dev21_eq c)
@[sl_canon] theorem dev22_eq (c : Dev nD) : (⟨k0_dev22 c, k0_dev22_lt c⟩ : Dev nD) = fwd c 7 := Fin.ext (k0_dev22_eq c)
@[sl_canon] theorem dev23_eq (c : Dev nD) : (⟨k0_dev23 c, k0_dev23_lt c⟩ : Dev nD) = fwd c 8 := Fin.ext (k0_dev23_eq c)
@[sl_canon] theorem dev24_eq (c : Dev nD) : (⟨k0_dev24 c, k0_dev24_lt c⟩ : Dev nD) = fwd c 9 := Fin.ext (k0_dev24_eq c)
@[sl_canon] theorem dev25_eq (c : Dev nD) : (⟨k0_dev25 c, k0_dev25_lt c⟩ : Dev nD) = fwd c 10 := Fin.ext (k0_dev25_eq c)
@[sl_canon] theorem dev26_eq (c : Dev nD) : (⟨k0_dev26 c, k0_dev26_lt c⟩ : Dev nD) = fwd c 11 := Fin.ext (k0_dev26_eq c)
@[sl_canon] theorem dev27_eq (c : Dev nD) : (⟨k0_dev27 c, k0_dev27_lt c⟩ : Dev nD) = fwd c 12 := Fin.ext (k0_dev27_eq c)
@[sl_canon] theorem dev28_eq (c : Dev nD) : (⟨k0_dev28 c, k0_dev28_lt c⟩ : Dev nD) = fwd c 13 := Fin.ext (k0_dev28_eq c)
@[sl_canon] theorem dev29_eq (c : Dev nD) : (⟨k0_dev29 c, k0_dev29_lt c⟩ : Dev nD) = fwd c 14 := Fin.ext (k0_dev29_eq c)
@[sl_canon] theorem dev30_eq (c : Dev nD) : (⟨k0_dev30 c, k0_dev30_lt c⟩ : Dev nD) = fwd c 15 := Fin.ext (k0_dev30_eq c)

@[sl_canon] theorem sendSem1 : (((cc0_scratch3 : DmaSems sig S16).slice (Rect.unit (s := S16) ![1] S1.size inb_S16_S1_1)).squeeze S_ squeezes_S1_S_).sem = sendSem 1 := by decide
@[sl_canon] theorem sendSem2 : (((cc0_scratch3 : DmaSems sig S16).slice (Rect.unit (s := S16) ![2] S1.size inb_S16_S1_2)).squeeze S_ squeezes_S1_S_).sem = sendSem 2 := by decide
@[sl_canon] theorem sendSem3 : (((cc0_scratch3 : DmaSems sig S16).slice (Rect.unit (s := S16) ![3] S1.size inb_S16_S1_3)).squeeze S_ squeezes_S1_S_).sem = sendSem 3 := by decide
@[sl_canon] theorem sendSem4 : (((cc0_scratch3 : DmaSems sig S16).slice (Rect.unit (s := S16) ![4] S1.size inb_S16_S1_4)).squeeze S_ squeezes_S1_S_).sem = sendSem 4 := by decide
@[sl_canon] theorem sendSem5 : (((cc0_scratch3 : DmaSems sig S16).slice (Rect.unit (s := S16) ![5] S1.size inb_S16_S1_5)).squeeze S_ squeezes_S1_S_).sem = sendSem 5 := by decide
@[sl_canon] theorem sendSem6 : (((cc0_scratch3 : DmaSems sig S16).slice (Rect.unit (s := S16) ![6] S1.size inb_S16_S1_6)).squeeze S_ squeezes_S1_S_).sem = sendSem 6 := by decide
@[sl_canon] theorem sendSem7 : (((cc0_scratch3 : DmaSems sig S16).slice (Rect.unit (s := S16) ![7] S1.size inb_S16_S1_7)).squeeze S_ squeezes_S1_S_).sem = sendSem 7 := by decide
@[sl_canon] theorem sendSem8 : (((cc0_scratch3 : DmaSems sig S16).slice (Rect.unit (s := S16) ![8] S1.size inb_S16_S1_8)).squeeze S_ squeezes_S1_S_).sem = sendSem 8 := by decide
@[sl_canon] theorem sendSem9 : (((cc0_scratch3 : DmaSems sig S16).slice (Rect.unit (s := S16) ![9] S1.size inb_S16_S1_9)).squeeze S_ squeezes_S1_S_).sem = sendSem 9 := by decide
@[sl_canon] theorem sendSem10 : (((cc0_scratch3 : DmaSems sig S16).slice (Rect.unit (s := S16) ![10] S1.size inb_S16_S1_10)).squeeze S_ squeezes_S1_S_).sem = sendSem 10 := by decide
@[sl_canon] theorem sendSem11 : (((cc0_scratch3 : DmaSems sig S16).slice (Rect.unit (s := S16) ![11] S1.size inb_S16_S1_11)).squeeze S_ squeezes_S1_S_).sem = sendSem 11 := by decide
@[sl_canon] theorem sendSem12 : (((cc0_scratch3 : DmaSems sig S16).slice (Rect.unit (s := S16) ![12] S1.size inb_S16_S1_12)).squeeze S_ squeezes_S1_S_).sem = sendSem 12 := by decide
@[sl_canon] theorem sendSem13 : (((cc0_scratch3 : DmaSems sig S16).slice (Rect.unit (s := S16) ![13] S1.size inb_S16_S1_13)).squeeze S_ squeezes_S1_S_).sem = sendSem 13 := by decide
@[sl_canon] theorem sendSem14 : (((cc0_scratch3 : DmaSems sig S16).slice (Rect.unit (s := S16) ![14] S1.size inb_S16_S1_14)).squeeze S_ squeezes_S1_S_).sem = sendSem 14 := by decide
@[sl_canon] theorem sendSem15 : (((cc0_scratch3 : DmaSems sig S16).slice (Rect.unit (s := S16) ![15] S1.size inb_S16_S1_15)).squeeze S_ squeezes_S1_S_).sem = sendSem 15 := by decide
@[sl_canon] theorem recvSemOwn (c : Dev nD) :
    (((cc0_scratch4 : DmaSems sig S16).slice (Rect.unit (s := S16) (k0_off2 c) S1.size (k0_off2_inb c))).squeeze S_ squeezes_S1_S_).sem = recvSem c := recvSem_own c
@[sl_canon] theorem recvSemFrom1 (c : Dev nD) :
    (((cc0_scratch4 : DmaSems sig S16).slice (Rect.unit (s := S16) (k0_off4 c 1#32) S1.size (k0_off4_inb c 0))).squeeze S_ squeezes_S1_S_).sem = recvSem (bwd c 1) := recvSem_from c 0
@[sl_canon] theorem recvSemFrom2 (c : Dev nD) :
    (((cc0_scratch4 : DmaSems sig S16).slice (Rect.unit (s := S16) (k0_off4 c 2#32) S1.size (k0_off4_inb c 1))).squeeze S_ squeezes_S1_S_).sem = recvSem (bwd c 2) := recvSem_from c 1
@[sl_canon] theorem recvSemFrom3 (c : Dev nD) :
    (((cc0_scratch4 : DmaSems sig S16).slice (Rect.unit (s := S16) (k0_off4 c 3#32) S1.size (k0_off4_inb c 2))).squeeze S_ squeezes_S1_S_).sem = recvSem (bwd c 3) := recvSem_from c 2
@[sl_canon] theorem recvSemFrom4 (c : Dev nD) :
    (((cc0_scratch4 : DmaSems sig S16).slice (Rect.unit (s := S16) (k0_off4 c 4#32) S1.size (k0_off4_inb c 3))).squeeze S_ squeezes_S1_S_).sem = recvSem (bwd c 4) := recvSem_from c 3
@[sl_canon] theorem recvSemFrom5 (c : Dev nD) :
    (((cc0_scratch4 : DmaSems sig S16).slice (Rect.unit (s := S16) (k0_off4 c 5#32) S1.size (k0_off4_inb c 4))).squeeze S_ squeezes_S1_S_).sem = recvSem (bwd c 5) := recvSem_from c 4
@[sl_canon] theorem recvSemFrom6 (c : Dev nD) :
    (((cc0_scratch4 : DmaSems sig S16).slice (Rect.unit (s := S16) (k0_off4 c 6#32) S1.size (k0_off4_inb c 5))).squeeze S_ squeezes_S1_S_).sem = recvSem (bwd c 6) := recvSem_from c 5
@[sl_canon] theorem recvSemFrom7 (c : Dev nD) :
    (((cc0_scratch4 : DmaSems sig S16).slice (Rect.unit (s := S16) (k0_off4 c 7#32) S1.size (k0_off4_inb c 6))).squeeze S_ squeezes_S1_S_).sem = recvSem (bwd c 7) := recvSem_from c 6
@[sl_canon] theorem recvSemFrom8 (c : Dev nD) :
    (((cc0_scratch4 : DmaSems sig S16).slice (Rect.unit (s := S16) (k0_off4 c 8#32) S1.size (k0_off4_inb c 7))).squeeze S_ squeezes_S1_S_).sem = recvSem (bwd c 8) := recvSem_from c 7
@[sl_canon] theorem recvSemFrom9 (c : Dev nD) :
    (((cc0_scratch4 : DmaSems sig S16).slice (Rect.unit (s := S16) (k0_off4 c 9#32) S1.size (k0_off4_inb c 8))).squeeze S_ squeezes_S1_S_).sem = recvSem (bwd c 9) := recvSem_from c 8
@[sl_canon] theorem recvSemFrom10 (c : Dev nD) :
    (((cc0_scratch4 : DmaSems sig S16).slice (Rect.unit (s := S16) (k0_off4 c 10#32) S1.size (k0_off4_inb c 9))).squeeze S_ squeezes_S1_S_).sem = recvSem (bwd c 10) := recvSem_from c 9
@[sl_canon] theorem recvSemFrom11 (c : Dev nD) :
    (((cc0_scratch4 : DmaSems sig S16).slice (Rect.unit (s := S16) (k0_off4 c 11#32) S1.size (k0_off4_inb c 10))).squeeze S_ squeezes_S1_S_).sem = recvSem (bwd c 11) := recvSem_from c 10
@[sl_canon] theorem recvSemFrom12 (c : Dev nD) :
    (((cc0_scratch4 : DmaSems sig S16).slice (Rect.unit (s := S16) (k0_off4 c 12#32) S1.size (k0_off4_inb c 11))).squeeze S_ squeezes_S1_S_).sem = recvSem (bwd c 12) := recvSem_from c 11
@[sl_canon] theorem recvSemFrom13 (c : Dev nD) :
    (((cc0_scratch4 : DmaSems sig S16).slice (Rect.unit (s := S16) (k0_off4 c 13#32) S1.size (k0_off4_inb c 12))).squeeze S_ squeezes_S1_S_).sem = recvSem (bwd c 13) := recvSem_from c 12
@[sl_canon] theorem recvSemFrom14 (c : Dev nD) :
    (((cc0_scratch4 : DmaSems sig S16).slice (Rect.unit (s := S16) (k0_off4 c 14#32) S1.size (k0_off4_inb c 13))).squeeze S_ squeezes_S1_S_).sem = recvSem (bwd c 14) := recvSem_from c 13
@[sl_canon] theorem recvSemFrom15 (c : Dev nD) :
    (((cc0_scratch4 : DmaSems sig S16).slice (Rect.unit (s := S16) (k0_off4 c 15#32) S1.size (k0_off4_inb c 14))).squeeze S_ squeezes_S1_S_).sem = recvSem (bwd c 15) := recvSem_from c 14

/-! ## The schedule's tables at the cells a device touches -/

theorem bar_mem (c : Dev nD) (k : ℕ) (hk : k % 16 ≠ 0) : c ∈ (Rd m ρ).duties (barCell (fwd c k)) 0 := by
  rw [duties_bar]
  refine Finset.mem_erase.mpr ⟨?_, Finset.mem_univ _⟩
  intro h
  have := congrArg Fin.val h
  simp only [fwd] at this
  omega
theorem fwd_ne' (c : Dev nD) (k : ℕ) (hk : k % 16 ≠ 0) : (fwd c k : Fin 16) ≠ c := by
  intro h; have := congrArg Fin.val h; simp only [fwd] at this; omega
theorem bwd_ne' (c : Dev nD) (k : ℕ) (hk : k % 16 ≠ 0) : (bwd c k : Fin 16) ≠ c := by
  intro h; have := congrArg Fin.val h; simp only [Spec.src] at this; omega
theorem ne_fwd' (c : Dev nD) (k : ℕ) (hk : k % 16 ≠ 0) : (c : Fin 16) ≠ fwd c k := fun h => fwd_ne' c k hk h.symm

theorem bar_mem1 (c : Dev nD) : c ∈ (Rd m ρ).duties (barCell (fwd c 1)) 0 := bar_mem m ρ c 1 (by decide)
theorem bar_mem2 (c : Dev nD) : c ∈ (Rd m ρ).duties (barCell (fwd c 2)) 0 := bar_mem m ρ c 2 (by decide)
theorem bar_mem3 (c : Dev nD) : c ∈ (Rd m ρ).duties (barCell (fwd c 3)) 0 := bar_mem m ρ c 3 (by decide)
theorem bar_mem4 (c : Dev nD) : c ∈ (Rd m ρ).duties (barCell (fwd c 4)) 0 := bar_mem m ρ c 4 (by decide)
theorem bar_mem5 (c : Dev nD) : c ∈ (Rd m ρ).duties (barCell (fwd c 5)) 0 := bar_mem m ρ c 5 (by decide)
theorem bar_mem6 (c : Dev nD) : c ∈ (Rd m ρ).duties (barCell (fwd c 6)) 0 := bar_mem m ρ c 6 (by decide)
theorem bar_mem7 (c : Dev nD) : c ∈ (Rd m ρ).duties (barCell (fwd c 7)) 0 := bar_mem m ρ c 7 (by decide)
theorem bar_mem8 (c : Dev nD) : c ∈ (Rd m ρ).duties (barCell (fwd c 8)) 0 := bar_mem m ρ c 8 (by decide)
theorem bar_mem9 (c : Dev nD) : c ∈ (Rd m ρ).duties (barCell (fwd c 9)) 0 := bar_mem m ρ c 9 (by decide)
theorem bar_mem10 (c : Dev nD) : c ∈ (Rd m ρ).duties (barCell (fwd c 10)) 0 := bar_mem m ρ c 10 (by decide)
theorem bar_mem11 (c : Dev nD) : c ∈ (Rd m ρ).duties (barCell (fwd c 11)) 0 := bar_mem m ρ c 11 (by decide)
theorem bar_mem12 (c : Dev nD) : c ∈ (Rd m ρ).duties (barCell (fwd c 12)) 0 := bar_mem m ρ c 12 (by decide)
theorem bar_mem13 (c : Dev nD) : c ∈ (Rd m ρ).duties (barCell (fwd c 13)) 0 := bar_mem m ρ c 13 (by decide)
theorem bar_mem14 (c : Dev nD) : c ∈ (Rd m ρ).duties (barCell (fwd c 14)) 0 := bar_mem m ρ c 14 (by decide)
theorem bar_mem15 (c : Dev nD) : c ∈ (Rd m ρ).duties (barCell (fwd c 15)) 0 := bar_mem m ρ c 15 (by decide)
theorem recv_mem1 (c : Dev nD) : c ∈ (Rd m ρ).duties (recvCell (fwd c 1) c) 0 := by rw [duties_recv m ρ (fwd c 1) c (ne_fwd' c 1 (by decide))]; exact Finset.mem_singleton_self _
theorem recv_mem2 (c : Dev nD) : c ∈ (Rd m ρ).duties (recvCell (fwd c 2) c) 0 := by rw [duties_recv m ρ (fwd c 2) c (ne_fwd' c 2 (by decide))]; exact Finset.mem_singleton_self _
theorem recv_mem3 (c : Dev nD) : c ∈ (Rd m ρ).duties (recvCell (fwd c 3) c) 0 := by rw [duties_recv m ρ (fwd c 3) c (ne_fwd' c 3 (by decide))]; exact Finset.mem_singleton_self _
theorem recv_mem4 (c : Dev nD) : c ∈ (Rd m ρ).duties (recvCell (fwd c 4) c) 0 := by rw [duties_recv m ρ (fwd c 4) c (ne_fwd' c 4 (by decide))]; exact Finset.mem_singleton_self _
theorem recv_mem5 (c : Dev nD) : c ∈ (Rd m ρ).duties (recvCell (fwd c 5) c) 0 := by rw [duties_recv m ρ (fwd c 5) c (ne_fwd' c 5 (by decide))]; exact Finset.mem_singleton_self _
theorem recv_mem6 (c : Dev nD) : c ∈ (Rd m ρ).duties (recvCell (fwd c 6) c) 0 := by rw [duties_recv m ρ (fwd c 6) c (ne_fwd' c 6 (by decide))]; exact Finset.mem_singleton_self _
theorem recv_mem7 (c : Dev nD) : c ∈ (Rd m ρ).duties (recvCell (fwd c 7) c) 0 := by rw [duties_recv m ρ (fwd c 7) c (ne_fwd' c 7 (by decide))]; exact Finset.mem_singleton_self _
theorem recv_mem8 (c : Dev nD) : c ∈ (Rd m ρ).duties (recvCell (fwd c 8) c) 0 := by rw [duties_recv m ρ (fwd c 8) c (ne_fwd' c 8 (by decide))]; exact Finset.mem_singleton_self _
theorem recv_mem9 (c : Dev nD) : c ∈ (Rd m ρ).duties (recvCell (fwd c 9) c) 0 := by rw [duties_recv m ρ (fwd c 9) c (ne_fwd' c 9 (by decide))]; exact Finset.mem_singleton_self _
theorem recv_mem10 (c : Dev nD) : c ∈ (Rd m ρ).duties (recvCell (fwd c 10) c) 0 := by rw [duties_recv m ρ (fwd c 10) c (ne_fwd' c 10 (by decide))]; exact Finset.mem_singleton_self _
theorem recv_mem11 (c : Dev nD) : c ∈ (Rd m ρ).duties (recvCell (fwd c 11) c) 0 := by rw [duties_recv m ρ (fwd c 11) c (ne_fwd' c 11 (by decide))]; exact Finset.mem_singleton_self _
theorem recv_mem12 (c : Dev nD) : c ∈ (Rd m ρ).duties (recvCell (fwd c 12) c) 0 := by rw [duties_recv m ρ (fwd c 12) c (ne_fwd' c 12 (by decide))]; exact Finset.mem_singleton_self _
theorem recv_mem13 (c : Dev nD) : c ∈ (Rd m ρ).duties (recvCell (fwd c 13) c) 0 := by rw [duties_recv m ρ (fwd c 13) c (ne_fwd' c 13 (by decide))]; exact Finset.mem_singleton_self _
theorem recv_mem14 (c : Dev nD) : c ∈ (Rd m ρ).duties (recvCell (fwd c 14) c) 0 := by rw [duties_recv m ρ (fwd c 14) c (ne_fwd' c 14 (by decide))]; exact Finset.mem_singleton_self _
theorem recv_mem15 (c : Dev nD) : c ∈ (Rd m ρ).duties (recvCell (fwd c 15) c) 0 := by rw [duties_recv m ρ (fwd c 15) c (ne_fwd' c 15 (by decide))]; exact Finset.mem_singleton_self _
theorem send_mem1 (c : Dev nD) : c ∈ (Rd m ρ).duties (sendCell c 1) 0 := by rw [duties_send m ρ c 1 (by decide)]; exact Finset.mem_singleton_self _
theorem send_mem2 (c : Dev nD) : c ∈ (Rd m ρ).duties (sendCell c 2) 0 := by rw [duties_send m ρ c 2 (by decide)]; exact Finset.mem_singleton_self _
theorem send_mem3 (c : Dev nD) : c ∈ (Rd m ρ).duties (sendCell c 3) 0 := by rw [duties_send m ρ c 3 (by decide)]; exact Finset.mem_singleton_self _
theorem send_mem4 (c : Dev nD) : c ∈ (Rd m ρ).duties (sendCell c 4) 0 := by rw [duties_send m ρ c 4 (by decide)]; exact Finset.mem_singleton_self _
theorem send_mem5 (c : Dev nD) : c ∈ (Rd m ρ).duties (sendCell c 5) 0 := by rw [duties_send m ρ c 5 (by decide)]; exact Finset.mem_singleton_self _
theorem send_mem6 (c : Dev nD) : c ∈ (Rd m ρ).duties (sendCell c 6) 0 := by rw [duties_send m ρ c 6 (by decide)]; exact Finset.mem_singleton_self _
theorem send_mem7 (c : Dev nD) : c ∈ (Rd m ρ).duties (sendCell c 7) 0 := by rw [duties_send m ρ c 7 (by decide)]; exact Finset.mem_singleton_self _
theorem send_mem8 (c : Dev nD) : c ∈ (Rd m ρ).duties (sendCell c 8) 0 := by rw [duties_send m ρ c 8 (by decide)]; exact Finset.mem_singleton_self _
theorem send_mem9 (c : Dev nD) : c ∈ (Rd m ρ).duties (sendCell c 9) 0 := by rw [duties_send m ρ c 9 (by decide)]; exact Finset.mem_singleton_self _
theorem send_mem10 (c : Dev nD) : c ∈ (Rd m ρ).duties (sendCell c 10) 0 := by rw [duties_send m ρ c 10 (by decide)]; exact Finset.mem_singleton_self _
theorem send_mem11 (c : Dev nD) : c ∈ (Rd m ρ).duties (sendCell c 11) 0 := by rw [duties_send m ρ c 11 (by decide)]; exact Finset.mem_singleton_self _
theorem send_mem12 (c : Dev nD) : c ∈ (Rd m ρ).duties (sendCell c 12) 0 := by rw [duties_send m ρ c 12 (by decide)]; exact Finset.mem_singleton_self _
theorem send_mem13 (c : Dev nD) : c ∈ (Rd m ρ).duties (sendCell c 13) 0 := by rw [duties_send m ρ c 13 (by decide)]; exact Finset.mem_singleton_self _
theorem send_mem14 (c : Dev nD) : c ∈ (Rd m ρ).duties (sendCell c 14) 0 := by rw [duties_send m ρ c 14 (by decide)]; exact Finset.mem_singleton_self _
theorem send_mem15 (c : Dev nD) : c ∈ (Rd m ρ).duties (sendCell c 15) 0 := by rw [duties_send m ρ c 15 (by decide)]; exact Finset.mem_singleton_self _
theorem duties_send1 (c : Dev nD) : (Rd m ρ).duties (sendCell c 1) 0 = {c} := duties_send m ρ c 1 (by decide)
theorem duties_send2 (c : Dev nD) : (Rd m ρ).duties (sendCell c 2) 0 = {c} := duties_send m ρ c 2 (by decide)
theorem duties_send3 (c : Dev nD) : (Rd m ρ).duties (sendCell c 3) 0 = {c} := duties_send m ρ c 3 (by decide)
theorem duties_send4 (c : Dev nD) : (Rd m ρ).duties (sendCell c 4) 0 = {c} := duties_send m ρ c 4 (by decide)
theorem duties_send5 (c : Dev nD) : (Rd m ρ).duties (sendCell c 5) 0 = {c} := duties_send m ρ c 5 (by decide)
theorem duties_send6 (c : Dev nD) : (Rd m ρ).duties (sendCell c 6) 0 = {c} := duties_send m ρ c 6 (by decide)
theorem duties_send7 (c : Dev nD) : (Rd m ρ).duties (sendCell c 7) 0 = {c} := duties_send m ρ c 7 (by decide)
theorem duties_send8 (c : Dev nD) : (Rd m ρ).duties (sendCell c 8) 0 = {c} := duties_send m ρ c 8 (by decide)
theorem duties_send9 (c : Dev nD) : (Rd m ρ).duties (sendCell c 9) 0 = {c} := duties_send m ρ c 9 (by decide)
theorem duties_send10 (c : Dev nD) : (Rd m ρ).duties (sendCell c 10) 0 = {c} := duties_send m ρ c 10 (by decide)
theorem duties_send11 (c : Dev nD) : (Rd m ρ).duties (sendCell c 11) 0 = {c} := duties_send m ρ c 11 (by decide)
theorem duties_send12 (c : Dev nD) : (Rd m ρ).duties (sendCell c 12) 0 = {c} := duties_send m ρ c 12 (by decide)
theorem duties_send13 (c : Dev nD) : (Rd m ρ).duties (sendCell c 13) 0 = {c} := duties_send m ρ c 13 (by decide)
theorem duties_send14 (c : Dev nD) : (Rd m ρ).duties (sendCell c 14) 0 = {c} := duties_send m ρ c 14 (by decide)
theorem duties_send15 (c : Dev nD) : (Rd m ρ).duties (sendCell c 15) 0 = {c} := duties_send m ρ c 15 (by decide)
theorem expect_send1 (c : Dev nD) : (Rd m ρ).expect (sendCell c 1) 0 = N := expect_send m ρ c 1 (by decide)
theorem expect_send2 (c : Dev nD) : (Rd m ρ).expect (sendCell c 2) 0 = N := expect_send m ρ c 2 (by decide)
theorem expect_send3 (c : Dev nD) : (Rd m ρ).expect (sendCell c 3) 0 = N := expect_send m ρ c 3 (by decide)
theorem expect_send4 (c : Dev nD) : (Rd m ρ).expect (sendCell c 4) 0 = N := expect_send m ρ c 4 (by decide)
theorem expect_send5 (c : Dev nD) : (Rd m ρ).expect (sendCell c 5) 0 = N := expect_send m ρ c 5 (by decide)
theorem expect_send6 (c : Dev nD) : (Rd m ρ).expect (sendCell c 6) 0 = N := expect_send m ρ c 6 (by decide)
theorem expect_send7 (c : Dev nD) : (Rd m ρ).expect (sendCell c 7) 0 = N := expect_send m ρ c 7 (by decide)
theorem expect_send8 (c : Dev nD) : (Rd m ρ).expect (sendCell c 8) 0 = N := expect_send m ρ c 8 (by decide)
theorem expect_send9 (c : Dev nD) : (Rd m ρ).expect (sendCell c 9) 0 = N := expect_send m ρ c 9 (by decide)
theorem expect_send10 (c : Dev nD) : (Rd m ρ).expect (sendCell c 10) 0 = N := expect_send m ρ c 10 (by decide)
theorem expect_send11 (c : Dev nD) : (Rd m ρ).expect (sendCell c 11) 0 = N := expect_send m ρ c 11 (by decide)
theorem expect_send12 (c : Dev nD) : (Rd m ρ).expect (sendCell c 12) 0 = N := expect_send m ρ c 12 (by decide)
theorem expect_send13 (c : Dev nD) : (Rd m ρ).expect (sendCell c 13) 0 = N := expect_send m ρ c 13 (by decide)
theorem expect_send14 (c : Dev nD) : (Rd m ρ).expect (sendCell c 14) 0 = N := expect_send m ρ c 14 (by decide)
theorem expect_send15 (c : Dev nD) : (Rd m ρ).expect (sendCell c 15) 0 = N := expect_send m ρ c 15 (by decide)
theorem duties_recv1 (c : Dev nD) : (Rd m ρ).duties (recvCell c (bwd c 1)) 0 = {bwd c 1} := duties_recv m ρ c (bwd c 1) (bwd_ne' c 1 (by decide))
theorem duties_recv2 (c : Dev nD) : (Rd m ρ).duties (recvCell c (bwd c 2)) 0 = {bwd c 2} := duties_recv m ρ c (bwd c 2) (bwd_ne' c 2 (by decide))
theorem duties_recv3 (c : Dev nD) : (Rd m ρ).duties (recvCell c (bwd c 3)) 0 = {bwd c 3} := duties_recv m ρ c (bwd c 3) (bwd_ne' c 3 (by decide))
theorem duties_recv4 (c : Dev nD) : (Rd m ρ).duties (recvCell c (bwd c 4)) 0 = {bwd c 4} := duties_recv m ρ c (bwd c 4) (bwd_ne' c 4 (by decide))
theorem duties_recv5 (c : Dev nD) : (Rd m ρ).duties (recvCell c (bwd c 5)) 0 = {bwd c 5} := duties_recv m ρ c (bwd c 5) (bwd_ne' c 5 (by decide))
theorem duties_recv6 (c : Dev nD) : (Rd m ρ).duties (recvCell c (bwd c 6)) 0 = {bwd c 6} := duties_recv m ρ c (bwd c 6) (bwd_ne' c 6 (by decide))
theorem duties_recv7 (c : Dev nD) : (Rd m ρ).duties (recvCell c (bwd c 7)) 0 = {bwd c 7} := duties_recv m ρ c (bwd c 7) (bwd_ne' c 7 (by decide))
theorem duties_recv8 (c : Dev nD) : (Rd m ρ).duties (recvCell c (bwd c 8)) 0 = {bwd c 8} := duties_recv m ρ c (bwd c 8) (bwd_ne' c 8 (by decide))
theorem duties_recv9 (c : Dev nD) : (Rd m ρ).duties (recvCell c (bwd c 9)) 0 = {bwd c 9} := duties_recv m ρ c (bwd c 9) (bwd_ne' c 9 (by decide))
theorem duties_recv10 (c : Dev nD) : (Rd m ρ).duties (recvCell c (bwd c 10)) 0 = {bwd c 10} := duties_recv m ρ c (bwd c 10) (bwd_ne' c 10 (by decide))
theorem duties_recv11 (c : Dev nD) : (Rd m ρ).duties (recvCell c (bwd c 11)) 0 = {bwd c 11} := duties_recv m ρ c (bwd c 11) (bwd_ne' c 11 (by decide))
theorem duties_recv12 (c : Dev nD) : (Rd m ρ).duties (recvCell c (bwd c 12)) 0 = {bwd c 12} := duties_recv m ρ c (bwd c 12) (bwd_ne' c 12 (by decide))
theorem duties_recv13 (c : Dev nD) : (Rd m ρ).duties (recvCell c (bwd c 13)) 0 = {bwd c 13} := duties_recv m ρ c (bwd c 13) (bwd_ne' c 13 (by decide))
theorem duties_recv14 (c : Dev nD) : (Rd m ρ).duties (recvCell c (bwd c 14)) 0 = {bwd c 14} := duties_recv m ρ c (bwd c 14) (bwd_ne' c 14 (by decide))
theorem duties_recv15 (c : Dev nD) : (Rd m ρ).duties (recvCell c (bwd c 15)) 0 = {bwd c 15} := duties_recv m ρ c (bwd c 15) (bwd_ne' c 15 (by decide))
theorem expect_recv1 (c : Dev nD) : (Rd m ρ).expect (recvCell c (bwd c 1)) 0 = N := expect_recv m ρ c (bwd c 1) (bwd_ne' c 1 (by decide))
theorem expect_recv2 (c : Dev nD) : (Rd m ρ).expect (recvCell c (bwd c 2)) 0 = N := expect_recv m ρ c (bwd c 2) (bwd_ne' c 2 (by decide))
theorem expect_recv3 (c : Dev nD) : (Rd m ρ).expect (recvCell c (bwd c 3)) 0 = N := expect_recv m ρ c (bwd c 3) (bwd_ne' c 3 (by decide))
theorem expect_recv4 (c : Dev nD) : (Rd m ρ).expect (recvCell c (bwd c 4)) 0 = N := expect_recv m ρ c (bwd c 4) (bwd_ne' c 4 (by decide))
theorem expect_recv5 (c : Dev nD) : (Rd m ρ).expect (recvCell c (bwd c 5)) 0 = N := expect_recv m ρ c (bwd c 5) (bwd_ne' c 5 (by decide))
theorem expect_recv6 (c : Dev nD) : (Rd m ρ).expect (recvCell c (bwd c 6)) 0 = N := expect_recv m ρ c (bwd c 6) (bwd_ne' c 6 (by decide))
theorem expect_recv7 (c : Dev nD) : (Rd m ρ).expect (recvCell c (bwd c 7)) 0 = N := expect_recv m ρ c (bwd c 7) (bwd_ne' c 7 (by decide))
theorem expect_recv8 (c : Dev nD) : (Rd m ρ).expect (recvCell c (bwd c 8)) 0 = N := expect_recv m ρ c (bwd c 8) (bwd_ne' c 8 (by decide))
theorem expect_recv9 (c : Dev nD) : (Rd m ρ).expect (recvCell c (bwd c 9)) 0 = N := expect_recv m ρ c (bwd c 9) (bwd_ne' c 9 (by decide))
theorem expect_recv10 (c : Dev nD) : (Rd m ρ).expect (recvCell c (bwd c 10)) 0 = N := expect_recv m ρ c (bwd c 10) (bwd_ne' c 10 (by decide))
theorem expect_recv11 (c : Dev nD) : (Rd m ρ).expect (recvCell c (bwd c 11)) 0 = N := expect_recv m ρ c (bwd c 11) (bwd_ne' c 11 (by decide))
theorem expect_recv12 (c : Dev nD) : (Rd m ρ).expect (recvCell c (bwd c 12)) 0 = N := expect_recv m ρ c (bwd c 12) (bwd_ne' c 12 (by decide))
theorem expect_recv13 (c : Dev nD) : (Rd m ρ).expect (recvCell c (bwd c 13)) 0 = N := expect_recv m ρ c (bwd c 13) (bwd_ne' c 13 (by decide))
theorem expect_recv14 (c : Dev nD) : (Rd m ρ).expect (recvCell c (bwd c 14)) 0 = N := expect_recv m ρ c (bwd c 14) (bwd_ne' c 14 (by decide))
theorem expect_recv15 (c : Dev nD) : (Rd m ρ).expect (recvCell c (bwd c 15)) 0 = N := expect_recv m ρ c (bwd c 15) (bwd_ne' c 15 (by decide))

theorem barPay_def (o p : Dev nD) : (barPay (F := F) o p) = iprop(∃ f, (rowM o).view.loc (p : Thread nD τ) ↦[(rowM o).view.set]{fullShare} f) := rfl
theorem recvPay_def (o : Dev nD) (s : Fin 16) : recvPay m ρ o s = ((rowM s).view.loc (o : Thread nD τ) ↦[(rowM s).view.set]{fullShare} rowBuf m ρ s : sProp 𝕄) := rfl
theorem sendPay_def (o : Dev nD) (d : Fin 16) :
    sendPay m ρ o d = ((rowM o).view.loc (o : Thread nD τ) ↦[(rowM o).view.set]{Transfers.shareTok fullShare 16 d} rowBuf m ρ o : sProp 𝕄) := rfl

/-- A row landed from a buffer at its canonical contents is at its canonical contents. -/
theorem landed_pts (p s : Dev nD) (fd : Buf (Elt F) ((rowM s).view.loc (p : Thread nD τ))) :
    ((rowM s).view.loc (p : Thread nD τ) ↦[(rowM s).view.set]{fullShare}
        ((rowM s).view.write (Elt F) fd ((rowM s).view.read (Elt F) (rowBuf m ρ s)) Finset.univ) : sProp 𝕄)
      = ((rowM s).view.loc (p : Thread nD τ) ↦[(rowM s).view.set]{fullShare} rowBuf m ρ s) :=
  pointsTo_congr (landed_canon m ρ s fd)

theorem bar_list (c : Dev nD) : (Rd m ρ).duties (barCell c) 0 = [fwd c 1, fwd c 2, fwd c 3, fwd c 4, fwd c 5, fwd c 6, fwd c 7, fwd c 8, fwd c 9, fwd c 10, fwd c 11, fwd c 12, fwd c 13, fwd c 14, fwd c 15].toFinset := by
  rw [duties_bar]; revert c; decide
theorem bar_nodup (c : Dev nD) : [fwd c 1, fwd c 2, fwd c 3, fwd c 4, fwd c 5, fwd c 6, fwd c 7, fwd c 8, fwd c 9, fwd c 10, fwd c 11, fwd c 12, fwd c 13, fwd c 14, fwd c 15].Nodup := by revert c; decide

attribute [local sl_rounds] amount_bar amount_send amount_recv payload_bar payload_send payload_recv barPay_def recvPay_def sendPay_def expect_bar landed_pts
  bar_mem1 bar_mem2 bar_mem3 bar_mem4 bar_mem5 bar_mem6 bar_mem7 bar_mem8 bar_mem9 bar_mem10 bar_mem11 bar_mem12 bar_mem13 bar_mem14 bar_mem15
  recv_mem1 recv_mem2 recv_mem3 recv_mem4 recv_mem5 recv_mem6 recv_mem7 recv_mem8 recv_mem9 recv_mem10 recv_mem11 recv_mem12 recv_mem13 recv_mem14 recv_mem15
  send_mem1 send_mem2 send_mem3 send_mem4 send_mem5 send_mem6 send_mem7 send_mem8 send_mem9 send_mem10 send_mem11 send_mem12 send_mem13 send_mem14 send_mem15
  duties_send1 duties_send2 duties_send3 duties_send4 duties_send5 duties_send6 duties_send7 duties_send8 duties_send9 duties_send10 duties_send11 duties_send12 duties_send13 duties_send14 duties_send15
  expect_send1 expect_send2 expect_send3 expect_send4 expect_send5 expect_send6 expect_send7 expect_send8 expect_send9 expect_send10 expect_send11 expect_send12 expect_send13 expect_send14 expect_send15
  duties_recv1 duties_recv2 duties_recv3 duties_recv4 duties_recv5 duties_recv6 duties_recv7 duties_recv8 duties_recv9 duties_recv10 duties_recv11 duties_recv12 duties_recv13 duties_recv14 duties_recv15
  expect_recv1 expect_recv2 expect_recv3 expect_recv4 expect_recv5 expect_recv6 expect_recv7 expect_recv8 expect_recv9 expect_recv10 expect_recv11 expect_recv12 expect_recv13 expect_recv14 expect_recv15

theorem hz2 : (![0, 0] : Fin 2 → Nat) = fun _ => 0 := funext fun a => by fin_cases a <;> rfl
/-- A whole-buffer load after one whole-buffer write reads what was written. -/
theorem readCov_whole' {sp : Space} (v : View sig .tc sp S1536x768 .f32) (w : S1536x768.Idx → Elt F .f32) (inb) :
    v.readCov [(⟨Rect.whole S1536x768, w⟩ : View.Piece (Elt F) S1536x768 .f32)] (Rect.unit (s := S1536x768) ![0, 0] S1536x768.size inb).toLoadRect = w := by
  have key : ∀ (off : Fin S1536x768.rank → Nat) (h : off = fun _ => 0) (inb : ∀ a, off a + S1536x768.size a ≤ S1536x768.size a),
      v.readCov [(⟨Rect.whole S1536x768, w⟩ : View.Piece (Elt F) S1536x768 .f32)] (Rect.unit off S1536x768.size inb).toLoadRect = w := by
    intro off h inb; subst h; exact View.readCov_unit_zero v rfl inb w
  exact key _ hz2 inb

/-- The barrier round's payloads, one per other device: row `c` of each one's exchange buffer. -/
theorem bar_rows (c : Dev nD) :
    (bigSep ((Rd m ρ).duties (barCell c) 0) (fun d : DN => iprop(∃ f, (rowM c).view.loc (Dev.tc d : Thread nD τ) ↦[(rowM c).view.set]{fullShare} f)) : sProp 𝕄)
      ⊢ iprop((∃ f, (rowM c).view.loc (Dev.tc (fwd c 1) : Thread nD τ) ↦[(rowM c).view.set]{fullShare} f)
        ∗ (∃ f, (rowM c).view.loc (Dev.tc (fwd c 2) : Thread nD τ) ↦[(rowM c).view.set]{fullShare} f)
        ∗ (∃ f, (rowM c).view.loc (Dev.tc (fwd c 3) : Thread nD τ) ↦[(rowM c).view.set]{fullShare} f)
        ∗ (∃ f, (rowM c).view.loc (Dev.tc (fwd c 4) : Thread nD τ) ↦[(rowM c).view.set]{fullShare} f)
        ∗ (∃ f, (rowM c).view.loc (Dev.tc (fwd c 5) : Thread nD τ) ↦[(rowM c).view.set]{fullShare} f)
        ∗ (∃ f, (rowM c).view.loc (Dev.tc (fwd c 6) : Thread nD τ) ↦[(rowM c).view.set]{fullShare} f)
        ∗ (∃ f, (rowM c).view.loc (Dev.tc (fwd c 7) : Thread nD τ) ↦[(rowM c).view.set]{fullShare} f)
        ∗ (∃ f, (rowM c).view.loc (Dev.tc (fwd c 8) : Thread nD τ) ↦[(rowM c).view.set]{fullShare} f)
        ∗ (∃ f, (rowM c).view.loc (Dev.tc (fwd c 9) : Thread nD τ) ↦[(rowM c).view.set]{fullShare} f)
        ∗ (∃ f, (rowM c).view.loc (Dev.tc (fwd c 10) : Thread nD τ) ↦[(rowM c).view.set]{fullShare} f)
        ∗ (∃ f, (rowM c).view.loc (Dev.tc (fwd c 11) : Thread nD τ) ↦[(rowM c).view.set]{fullShare} f)
        ∗ (∃ f, (rowM c).view.loc (Dev.tc (fwd c 12) : Thread nD τ) ↦[(rowM c).view.set]{fullShare} f)
        ∗ (∃ f, (rowM c).view.loc (Dev.tc (fwd c 13) : Thread nD τ) ↦[(rowM c).view.set]{fullShare} f)
        ∗ (∃ f, (rowM c).view.loc (Dev.tc (fwd c 14) : Thread nD τ) ↦[(rowM c).view.set]{fullShare} f)
        ∗ (∃ f, (rowM c).view.loc (Dev.tc (fwd c 15) : Thread nD τ) ↦[(rowM c).view.set]{fullShare} f)) := by
  rw [bigSep_eq_bigSepL_of_eq _ (bar_list m ρ c) (bar_nodup c)]
  simp only [bigSepL_cons_cons, bigSepL_singleton]
  exact BI.Entails.refl _

/-- A row held outright is sixteen read shares of it and a remainder. -/
theorem own_toks (c : Dev nD) (f : Buf (Elt F) ((rowM c).view.loc (c : Thread nD τ))) :
    ((rowM c).view.loc (c : Thread nD τ) ↦[(rowM c).view.set]{fullShare} f : sProp 𝕄)
      ⊢ iprop(((rowM c).view.loc (c : Thread nD τ) ↦[(rowM c).view.set]{Transfers.shareDrop fullShare 16} f)
        ∗ ((rowM c).view.loc (c : Thread nD τ) ↦[(rowM c).view.set]{Transfers.shareTok fullShare 16 0} f)
        ∗ ((rowM c).view.loc (c : Thread nD τ) ↦[(rowM c).view.set]{Transfers.shareTok fullShare 16 1} f)
        ∗ ((rowM c).view.loc (c : Thread nD τ) ↦[(rowM c).view.set]{Transfers.shareTok fullShare 16 2} f)
        ∗ ((rowM c).view.loc (c : Thread nD τ) ↦[(rowM c).view.set]{Transfers.shareTok fullShare 16 3} f)
        ∗ ((rowM c).view.loc (c : Thread nD τ) ↦[(rowM c).view.set]{Transfers.shareTok fullShare 16 4} f)
        ∗ ((rowM c).view.loc (c : Thread nD τ) ↦[(rowM c).view.set]{Transfers.shareTok fullShare 16 5} f)
        ∗ ((rowM c).view.loc (c : Thread nD τ) ↦[(rowM c).view.set]{Transfers.shareTok fullShare 16 6} f)
        ∗ ((rowM c).view.loc (c : Thread nD τ) ↦[(rowM c).view.set]{Transfers.shareTok fullShare 16 7} f)
        ∗ ((rowM c).view.loc (c : Thread nD τ) ↦[(rowM c).view.set]{Transfers.shareTok fullShare 16 8} f)
        ∗ ((rowM c).view.loc (c : Thread nD τ) ↦[(rowM c).view.set]{Transfers.shareTok fullShare 16 9} f)
        ∗ ((rowM c).view.loc (c : Thread nD τ) ↦[(rowM c).view.set]{Transfers.shareTok fullShare 16 10} f)
        ∗ ((rowM c).view.loc (c : Thread nD τ) ↦[(rowM c).view.set]{Transfers.shareTok fullShare 16 11} f)
        ∗ ((rowM c).view.loc (c : Thread nD τ) ↦[(rowM c).view.set]{Transfers.shareTok fullShare 16 12} f)
        ∗ ((rowM c).view.loc (c : Thread nD τ) ↦[(rowM c).view.set]{Transfers.shareTok fullShare 16 13} f)
        ∗ ((rowM c).view.loc (c : Thread nD τ) ↦[(rowM c).view.set]{Transfers.shareTok fullShare 16 14} f)
        ∗ ((rowM c).view.loc (c : Thread nD τ) ↦[(rowM c).view.set]{Transfers.shareTok fullShare 16 15} f)) := by
  refine (Transfers.pointsTo_toks_split (Ix := Unit) (Name := ℕ) (U := UU) (Lvl := ℕ) fullShare 16).trans (Entails.of_eq ?_)
  rw [bigSep_univ_eq_bigSepL [(0 : Fin 16), 1, 2, 3, 4, 5, 6, 7, 8, 9, 10, 11, 12, 13, 14, 15] (by decide) (by decide)]
  simp only [bigSepL_cons_cons, bigSepL_singleton]
  rfl

/-- The addressed transfer of the device's own row into row `c` of device `p`, departure number `d`: it lends the read share
    numbered `d` of the source row, writes the row `p` handed over at the barrier, pays the row's words off what the
    device owes `p`'s receive cell of slot `c`, and returns the departure's credit. -/
theorem wp_send_row (K : Dev nD × Fin 33 → ℕ) (c p n : Dev nD) (hn : n = p) (d : Fin 16) (hd : d ≠ 0) (hp : c ≠ p)
    (sS sV : DmaSem sig) (hS : sS = sendSem d) (hV : sV = recvSem c)
    {hsc : ((rowM c : Memref sig (Dev.tc n : Thread nD τ).2.kind .vmem S1x768 .f32)).view.ref.isScScratch = false}
    {hsrc : (rowM c : Memref sig .tc .vmem S1x768 .f32).view.WordExact} {hdst : (rowM c : Memref sig .tc .vmem S1x768 .f32).view.WordExact}
    {hsem : DmaTarget.Typed .vmem (.dma sV) (.remote (Dev.tc n : Thread nD τ) (rowM c : Memref sig .tc .vmem S1x768 .f32) (.dma sS) hsc)}
    {α : Type} {Q : α → sProp 𝕄} {k : PUnit → Prog (TpuEff nD τ sig (Elt F) Λ₀ .tc) α}
    (fd : Buf (Elt F) ((rowM c).view.loc (p : Thread nD τ))) (O : CellTallies nD τ sig Unit) (W : Waits sig Unit) :
    iprop(cellInv ER (Rd m ρ) (K (c, jS d)) (sendCell c d) ∗ cellInv ER (Rd m ρ) (K (p, jR c)) (recvCell p c)
        ∗ ((rowM c).view.loc (c : Thread nD τ) ↦[(rowM c).view.set]{Transfers.shareTok fullShare 16 d} rowBuf m ρ c)
        ∗ ((rowM c).view.loc (p : Thread nD τ) ↦[(rowM c).view.set]{fullShare} fd)
        ∗ owes (c : Thread nD τ) (O + tallyAt (recvCell p c) () N) W
        ∗ dutyTok ER (sendCell c d) 0 c ∗ reached ER (sendCell c d) 0
        ∗ dutyTok ER (recvCell p c) 0 c ∗ reached ER (recvCell p c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma sS) hsc) (.dma sV) hsrc hdst hsem) k) Q) := by
  subst hn hS hV
  exact Rounds.wp_send_pointsTo 𝒱₀ ER (Rd m ρ) (c : Thread nD τ) none (c' := (n : Thread nD τ)) (src := rowM c) (dst := rowM c)
    (q := Transfers.shareTok fullShare 16 d) (fs := rowBuf m ρ c) (fd := fd) (κ₁ := K (c, jS d)) (κ₂ := K (n, jR c))
    (r₁ := 0) (r₂ := 0) (d₁ := c) (d₂ := c)
    (by rw [duties_send m ρ c d hd]; exact Finset.mem_singleton_self _)
    (by rw [duties_recv m ρ n c hp]; exact Finset.mem_singleton_self _)
    () () N (N_row c _) (amount_send m ρ c d c) (amount_recv m ρ n c c) O rfl (W := W)
    (by rw [payload_send]; exact BI.Entails.refl _)
    (by rw [payload_recv]; exact Entails.of_eq (landed_pts m ρ n c fd))

theorem duties_send0 (c : Dev nD) : ∀ r, 0 ≤ r → (Rd m ρ).duties (sendCell c 0) r = ∅ := fun r _ => by
  show (if r = 0 ∧ (sendCell c 0).1.2 = .tc then dutiesOf c (.dma (sendSem 0)) else ∅) = _
  have h0 : dutiesOf c (.dma (sendSem 0)) = ∅ := by
    show (if 18 ≤ (sendSem 0).val then (if (sendSem 0).val - 18 = c.val then (∅ : Finset DN) else {⟨((sendSem 0).val - 18) % 16, Nat.mod_lt _ (by decide)⟩})
      else if 3 ≤ (sendSem 0).val then ({c} : Finset DN) else ∅) = ∅
    rw [if_neg (by decide), if_neg (by decide)]
  rw [h0]; exact ite_self _
theorem duties_recvOwn (c : Dev nD) : ∀ r, 0 ≤ r → (Rd m ρ).duties (recvCell c c) r = ∅ := fun r _ => by
  show (if r = 0 ∧ (recvCell c c).1.2 = .tc then dutiesOf c (.dma (recvSem c)) else ∅) = _
  have h0 : dutiesOf c (.dma (recvSem c)) = ∅ := by
    show (if 18 ≤ (recvSem c).val then (if (recvSem c).val - 18 = c.val then (∅ : Finset DN) else {⟨((recvSem c).val - 18) % 16, Nat.mod_lt _ (by decide)⟩})
      else if 3 ≤ (recvSem c).val then ({c} : Finset DN) else ∅) = ∅
    rw [if_pos (by rw [recv_val]; omega), if_pos (by rw [recv_val]; omega)]
  rw [h0]; exact ite_self _

/-- Boxes of one row's size at equal offsets hold the same elements. -/
theorem box_set_congr {off off' : Fin S16x1x768.rank → Nat} (h : off = off') (p : ∀ a, off a + S1x1x768.size a ≤ S16x1x768.size a)
    (p' : ∀ a, off' a + S1x1x768.size a ≤ S16x1x768.size a) :
    (aM.access (Rect.unit (s := S16x1x768) off S1x1x768.size p) : View sig .tc _ _ _).set
      = (aM.access (Rect.unit (s := S16x1x768) off' S1x1x768.size p') : View sig .tc _ _ _).set := by
  subst h; rfl

/-! The box a device loads `k` rounds in lies in the row of the device `k` places before it; and what it reads there. -/
theorem load_in1 (c : Dev nD) :
    ((Memref.whole cc0_scratch2).access (Rect.unit (s := S16x1x768) (k0_off6 c 1#32) S1x1x768.size (k0_off6_inb c 0)) : View sig .tc _ _ _).set
      ⊆ (rowM (bwd c 1)).view.set := by
  rw [rowM_set]
  exact le_of_eq (box_set_congr (off6_eq_off3 c 0) _ _)
theorem read_row1 (c : Dev nD) :
    aM.view.readAt (Elt F) (Rect.unit (s := S16x1x768) (k0_off6 c 1#32) S1x1x768.size (k0_off6_inb c 0)).toLoadRect (rowBuf m ρ (bwd c 1))
      = Spec.row (X m ρ) (bwd c 1) := read_row m ρ c 0
theorem load_in2 (c : Dev nD) :
    ((Memref.whole cc0_scratch2).access (Rect.unit (s := S16x1x768) (k0_off6 c 2#32) S1x1x768.size (k0_off6_inb c 1)) : View sig .tc _ _ _).set
      ⊆ (rowM (bwd c 2)).view.set := by
  rw [rowM_set]
  exact le_of_eq (box_set_congr (off6_eq_off3 c 1) _ _)
theorem read_row2 (c : Dev nD) :
    aM.view.readAt (Elt F) (Rect.unit (s := S16x1x768) (k0_off6 c 2#32) S1x1x768.size (k0_off6_inb c 1)).toLoadRect (rowBuf m ρ (bwd c 2))
      = Spec.row (X m ρ) (bwd c 2) := read_row m ρ c 1
theorem load_in3 (c : Dev nD) :
    ((Memref.whole cc0_scratch2).access (Rect.unit (s := S16x1x768) (k0_off6 c 3#32) S1x1x768.size (k0_off6_inb c 2)) : View sig .tc _ _ _).set
      ⊆ (rowM (bwd c 3)).view.set := by
  rw [rowM_set]
  exact le_of_eq (box_set_congr (off6_eq_off3 c 2) _ _)
theorem read_row3 (c : Dev nD) :
    aM.view.readAt (Elt F) (Rect.unit (s := S16x1x768) (k0_off6 c 3#32) S1x1x768.size (k0_off6_inb c 2)).toLoadRect (rowBuf m ρ (bwd c 3))
      = Spec.row (X m ρ) (bwd c 3) := read_row m ρ c 2
theorem load_in4 (c : Dev nD) :
    ((Memref.whole cc0_scratch2).access (Rect.unit (s := S16x1x768) (k0_off6 c 4#32) S1x1x768.size (k0_off6_inb c 3)) : View sig .tc _ _ _).set
      ⊆ (rowM (bwd c 4)).view.set := by
  rw [rowM_set]
  exact le_of_eq (box_set_congr (off6_eq_off3 c 3) _ _)
theorem read_row4 (c : Dev nD) :
    aM.view.readAt (Elt F) (Rect.unit (s := S16x1x768) (k0_off6 c 4#32) S1x1x768.size (k0_off6_inb c 3)).toLoadRect (rowBuf m ρ (bwd c 4))
      = Spec.row (X m ρ) (bwd c 4) := read_row m ρ c 3
theorem load_in5 (c : Dev nD) :
    ((Memref.whole cc0_scratch2).access (Rect.unit (s := S16x1x768) (k0_off6 c 5#32) S1x1x768.size (k0_off6_inb c 4)) : View sig .tc _ _ _).set
      ⊆ (rowM (bwd c 5)).view.set := by
  rw [rowM_set]
  exact le_of_eq (box_set_congr (off6_eq_off3 c 4) _ _)
theorem read_row5 (c : Dev nD) :
    aM.view.readAt (Elt F) (Rect.unit (s := S16x1x768) (k0_off6 c 5#32) S1x1x768.size (k0_off6_inb c 4)).toLoadRect (rowBuf m ρ (bwd c 5))
      = Spec.row (X m ρ) (bwd c 5) := read_row m ρ c 4
theorem load_in6 (c : Dev nD) :
    ((Memref.whole cc0_scratch2).access (Rect.unit (s := S16x1x768) (k0_off6 c 6#32) S1x1x768.size (k0_off6_inb c 5)) : View sig .tc _ _ _).set
      ⊆ (rowM (bwd c 6)).view.set := by
  rw [rowM_set]
  exact le_of_eq (box_set_congr (off6_eq_off3 c 5) _ _)
theorem read_row6 (c : Dev nD) :
    aM.view.readAt (Elt F) (Rect.unit (s := S16x1x768) (k0_off6 c 6#32) S1x1x768.size (k0_off6_inb c 5)).toLoadRect (rowBuf m ρ (bwd c 6))
      = Spec.row (X m ρ) (bwd c 6) := read_row m ρ c 5
theorem load_in7 (c : Dev nD) :
    ((Memref.whole cc0_scratch2).access (Rect.unit (s := S16x1x768) (k0_off6 c 7#32) S1x1x768.size (k0_off6_inb c 6)) : View sig .tc _ _ _).set
      ⊆ (rowM (bwd c 7)).view.set := by
  rw [rowM_set]
  exact le_of_eq (box_set_congr (off6_eq_off3 c 6) _ _)
theorem read_row7 (c : Dev nD) :
    aM.view.readAt (Elt F) (Rect.unit (s := S16x1x768) (k0_off6 c 7#32) S1x1x768.size (k0_off6_inb c 6)).toLoadRect (rowBuf m ρ (bwd c 7))
      = Spec.row (X m ρ) (bwd c 7) := read_row m ρ c 6
theorem load_in8 (c : Dev nD) :
    ((Memref.whole cc0_scratch2).access (Rect.unit (s := S16x1x768) (k0_off6 c 8#32) S1x1x768.size (k0_off6_inb c 7)) : View sig .tc _ _ _).set
      ⊆ (rowM (bwd c 8)).view.set := by
  rw [rowM_set]
  exact le_of_eq (box_set_congr (off6_eq_off3 c 7) _ _)
theorem read_row8 (c : Dev nD) :
    aM.view.readAt (Elt F) (Rect.unit (s := S16x1x768) (k0_off6 c 8#32) S1x1x768.size (k0_off6_inb c 7)).toLoadRect (rowBuf m ρ (bwd c 8))
      = Spec.row (X m ρ) (bwd c 8) := read_row m ρ c 7
theorem load_in9 (c : Dev nD) :
    ((Memref.whole cc0_scratch2).access (Rect.unit (s := S16x1x768) (k0_off6 c 9#32) S1x1x768.size (k0_off6_inb c 8)) : View sig .tc _ _ _).set
      ⊆ (rowM (bwd c 9)).view.set := by
  rw [rowM_set]
  exact le_of_eq (box_set_congr (off6_eq_off3 c 8) _ _)
theorem read_row9 (c : Dev nD) :
    aM.view.readAt (Elt F) (Rect.unit (s := S16x1x768) (k0_off6 c 9#32) S1x1x768.size (k0_off6_inb c 8)).toLoadRect (rowBuf m ρ (bwd c 9))
      = Spec.row (X m ρ) (bwd c 9) := read_row m ρ c 8
theorem load_in10 (c : Dev nD) :
    ((Memref.whole cc0_scratch2).access (Rect.unit (s := S16x1x768) (k0_off6 c 10#32) S1x1x768.size (k0_off6_inb c 9)) : View sig .tc _ _ _).set
      ⊆ (rowM (bwd c 10)).view.set := by
  rw [rowM_set]
  exact le_of_eq (box_set_congr (off6_eq_off3 c 9) _ _)
theorem read_row10 (c : Dev nD) :
    aM.view.readAt (Elt F) (Rect.unit (s := S16x1x768) (k0_off6 c 10#32) S1x1x768.size (k0_off6_inb c 9)).toLoadRect (rowBuf m ρ (bwd c 10))
      = Spec.row (X m ρ) (bwd c 10) := read_row m ρ c 9
theorem load_in11 (c : Dev nD) :
    ((Memref.whole cc0_scratch2).access (Rect.unit (s := S16x1x768) (k0_off6 c 11#32) S1x1x768.size (k0_off6_inb c 10)) : View sig .tc _ _ _).set
      ⊆ (rowM (bwd c 11)).view.set := by
  rw [rowM_set]
  exact le_of_eq (box_set_congr (off6_eq_off3 c 10) _ _)
theorem read_row11 (c : Dev nD) :
    aM.view.readAt (Elt F) (Rect.unit (s := S16x1x768) (k0_off6 c 11#32) S1x1x768.size (k0_off6_inb c 10)).toLoadRect (rowBuf m ρ (bwd c 11))
      = Spec.row (X m ρ) (bwd c 11) := read_row m ρ c 10
theorem load_in12 (c : Dev nD) :
    ((Memref.whole cc0_scratch2).access (Rect.unit (s := S16x1x768) (k0_off6 c 12#32) S1x1x768.size (k0_off6_inb c 11)) : View sig .tc _ _ _).set
      ⊆ (rowM (bwd c 12)).view.set := by
  rw [rowM_set]
  exact le_of_eq (box_set_congr (off6_eq_off3 c 11) _ _)
theorem read_row12 (c : Dev nD) :
    aM.view.readAt (Elt F) (Rect.unit (s := S16x1x768) (k0_off6 c 12#32) S1x1x768.size (k0_off6_inb c 11)).toLoadRect (rowBuf m ρ (bwd c 12))
      = Spec.row (X m ρ) (bwd c 12) := read_row m ρ c 11
theorem load_in13 (c : Dev nD) :
    ((Memref.whole cc0_scratch2).access (Rect.unit (s := S16x1x768) (k0_off6 c 13#32) S1x1x768.size (k0_off6_inb c 12)) : View sig .tc _ _ _).set
      ⊆ (rowM (bwd c 13)).view.set := by
  rw [rowM_set]
  exact le_of_eq (box_set_congr (off6_eq_off3 c 12) _ _)
theorem read_row13 (c : Dev nD) :
    aM.view.readAt (Elt F) (Rect.unit (s := S16x1x768) (k0_off6 c 13#32) S1x1x768.size (k0_off6_inb c 12)).toLoadRect (rowBuf m ρ (bwd c 13))
      = Spec.row (X m ρ) (bwd c 13) := read_row m ρ c 12
theorem load_in14 (c : Dev nD) :
    ((Memref.whole cc0_scratch2).access (Rect.unit (s := S16x1x768) (k0_off6 c 14#32) S1x1x768.size (k0_off6_inb c 13)) : View sig .tc _ _ _).set
      ⊆ (rowM (bwd c 14)).view.set := by
  rw [rowM_set]
  exact le_of_eq (box_set_congr (off6_eq_off3 c 13) _ _)
theorem read_row14 (c : Dev nD) :
    aM.view.readAt (Elt F) (Rect.unit (s := S16x1x768) (k0_off6 c 14#32) S1x1x768.size (k0_off6_inb c 13)).toLoadRect (rowBuf m ρ (bwd c 14))
      = Spec.row (X m ρ) (bwd c 14) := read_row m ρ c 13
theorem load_in15 (c : Dev nD) :
    ((Memref.whole cc0_scratch2).access (Rect.unit (s := S16x1x768) (k0_off6 c 15#32) S1x1x768.size (k0_off6_inb c 14)) : View sig .tc _ _ _).set
      ⊆ (rowM (bwd c 15)).view.set := by
  rw [rowM_set]
  exact le_of_eq (box_set_congr (off6_eq_off3 c 14) _ _)
theorem read_row15 (c : Dev nD) :
    aM.view.readAt (Elt F) (Rect.unit (s := S16x1x768) (k0_off6 c 15#32) S1x1x768.size (k0_off6_inb c 14)).toLoadRect (rowBuf m ρ (bwd c 15))
      = Spec.row (X m ρ) (bwd c 15) := read_row m ρ c 14

/-- The local copy's semaphore under its pool index. -/
theorem semVal_copy (c : Dev nD) :
    (semVal ((c : Thread nD τ), SemLoc.dma (Fin.mk 1 (by decide) : DmaSem sig)) 0 : sProp 𝕄) = semVal ((c : Thread nD τ), .dma copySem) 0 := rfl

/-- One whole-buffer store into the result's staging buffer leaves what was stored. -/
theorem out_whole (fo : (cc0_stg0_0 : Ref sig .tc).ty.Contents (Elt F)) (w : S1x768.Idx → Elt F .f32) (inb) :
    oM.view.writes (Elt F) fo [(⟨Rect.unit (s := S1x768) ![0, 0] S1x768.size inb, w⟩ : View.Piece (Elt F) S1x768 .f32)] = w :=
  Memref.write_access_unit_zero_univ (Elt F) cc0_stg0_0 hz2 inb fo w

set_option maxHeartbeats 4000000 in
/-- One device's body, from everything it starts with to everything the pipeline wants back. -/
theorem body_run (c : Dev nD) (K : Dev nD × Fin 33 → ℕ) (W : Waits sig Unit)
    (f1 : Buf (Elt F) ((rowM (fwd c 1)).view.loc (c : Thread nD τ))) (f2 : Buf (Elt F) ((rowM (fwd c 2)).view.loc (c : Thread nD τ))) (f3 : Buf (Elt F) ((rowM (fwd c 3)).view.loc (c : Thread nD τ))) (f4 : Buf (Elt F) ((rowM (fwd c 4)).view.loc (c : Thread nD τ))) (f5 : Buf (Elt F) ((rowM (fwd c 5)).view.loc (c : Thread nD τ))) (f6 : Buf (Elt F) ((rowM (fwd c 6)).view.loc (c : Thread nD τ))) (f7 : Buf (Elt F) ((rowM (fwd c 7)).view.loc (c : Thread nD τ))) (f8 : Buf (Elt F) ((rowM (fwd c 8)).view.loc (c : Thread nD τ))) (f9 : Buf (Elt F) ((rowM (fwd c 9)).view.loc (c : Thread nD τ))) (f10 : Buf (Elt F) ((rowM (fwd c 10)).view.loc (c : Thread nD τ))) (f11 : Buf (Elt F) ((rowM (fwd c 11)).view.loc (c : Thread nD τ))) (f12 : Buf (Elt F) ((rowM (fwd c 12)).view.loc (c : Thread nD τ))) (f13 : Buf (Elt F) ((rowM (fwd c 13)).view.loc (c : Thread nD τ))) (f14 : Buf (Elt F) ((rowM (fwd c 14)).view.loc (c : Thread nD τ))) (f15 : Buf (Elt F) ((rowM (fwd c 15)).view.loc (c : Thread nD τ)))
    (f0 : Buf (Elt F) ((rowM c).view.loc (c : Thread nD τ))) (fb : Buf (Elt F) (bM.view.loc (c : Thread nD τ))) (fo : Buf (Elt F) (oM.view.loc (c : Thread nD τ)))
    (Kt : PUnit → sProp 𝕄) :
    iprop(bodyCtx m ρ K c W f1 f2 f3 f4 f5 f6 f7 f8 f9 f10 f11 f12 f13 f14 f15 f0 fb fo ∗ (bodyPost m ρ c -∗ Kt ⟨⟩))
      ⊢ wp frame (wpE (defs₀ (F := F)) 𝒱₀ (c : Thread nD τ) none) Set.univ
          (cc0_body (F := F) (Memref.whole main_arg0) (Memref.isWhole_whole _) (Memref.whole cc0_stg0_0) (Memref.isWhole_whole _)
            (Memref.whole cc0_scratch0) (Memref.isWhole_whole _) cc0_scratch1 (Memref.whole cc0_scratch2) (Memref.isWhole_whole _) cc0_scratch3 cc0_scratch4)
          Kt := by
  unfold bodyCtx
  iintro ⟨⟨#HIb, #HIB1, #HIB2, #HIB3, #HIB4, #HIB5, #HIB6, #HIB7, #HIB8, #HIB9, #HIB10, #HIB11, #HIB12, #HIB13, #HIB14, #HIB15, #HIS1, #HIS2, #HIS3, #HIS4, #HIS5, #HIS6, #HIS7, #HIS8, #HIS9, #HIS10, #HIS11, #HIS12, #HIS13, #HIS14, #HIS15, #HIV1, #HIV2, #HIV3, #HIV4, #HIV5, #HIV6, #HIV7, #HIV8, #HIV9, #HIV10, #HIV11, #HIV12, #HIV13, #HIV14, #HIV15, #HIW1, #HIW2, #HIW3, #HIW4, #HIW5, #HIW6, #HIW7, #HIW8, #HIW9, #HIW10, #HIW11, #HIW12, #HIW13, #HIW14, #HIW15, #HrB1, #HrB2, #HrB3, #HrB4, #HrB5, #HrB6, #HrB7, #HrB8, #HrB9, #HrB10, #HrB11, #HrB12, #HrB13, #HrB14, #HrB15, #HrS1, #HrS2, #HrS3, #HrS4, #HrS5, #HrS6, #HrS7, #HrS8, #HrS9, #HrS10, #HrS11, #HrS12, #HrS13, #HrS14, #HrS15, #HrV1, #HrV2, #HrV3, #HrV4, #HrV5, #HrV6, #HrV7, #HrV8, #HrV9, #HrV10, #HrV11, #HrV12, #HrV13, #HrV14, #HrV15, #Hlev, HtB1, HtB2, HtB3, HtB4, HtB5, HtB6, HtB7, HtB8, HtB9, HtB10, HtB11, HtB12, HtB13, HtB14, HtB15, HtS1, HtS2, HtS3, HtS4, HtS5, HtS6, HtS7, HtS8, HtS9, HtS10, HtS11, HtS12, HtS13, HtS14, HtS15, HtV1, HtV2, HtV3, HtV4, HtV5, HtV6, HtV7, HtV8, HtV9, HtV10, HtV11, HtV12, HtV13, HtV14, HtV15, HaB, HaS1, HaS2, HaS3, HaS4, HaS5, HaS6, HaS7, HaS8, HaS9, HaS10, HaS11, HaS12, HaS13, HaS14, HaS15, HaW1, HaW2, HaW3, HaW4, HaW5, HaW6, HaW7, HaW8, HaW9, HaW10, HaW11, HaW12, HaW13, HaW14, HaW15, HcB, HcW1, HcW2, HcW3, HcW4, HcW5, HcW6, HcW7, HcW8, HcW9, HcW10, HcW11, HcW12, HcW13, HcW14, HcW15, HO, Hcs, Hx, Hb, Hp1, Hp2, Hp3, Hp4, Hp5, Hp6, Hp7, Hp8, Hp9, Hp10, Hp11, Hp12, Hp13, Hp14, Hp15, Hp0, Hout, #HIS0, #HIWc, HaS0, HaWc⟩, Hk⟩
  have hmwC := mayWait_copy (F := F) c
  have hmwB := mayWait_bar (F := F) c
  have hin1 := load_in1 c
  have hin2 := load_in2 c
  have hin3 := load_in3 c
  have hin4 := load_in4 c
  have hin5 := load_in5 c
  have hin6 := load_in6 c
  have hin7 := load_in7 c
  have hin8 := load_in8 c
  have hin9 := load_in9 c
  have hin10 := load_in10 c
  have hin11 := load_in11 c
  have hin12 := load_in12 c
  have hin13 := load_in13 c
  have hin14 := load_in14 c
  have hin15 := load_in15 c
  unfold O₀
  sl_exec_parts
  -- the fifteen rows the other devices handed over with their barrier units
  ihave Hq := (bar_rows m ρ c) $$ HaB_pay1
  icases Hq with ⟨⟨%g1, Hq1⟩, ⟨%g2, Hq2⟩, ⟨%g3, Hq3⟩, ⟨%g4, Hq4⟩, ⟨%g5, Hq5⟩, ⟨%g6, Hq6⟩, ⟨%g7, Hq7⟩, ⟨%g8, Hq8⟩, ⟨%g9, Hq9⟩, ⟨%g10, Hq10⟩, ⟨%g11, Hq11⟩, ⟨%g12, Hq12⟩, ⟨%g13, Hq13⟩, ⟨%g14, Hq14⟩, ⟨%g15, Hq15⟩⟩
  -- the device's own row at its canonical contents, in sixteen read shares
  ihave Hp0 := (Entails.of_eq (pointsTo_congr (own_row_canon m ρ c f0 _ (by sl_unfold_words; rw [readCov_whole']; rfl)))) $$ Hp0
  ihave Hp0 := (own_toks c _) $$ Hp0
  icases Hp0 with ⟨Hsd, Hs0, Hs1, Hs2, Hs3, Hs4, Hs5, Hs6, Hs7, Hs8, Hs9, Hs10, Hs11, Hs12, Hs13, Hs14, Hs15⟩
  unfold Orecv
  -- transfer 1: the row to device c + 1
  iapply (wp_send_row m ρ K c (fwd c 1) _ (dev16_eq c) 1 (by decide) (ne_fwd' c 1 (by decide)) (sendSem 1) (recvSem c) rfl rfl g1 _ _) $$ [HO Hs1 Hq1 HtS1 HtV1]
  · isplitr; · iexact HIS1
    isplitr; · iexact HIV1
    isplitl [Hs1]; · iexact Hs1
    isplitl [Hq1]; · iexact Hq1
    isplitl [HO]; · iexact HO
    isplitl [HtS1]; · iexact HtS1
    isplitr; · iexact HrS1
    isplitl [HtV1]; · iexact HtV1
    iexact HrV1
  iintro ⟨HcS1, HO⟩
  sl_exec_parts
  -- transfer 2: the row to device c + 2
  iapply (wp_send_row m ρ K c (fwd c 2) _ (dev17_eq c) 2 (by decide) (ne_fwd' c 2 (by decide)) (sendSem 2) (recvSem c) rfl rfl g2 _ _) $$ [HO Hs2 Hq2 HtS2 HtV2]
  · isplitr; · iexact HIS2
    isplitr; · iexact HIV2
    isplitl [Hs2]; · iexact Hs2
    isplitl [Hq2]; · iexact Hq2
    isplitl [HO]; · iexact HO
    isplitl [HtS2]; · iexact HtS2
    isplitr; · iexact HrS2
    isplitl [HtV2]; · iexact HtV2
    iexact HrV2
  iintro ⟨HcS2, HO⟩
  sl_exec_parts
  -- transfer 3: the row to device c + 3
  iapply (wp_send_row m ρ K c (fwd c 3) _ (dev18_eq c) 3 (by decide) (ne_fwd' c 3 (by decide)) (sendSem 3) (recvSem c) rfl rfl g3 _ _) $$ [HO Hs3 Hq3 HtS3 HtV3]
  · isplitr; · iexact HIS3
    isplitr; · iexact HIV3
    isplitl [Hs3]; · iexact Hs3
    isplitl [Hq3]; · iexact Hq3
    isplitl [HO]; · iexact HO
    isplitl [HtS3]; · iexact HtS3
    isplitr; · iexact HrS3
    isplitl [HtV3]; · iexact HtV3
    iexact HrV3
  iintro ⟨HcS3, HO⟩
  sl_exec_parts
  -- transfer 4: the row to device c + 4
  iapply (wp_send_row m ρ K c (fwd c 4) _ (dev19_eq c) 4 (by decide) (ne_fwd' c 4 (by decide)) (sendSem 4) (recvSem c) rfl rfl g4 _ _) $$ [HO Hs4 Hq4 HtS4 HtV4]
  · isplitr; · iexact HIS4
    isplitr; · iexact HIV4
    isplitl [Hs4]; · iexact Hs4
    isplitl [Hq4]; · iexact Hq4
    isplitl [HO]; · iexact HO
    isplitl [HtS4]; · iexact HtS4
    isplitr; · iexact HrS4
    isplitl [HtV4]; · iexact HtV4
    iexact HrV4
  iintro ⟨HcS4, HO⟩
  sl_exec_parts
  -- transfer 5: the row to device c + 5
  iapply (wp_send_row m ρ K c (fwd c 5) _ (dev20_eq c) 5 (by decide) (ne_fwd' c 5 (by decide)) (sendSem 5) (recvSem c) rfl rfl g5 _ _) $$ [HO Hs5 Hq5 HtS5 HtV5]
  · isplitr; · iexact HIS5
    isplitr; · iexact HIV5
    isplitl [Hs5]; · iexact Hs5
    isplitl [Hq5]; · iexact Hq5
    isplitl [HO]; · iexact HO
    isplitl [HtS5]; · iexact HtS5
    isplitr; · iexact HrS5
    isplitl [HtV5]; · iexact HtV5
    iexact HrV5
  iintro ⟨HcS5, HO⟩
  sl_exec_parts
  -- transfer 6: the row to device c + 6
  iapply (wp_send_row m ρ K c (fwd c 6) _ (dev21_eq c) 6 (by decide) (ne_fwd' c 6 (by decide)) (sendSem 6) (recvSem c) rfl rfl g6 _ _) $$ [HO Hs6 Hq6 HtS6 HtV6]
  · isplitr; · iexact HIS6
    isplitr; · iexact HIV6
    isplitl [Hs6]; · iexact Hs6
    isplitl [Hq6]; · iexact Hq6
    isplitl [HO]; · iexact HO
    isplitl [HtS6]; · iexact HtS6
    isplitr; · iexact HrS6
    isplitl [HtV6]; · iexact HtV6
    iexact HrV6
  iintro ⟨HcS6, HO⟩
  sl_exec_parts
  -- transfer 7: the row to device c + 7
  iapply (wp_send_row m ρ K c (fwd c 7) _ (dev22_eq c) 7 (by decide) (ne_fwd' c 7 (by decide)) (sendSem 7) (recvSem c) rfl rfl g7 _ _) $$ [HO Hs7 Hq7 HtS7 HtV7]
  · isplitr; · iexact HIS7
    isplitr; · iexact HIV7
    isplitl [Hs7]; · iexact Hs7
    isplitl [Hq7]; · iexact Hq7
    isplitl [HO]; · iexact HO
    isplitl [HtS7]; · iexact HtS7
    isplitr; · iexact HrS7
    isplitl [HtV7]; · iexact HtV7
    iexact HrV7
  iintro ⟨HcS7, HO⟩
  sl_exec_parts
  -- transfer 8: the row to device c + 8
  iapply (wp_send_row m ρ K c (fwd c 8) _ (dev23_eq c) 8 (by decide) (ne_fwd' c 8 (by decide)) (sendSem 8) (recvSem c) rfl rfl g8 _ _) $$ [HO Hs8 Hq8 HtS8 HtV8]
  · isplitr; · iexact HIS8
    isplitr; · iexact HIV8
    isplitl [Hs8]; · iexact Hs8
    isplitl [Hq8]; · iexact Hq8
    isplitl [HO]; · iexact HO
    isplitl [HtS8]; · iexact HtS8
    isplitr; · iexact HrS8
    isplitl [HtV8]; · iexact HtV8
    iexact HrV8
  iintro ⟨HcS8, HO⟩
  sl_exec_parts
  -- transfer 9: the row to device c + 9
  iapply (wp_send_row m ρ K c (fwd c 9) _ (dev24_eq c) 9 (by decide) (ne_fwd' c 9 (by decide)) (sendSem 9) (recvSem c) rfl rfl g9 _ _) $$ [HO Hs9 Hq9 HtS9 HtV9]
  · isplitr; · iexact HIS9
    isplitr; · iexact HIV9
    isplitl [Hs9]; · iexact Hs9
    isplitl [Hq9]; · iexact Hq9
    isplitl [HO]; · iexact HO
    isplitl [HtS9]; · iexact HtS9
    isplitr; · iexact HrS9
    isplitl [HtV9]; · iexact HtV9
    iexact HrV9
  iintro ⟨HcS9, HO⟩
  sl_exec_parts
  -- transfer 10: the row to device c + 10
  iapply (wp_send_row m ρ K c (fwd c 10) _ (dev25_eq c) 10 (by decide) (ne_fwd' c 10 (by decide)) (sendSem 10) (recvSem c) rfl rfl g10 _ _) $$ [HO Hs10 Hq10 HtS10 HtV10]
  · isplitr; · iexact HIS10
    isplitr; · iexact HIV10
    isplitl [Hs10]; · iexact Hs10
    isplitl [Hq10]; · iexact Hq10
    isplitl [HO]; · iexact HO
    isplitl [HtS10]; · iexact HtS10
    isplitr; · iexact HrS10
    isplitl [HtV10]; · iexact HtV10
    iexact HrV10
  iintro ⟨HcS10, HO⟩
  sl_exec_parts
  -- transfer 11: the row to device c + 11
  iapply (wp_send_row m ρ K c (fwd c 11) _ (dev26_eq c) 11 (by decide) (ne_fwd' c 11 (by decide)) (sendSem 11) (recvSem c) rfl rfl g11 _ _) $$ [HO Hs11 Hq11 HtS11 HtV11]
  · isplitr; · iexact HIS11
    isplitr; · iexact HIV11
    isplitl [Hs11]; · iexact Hs11
    isplitl [Hq11]; · iexact Hq11
    isplitl [HO]; · iexact HO
    isplitl [HtS11]; · iexact HtS11
    isplitr; · iexact HrS11
    isplitl [HtV11]; · iexact HtV11
    iexact HrV11
  iintro ⟨HcS11, HO⟩
  sl_exec_parts
  -- transfer 12: the row to device c + 12
  iapply (wp_send_row m ρ K c (fwd c 12) _ (dev27_eq c) 12 (by decide) (ne_fwd' c 12 (by decide)) (sendSem 12) (recvSem c) rfl rfl g12 _ _) $$ [HO Hs12 Hq12 HtS12 HtV12]
  · isplitr; · iexact HIS12
    isplitr; · iexact HIV12
    isplitl [Hs12]; · iexact Hs12
    isplitl [Hq12]; · iexact Hq12
    isplitl [HO]; · iexact HO
    isplitl [HtS12]; · iexact HtS12
    isplitr; · iexact HrS12
    isplitl [HtV12]; · iexact HtV12
    iexact HrV12
  iintro ⟨HcS12, HO⟩
  sl_exec_parts
  -- transfer 13: the row to device c + 13
  iapply (wp_send_row m ρ K c (fwd c 13) _ (dev28_eq c) 13 (by decide) (ne_fwd' c 13 (by decide)) (sendSem 13) (recvSem c) rfl rfl g13 _ _) $$ [HO Hs13 Hq13 HtS13 HtV13]
  · isplitr; · iexact HIS13
    isplitr; · iexact HIV13
    isplitl [Hs13]; · iexact Hs13
    isplitl [Hq13]; · iexact Hq13
    isplitl [HO]; · iexact HO
    isplitl [HtS13]; · iexact HtS13
    isplitr; · iexact HrS13
    isplitl [HtV13]; · iexact HtV13
    iexact HrV13
  iintro ⟨HcS13, HO⟩
  sl_exec_parts
  -- transfer 14: the row to device c + 14
  iapply (wp_send_row m ρ K c (fwd c 14) _ (dev29_eq c) 14 (by decide) (ne_fwd' c 14 (by decide)) (sendSem 14) (recvSem c) rfl rfl g14 _ _) $$ [HO Hs14 Hq14 HtS14 HtV14]
  · isplitr; · iexact HIS14
    isplitr; · iexact HIV14
    isplitl [Hs14]; · iexact Hs14
    isplitl [Hq14]; · iexact Hq14
    isplitl [HO]; · iexact HO
    isplitl [HtS14]; · iexact HtS14
    isplitr; · iexact HrS14
    isplitl [HtV14]; · iexact HtV14
    iexact HrV14
  iintro ⟨HcS14, HO⟩
  sl_exec_parts
  ihave HO := (Entails.of_eq (congrArg (fun o => (owes (c : Thread nD τ) o _ : sProp 𝕄)) (zero_add _).symm)) $$ HO
  -- transfer 15: the row to device c + 15
  iapply (wp_send_row m ρ K c (fwd c 15) _ (dev30_eq c) 15 (by decide) (ne_fwd' c 15 (by decide)) (sendSem 15) (recvSem c) rfl rfl g15 _ _) $$ [HO Hs15 Hq15 HtS15 HtV15]
  · isplitr; · iexact HIS15
    isplitr; · iexact HIV15
    isplitl [Hs15]; · iexact Hs15
    isplitl [Hq15]; · iexact Hq15
    isplitl [HO]; · iexact HO
    isplitl [HtS15]; · iexact HtS15
    isplitr; · iexact HrS15
    isplitl [HtV15]; · iexact HtV15
    iexact HrV15
  iintro ⟨HcS15, HO⟩
  sl_exec_parts
  -- the device's thirty-two own cells close: their counters at zero are the device's again
  imod (Rounds.cell_close ER (Rd m ρ) (Set.mem_univ (K (c, jS 0))) (fun h => h) (R := 0) (duties_send0 m ρ c)) $$ [HaS0] with HzS0
  · isplitr; · iexact HIS0
    iexact HaS0
  imod (Rounds.cell_close ER (Rd m ρ) (Set.mem_univ (K (c, jS 1))) (fun h => h) (R := 1) (duties_later m ρ (sendCell c 1))) $$ [HaS1] with HzS1
  · isplitr; · iexact HIS1
    iexact HaS1
  imod (Rounds.cell_close ER (Rd m ρ) (Set.mem_univ (K (c, jS 2))) (fun h => h) (R := 1) (duties_later m ρ (sendCell c 2))) $$ [HaS2] with HzS2
  · isplitr; · iexact HIS2
    iexact HaS2
  imod (Rounds.cell_close ER (Rd m ρ) (Set.mem_univ (K (c, jS 3))) (fun h => h) (R := 1) (duties_later m ρ (sendCell c 3))) $$ [HaS3] with HzS3
  · isplitr; · iexact HIS3
    iexact HaS3
  imod (Rounds.cell_close ER (Rd m ρ) (Set.mem_univ (K (c, jS 4))) (fun h => h) (R := 1) (duties_later m ρ (sendCell c 4))) $$ [HaS4] with HzS4
  · isplitr; · iexact HIS4
    iexact HaS4
  imod (Rounds.cell_close ER (Rd m ρ) (Set.mem_univ (K (c, jS 5))) (fun h => h) (R := 1) (duties_later m ρ (sendCell c 5))) $$ [HaS5] with HzS5
  · isplitr; · iexact HIS5
    iexact HaS5
  imod (Rounds.cell_close ER (Rd m ρ) (Set.mem_univ (K (c, jS 6))) (fun h => h) (R := 1) (duties_later m ρ (sendCell c 6))) $$ [HaS6] with HzS6
  · isplitr; · iexact HIS6
    iexact HaS6
  imod (Rounds.cell_close ER (Rd m ρ) (Set.mem_univ (K (c, jS 7))) (fun h => h) (R := 1) (duties_later m ρ (sendCell c 7))) $$ [HaS7] with HzS7
  · isplitr; · iexact HIS7
    iexact HaS7
  imod (Rounds.cell_close ER (Rd m ρ) (Set.mem_univ (K (c, jS 8))) (fun h => h) (R := 1) (duties_later m ρ (sendCell c 8))) $$ [HaS8] with HzS8
  · isplitr; · iexact HIS8
    iexact HaS8
  imod (Rounds.cell_close ER (Rd m ρ) (Set.mem_univ (K (c, jS 9))) (fun h => h) (R := 1) (duties_later m ρ (sendCell c 9))) $$ [HaS9] with HzS9
  · isplitr; · iexact HIS9
    iexact HaS9
  imod (Rounds.cell_close ER (Rd m ρ) (Set.mem_univ (K (c, jS 10))) (fun h => h) (R := 1) (duties_later m ρ (sendCell c 10))) $$ [HaS10] with HzS10
  · isplitr; · iexact HIS10
    iexact HaS10
  imod (Rounds.cell_close ER (Rd m ρ) (Set.mem_univ (K (c, jS 11))) (fun h => h) (R := 1) (duties_later m ρ (sendCell c 11))) $$ [HaS11] with HzS11
  · isplitr; · iexact HIS11
    iexact HaS11
  imod (Rounds.cell_close ER (Rd m ρ) (Set.mem_univ (K (c, jS 12))) (fun h => h) (R := 1) (duties_later m ρ (sendCell c 12))) $$ [HaS12] with HzS12
  · isplitr; · iexact HIS12
    iexact HaS12
  imod (Rounds.cell_close ER (Rd m ρ) (Set.mem_univ (K (c, jS 13))) (fun h => h) (R := 1) (duties_later m ρ (sendCell c 13))) $$ [HaS13] with HzS13
  · isplitr; · iexact HIS13
    iexact HaS13
  imod (Rounds.cell_close ER (Rd m ρ) (Set.mem_univ (K (c, jS 14))) (fun h => h) (R := 1) (duties_later m ρ (sendCell c 14))) $$ [HaS14] with HzS14
  · isplitr; · iexact HIS14
    iexact HaS14
  imod (Rounds.cell_close ER (Rd m ρ) (Set.mem_univ (K (c, jS 15))) (fun h => h) (R := 1) (duties_later m ρ (sendCell c 15))) $$ [HaS15] with HzS15
  · isplitr; · iexact HIS15
    iexact HaS15
  imod (Rounds.cell_close ER (Rd m ρ) (Set.mem_univ (K (c, jR (bwd c 1)))) (fun h => h) (R := 1) (duties_later m ρ (recvCell c (bwd c 1)))) $$ [HaW1] with HzW1
  · isplitr; · iexact HIW1
    iexact HaW1
  imod (Rounds.cell_close ER (Rd m ρ) (Set.mem_univ (K (c, jR (bwd c 2)))) (fun h => h) (R := 1) (duties_later m ρ (recvCell c (bwd c 2)))) $$ [HaW2] with HzW2
  · isplitr; · iexact HIW2
    iexact HaW2
  imod (Rounds.cell_close ER (Rd m ρ) (Set.mem_univ (K (c, jR (bwd c 3)))) (fun h => h) (R := 1) (duties_later m ρ (recvCell c (bwd c 3)))) $$ [HaW3] with HzW3
  · isplitr; · iexact HIW3
    iexact HaW3
  imod (Rounds.cell_close ER (Rd m ρ) (Set.mem_univ (K (c, jR (bwd c 4)))) (fun h => h) (R := 1) (duties_later m ρ (recvCell c (bwd c 4)))) $$ [HaW4] with HzW4
  · isplitr; · iexact HIW4
    iexact HaW4
  imod (Rounds.cell_close ER (Rd m ρ) (Set.mem_univ (K (c, jR (bwd c 5)))) (fun h => h) (R := 1) (duties_later m ρ (recvCell c (bwd c 5)))) $$ [HaW5] with HzW5
  · isplitr; · iexact HIW5
    iexact HaW5
  imod (Rounds.cell_close ER (Rd m ρ) (Set.mem_univ (K (c, jR (bwd c 6)))) (fun h => h) (R := 1) (duties_later m ρ (recvCell c (bwd c 6)))) $$ [HaW6] with HzW6
  · isplitr; · iexact HIW6
    iexact HaW6
  imod (Rounds.cell_close ER (Rd m ρ) (Set.mem_univ (K (c, jR (bwd c 7)))) (fun h => h) (R := 1) (duties_later m ρ (recvCell c (bwd c 7)))) $$ [HaW7] with HzW7
  · isplitr; · iexact HIW7
    iexact HaW7
  imod (Rounds.cell_close ER (Rd m ρ) (Set.mem_univ (K (c, jR (bwd c 8)))) (fun h => h) (R := 1) (duties_later m ρ (recvCell c (bwd c 8)))) $$ [HaW8] with HzW8
  · isplitr; · iexact HIW8
    iexact HaW8
  imod (Rounds.cell_close ER (Rd m ρ) (Set.mem_univ (K (c, jR (bwd c 9)))) (fun h => h) (R := 1) (duties_later m ρ (recvCell c (bwd c 9)))) $$ [HaW9] with HzW9
  · isplitr; · iexact HIW9
    iexact HaW9
  imod (Rounds.cell_close ER (Rd m ρ) (Set.mem_univ (K (c, jR (bwd c 10)))) (fun h => h) (R := 1) (duties_later m ρ (recvCell c (bwd c 10)))) $$ [HaW10] with HzW10
  · isplitr; · iexact HIW10
    iexact HaW10
  imod (Rounds.cell_close ER (Rd m ρ) (Set.mem_univ (K (c, jR (bwd c 11)))) (fun h => h) (R := 1) (duties_later m ρ (recvCell c (bwd c 11)))) $$ [HaW11] with HzW11
  · isplitr; · iexact HIW11
    iexact HaW11
  imod (Rounds.cell_close ER (Rd m ρ) (Set.mem_univ (K (c, jR (bwd c 12)))) (fun h => h) (R := 1) (duties_later m ρ (recvCell c (bwd c 12)))) $$ [HaW12] with HzW12
  · isplitr; · iexact HIW12
    iexact HaW12
  imod (Rounds.cell_close ER (Rd m ρ) (Set.mem_univ (K (c, jR (bwd c 13)))) (fun h => h) (R := 1) (duties_later m ρ (recvCell c (bwd c 13)))) $$ [HaW13] with HzW13
  · isplitr; · iexact HIW13
    iexact HaW13
  imod (Rounds.cell_close ER (Rd m ρ) (Set.mem_univ (K (c, jR (bwd c 14)))) (fun h => h) (R := 1) (duties_later m ρ (recvCell c (bwd c 14)))) $$ [HaW14] with HzW14
  · isplitr; · iexact HIW14
    iexact HaW14
  imod (Rounds.cell_close ER (Rd m ρ) (Set.mem_univ (K (c, jR (bwd c 15)))) (fun h => h) (R := 1) (duties_later m ρ (recvCell c (bwd c 15)))) $$ [HaW15] with HzW15
  · isplitr; · iexact HIW15
    iexact HaW15
  imod (Rounds.cell_close ER (Rd m ρ) (Set.mem_univ (K (c, jR c))) (fun h => h) (R := 0) (duties_recvOwn m ρ c)) $$ [HaWc] with HzWc
  · isplitr; · iexact HIWc
    iexact HaWc
  -- the result's staging buffer holds the kernel's value: the fifteen rows read are the other devices' row sums
  ihave Hout := (Entails.of_eq (congrArg (fun v => (oM.view.loc (c : Thread nD τ) ↦[oM.view.set]{fullShare} v : sProp 𝕄))
    (show oM.view.writes (Elt F) fo (body_run.sl.Hout_1 m ρ c) = Spec.outVal (X m ρ) c from by
      sl_unfold_run_names
      rw [out_whole, readCov_whole', read_row1 m ρ c, read_row2 m ρ c, read_row3 m ρ c, read_row4 m ρ c, read_row5 m ρ c, read_row6 m ρ c, read_row7 m ρ c, read_row8 m ρ c, read_row9 m ρ c, read_row10 m ρ c, read_row11 m ρ c, read_row12 m ρ c, read_row13 m ρ c, read_row14 m ρ c, read_row15 m ρ c]
      rfl))) $$ Hout
  ihave Hcs := (Entails.of_eq (semVal_copy (F := F) c)) $$ Hcs
  sl_step
  iapply Hk
  iapply (post_intro m ρ c _ _)
  unfold bodyEnd
  iframe

/-- The library's body obligation on every device. -/
theorem body_obligation : ∀ c, BodyObligation (dats (F := F) m ρ 0 c) (defs₀ (F := F)) 𝒱₀ () Set.univ :=
  body_obligation_of m ρ fun c K W f1 f2 f3 f4 f5 f6 f7 f8 f9 f10 f11 f12 f13 f14 f15 f0 fb fo Kt => body_run m ρ c K W f1 f2 f3 f4 f5 f6 f7 f8 f9 f10 f11 f12 f13 f14 f15 f0 fb fo Kt

/-- info: 'Cert.Kernel.Proto.body_obligation' depends on axioms: [propext, Classical.choice, Quot.sound] -/
#guard_msgs in #print axioms body_obligation

end Cert.Kernel.Proto

end
-- ==== Proof.lean ====
/-
  The claim of this certificate, assembled.

  On sixteen devices each device holds one block of 1536 rows of a 24576 × 768 array. The kernel sums the rows of its
  block, exchanges the sixteen row sums all-to-all behind a handshake on the barrier semaphore (every device tells every
  other that it has entered, and with that hands over the row of its exchange buffer the other will write), adds the
  sixteen row sums and scales by the constant named `inv_rows`, which over the extended reals is 1/24576. Every fair
  interleaving of the sixteen devices terminates without a fault and leaves the inputs unchanged (the three frames:
  the two kernels' from the body obligation under the rounds discipline, the reference's from its generated run); the
  idealized kernel differs from the printed one by the named constant alone; and on every device the result is the
  reference's column mean of the whole array: a sum of sixteen sums of 1536 rows is the sum of the 24576 rows, and the
  quotient by 24576 is the product with 1/24576 on every extended real.
-/
import proofs.«900942_g7700000000000943_dist_mean_ax0_shard0_i_m1536_n768_v7x_i16_bf16_1_alg».proof.Defs
import proofs.«900942_g7700000000000943_dist_mean_ax0_shard0_i_m1536_n768_v7x_i16_bf16_1_alg».proof.Proof.Claims
import proofs.«900942_g7700000000000943_dist_mean_ax0_shard0_i_m1536_n768_v7x_i16_bf16_1_alg».proof.Proof.Body
import proofs.«900942_g7700000000000943_dist_mean_ax0_shard0_i_m1536_n768_v7x_i16_bf16_1_alg».proof.Proof.BodyK

noncomputable section

namespace Cert.Proof

theorem claim : Cert.Claim :=
  Cert.Proof.Claims.claim_of (fun m ρ c => Cert.KernelIdeal.Proto.body_obligation m ρ c)
    (fun m ρ c => Cert.Kernel.Proto.body_obligation m ρ c)

end Cert.Proof

end
